-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2048x64x6 : Shape := ⟨3, ![2048, 64, 6]⟩
abbrev S2048x16x8 : Shape := ⟨3, ![2048, 16, 8]⟩
abbrev S_ : Shape := ⟨0, ![]⟩

class Facts : Prop where
  bcast_S_S2048x64x6 : S_.BroadcastsInDim S2048x64x6 (![] : Fin 0 → Fin S2048x64x6.rank)
  reducesTo_S2048x64x6_S_d0_1_2 : S2048x64x6.ReducesTo [0, 1, 2] S_
  h_S_ : 0 < S_.numel
  bcast_S_S2048x16x8 : S_.BroadcastsInDim S2048x16x8 (![] : Fin 0 → Fin S2048x16x8.rank)
  reducesTo_S2048x16x8_S_d0_1_2 : S2048x16x8.ReducesTo [0, 1, 2] S_

variable [Facts]

def fn_part1 {F : FTy → Type} [FloatOps F] (main_v10 : IVec S_ 1) (main_v13 : IVec S2048x64x6 1) (main_v16 : IVec S2048x64x6 1) : IVec S_ 1 :=
  let main_v17 : IVec S2048x64x6 1 := andi main_v13 main_v16
  let main_c_5 : IVec S_ 1 := constantI S_ 1 1#1
  let main_v18 : IVec S_ 1 := (fun x v => Host.reduce IntOp.andi x v reducesTo_S2048x64x6_S_d0_1_2 h_S_) main_v17 main_c_5
  let main_v19 : IVec S_ 1 := andi main_v10 main_v18
  main_v19

def fn {F : FTy → Type} [FloatOps F] (main_arg0 : FVec F S2048x64x6 .f32) (main_arg1 : IVec S2048x16x8 32) : IVec S_ 1 :=
  let main_v0 : FVec F S2048x64x6 .f32 := Host.absf main_arg0
  let main_cst : FVec F S_ .f32 := constant S_ .f32 0x7F800000#32
  let main_v1 : FVec F S2048x64x6 .f32 := broadcastInDim S2048x64x6 ![] bcast_S_S2048x64x6 main_cst
  let main_v2 : IVec S2048x64x6 1 := cmpf .olt main_v0 main_v1
  let main_c : IVec S_ 1 := constantI S_ 1 1#1
  let main_v3 : IVec S_ 1 := (fun x v => Host.reduce IntOp.andi x v reducesTo_S2048x64x6_S_d0_1_2 h_S_) main_v2 main_c
  let main_c_0 : IVec S_ 32 := constantI S_ 32 0#32
  let main_v4 : IVec S2048x16x8 32 := broadcastInDim S2048x16x8 ![] bcast_S_S2048x16x8 main_c_0
  let main_v5 : IVec S2048x16x8 1 := cmpi .sge main_arg1 main_v4
  let main_c_1 : IVec S_ 32 := constantI S_ 32 63#32
  let main_v6 : IVec S2048x16x8 32 := broadcastInDim S2048x16x8 ![] bcast_S_S2048x16x8 main_c_1
  let main_v7 : IVec S2048x16x8 1 := cmpi .sle main_arg1 main_v6
  let main_v8 : IVec S2048x16x8 1 := andi main_v5 main_v7
  let main_c_2 : IVec S_ 1 := constantI S_ 1 1#1
  let main_v9 : IVec S_ 1 := (fun x v => Host.reduce IntOp.andi x v reducesTo_S2048x16x8_S_d0_1_2 h_S_) main_v8 main_c_2
  let main_v10 : IVec S_ 1 := andi main_v3 main_v9
  let main_v11 : IVec S2048x64x6 32 := fptosi 32 main_arg0
  let main_c_3 : IVec S_ 32 := constantI S_ 32 0#32
  let main_v12 : IVec S2048x64x6 32 := broadcastInDim S2048x64x6 ![] bcast_S_S2048x64x6 main_c_3
  let main_v13 : IVec S2048x64x6 1 := cmpi .sge main_v11 main_v12
  let main_v14 : IVec S2048x64x6 32 := fptosi 32 main_arg0
  let main_c_4 : IVec S_ 32 := constantI S_ 32 63#32
  let main_v15 : IVec S2048x64x6 32 := broadcastInDim S2048x64x6 ![] bcast_S_S2048x64x6 main_c_4
  let main_v16 : IVec S2048x64x6 1 := cmpi .sle main_v14 main_v15
  fn_part1 (F := F) main_v10 main_v13 main_v16
-- ==== Kernel.lean ====
abbrev S2048x64x6 : Shape := ⟨3, ![2048, 64, 6]⟩
abbrev S2048x16x8 : Shape := ⟨3, ![2048, 16, 8]⟩
abbrev S2048x384 : Shape := ⟨2, ![2048, 384]⟩
abbrev S2048x128 : Shape := ⟨2, ![2048, 128]⟩
abbrev S64x384 : Shape := ⟨2, ![64, 384]⟩
abbrev S64x128 : Shape := ⟨2, ![64, 128]⟩
abbrev S384 : Shape := ⟨1, ![384]⟩
abbrev S64 : Shape := ⟨1, ![64]⟩
abbrev S_ : Shape := ⟨0, ![]⟩
abbrev S16 : Shape := ⟨1, ![16]⟩
abbrev S1x16 : Shape := ⟨2, ![1, 16]⟩
abbrev S2048x64x6x1 : Shape := ⟨4, ![2048, 64, 6, 1]⟩

abbrev nBuf : Table → Nat
  | .hbm => 7
  | .local .scVector .vmem => 7
  | _ => 0

abbrev bufTy : (tb : Table) → Fin (nBuf tb) → BufTy
  | .hbm, ⟨0, _⟩ => ⟨S2048x64x6, .f32⟩
  | .hbm, ⟨1, _⟩ => ⟨S2048x16x8, .i32⟩
  | .hbm, ⟨2, _⟩ => ⟨S2048x64x6, .i32⟩
  | .hbm, ⟨3, _⟩ => ⟨S2048x384, .i32⟩
  | .hbm, ⟨4, _⟩ => ⟨S2048x128, .i32⟩
  | .hbm, ⟨5, _⟩ => ⟨S2048x384, .f32⟩
  | .hbm, ⟨6, _⟩ => ⟨S2048x64x6x1, .f32⟩
  | .local .scVector .vmem, ⟨0, _⟩ => ⟨S64x384, .i32⟩
  | .local .scVector .vmem, ⟨1, _⟩ => ⟨S64x128, .i32⟩
  | .local .scVector .vmem, ⟨2, _⟩ => ⟨S64x384, .f32⟩
  | .local .scVector .vmem, ⟨3, _⟩ => ⟨S384, .i32⟩
  | .local .scVector .vmem, ⟨4, _⟩ => ⟨S64, .i32⟩
  | .local .scVector .vmem, ⟨5, _⟩ => ⟨S64, .i32⟩
  | .local .scVector .vmem, ⟨6, _⟩ => ⟨S64, .i32⟩
  | _, _ => ⟨S2048x64x6, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c0_i32 : BitVec 32 := 0#32
  ![v2.toNat, 0]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c0_i32_178_r0 : BitVec 32 := 0#32
  ![v2.toNat, 0]
@[reducible] def k0_t1_loop : Scf.Loop 32 :=
  let c0_i32_174 : BitVec 32 := 0#32
  let c64_i32_175 : BitVec 32 := 64#32
  let v660 : BitVec 32 := Scalar.addi c0_i32_174 c64_i32_175
  let c1_i32_176 : BitVec 32 := 1#32
  ⟨c0_i32_174, v660, c1_i32_176⟩
def k0_off3 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v669 : Index := Scalar.indexCast arg13
  let c0_186 : Index := 0#32
  ![v669.toNat, 0]

def k0_chk1 (v670 : IVec S16 32) : Prop :=
  (∀ a x, ((![v670] : Fin 1 → IVec S16 32) a x).toNat < S64.size a)
instance k0_chk1.dec : ∀ (v670 : IVec S16 32), Decidable (k0_chk1 v670) := fun v670 => decidable_of_iff' _ (Iff.of_eq (k0_chk1.eq_1 v670))
theorem k0_idx1_inb : ∀ (v670 : IVec S16 32) (k0_hw1 : k0_chk1 v670), ∀ a x, ((![v670] : Fin 1 → IVec S16 32) a x).toNat < S64.size a := fun v670 k0_hw1 => k0_hw1
def k0_off4 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v674 : Index := Scalar.indexCast arg13
  let c16_189 : Index := 16#32
  ![v674.toNat, 16]

def k0_chk2 (v675 : IVec S16 32) : Prop :=
  (∀ a x, ((![v675] : Fin 1 → IVec S16 32) a x).toNat < S64.size a)
instance k0_chk2.dec : ∀ (v675 : IVec S16 32), Decidable (k0_chk2 v675) := fun v675 => decidable_of_iff' _ (Iff.of_eq (k0_chk2.eq_1 v675))
theorem k0_idx2_inb : ∀ (v675 : IVec S16 32) (k0_hw2 : k0_chk2 v675), ∀ a x, ((![v675] : Fin 1 → IVec S16 32) a x).toNat < S64.size a := fun v675 k0_hw2 => k0_hw2
def k0_off5 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v679 : Index := Scalar.indexCast arg13
  let c32_191 : Index := 32#32
  ![v679.toNat, 32]

def k0_chk3 (v680 : IVec S16 32) : Prop :=
  (∀ a x, ((![v680] : Fin 1 → IVec S16 32) a x).toNat < S64.size a)
instance k0_chk3.dec : ∀ (v680 : IVec S16 32), Decidable (k0_chk3 v680) := fun v680 => decidable_of_iff' _ (Iff.of_eq (k0_chk3.eq_1 v680))
theorem k0_idx3_inb : ∀ (v680 : IVec S16 32) (k0_hw3 : k0_chk3 v680), ∀ a x, ((![v680] : Fin 1 → IVec S16 32) a x).toNat < S64.size a := fun v680 k0_hw3 => k0_hw3
def k0_off6 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v684 : Index := Scalar.indexCast arg13
  let c48_192 : Index := 48#32
  ![v684.toNat, 48]

def k0_chk4 (v685 : IVec S16 32) : Prop :=
  (∀ a x, ((![v685] : Fin 1 → IVec S16 32) a x).toNat < S64.size a)
instance k0_chk4.dec : ∀ (v685 : IVec S16 32), Decidable (k0_chk4 v685) := fun v685 => decidable_of_iff' _ (Iff.of_eq (k0_chk4.eq_1 v685))
theorem k0_idx4_inb : ∀ (v685 : IVec S16 32) (k0_hw4 : k0_chk4 v685), ∀ a x, ((![v685] : Fin 1 → IVec S16 32) a x).toNat < S64.size a := fun v685 k0_hw4 => k0_hw4
def k0_off7 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v689 : Index := Scalar.indexCast arg13
  let c64_193 : Index := 64#32
  ![v689.toNat, 64]

def k0_chk5 (v690 : IVec S16 32) : Prop :=
  (∀ a x, ((![v690] : Fin 1 → IVec S16 32) a x).toNat < S64.size a)
instance k0_chk5.dec : ∀ (v690 : IVec S16 32), Decidable (k0_chk5 v690) := fun v690 => decidable_of_iff' _ (Iff.of_eq (k0_chk5.eq_1 v690))
theorem k0_idx5_inb : ∀ (v690 : IVec S16 32) (k0_hw5 : k0_chk5 v690), ∀ a x, ((![v690] : Fin 1 → IVec S16 32) a x).toNat < S64.size a := fun v690 k0_hw5 => k0_hw5
def k0_off8 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v694 : Index := Scalar.indexCast arg13
  let c80_196 : Index := 80#32
  ![v694.toNat, 80]

def k0_chk6 (v695 : IVec S16 32) : Prop :=
  (∀ a x, ((![v695] : Fin 1 → IVec S16 32) a x).toNat < S64.size a)
instance k0_chk6.dec : ∀ (v695 : IVec S16 32), Decidable (k0_chk6 v695) := fun v695 => decidable_of_iff' _ (Iff.of_eq (k0_chk6.eq_1 v695))
theorem k0_idx6_inb : ∀ (v695 : IVec S16 32) (k0_hw6 : k0_chk6 v695), ∀ a x, ((![v695] : Fin 1 → IVec S16 32) a x).toNat < S64.size a := fun v695 k0_hw6 => k0_hw6
def k0_off9 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v699 : Index := Scalar.indexCast arg13
  let c96_199 : Index := 96#32
  ![v699.toNat, 96]

def k0_chk7 (v700 : IVec S16 32) : Prop :=
  (∀ a x, ((![v700] : Fin 1 → IVec S16 32) a x).toNat < S64.size a)
instance k0_chk7.dec : ∀ (v700 : IVec S16 32), Decidable (k0_chk7 v700) := fun v700 => decidable_of_iff' _ (Iff.of_eq (k0_chk7.eq_1 v700))
theorem k0_idx7_inb : ∀ (v700 : IVec S16 32) (k0_hw7 : k0_chk7 v700), ∀ a x, ((![v700] : Fin 1 → IVec S16 32) a x).toNat < S64.size a := fun v700 k0_hw7 => k0_hw7
def k0_off10 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v704 : Index := Scalar.indexCast arg13
  let c112_202 : Index := 112#32
  ![v704.toNat, 112]

def k0_chk8 (v705 : IVec S16 32) : Prop :=
  (∀ a x, ((![v705] : Fin 1 → IVec S16 32) a x).toNat < S64.size a)
instance k0_chk8.dec : ∀ (v705 : IVec S16 32), Decidable (k0_chk8 v705) := fun v705 => decidable_of_iff' _ (Iff.of_eq (k0_chk8.eq_1 v705))
theorem k0_idx8_inb : ∀ (v705 : IVec S16 32) (k0_hw8 : k0_chk8 v705), ∀ a x, ((![v705] : Fin 1 → IVec S16 32) a x).toNat < S64.size a := fun v705 k0_hw8 => k0_hw8
def k0_off11 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v789 : Index := Scalar.indexCast arg13
  let c0_236 : Index := 0#32
  ![v789.toNat, 0]

def k0_chk9 (v790 : IVec S16 32) : Prop :=
  (∀ a x, ((![v790] : Fin 1 → IVec S16 32) a x).toNat < S64.size a)
instance k0_chk9.dec : ∀ (v790 : IVec S16 32), Decidable (k0_chk9 v790) := fun v790 => decidable_of_iff' _ (Iff.of_eq (k0_chk9.eq_1 v790))
theorem k0_idx9_inb : ∀ (v790 : IVec S16 32) (k0_hw9 : k0_chk9 v790), ∀ a x, ((![v790] : Fin 1 → IVec S16 32) a x).toNat < S64.size a := fun v790 k0_hw9 => k0_hw9

def k0_chk10 (v791 : IVec S16 32) : Prop :=
  (∀ a x, ((![v791] : Fin 1 → IVec S16 32) a x).toNat < S64.size a)
instance k0_chk10.dec : ∀ (v791 : IVec S16 32), Decidable (k0_chk10 v791) := fun v791 => decidable_of_iff' _ (Iff.of_eq (k0_chk10.eq_1 v791))
theorem k0_idx10_inb : ∀ (v791 : IVec S16 32) (k0_hw10 : k0_chk10 v791), ∀ a x, ((![v791] : Fin 1 → IVec S16 32) a x).toNat < S64.size a := fun v791 k0_hw10 => k0_hw10
def k0_off12 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v800 : Index := Scalar.indexCast arg13
  let c16_240 : Index := 16#32
  ![v800.toNat, 16]

def k0_chk11 (v801 : IVec S16 32) : Prop :=
  (∀ a x, ((![v801] : Fin 1 → IVec S16 32) a x).toNat < S64.size a)
instance k0_chk11.dec : ∀ (v801 : IVec S16 32), Decidable (k0_chk11 v801) := fun v801 => decidable_of_iff' _ (Iff.of_eq (k0_chk11.eq_1 v801))
theorem k0_idx11_inb : ∀ (v801 : IVec S16 32) (k0_hw11 : k0_chk11 v801), ∀ a x, ((![v801] : Fin 1 → IVec S16 32) a x).toNat < S64.size a := fun v801 k0_hw11 => k0_hw11

def k0_chk12 (v802 : IVec S16 32) : Prop :=
  (∀ a x, ((![v802] : Fin 1 → IVec S16 32) a x).toNat < S64.size a)
instance k0_chk12.dec : ∀ (v802 : IVec S16 32), Decidable (k0_chk12 v802) := fun v802 => decidable_of_iff' _ (Iff.of_eq (k0_chk12.eq_1 v802))
theorem k0_idx12_inb : ∀ (v802 : IVec S16 32) (k0_hw12 : k0_chk12 v802), ∀ a x, ((![v802] : Fin 1 → IVec S16 32) a x).toNat < S64.size a := fun v802 k0_hw12 => k0_hw12
def k0_off13 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v811 : Index := Scalar.indexCast arg13
  let c32_245 : Index := 32#32
  ![v811.toNat, 32]

def k0_chk13 (v812 : IVec S16 32) : Prop :=
  (∀ a x, ((![v812] : Fin 1 → IVec S16 32) a x).toNat < S64.size a)
instance k0_chk13.dec : ∀ (v812 : IVec S16 32), Decidable (k0_chk13 v812) := fun v812 => decidable_of_iff' _ (Iff.of_eq (k0_chk13.eq_1 v812))
theorem k0_idx13_inb : ∀ (v812 : IVec S16 32) (k0_hw13 : k0_chk13 v812), ∀ a x, ((![v812] : Fin 1 → IVec S16 32) a x).toNat < S64.size a := fun v812 k0_hw13 => k0_hw13

def k0_chk14 (v813 : IVec S16 32) : Prop :=
  (∀ a x, ((![v813] : Fin 1 → IVec S16 32) a x).toNat < S64.size a)
instance k0_chk14.dec : ∀ (v813 : IVec S16 32), Decidable (k0_chk14 v813) := fun v813 => decidable_of_iff' _ (Iff.of_eq (k0_chk14.eq_1 v813))
theorem k0_idx14_inb : ∀ (v813 : IVec S16 32) (k0_hw14 : k0_chk14 v813), ∀ a x, ((![v813] : Fin 1 → IVec S16 32) a x).toNat < S64.size a := fun v813 k0_hw14 => k0_hw14
def k0_off14 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v822 : Index := Scalar.indexCast arg13
  let c48_250 : Index := 48#32
  ![v822.toNat, 48]

def k0_chk15 (v823 : IVec S16 32) : Prop :=
  (∀ a x, ((![v823] : Fin 1 → IVec S16 32) a x).toNat < S64.size a)
instance k0_chk15.dec : ∀ (v823 : IVec S16 32), Decidable (k0_chk15 v823) := fun v823 => decidable_of_iff' _ (Iff.of_eq (k0_chk15.eq_1 v823))
theorem k0_idx15_inb : ∀ (v823 : IVec S16 32) (k0_hw15 : k0_chk15 v823), ∀ a x, ((![v823] : Fin 1 → IVec S16 32) a x).toNat < S64.size a := fun v823 k0_hw15 => k0_hw15

def k0_chk16 (v824 : IVec S16 32) : Prop :=
  (∀ a x, ((![v824] : Fin 1 → IVec S16 32) a x).toNat < S64.size a)
instance k0_chk16.dec : ∀ (v824 : IVec S16 32), Decidable (k0_chk16 v824) := fun v824 => decidable_of_iff' _ (Iff.of_eq (k0_chk16.eq_1 v824))
theorem k0_idx16_inb : ∀ (v824 : IVec S16 32) (k0_hw16 : k0_chk16 v824), ∀ a x, ((![v824] : Fin 1 → IVec S16 32) a x).toNat < S64.size a := fun v824 k0_hw16 => k0_hw16
def k0_off15 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v833 : Index := Scalar.indexCast arg13
  let c64_255 : Index := 64#32
  ![v833.toNat, 64]

def k0_chk17 (v834 : IVec S16 32) : Prop :=
  (∀ a x, ((![v834] : Fin 1 → IVec S16 32) a x).toNat < S64.size a)
instance k0_chk17.dec : ∀ (v834 : IVec S16 32), Decidable (k0_chk17 v834) := fun v834 => decidable_of_iff' _ (Iff.of_eq (k0_chk17.eq_1 v834))
theorem k0_idx17_inb : ∀ (v834 : IVec S16 32) (k0_hw17 : k0_chk17 v834), ∀ a x, ((![v834] : Fin 1 → IVec S16 32) a x).toNat < S64.size a := fun v834 k0_hw17 => k0_hw17

def k0_chk18 (v835 : IVec S16 32) : Prop :=
  (∀ a x, ((![v835] : Fin 1 → IVec S16 32) a x).toNat < S64.size a)
instance k0_chk18.dec : ∀ (v835 : IVec S16 32), Decidable (k0_chk18 v835) := fun v835 => decidable_of_iff' _ (Iff.of_eq (k0_chk18.eq_1 v835))
theorem k0_idx18_inb : ∀ (v835 : IVec S16 32) (k0_hw18 : k0_chk18 v835), ∀ a x, ((![v835] : Fin 1 → IVec S16 32) a x).toNat < S64.size a := fun v835 k0_hw18 => k0_hw18
def k0_off16 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v844 : Index := Scalar.indexCast arg13
  let c80_260 : Index := 80#32
  ![v844.toNat, 80]

def k0_chk19 (v845 : IVec S16 32) : Prop :=
  (∀ a x, ((![v845] : Fin 1 → IVec S16 32) a x).toNat < S64.size a)
instance k0_chk19.dec : ∀ (v845 : IVec S16 32), Decidable (k0_chk19 v845) := fun v845 => decidable_of_iff' _ (Iff.of_eq (k0_chk19.eq_1 v845))
theorem k0_idx19_inb : ∀ (v845 : IVec S16 32) (k0_hw19 : k0_chk19 v845), ∀ a x, ((![v845] : Fin 1 → IVec S16 32) a x).toNat < S64.size a := fun v845 k0_hw19 => k0_hw19

def k0_chk20 (v846 : IVec S16 32) : Prop :=
  (∀ a x, ((![v846] : Fin 1 → IVec S16 32) a x).toNat < S64.size a)
instance k0_chk20.dec : ∀ (v846 : IVec S16 32), Decidable (k0_chk20 v846) := fun v846 => decidable_of_iff' _ (Iff.of_eq (k0_chk20.eq_1 v846))
theorem k0_idx20_inb : ∀ (v846 : IVec S16 32) (k0_hw20 : k0_chk20 v846), ∀ a x, ((![v846] : Fin 1 → IVec S16 32) a x).toNat < S64.size a := fun v846 k0_hw20 => k0_hw20
def k0_off17 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v855 : Index := Scalar.indexCast arg13
  let c96_265 : Index := 96#32
  ![v855.toNat, 96]

def k0_chk21 (v856 : IVec S16 32) : Prop :=
  (∀ a x, ((![v856] : Fin 1 → IVec S16 32) a x).toNat < S64.size a)
instance k0_chk21.dec : ∀ (v856 : IVec S16 32), Decidable (k0_chk21 v856) := fun v856 => decidable_of_iff' _ (Iff.of_eq (k0_chk21.eq_1 v856))
theorem k0_idx21_inb : ∀ (v856 : IVec S16 32) (k0_hw21 : k0_chk21 v856), ∀ a x, ((![v856] : Fin 1 → IVec S16 32) a x).toNat < S64.size a := fun v856 k0_hw21 => k0_hw21

def k0_chk22 (v857 : IVec S16 32) : Prop :=
  (∀ a x, ((![v857] : Fin 1 → IVec S16 32) a x).toNat < S64.size a)
instance k0_chk22.dec : ∀ (v857 : IVec S16 32), Decidable (k0_chk22 v857) := fun v857 => decidable_of_iff' _ (Iff.of_eq (k0_chk22.eq_1 v857))
theorem k0_idx22_inb : ∀ (v857 : IVec S16 32) (k0_hw22 : k0_chk22 v857), ∀ a x, ((![v857] : Fin 1 → IVec S16 32) a x).toNat < S64.size a := fun v857 k0_hw22 => k0_hw22
def k0_off18 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v866 : Index := Scalar.indexCast arg13
  let c112_270 : Index := 112#32
  ![v866.toNat, 112]

def k0_chk23 (v867 : IVec S16 32) : Prop :=
  (∀ a x, ((![v867] : Fin 1 → IVec S16 32) a x).toNat < S64.size a)
instance k0_chk23.dec : ∀ (v867 : IVec S16 32), Decidable (k0_chk23 v867) := fun v867 => decidable_of_iff' _ (Iff.of_eq (k0_chk23.eq_1 v867))
theorem k0_idx23_inb : ∀ (v867 : IVec S16 32) (k0_hw23 : k0_chk23 v867), ∀ a x, ((![v867] : Fin 1 → IVec S16 32) a x).toNat < S64.size a := fun v867 k0_hw23 => k0_hw23

def k0_chk24 (v868 : IVec S16 32) : Prop :=
  (∀ a x, ((![v868] : Fin 1 → IVec S16 32) a x).toNat < S64.size a)
instance k0_chk24.dec : ∀ (v868 : IVec S16 32), Decidable (k0_chk24 v868) := fun v868 => decidable_of_iff' _ (Iff.of_eq (k0_chk24.eq_1 v868))
theorem k0_idx24_inb : ∀ (v868 : IVec S16 32) (k0_hw24 : k0_chk24 v868), ∀ a x, ((![v868] : Fin 1 → IVec S16 32) a x).toNat < S64.size a := fun v868 k0_hw24 => k0_hw24
def k0_off19 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v877 : Index := Scalar.indexCast arg13
  let c128_275 : Index := 128#32
  ![v877.toNat, 128]

def k0_chk25 (v878 : IVec S16 32) : Prop :=
  (∀ a x, ((![v878] : Fin 1 → IVec S16 32) a x).toNat < S64.size a)
instance k0_chk25.dec : ∀ (v878 : IVec S16 32), Decidable (k0_chk25 v878) := fun v878 => decidable_of_iff' _ (Iff.of_eq (k0_chk25.eq_1 v878))
theorem k0_idx25_inb : ∀ (v878 : IVec S16 32) (k0_hw25 : k0_chk25 v878), ∀ a x, ((![v878] : Fin 1 → IVec S16 32) a x).toNat < S64.size a := fun v878 k0_hw25 => k0_hw25

def k0_chk26 (v879 : IVec S16 32) : Prop :=
  (∀ a x, ((![v879] : Fin 1 → IVec S16 32) a x).toNat < S64.size a)
instance k0_chk26.dec : ∀ (v879 : IVec S16 32), Decidable (k0_chk26 v879) := fun v879 => decidable_of_iff' _ (Iff.of_eq (k0_chk26.eq_1 v879))
theorem k0_idx26_inb : ∀ (v879 : IVec S16 32) (k0_hw26 : k0_chk26 v879), ∀ a x, ((![v879] : Fin 1 → IVec S16 32) a x).toNat < S64.size a := fun v879 k0_hw26 => k0_hw26
def k0_off20 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v888 : Index := Scalar.indexCast arg13
  let c144_280 : Index := 144#32
  ![v888.toNat, 144]

def k0_chk27 (v889 : IVec S16 32) : Prop :=
  (∀ a x, ((![v889] : Fin 1 → IVec S16 32) a x).toNat < S64.size a)
instance k0_chk27.dec : ∀ (v889 : IVec S16 32), Decidable (k0_chk27 v889) := fun v889 => decidable_of_iff' _ (Iff.of_eq (k0_chk27.eq_1 v889))
theorem k0_idx27_inb : ∀ (v889 : IVec S16 32) (k0_hw27 : k0_chk27 v889), ∀ a x, ((![v889] : Fin 1 → IVec S16 32) a x).toNat < S64.size a := fun v889 k0_hw27 => k0_hw27

def k0_chk28 (v890 : IVec S16 32) : Prop :=
  (∀ a x, ((![v890] : Fin 1 → IVec S16 32) a x).toNat < S64.size a)
instance k0_chk28.dec : ∀ (v890 : IVec S16 32), Decidable (k0_chk28 v890) := fun v890 => decidable_of_iff' _ (Iff.of_eq (k0_chk28.eq_1 v890))
theorem k0_idx28_inb : ∀ (v890 : IVec S16 32) (k0_hw28 : k0_chk28 v890), ∀ a x, ((![v890] : Fin 1 → IVec S16 32) a x).toNat < S64.size a := fun v890 k0_hw28 => k0_hw28
def k0_off21 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v899 : Index := Scalar.indexCast arg13
  let c160_285 : Index := 160#32
  ![v899.toNat, 160]

def k0_chk29 (v900 : IVec S16 32) : Prop :=
  (∀ a x, ((![v900] : Fin 1 → IVec S16 32) a x).toNat < S64.size a)
instance k0_chk29.dec : ∀ (v900 : IVec S16 32), Decidable (k0_chk29 v900) := fun v900 => decidable_of_iff' _ (Iff.of_eq (k0_chk29.eq_1 v900))
theorem k0_idx29_inb : ∀ (v900 : IVec S16 32) (k0_hw29 : k0_chk29 v900), ∀ a x, ((![v900] : Fin 1 → IVec S16 32) a x).toNat < S64.size a := fun v900 k0_hw29 => k0_hw29

def k0_chk30 (v901 : IVec S16 32) : Prop :=
  (∀ a x, ((![v901] : Fin 1 → IVec S16 32) a x).toNat < S64.size a)
instance k0_chk30.dec : ∀ (v901 : IVec S16 32), Decidable (k0_chk30 v901) := fun v901 => decidable_of_iff' _ (Iff.of_eq (k0_chk30.eq_1 v901))
theorem k0_idx30_inb : ∀ (v901 : IVec S16 32) (k0_hw30 : k0_chk30 v901), ∀ a x, ((![v901] : Fin 1 → IVec S16 32) a x).toNat < S64.size a := fun v901 k0_hw30 => k0_hw30
def k0_off22 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v910 : Index := Scalar.indexCast arg13
  let c176_290 : Index := 176#32
  ![v910.toNat, 176]

def k0_chk31 (v911 : IVec S16 32) : Prop :=
  (∀ a x, ((![v911] : Fin 1 → IVec S16 32) a x).toNat < S64.size a)
instance k0_chk31.dec : ∀ (v911 : IVec S16 32), Decidable (k0_chk31 v911) := fun v911 => decidable_of_iff' _ (Iff.of_eq (k0_chk31.eq_1 v911))
theorem k0_idx31_inb : ∀ (v911 : IVec S16 32) (k0_hw31 : k0_chk31 v911), ∀ a x, ((![v911] : Fin 1 → IVec S16 32) a x).toNat < S64.size a := fun v911 k0_hw31 => k0_hw31

def k0_chk32 (v912 : IVec S16 32) : Prop :=
  (∀ a x, ((![v912] : Fin 1 → IVec S16 32) a x).toNat < S64.size a)
instance k0_chk32.dec : ∀ (v912 : IVec S16 32), Decidable (k0_chk32 v912) := fun v912 => decidable_of_iff' _ (Iff.of_eq (k0_chk32.eq_1 v912))
theorem k0_idx32_inb : ∀ (v912 : IVec S16 32) (k0_hw32 : k0_chk32 v912), ∀ a x, ((![v912] : Fin 1 → IVec S16 32) a x).toNat < S64.size a := fun v912 k0_hw32 => k0_hw32
def k0_off23 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v921 : Index := Scalar.indexCast arg13
  let c192_295 : Index := 192#32
  ![v921.toNat, 192]

def k0_chk33 (v922 : IVec S16 32) : Prop :=
  (∀ a x, ((![v922] : Fin 1 → IVec S16 32) a x).toNat < S64.size a)
instance k0_chk33.dec : ∀ (v922 : IVec S16 32), Decidable (k0_chk33 v922) := fun v922 => decidable_of_iff' _ (Iff.of_eq (k0_chk33.eq_1 v922))
theorem k0_idx33_inb : ∀ (v922 : IVec S16 32) (k0_hw33 : k0_chk33 v922), ∀ a x, ((![v922] : Fin 1 → IVec S16 32) a x).toNat < S64.size a := fun v922 k0_hw33 => k0_hw33

def k0_chk34 (v923 : IVec S16 32) : Prop :=
  (∀ a x, ((![v923] : Fin 1 → IVec S16 32) a x).toNat < S64.size a)
instance k0_chk34.dec : ∀ (v923 : IVec S16 32), Decidable (k0_chk34 v923) := fun v923 => decidable_of_iff' _ (Iff.of_eq (k0_chk34.eq_1 v923))
theorem k0_idx34_inb : ∀ (v923 : IVec S16 32) (k0_hw34 : k0_chk34 v923), ∀ a x, ((![v923] : Fin 1 → IVec S16 32) a x).toNat < S64.size a := fun v923 k0_hw34 => k0_hw34
def k0_off24 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v932 : Index := Scalar.indexCast arg13
  let c208_300 : Index := 208#32
  ![v932.toNat, 208]

def k0_chk35 (v933 : IVec S16 32) : Prop :=
  (∀ a x, ((![v933] : Fin 1 → IVec S16 32) a x).toNat < S64.size a)
instance k0_chk35.dec : ∀ (v933 : IVec S16 32), Decidable (k0_chk35 v933) := fun v933 => decidable_of_iff' _ (Iff.of_eq (k0_chk35.eq_1 v933))
theorem k0_idx35_inb : ∀ (v933 : IVec S16 32) (k0_hw35 : k0_chk35 v933), ∀ a x, ((![v933] : Fin 1 → IVec S16 32) a x).toNat < S64.size a := fun v933 k0_hw35 => k0_hw35

def k0_chk36 (v934 : IVec S16 32) : Prop :=
  (∀ a x, ((![v934] : Fin 1 → IVec S16 32) a x).toNat < S64.size a)
instance k0_chk36.dec : ∀ (v934 : IVec S16 32), Decidable (k0_chk36 v934) := fun v934 => decidable_of_iff' _ (Iff.of_eq (k0_chk36.eq_1 v934))
theorem k0_idx36_inb : ∀ (v934 : IVec S16 32) (k0_hw36 : k0_chk36 v934), ∀ a x, ((![v934] : Fin 1 → IVec S16 32) a x).toNat < S64.size a := fun v934 k0_hw36 => k0_hw36
def k0_off25 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v943 : Index := Scalar.indexCast arg13
  let c224_305 : Index := 224#32
  ![v943.toNat, 224]

def k0_chk37 (v944 : IVec S16 32) : Prop :=
  (∀ a x, ((![v944] : Fin 1 → IVec S16 32) a x).toNat < S64.size a)
instance k0_chk37.dec : ∀ (v944 : IVec S16 32), Decidable (k0_chk37 v944) := fun v944 => decidable_of_iff' _ (Iff.of_eq (k0_chk37.eq_1 v944))
theorem k0_idx37_inb : ∀ (v944 : IVec S16 32) (k0_hw37 : k0_chk37 v944), ∀ a x, ((![v944] : Fin 1 → IVec S16 32) a x).toNat < S64.size a := fun v944 k0_hw37 => k0_hw37

def k0_chk38 (v945 : IVec S16 32) : Prop :=
  (∀ a x, ((![v945] : Fin 1 → IVec S16 32) a x).toNat < S64.size a)
instance k0_chk38.dec : ∀ (v945 : IVec S16 32), Decidable (k0_chk38 v945) := fun v945 => decidable_of_iff' _ (Iff.of_eq (k0_chk38.eq_1 v945))
theorem k0_idx38_inb : ∀ (v945 : IVec S16 32) (k0_hw38 : k0_chk38 v945), ∀ a x, ((![v945] : Fin 1 → IVec S16 32) a x).toNat < S64.size a := fun v945 k0_hw38 => k0_hw38
def k0_off26 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v954 : Index := Scalar.indexCast arg13
  let c240_310 : Index := 240#32
  ![v954.toNat, 240]

def k0_chk39 (v955 : IVec S16 32) : Prop :=
  (∀ a x, ((![v955] : Fin 1 → IVec S16 32) a x).toNat < S64.size a)
instance k0_chk39.dec : ∀ (v955 : IVec S16 32), Decidable (k0_chk39 v955) := fun v955 => decidable_of_iff' _ (Iff.of_eq (k0_chk39.eq_1 v955))
theorem k0_idx39_inb : ∀ (v955 : IVec S16 32) (k0_hw39 : k0_chk39 v955), ∀ a x, ((![v955] : Fin 1 → IVec S16 32) a x).toNat < S64.size a := fun v955 k0_hw39 => k0_hw39

def k0_chk40 (v956 : IVec S16 32) : Prop :=
  (∀ a x, ((![v956] : Fin 1 → IVec S16 32) a x).toNat < S64.size a)
instance k0_chk40.dec : ∀ (v956 : IVec S16 32), Decidable (k0_chk40 v956) := fun v956 => decidable_of_iff' _ (Iff.of_eq (k0_chk40.eq_1 v956))
theorem k0_idx40_inb : ∀ (v956 : IVec S16 32) (k0_hw40 : k0_chk40 v956), ∀ a x, ((![v956] : Fin 1 → IVec S16 32) a x).toNat < S64.size a := fun v956 k0_hw40 => k0_hw40
def k0_off27 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v965 : Index := Scalar.indexCast arg13
  let c256_315 : Index := 256#32
  ![v965.toNat, 256]

def k0_chk41 (v966 : IVec S16 32) : Prop :=
  (∀ a x, ((![v966] : Fin 1 → IVec S16 32) a x).toNat < S64.size a)
instance k0_chk41.dec : ∀ (v966 : IVec S16 32), Decidable (k0_chk41 v966) := fun v966 => decidable_of_iff' _ (Iff.of_eq (k0_chk41.eq_1 v966))
theorem k0_idx41_inb : ∀ (v966 : IVec S16 32) (k0_hw41 : k0_chk41 v966), ∀ a x, ((![v966] : Fin 1 → IVec S16 32) a x).toNat < S64.size a := fun v966 k0_hw41 => k0_hw41

def k0_chk42 (v967 : IVec S16 32) : Prop :=
  (∀ a x, ((![v967] : Fin 1 → IVec S16 32) a x).toNat < S64.size a)
instance k0_chk42.dec : ∀ (v967 : IVec S16 32), Decidable (k0_chk42 v967) := fun v967 => decidable_of_iff' _ (Iff.of_eq (k0_chk42.eq_1 v967))
theorem k0_idx42_inb : ∀ (v967 : IVec S16 32) (k0_hw42 : k0_chk42 v967), ∀ a x, ((![v967] : Fin 1 → IVec S16 32) a x).toNat < S64.size a := fun v967 k0_hw42 => k0_hw42
def k0_off28 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v976 : Index := Scalar.indexCast arg13
  let c272_320 : Index := 272#32
  ![v976.toNat, 272]

def k0_chk43 (v977 : IVec S16 32) : Prop :=
  (∀ a x, ((![v977] : Fin 1 → IVec S16 32) a x).toNat < S64.size a)
instance k0_chk43.dec : ∀ (v977 : IVec S16 32), Decidable (k0_chk43 v977) := fun v977 => decidable_of_iff' _ (Iff.of_eq (k0_chk43.eq_1 v977))
theorem k0_idx43_inb : ∀ (v977 : IVec S16 32) (k0_hw43 : k0_chk43 v977), ∀ a x, ((![v977] : Fin 1 → IVec S16 32) a x).toNat < S64.size a := fun v977 k0_hw43 => k0_hw43

def k0_chk44 (v978 : IVec S16 32) : Prop :=
  (∀ a x, ((![v978] : Fin 1 → IVec S16 32) a x).toNat < S64.size a)
instance k0_chk44.dec : ∀ (v978 : IVec S16 32), Decidable (k0_chk44 v978) := fun v978 => decidable_of_iff' _ (Iff.of_eq (k0_chk44.eq_1 v978))
theorem k0_idx44_inb : ∀ (v978 : IVec S16 32) (k0_hw44 : k0_chk44 v978), ∀ a x, ((![v978] : Fin 1 → IVec S16 32) a x).toNat < S64.size a := fun v978 k0_hw44 => k0_hw44
def k0_off29 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v987 : Index := Scalar.indexCast arg13
  let c288_325 : Index := 288#32
  ![v987.toNat, 288]

def k0_chk45 (v988 : IVec S16 32) : Prop :=
  (∀ a x, ((![v988] : Fin 1 → IVec S16 32) a x).toNat < S64.size a)
instance k0_chk45.dec : ∀ (v988 : IVec S16 32), Decidable (k0_chk45 v988) := fun v988 => decidable_of_iff' _ (Iff.of_eq (k0_chk45.eq_1 v988))
theorem k0_idx45_inb : ∀ (v988 : IVec S16 32) (k0_hw45 : k0_chk45 v988), ∀ a x, ((![v988] : Fin 1 → IVec S16 32) a x).toNat < S64.size a := fun v988 k0_hw45 => k0_hw45

def k0_chk46 (v989 : IVec S16 32) : Prop :=
  (∀ a x, ((![v989] : Fin 1 → IVec S16 32) a x).toNat < S64.size a)
instance k0_chk46.dec : ∀ (v989 : IVec S16 32), Decidable (k0_chk46 v989) := fun v989 => decidable_of_iff' _ (Iff.of_eq (k0_chk46.eq_1 v989))
theorem k0_idx46_inb : ∀ (v989 : IVec S16 32) (k0_hw46 : k0_chk46 v989), ∀ a x, ((![v989] : Fin 1 → IVec S16 32) a x).toNat < S64.size a := fun v989 k0_hw46 => k0_hw46
def k0_off30 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v998 : Index := Scalar.indexCast arg13
  let c304_330 : Index := 304#32
  ![v998.toNat, 304]

def k0_chk47 (v999 : IVec S16 32) : Prop :=
  (∀ a x, ((![v999] : Fin 1 → IVec S16 32) a x).toNat < S64.size a)
instance k0_chk47.dec : ∀ (v999 : IVec S16 32), Decidable (k0_chk47 v999) := fun v999 => decidable_of_iff' _ (Iff.of_eq (k0_chk47.eq_1 v999))
theorem k0_idx47_inb : ∀ (v999 : IVec S16 32) (k0_hw47 : k0_chk47 v999), ∀ a x, ((![v999] : Fin 1 → IVec S16 32) a x).toNat < S64.size a := fun v999 k0_hw47 => k0_hw47

def k0_chk48 (v1000 : IVec S16 32) : Prop :=
  (∀ a x, ((![v1000] : Fin 1 → IVec S16 32) a x).toNat < S64.size a)
instance k0_chk48.dec : ∀ (v1000 : IVec S16 32), Decidable (k0_chk48 v1000) := fun v1000 => decidable_of_iff' _ (Iff.of_eq (k0_chk48.eq_1 v1000))
theorem k0_idx48_inb : ∀ (v1000 : IVec S16 32) (k0_hw48 : k0_chk48 v1000), ∀ a x, ((![v1000] : Fin 1 → IVec S16 32) a x).toNat < S64.size a := fun v1000 k0_hw48 => k0_hw48
def k0_off31 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1009 : Index := Scalar.indexCast arg13
  let c320_335 : Index := 320#32
  ![v1009.toNat, 320]

def k0_chk49 (v1010 : IVec S16 32) : Prop :=
  (∀ a x, ((![v1010] : Fin 1 → IVec S16 32) a x).toNat < S64.size a)
instance k0_chk49.dec : ∀ (v1010 : IVec S16 32), Decidable (k0_chk49 v1010) := fun v1010 => decidable_of_iff' _ (Iff.of_eq (k0_chk49.eq_1 v1010))
theorem k0_idx49_inb : ∀ (v1010 : IVec S16 32) (k0_hw49 : k0_chk49 v1010), ∀ a x, ((![v1010] : Fin 1 → IVec S16 32) a x).toNat < S64.size a := fun v1010 k0_hw49 => k0_hw49

def k0_chk50 (v1011 : IVec S16 32) : Prop :=
  (∀ a x, ((![v1011] : Fin 1 → IVec S16 32) a x).toNat < S64.size a)
instance k0_chk50.dec : ∀ (v1011 : IVec S16 32), Decidable (k0_chk50 v1011) := fun v1011 => decidable_of_iff' _ (Iff.of_eq (k0_chk50.eq_1 v1011))
theorem k0_idx50_inb : ∀ (v1011 : IVec S16 32) (k0_hw50 : k0_chk50 v1011), ∀ a x, ((![v1011] : Fin 1 → IVec S16 32) a x).toNat < S64.size a := fun v1011 k0_hw50 => k0_hw50
def k0_off32 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1020 : Index := Scalar.indexCast arg13
  let c336_340 : Index := 336#32
  ![v1020.toNat, 336]

def k0_chk51 (v1021 : IVec S16 32) : Prop :=
  (∀ a x, ((![v1021] : Fin 1 → IVec S16 32) a x).toNat < S64.size a)
instance k0_chk51.dec : ∀ (v1021 : IVec S16 32), Decidable (k0_chk51 v1021) := fun v1021 => decidable_of_iff' _ (Iff.of_eq (k0_chk51.eq_1 v1021))
theorem k0_idx51_inb : ∀ (v1021 : IVec S16 32) (k0_hw51 : k0_chk51 v1021), ∀ a x, ((![v1021] : Fin 1 → IVec S16 32) a x).toNat < S64.size a := fun v1021 k0_hw51 => k0_hw51

def k0_chk52 (v1022 : IVec S16 32) : Prop :=
  (∀ a x, ((![v1022] : Fin 1 → IVec S16 32) a x).toNat < S64.size a)
instance k0_chk52.dec : ∀ (v1022 : IVec S16 32), Decidable (k0_chk52 v1022) := fun v1022 => decidable_of_iff' _ (Iff.of_eq (k0_chk52.eq_1 v1022))
theorem k0_idx52_inb : ∀ (v1022 : IVec S16 32) (k0_hw52 : k0_chk52 v1022), ∀ a x, ((![v1022] : Fin 1 → IVec S16 32) a x).toNat < S64.size a := fun v1022 k0_hw52 => k0_hw52
def k0_off33 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1031 : Index := Scalar.indexCast arg13
  let c352_345 : Index := 352#32
  ![v1031.toNat, 352]

def k0_chk53 (v1032 : IVec S16 32) : Prop :=
  (∀ a x, ((![v1032] : Fin 1 → IVec S16 32) a x).toNat < S64.size a)
instance k0_chk53.dec : ∀ (v1032 : IVec S16 32), Decidable (k0_chk53 v1032) := fun v1032 => decidable_of_iff' _ (Iff.of_eq (k0_chk53.eq_1 v1032))
theorem k0_idx53_inb : ∀ (v1032 : IVec S16 32) (k0_hw53 : k0_chk53 v1032), ∀ a x, ((![v1032] : Fin 1 → IVec S16 32) a x).toNat < S64.size a := fun v1032 k0_hw53 => k0_hw53

def k0_chk54 (v1033 : IVec S16 32) : Prop :=
  (∀ a x, ((![v1033] : Fin 1 → IVec S16 32) a x).toNat < S64.size a)
instance k0_chk54.dec : ∀ (v1033 : IVec S16 32), Decidable (k0_chk54 v1033) := fun v1033 => decidable_of_iff' _ (Iff.of_eq (k0_chk54.eq_1 v1033))
theorem k0_idx54_inb : ∀ (v1033 : IVec S16 32) (k0_hw54 : k0_chk54 v1033), ∀ a x, ((![v1033] : Fin 1 → IVec S16 32) a x).toNat < S64.size a := fun v1033 k0_hw54 => k0_hw54
def k0_off34 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1042 : Index := Scalar.indexCast arg13
  let c368_350 : Index := 368#32
  ![v1042.toNat, 368]

def k0_chk55 (v1043 : IVec S16 32) : Prop :=
  (∀ a x, ((![v1043] : Fin 1 → IVec S16 32) a x).toNat < S64.size a)
instance k0_chk55.dec : ∀ (v1043 : IVec S16 32), Decidable (k0_chk55 v1043) := fun v1043 => decidable_of_iff' _ (Iff.of_eq (k0_chk55.eq_1 v1043))
theorem k0_idx55_inb : ∀ (v1043 : IVec S16 32) (k0_hw55 : k0_chk55 v1043), ∀ a x, ((![v1043] : Fin 1 → IVec S16 32) a x).toNat < S64.size a := fun v1043 k0_hw55 => k0_hw55

def k0_chk56 (v1044 : IVec S16 32) : Prop :=
  (∀ a x, ((![v1044] : Fin 1 → IVec S16 32) a x).toNat < S64.size a)
instance k0_chk56.dec : ∀ (v1044 : IVec S16 32), Decidable (k0_chk56 v1044) := fun v1044 => decidable_of_iff' _ (Iff.of_eq (k0_chk56.eq_1 v1044))
theorem k0_idx56_inb : ∀ (v1044 : IVec S16 32) (k0_hw56 : k0_chk56 v1044), ∀ a x, ((![v1044] : Fin 1 → IVec S16 32) a x).toNat < S64.size a := fun v1044 k0_hw56 => k0_hw56
def k0_off35 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1053 : Index := Scalar.indexCast arg13
  let c0_355 : Index := 0#32
  ![v1053.toNat, 0]
def k0_off36 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1055 : Index := Scalar.indexCast arg13
  let c16_356 : Index := 16#32
  ![v1055.toNat, 16]
def k0_off37 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1057 : Index := Scalar.indexCast arg13
  let c32_357 : Index := 32#32
  ![v1057.toNat, 32]
def k0_off38 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1059 : Index := Scalar.indexCast arg13
  let c48_358 : Index := 48#32
  ![v1059.toNat, 48]
def k0_off39 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1061 : Index := Scalar.indexCast arg13
  let c64_359 : Index := 64#32
  ![v1061.toNat, 64]
def k0_off40 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1063 : Index := Scalar.indexCast arg13
  let c80_360 : Index := 80#32
  ![v1063.toNat, 80]
def k0_off41 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1065 : Index := Scalar.indexCast arg13
  let c96_361 : Index := 96#32
  ![v1065.toNat, 96]
def k0_off42 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1067 : Index := Scalar.indexCast arg13
  let c112_362 : Index := 112#32
  ![v1067.toNat, 112]
def k0_off43 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1069 : Index := Scalar.indexCast arg13
  let c128_363 : Index := 128#32
  ![v1069.toNat, 128]
def k0_off44 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1071 : Index := Scalar.indexCast arg13
  let c144_364 : Index := 144#32
  ![v1071.toNat, 144]
def k0_off45 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1073 : Index := Scalar.indexCast arg13
  let c160_365 : Index := 160#32
  ![v1073.toNat, 160]
def k0_off46 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1075 : Index := Scalar.indexCast arg13
  let c176_366 : Index := 176#32
  ![v1075.toNat, 176]
def k0_off47 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1077 : Index := Scalar.indexCast arg13
  let c192_367 : Index := 192#32
  ![v1077.toNat, 192]
def k0_off48 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1079 : Index := Scalar.indexCast arg13
  let c208_368 : Index := 208#32
  ![v1079.toNat, 208]
def k0_off49 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1081 : Index := Scalar.indexCast arg13
  let c224_369 : Index := 224#32
  ![v1081.toNat, 224]
def k0_off50 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1083 : Index := Scalar.indexCast arg13
  let c240_370 : Index := 240#32
  ![v1083.toNat, 240]
def k0_off51 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1085 : Index := Scalar.indexCast arg13
  let c256_371 : Index := 256#32
  ![v1085.toNat, 256]
def k0_off52 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1087 : Index := Scalar.indexCast arg13
  let c272_372 : Index := 272#32
  ![v1087.toNat, 272]
def k0_off53 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1089 : Index := Scalar.indexCast arg13
  let c288_373 : Index := 288#32
  ![v1089.toNat, 288]
def k0_off54 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1091 : Index := Scalar.indexCast arg13
  let c304_374 : Index := 304#32
  ![v1091.toNat, 304]
def k0_off55 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1093 : Index := Scalar.indexCast arg13
  let c320_375 : Index := 320#32
  ![v1093.toNat, 320]
def k0_off56 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1095 : Index := Scalar.indexCast arg13
  let c336_376 : Index := 336#32
  ![v1095.toNat, 336]
def k0_off57 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1097 : Index := Scalar.indexCast arg13
  let c352_377 : Index := 352#32
  ![v1097.toNat, 352]
def k0_off58 (k0_t1 : Fin k0_t1_loop.trips) : Fin 2 → Nat :=
  let c0_i32_174 : BitVec 32 := 0#32
  let c1_i32_176 : BitVec 32 := 1#32
  let arg13 : BitVec 32 := Scf.iv c0_i32_174 c1_i32_176 k0_t1
  let v1099 : Index := Scalar.indexCast arg13
  let c368_378 : Index := 368#32
  ![v1099.toNat, 368]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S2048x64x6_S2048x384 : S2048x64x6.ShapeCasts S2048x384
  shapeCasts_S2048x16x8_S2048x128 : S2048x16x8.ShapeCasts S2048x128
  iota_S16_d0_w32_scVector : S16.Iotas .scVector 32 [0]
  natLt_1_32 : 1 < 32
  inb_S384_S16_0 : ∀ a, (![0] : Fin 1 → Nat) a + S16.size a ≤ S384.size a
  h_S16 : 0 < S16.numel
  inb_S384_S16_16 : ∀ a, (![16] : Fin 1 → Nat) a + S16.size a ≤ S384.size a
  inb_S384_S16_32 : ∀ a, (![32] : Fin 1 → Nat) a + S16.size a ≤ S384.size a
  inb_S384_S16_48 : ∀ a, (![48] : Fin 1 → Nat) a + S16.size a ≤ S384.size a
  inb_S384_S16_64 : ∀ a, (![64] : Fin 1 → Nat) a + S16.size a ≤ S384.size a
  inb_S384_S16_80 : ∀ a, (![80] : Fin 1 → Nat) a + S16.size a ≤ S384.size a
  inb_S384_S16_96 : ∀ a, (![96] : Fin 1 → Nat) a + S16.size a ≤ S384.size a
  inb_S384_S16_112 : ∀ a, (![112] : Fin 1 → Nat) a + S16.size a ≤ S384.size a
  inb_S384_S16_128 : ∀ a, (![128] : Fin 1 → Nat) a + S16.size a ≤ S384.size a
  inb_S384_S16_144 : ∀ a, (![144] : Fin 1 → Nat) a + S16.size a ≤ S384.size a
  inb_S384_S16_160 : ∀ a, (![160] : Fin 1 → Nat) a + S16.size a ≤ S384.size a
  inb_S384_S16_176 : ∀ a, (![176] : Fin 1 → Nat) a + S16.size a ≤ S384.size a
  inb_S384_S16_192 : ∀ a, (![192] : Fin 1 → Nat) a + S16.size a ≤ S384.size a
  inb_S384_S16_208 : ∀ a, (![208] : Fin 1 → Nat) a + S16.size a ≤ S384.size a
  inb_S384_S16_224 : ∀ a, (![224] : Fin 1 → Nat) a + S16.size a ≤ S384.size a
  inb_S384_S16_240 : ∀ a, (![240] : Fin 1 → Nat) a + S16.size a ≤ S384.size a
  inb_S384_S16_256 : ∀ a, (![256] : Fin 1 → Nat) a + S16.size a ≤ S384.size a
  inb_S384_S16_272 : ∀ a, (![272] : Fin 1 → Nat) a + S16.size a ≤ S384.size a
  inb_S384_S16_288 : ∀ a, (![288] : Fin 1 → Nat) a + S16.size a ≤ S384.size a
  inb_S384_S16_304 : ∀ a, (![304] : Fin 1 → Nat) a + S16.size a ≤ S384.size a
  inb_S384_S16_320 : ∀ a, (![320] : Fin 1 → Nat) a + S16.size a ≤ S384.size a
  inb_S384_S16_336 : ∀ a, (![336] : Fin 1 → Nat) a + S16.size a ≤ S384.size a
  inb_S384_S16_352 : ∀ a, (![352] : Fin 1 → Nat) a + S16.size a ≤ S384.size a
  inb_S384_S16_368 : ∀ a, (![368] : Fin 1 → Nat) a + S16.size a ≤ S384.size a
  inb_S64_S16_0 : ∀ a, (![0] : Fin 1 → Nat) a + S16.size a ≤ S64.size a
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  h_S1x16 : 0 < S1x16.numel
  shapeCasts_S1x16_S16 : S1x16.ShapeCasts S16
  h_S64 : 0 < S64.numel
  shapeCasts_S16_S1x16 : S16.ShapeCasts S1x16
  shapeCasts_S2048x384_S2048x64x6x1 : S2048x384.ShapeCasts S2048x64x6x1
  hcc0_scratch7 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64x384.size a ≤ S2048x384.size a
  k0_off2_inb : ∀ i : grid0.Coords, ∀ a, (k0_off2 i) a + S64x128.size a ≤ S2048x128.size a
  k0_t1_ok : k0_t1_loop.OK
  k0_off3_inb : ∀ k0_t1 : Fin k0_t1_loop.trips, ∀ a, (k0_off3 k0_t1) a + S1x16.size a ≤ S64x128.size a
  k0_off4_inb : ∀ k0_t1 : Fin k0_t1_loop.trips, ∀ a, (k0_off4 k0_t1) a + S1x16.size a ≤ S64x128.size a
  k0_off5_inb : ∀ k0_t1 : Fin k0_t1_loop.trips, ∀ a, (k0_off5 k0_t1) a + S1x16.size a ≤ S64x128.size a
  k0_off6_inb : ∀ k0_t1 : Fin k0_t1_loop.trips, ∀ a, (k0_off6 k0_t1) a + S1x16.size a ≤ S64x128.size a
  k0_off7_inb : ∀ k0_t1 : Fin k0_t1_loop.trips, ∀ a, (k0_off7 k0_t1) a + S1x16.size a ≤ S64x128.size a
  k0_off8_inb : ∀ k0_t1 : Fin k0_t1_loop.trips, ∀ a, (k0_off8 k0_t1) a + S1x16.size a ≤ S64x128.size a
  k0_off9_inb : ∀ k0_t1 : Fin k0_t1_loop.trips, ∀ a, (k0_off9 k0_t1) a + S1x16.size a ≤ S64x128.size a
  k0_off10_inb : ∀ k0_t1 : Fin k0_t1_loop.trips, ∀ a, (k0_off10 k0_t1) a + S1x16.size a ≤ S64x128.size a
  k0_off11_inb : ∀ k0_t1 : Fin k0_t1_loop.trips, ∀ a, (k0_off11 k0_t1) a + S1x16.size a ≤ S64x384.size a
  k0_off12_inb : ∀ k0_t1 : Fin k0_t1_loop.trips, ∀ a, (k0_off12 k0_t1) a + S1x16.size a ≤ S64x384.size a
  k0_off13_inb : ∀ k0_t1 : Fin k0_t1_loop.trips, ∀ a, (k0_off13 k0_t1) a + S1x16.size a ≤ S64x384.size a
  k0_off14_inb : ∀ k0_t1 : Fin k0_t1_loop.trips, ∀ a, (k0_off14 k0_t1) a + S1x16.size a ≤ S64x384.size a
  k0_off15_inb : ∀ k0_t1 : Fin k0_t1_loop.trips, ∀ a, (k0_off15 k0_t1) a + S1x16.size a ≤ S64x384.size a
  k0_off16_inb : ∀ k0_t1 : Fin k0_t1_loop.trips, ∀ a, (k0_off16 k0_t1) a + S1x16.size a ≤ S64x384.size a
  k0_off17_inb : ∀ k0_t1 : Fin k0_t1_loop.trips, ∀ a, (k0_off17 k0_t1) a + S1x16.size a ≤ S64x384.size a
  k0_off18_inb : ∀ k0_t1 : Fin k0_t1_loop.trips, ∀ a, (k0_off18 k0_t1) a + S1x16.size a ≤ S64x384.size a
  k0_off19_inb : ∀ k0_t1 : Fin k0_t1_loop.trips, ∀ a, (k0_off19 k0_t1) a + S1x16.size a ≤ S64x384.size a
  k0_off20_inb : ∀ k0_t1 : Fin k0_t1_loop.trips, ∀ a, (k0_off20 k0_t1) a + S1x16.size a ≤ S64x384.size a
  k0_off21_inb : ∀ k0_t1 : Fin k0_t1_loop.trips, ∀ a, (k0_off21 k0_t1) a + S1x16.size a ≤ S64x384.size a
  k0_off22_inb : ∀ k0_t1 : Fin k0_t1_loop.trips, ∀ a, (k0_off22 k0_t1) a + S1x16.size a ≤ S64x384.size a
  k0_off23_inb : ∀ k0_t1 : Fin k0_t1_loop.trips, ∀ a, (k0_off23 k0_t1) a + S1x16.size a ≤ S64x384.size a
  k0_off24_inb : ∀ k0_t1 : Fin k0_t1_loop.trips, ∀ a, (k0_off24 k0_t1) a + S1x16.size a ≤ S64x384.size a
  k0_off25_inb : ∀ k0_t1 : Fin k0_t1_loop.trips, ∀ a, (k0_off25 k0_t1) a + S1x16.size a ≤ S64x384.size a
  k0_off26_inb : ∀ k0_t1 : Fin k0_t1_loop.trips, ∀ a, (k0_off26 k0_t1) a + S1x16.size a ≤ S64x384.size a
  k0_off27_inb : ∀ k0_t1 : Fin k0_t1_loop.trips, ∀ a, (k0_off27 k0_t1) a + S1x16.size a ≤ S64x384.size a
  k0_off28_inb : ∀ k0_t1 : Fin k0_t1_loop.trips, ∀ a, (k0_off28 k0_t1) a + S1x16.size a ≤ S64x384.size a
  k0_off29_inb : ∀ k0_t1 : Fin k0_t1_loop.trips, ∀ a, (k0_off29 k0_t1) a + S1x16.size a ≤ S64x384.size a
  k0_off30_inb : ∀ k0_t1 : Fin k0_t1_loop.trips, ∀ a, (k0_off30 k0_t1) a + S1x16.size a ≤ S64x384.size a
  k0_off31_inb : ∀ k0_t1 : Fin k0_t1_loop.trips, ∀ a, (k0_off31 k0_t1) a + S1x16.size a ≤ S64x384.size a
  k0_off32_inb : ∀ k0_t1 : Fin k0_t1_loop.trips, ∀ a, (k0_off32 k0_t1) a + S1x16.size a ≤ S64x384.size a
  k0_off33_inb : ∀ k0_t1 : Fin k0_t1_loop.trips, ∀ a, (k0_off33 k0_t1) a + S1x16.size a ≤ S64x384.size a
  k0_off34_inb : ∀ k0_t1 : Fin k0_t1_loop.trips, ∀ a, (k0_off34 k0_t1) a + S1x16.size a ≤ S64x384.size a
  k0_off35_inb : ∀ k0_t1 : Fin k0_t1_loop.trips, ∀ a, (k0_off35 k0_t1) a + S1x16.size a ≤ S64x384.size a
  k0_off36_inb : ∀ k0_t1 : Fin k0_t1_loop.trips, ∀ a, (k0_off36 k0_t1) a + S1x16.size a ≤ S64x384.size a
  k0_off37_inb : ∀ k0_t1 : Fin k0_t1_loop.trips, ∀ a, (k0_off37 k0_t1) a + S1x16.size a ≤ S64x384.size a
  k0_off38_inb : ∀ k0_t1 : Fin k0_t1_loop.trips, ∀ a, (k0_off38 k0_t1) a + S1x16.size a ≤ S64x384.size a
  k0_off39_inb : ∀ k0_t1 : Fin k0_t1_loop.trips, ∀ a, (k0_off39 k0_t1) a + S1x16.size a ≤ S64x384.size a
  k0_off40_inb : ∀ k0_t1 : Fin k0_t1_loop.trips, ∀ a, (k0_off40 k0_t1) a + S1x16.size a ≤ S64x384.size a
  k0_off41_inb : ∀ k0_t1 : Fin k0_t1_loop.trips, ∀ a, (k0_off41 k0_t1) a + S1x16.size a ≤ S64x384.size a
  k0_off42_inb : ∀ k0_t1 : Fin k0_t1_loop.trips, ∀ a, (k0_off42 k0_t1) a + S1x16.size a ≤ S64x384.size a
  k0_off43_inb : ∀ k0_t1 : Fin k0_t1_loop.trips, ∀ a, (k0_off43 k0_t1) a + S1x16.size a ≤ S64x384.size a
  k0_off44_inb : ∀ k0_t1 : Fin k0_t1_loop.trips, ∀ a, (k0_off44 k0_t1) a + S1x16.size a ≤ S64x384.size a
  k0_off45_inb : ∀ k0_t1 : Fin k0_t1_loop.trips, ∀ a, (k0_off45 k0_t1) a + S1x16.size a ≤ S64x384.size a
  k0_off46_inb : ∀ k0_t1 : Fin k0_t1_loop.trips, ∀ a, (k0_off46 k0_t1) a + S1x16.size a ≤ S64x384.size a
  k0_off47_inb : ∀ k0_t1 : Fin k0_t1_loop.trips, ∀ a, (k0_off47 k0_t1) a + S1x16.size a ≤ S64x384.size a
  k0_off48_inb : ∀ k0_t1 : Fin k0_t1_loop.trips, ∀ a, (k0_off48 k0_t1) a + S1x16.size a ≤ S64x384.size a
  k0_off49_inb : ∀ k0_t1 : Fin k0_t1_loop.trips, ∀ a, (k0_off49 k0_t1) a + S1x16.size a ≤ S64x384.size a
  k0_off50_inb : ∀ k0_t1 : Fin k0_t1_loop.trips, ∀ a, (k0_off50 k0_t1) a + S1x16.size a ≤ S64x384.size a
  k0_off51_inb : ∀ k0_t1 : Fin k0_t1_loop.trips, ∀ a, (k0_off51 k0_t1) a + S1x16.size a ≤ S64x384.size a
  k0_off52_inb : ∀ k0_t1 : Fin k0_t1_loop.trips, ∀ a, (k0_off52 k0_t1) a + S1x16.size a ≤ S64x384.size a
  k0_off53_inb : ∀ k0_t1 : Fin k0_t1_loop.trips, ∀ a, (k0_off53 k0_t1) a + S1x16.size a ≤ S64x384.size a
  k0_off54_inb : ∀ k0_t1 : Fin k0_t1_loop.trips, ∀ a, (k0_off54 k0_t1) a + S1x16.size a ≤ S64x384.size a
  k0_off55_inb : ∀ k0_t1 : Fin k0_t1_loop.trips, ∀ a, (k0_off55 k0_t1) a + S1x16.size a ≤ S64x384.size a
  k0_off56_inb : ∀ k0_t1 : Fin k0_t1_loop.trips, ∀ a, (k0_off56 k0_t1) a + S1x16.size a ≤ S64x384.size a
  k0_off57_inb : ∀ k0_t1 : Fin k0_t1_loop.trips, ∀ a, (k0_off57 k0_t1) a + S1x16.size a ≤ S64x384.size a
  k0_off58_inb : ∀ k0_t1 : Fin k0_t1_loop.trips, ∀ a, (k0_off58 k0_t1) a + S1x16.size a ≤ S64x384.size a

variable [Facts₀]

abbrev cc0_scratch7 : DmaSems sig S_ := SemArray.consecutive 0 S_ hcc0_scratch7
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S2048x64x6 : Shape := ⟨3, ![2048, 64, 6]⟩
abbrev S2048x16x8 : Shape := ⟨3, ![2048, 16, 8]⟩
abbrev S64 : Shape := ⟨1, ![64]⟩
abbrev S2048x1x16x8 : Shape := ⟨4, ![2048, 1, 16, 8]⟩
abbrev S1x64x1x1 : Shape := ⟨4, ![1, 64, 1, 1]⟩
abbrev S2048x64x16x8 : Shape := ⟨4, ![2048, 64, 16, 8]⟩
abbrev S_ : Shape := ⟨0, ![]⟩
abbrev S2048x64x16 : Shape := ⟨3, ![2048, 64, 16]⟩
abbrev S2048x1x1x16x8 : Shape := ⟨5, ![2048, 1, 1, 16, 8]⟩
abbrev S2048x64x6x1x1 : Shape := ⟨5, ![2048, 64, 6, 1, 1]⟩
abbrev S2048x64x6x16x8 : Shape := ⟨5, ![2048, 64, 6, 16, 8]⟩
abbrev S2048x64x6x16 : Shape := ⟨4, ![2048, 64, 6, 16]⟩
abbrev S2048x64x1x16 : Shape := ⟨4, ![2048, 64, 1, 16]⟩
abbrev S2048 : Shape := ⟨1, ![2048]⟩
abbrev S6 : Shape := ⟨1, ![6]⟩
abbrev S2048x64x6x1 : Shape := ⟨4, ![2048, 64, 6, 1]⟩
abbrev S2048x64x6x3 : Shape := ⟨4, ![2048, 64, 6, 3]⟩

abbrev nBuf : Space → Nat
  | .hbm => 66
  | .vmem => 0
  | .smem => 0
  | _ => 0

abbrev bufTy : (tb : Table) → Fin (tcTables nBuf tb) → BufTy
  | .hbm, ⟨0, _⟩ => ⟨S2048x64x6, .f32⟩
  | .hbm, ⟨1, _⟩ => ⟨S2048x16x8, .i32⟩
  | .hbm, ⟨2, _⟩ => ⟨S2048x64x6, .i32⟩
  | .hbm, ⟨3, _⟩ => ⟨S64, .i32⟩
  | .hbm, ⟨4, _⟩ => ⟨S2048x1x16x8, .i32⟩
  | .hbm, ⟨5, _⟩ => ⟨S1x64x1x1, .i32⟩
  | .hbm, ⟨6, _⟩ => ⟨S2048x64x16x8, .i32⟩
  | .hbm, ⟨7, _⟩ => ⟨S2048x64x16x8, .i32⟩
  | .hbm, ⟨8, _⟩ => ⟨S2048x64x16x8, .i1⟩
  | .hbm, ⟨9, _⟩ => ⟨S_, .i1⟩
  | .hbm, ⟨10, _⟩ => ⟨S2048x64x16, .i1⟩
  | .hbm, ⟨11, _⟩ => ⟨S2048x64x16, .i32⟩
  | .hbm, ⟨12, _⟩ => ⟨S2048x1x1x16x8, .i32⟩
  | .hbm, ⟨13, _⟩ => ⟨S2048x64x6x1x1, .i32⟩
  | .hbm, ⟨14, _⟩ => ⟨S2048x64x6x16x8, .i32⟩
  | .hbm, ⟨15, _⟩ => ⟨S2048x64x6x16x8, .i32⟩
  | .hbm, ⟨16, _⟩ => ⟨S2048x64x6x16x8, .i1⟩
  | .hbm, ⟨17, _⟩ => ⟨S_, .i1⟩
  | .hbm, ⟨18, _⟩ => ⟨S2048x64x6x16, .i1⟩
  | .hbm, ⟨19, _⟩ => ⟨S2048x64x6x16, .i32⟩
  | .hbm, ⟨20, _⟩ => ⟨S_, .i32⟩
  | .hbm, ⟨21, _⟩ => ⟨S2048x64x6, .i32⟩
  | .hbm, ⟨22, _⟩ => ⟨S2048x64x6, .i1⟩
  | .hbm, ⟨23, _⟩ => ⟨S2048x64x6, .i32⟩
  | .hbm, ⟨24, _⟩ => ⟨S2048x64x1x16, .i32⟩
  | .hbm, ⟨25, _⟩ => ⟨S2048x64x6x16, .i32⟩
  | .hbm, ⟨26, _⟩ => ⟨S2048x64x6x16, .i32⟩
  | .hbm, ⟨27, _⟩ => ⟨S_, .i32⟩
  | .hbm, ⟨28, _⟩ => ⟨S2048x64x6, .i32⟩
  | .hbm, ⟨29, _⟩ => ⟨S2048x64x6, .i32⟩
  | .hbm, ⟨30, _⟩ => ⟨S_, .i32⟩
  | .hbm, ⟨31, _⟩ => ⟨S2048x64x6, .i32⟩
  | .hbm, ⟨32, _⟩ => ⟨S2048, .i32⟩
  | .hbm, ⟨33, _⟩ => ⟨S64, .i32⟩
  | .hbm, ⟨34, _⟩ => ⟨S6, .i32⟩
  | .hbm, ⟨35, _⟩ => ⟨S2048x64x6, .i32⟩
  | .hbm, ⟨36, _⟩ => ⟨S2048x64x6, .i32⟩
  | .hbm, ⟨37, _⟩ => ⟨S2048x64x6, .i32⟩
  | .hbm, ⟨38, _⟩ => ⟨S_, .i32⟩
  | .hbm, ⟨39, _⟩ => ⟨S2048x64x6, .i32⟩
  | .hbm, ⟨40, _⟩ => ⟨S2048x64x6, .i1⟩
  | .hbm, ⟨41, _⟩ => ⟨S_, .i32⟩
  | .hbm, ⟨42, _⟩ => ⟨S2048x64x6, .i32⟩
  | .hbm, ⟨43, _⟩ => ⟨S2048x64x6, .i32⟩
  | .hbm, ⟨44, _⟩ => ⟨S2048x64x6, .i32⟩
  | .hbm, ⟨45, _⟩ => ⟨S_, .i32⟩
  | .hbm, ⟨46, _⟩ => ⟨S2048x64x6, .i32⟩
  | .hbm, ⟨47, _⟩ => ⟨S2048x64x6, .i1⟩
  | .hbm, ⟨48, _⟩ => ⟨S_, .i32⟩
  | .hbm, ⟨49, _⟩ => ⟨S2048x64x6, .i32⟩
  | .hbm, ⟨50, _⟩ => ⟨S2048x64x6, .i32⟩
  | .hbm, ⟨51, _⟩ => ⟨S2048x64x6, .i32⟩
  | .hbm, ⟨52, _⟩ => ⟨S_, .i32⟩
  | .hbm, ⟨53, _⟩ => ⟨S2048x64x6, .i32⟩
  | .hbm, ⟨54, _⟩ => ⟨S2048x64x6, .i1⟩
  | .hbm, ⟨55, _⟩ => ⟨S_, .i32⟩
  | .hbm, ⟨56, _⟩ => ⟨S2048x64x6, .i32⟩
  | .hbm, ⟨57, _⟩ => ⟨S2048x64x6, .i32⟩
  | .hbm, ⟨58, _⟩ => ⟨S2048x64x6, .i32⟩
  | .hbm, ⟨59, _⟩ => ⟨S2048x64x6x1, .i32⟩
  | .hbm, ⟨60, _⟩ => ⟨S2048x64x6x1, .i32⟩
  | .hbm, ⟨61, _⟩ => ⟨S2048x64x6x1, .i32⟩
  | .hbm, ⟨62, _⟩ => ⟨S2048x64x6x3, .i32⟩
  | .hbm, ⟨63, _⟩ => ⟨S2048x64x6, .i32⟩
  | .hbm, ⟨64, _⟩ => ⟨S2048x64x6x1, .i32⟩
  | .hbm, ⟨65, _⟩ => ⟨S2048x64x6x1, .f32⟩
  | _, _ => ⟨S2048x64x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_c_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_c_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_6 : Ref sig .tc := ⟨.hbm, 45, rfl⟩
abbrev main_v36 : Ref sig .tc := ⟨.hbm, 46, rfl⟩
abbrev main_v37 : Ref sig .tc := ⟨.hbm, 47, rfl⟩
abbrev main_c_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_8 : Ref sig .tc := ⟨.hbm, 52, rfl⟩
abbrev main_v41 : Ref sig .tc := ⟨.hbm, 53, rfl⟩
abbrev main_v42 : Ref sig .tc := ⟨.hbm, 54, rfl⟩
abbrev main_c_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]

class Facts₀ : Prop where
  bcast_S2048x16x8_S2048x1x16x8_0_2_3 : S2048x16x8.BroadcastsInDim S2048x1x16x8 (![0, 2, 3] : Fin 3 → Fin S2048x1x16x8.rank)
  bcast_S64_S1x64x1x1_1 : S64.BroadcastsInDim S1x64x1x1 (![1] : Fin 1 → Fin S1x64x1x1.rank)
  bcast_S2048x1x16x8_S2048x64x16x8_0_1_2_3 : S2048x1x16x8.BroadcastsInDim S2048x64x16x8 (![0, 1, 2, 3] : Fin 4 → Fin S2048x64x16x8.rank)
  bcast_S1x64x1x1_S2048x64x16x8_0_1_2_3 : S1x64x1x1.BroadcastsInDim S2048x64x16x8 (![0, 1, 2, 3] : Fin 4 → Fin S2048x64x16x8.rank)
  reducesTo_S2048x64x16x8_S2048x64x16_d3 : S2048x64x16x8.ReducesTo [3] S2048x64x16
  h_S_ : 0 < S_.numel
  natLt_1_32 : 1 < 32
  bcast_S2048x16x8_S2048x1x1x16x8_0_3_4 : S2048x16x8.BroadcastsInDim S2048x1x1x16x8 (![0, 3, 4] : Fin 3 → Fin S2048x1x1x16x8.rank)
  bcast_S2048x64x6_S2048x64x6x1x1_0_1_2 : S2048x64x6.BroadcastsInDim S2048x64x6x1x1 (![0, 1, 2] : Fin 3 → Fin S2048x64x6x1x1.rank)
  bcast_S2048x1x1x16x8_S2048x64x6x16x8_0_1_2_3_4 : S2048x1x1x16x8.BroadcastsInDim S2048x64x6x16x8 (![0, 1, 2, 3, 4] : Fin 5 → Fin S2048x64x6x16x8.rank)
  bcast_S2048x64x6x1x1_S2048x64x6x16x8_0_1_2_3_4 : S2048x64x6x1x1.BroadcastsInDim S2048x64x6x16x8 (![0, 1, 2, 3, 4] : Fin 5 → Fin S2048x64x6x16x8.rank)
  reducesTo_S2048x64x6x16x8_S2048x64x6x16_d4 : S2048x64x6x16x8.ReducesTo [4] S2048x64x6x16
  bcast_S_S2048x64x6 : S_.BroadcastsInDim S2048x64x6 (![] : Fin 0 → Fin S2048x64x6.rank)
  bcast_S2048x64x16_S2048x64x1x16_0_1_3 : S2048x64x16.BroadcastsInDim S2048x64x1x16 (![0, 1, 3] : Fin 3 → Fin S2048x64x1x16.rank)
  bcast_S2048x64x1x16_S2048x64x6x16_0_1_2_3 : S2048x64x1x16.BroadcastsInDim S2048x64x6x16 (![0, 1, 2, 3] : Fin 4 → Fin S2048x64x6x16.rank)
  reducesTo_S2048x64x6x16_S2048x64x6_d3 : S2048x64x6x16.ReducesTo [3] S2048x64x6
  bcast_S2048_S2048x64x6_0 : S2048.BroadcastsInDim S2048x64x6 (![0] : Fin 1 → Fin S2048x64x6.rank)
  bcast_S64_S2048x64x6_1 : S64.BroadcastsInDim S2048x64x6 (![1] : Fin 1 → Fin S2048x64x6.rank)
  bcast_S6_S2048x64x6_2 : S6.BroadcastsInDim S2048x64x6 (![2] : Fin 1 → Fin S2048x64x6.rank)
  bcast_S2048x64x6_S2048x64x6x1_0_1_2 : S2048x64x6.BroadcastsInDim S2048x64x6x1 (![0, 1, 2] : Fin 3 → Fin S2048x64x6x1.rank)
  concatenates_S2048x64x6x1_S2048x64x6x1_S2048x64x6x1_S2048x64x6x3_d3 : Shape.Concatenates [S2048x64x6x1, S2048x64x6x1, S2048x64x6x1] S2048x64x6x3 3
  shapeCasts_S2048x64x6_S2048x64x6x1 : S2048x64x6.ShapeCasts S2048x64x6x1
  scatter_S2048x64x6_S2048x64x6x3_S2048x64x6_n_012_012_3_wf : ScatterDims.WF S2048x64x6 S2048x64x6x3 S2048x64x6 [] [0, 1, 2] [0, 1, 2] 3

variable [Facts₀]

def scatter_S2048x64x6_S2048x64x6x3_S2048x64x6_n_012_012_3 : ScatterDims S2048x64x6 S2048x64x6x3 S2048x64x6 where
  updateWindowDims := []
  insertedWindowDims := [0, 1, 2]
  scatterDimsToOperandDims := [0, 1, 2]
  indexVectorDim := 3
  wf := scatter_S2048x64x6_S2048x64x6x3_S2048x64x6_n_012_012_3_wf

class Facts : Prop extends Facts₀ where

variable [Facts]
-- ==== Proof.RefFrame.lean ====
/-
  The reference program's frame. The reference is a host program with no kernel launch: its run, read back one
  operation at a time, ends with every result at the composed pure term of the arguments and the arguments
  unchanged; dropping the result gives the frame.
-/
import proofs.«207480_g64682207477991_cont_9to1c4b_704_25_alg».proof.Defs
import proofs.«207480_g64682207477991_cont_9to1c4b_704_25_alg».proof.Proof.Gen.ReferenceIdeal
import proofs.«207480_g64682207477991_cont_9to1c4b_704_25_alg».proof.Proof.Gen.ReferenceIdeal.Run
import proofs.«207480_g64682207477991_cont_9to1c4b_704_25_alg».proof.Proof.Gen.ReferenceIdeal.Read
import proofs.«207480_g64682207477991_cont_9to1c4b_704_25_alg».proof.Proof.Gen.Pre_input_domain

noncomputable section

namespace Cert.Proof.RefFrame

open Idealize.ShloMosaic Idealize.SL.Sem

/-- Every weakly fair execution of the reference terminates, faults nowhere and leaves both arguments as they were. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  What both programs compute, as mathematics. A molecule `b` has 64 atom slots, each with 6 neighbour slots
  (`E b a d`, the neighbour's atom number) and 16 rings of 8 members (`R b r s`, a member's atom number).
  Neighbour slot `(a, d)` is a RING BOND when some ring holds both atom `a` and its neighbour `E b a d`.
  The result is 1 at ring bonds and 0 elsewhere. Stated twice: over the arrays as the reference indexes them
  (three axes) and over the flattened rows the kernel works on (`p = 6 a + d`, `q = 8 r + s`).
-/
import Idealize.ShloMosaic.PureOps
import Idealize.ShloMosaic.Lib.ValueIdx

noncomputable section

namespace Cert.Proof.Spec

open Idealize.ShloMosaic Idealize.ShloMosaic.ValueIdx

abbrev SE3 : Shape := ⟨3, ![2048, 64, 6]⟩
abbrev SR3 : Shape := ⟨3, ![2048, 16, 8]⟩
abbrev SO4 : Shape := ⟨4, ![2048, 64, 6, 1]⟩
abbrev SE2 : Shape := ⟨2, ![2048, 384]⟩
abbrev SR2 : Shape := ⟨2, ![2048, 128]⟩

variable {F : FTy → Type} [FloatOps F]

/-- The two values the result takes: the words of 1.0 and of 0.0, read at the instance. -/
abbrev one : F .f32 := Scalar.ofBits .f32 0x3F800000#32
abbrev zero : F .f32 := Scalar.ofBits .f32 0x00000000#32

/-! ## Over three axes -/

/-- Atom number `a` is one of the eight members of ring `r` of molecule `b`. -/
def inRing (R : IVec SR3 32) (b : Fin 2048) (r : Fin 16) (a : BitVec 32) : Prop := ∃ s : Fin 8, R (ix3 b r s) = a

/-- Some ring of molecule `b` holds both atom `a` and the neighbour in its slot `d`. -/
def ringBond (E : IVec SE3 32) (R : IVec SR3 32) (b : Fin 2048) (a : Fin 64) (d : Fin 6) : Prop :=
  ∃ r : Fin 16, inRing R b r (E (ix3 b a d)) ∧ inRing R b r (BitVec.ofNat 32 a.val)

open Classical in
/-- The result array: 1 at ring bonds, 0 elsewhere. -/
def bonds (E : IVec SE3 32) (R : IVec SR3 32) : FVec F SO4 .f32 := fun i =>
  if ringBond E R (i 0) (i 1) (i 2) then one else zero

/-! ## Over flattened rows -/

/-- Member `s` of ring `r` in a flattened row of 128. -/
abbrev memb (r : Fin 16) (s : Fin 8) : Fin 128 := ⟨8 * r.val + s.val, by omega⟩

/-- The same, over rows (any number `n` of them: the whole array has 2048, a tile's block 64): position
    `p = 6 a + d` of a row of 384 belongs to atom `p / 6`. -/
def ringBond2 {n : Nat} (E1 : IVec ⟨2, ![n, 384]⟩ 32) (R2 : IVec ⟨2, ![n, 128]⟩ 32) (b : Fin n) (p : Fin 384) : Prop :=
  ∃ r : Fin 16, (∃ s : Fin 8, R2 (ix2 b (memb r s)) = E1 (ix2 b p)) ∧ (∃ s : Fin 8, R2 (ix2 b (memb r s)) = BitVec.ofNat 32 (p.val / 6))

open Classical in
def bonds2 {n : Nat} (E1 : IVec ⟨2, ![n, 384]⟩ 32) (R2 : IVec ⟨2, ![n, 128]⟩ 32) : FVec F ⟨2, ![n, 384]⟩ .f32 := fun i =>
  if ringBond2 E1 R2 (i 0) (i 1) then one else zero

end Cert.Proof.Spec

end
-- ==== Proof.RefValue.lean ====
/-
  The reference program's result, index by index, is the specification, at the ideal floats.

  Read from the result inwards. The result is the integer array converted to float and reshaped by a trailing axis of
  extent one. The integer array is a scatter-add into zeros whose index array at `(b, a, d)` is `(b, a, d)` itself, so
  every update lands once, at its own index, and the scatter is the update array. The update at `(b, a, d)` is the
  signed maximum over the 16 rings of the product of two membership bits — "ring `r` holds the neighbour in slot
  `(a, d)`" and "ring `r` holds atom `a`", each an OR over the ring's 8 members of an equality test — times the bit
  "the neighbour is not `-1`", which is 1 for a neighbour number in `[0, 63]`. A maximum of words that are each 0 or 1
  is 1 exactly when one of them is 1, which is the specification's ring bond.
-/
import proofs.«207480_g64682207477991_cont_9to1c4b_704_25_alg».proof.Proof.Spec
import proofs.«207480_g64682207477991_cont_9to1c4b_704_25_alg».proof.Proof.Gen.ReferenceIdeal.Read
import Idealize.ShloMosaic.Lib.Pipeline.Value
import Idealize.ShloMosaic.Lib.ValueIdx
import Idealize.ShloMosaic.PureOps.Reduce
import Idealize.ShloMosaic.PureOps.Ideal.Laws

noncomputable section

namespace Cert.Proof.RefValue

open Cert.ReferenceIdeal Cert.ReferenceIdeal.Gen Cert.ReferenceIdeal.Read Idealize.ShloMosaic Idealize.ShloMosaic.ValueIdx

/-! ## A scatter whose updates each land at their own index -/

/-- A left fold of one-point updates leaves alone every point none of the steps names. -/
theorem foldl_point_of_not_mem {ι α : Type} {n : Nat} (e : ι ≃ Fin n) (g : (ι → α) → Fin n → (ι → α))
    (hg2 : ∀ r k i, i ≠ e.symm k → g r k i = r i) :
    ∀ (l : List (Fin n)) (r : ι → α) (i : ι), e i ∉ l → l.foldl g r i = r i
  | [], _, _, _ => rfl
  | k :: l, r, i, hi => by
    have hk : i ≠ e.symm k := fun h => hi (by rw [h]; simp)
    rw [List.foldl_cons, foldl_point_of_not_mem e g hg2 l _ i (fun h => hi (List.mem_cons_of_mem _ h)), hg2 r k i hk]

/-- A left fold of one-point updates over distinct points changes each named point once. -/
theorem foldl_point_of_mem {ι α : Type} {n : Nat} (e : ι ≃ Fin n) (c : ι → α → α) (g : (ι → α) → Fin n → (ι → α))
    (hg1 : ∀ r k, g r k (e.symm k) = c (e.symm k) (r (e.symm k)))
    (hg2 : ∀ r k i, i ≠ e.symm k → g r k i = r i) :
    ∀ (l : List (Fin n)) (r : ι → α) (i : ι), l.Nodup → e i ∈ l → l.foldl g r i = c i (r i)
  | [], _, _, _, hi => absurd hi (by simp)
  | k :: l, r, i, hnd, hi => by
    have hkl : k ∉ l := (List.nodup_cons.1 hnd).1
    rw [List.foldl_cons]
    rcases List.mem_cons.1 hi with hik | hil
    · have hi' : i = e.symm k := by rw [← hik]; simp
      rw [foldl_point_of_not_mem e g hg2 l _ i (by rw [hik]; exact hkl), hi', hg1]
    · have hk : i ≠ e.symm k := fun h => hkl (by rw [h] at hil; simpa using hil)
      rw [foldl_point_of_mem e c g hg1 hg2 l _ i (List.nodup_cons.1 hnd).2 hil, hg2 r k i hk]

/-- A scatter whose every update lands at its own index combines each element with its own update, once. -/
theorem scatter_self {α : Type} {s si : Shape} {w : Nat} (d : ScatterDims s si s) (f : α → α → α) (x : s.Idx → α)
    (idx : IVec si w) (upd : s.Idx → α) (h : ∀ j, d.resultIdx? j idx = some j) (i : s.Idx) :
    Host.scatter d f x idx upd i = f (x i) (upd i) := by
  unfold Host.scatter
  refine foldl_point_of_mem s.rowMajor (fun i a => f a (upd i)) _ ?_ ?_ _ x i (List.nodup_finRange _) (List.mem_finRange _)
  · intro r k
    simp only [h, ↓reduceIte]
  · intro r k i hi
    simp only [h, if_neg hi]

variable {F : FTy → Type} [FloatOps F]

/-! ## Words -/

/-- A small natural number, as a 32-bit word, is not negative. -/
theorem cmpi_slt_ofNat_zero (n : Nat) (hn : n < 2147483648) : IntOp.cmpi .slt (BitVec.ofNat 32 n) 0#32 = 0#1 := by
  have h : (BitVec.ofNat 32 n).slt 0#32 = false := by
    rw [BitVec.slt, decide_eq_false_iff_not, BitVec.toInt_eq_toNat_cond]
    simp only [BitVec.toNat_ofNat, BitVec.toInt_zero]
    split <;> omega
  simp [IntOp.cmpi, h]

/-- A small natural number, as a 32-bit word read signed, is itself. -/
theorem toInt_ofNat_small (n : Nat) (hn : n < 2147483648) : (BitVec.ofNat 32 n).toInt = (n : Int) := by
  rw [BitVec.toInt_eq_toNat_cond]
  simp only [BitVec.toNat_ofNat]
  split <;> omega

/-! ## The three index columns the scatter is given: each holds its own coordinate -/

theorem v35_apply (i : S2048x64x6.Idx) : val_main_v35 (F := F) i = BitVec.ofNat 32 (i 0).val := by
  have h0 : (i 0).val < 2048 := (i 0).isLt
  rw [val_main_v35_apply, val_main_v32_apply, val_main_v28_apply, val_main_v25_apply, val_main_v31_apply, val_main_c_4_apply]
  show Scalar.select (IntOp.cmpi .slt (BitVec.ofNat 32 (i 0).val) 0#32) _ (BitVec.ofNat 32 (i 0).val) = _
  rw [cmpi_slt_ofNat_zero _ (by omega), select_zero]

theorem v40_apply (i : S2048x64x6.Idx) : val_main_v40 (F := F) i = BitVec.ofNat 32 (i 1).val := by
  have h0 : (i 1).val < 64 := (i 1).isLt
  rw [val_main_v40_apply, val_main_v37_apply, val_main_v29_apply, val_main_v26_apply, val_main_v36_apply, val_main_c_6_apply]
  show Scalar.select (IntOp.cmpi .slt (BitVec.ofNat 32 (i 1).val) 0#32) _ (BitVec.ofNat 32 (i 1).val) = _
  rw [cmpi_slt_ofNat_zero _ (by omega), select_zero]

theorem v45_apply (i : S2048x64x6.Idx) : val_main_v45 (F := F) i = BitVec.ofNat 32 (i 2).val := by
  have h0 : (i 2).val < 6 := (i 2).isLt
  rw [val_main_v45_apply, val_main_v42_apply, val_main_v30_apply, val_main_v27_apply, val_main_v41_apply, val_main_c_8_apply]
  show Scalar.select (IntOp.cmpi .slt (BitVec.ofNat 32 (i 2).val) 0#32) _ (BitVec.ofNat 32 (i 2).val) = _
  rw [cmpi_slt_ofNat_zero _ (by omega), select_zero]

/-! ## The scatter: update `(b, a, d)` lands at `(b, a, d)` -/

abbrev sd := scatter_S2048x64x6_S2048x64x6x3_S2048x64x6_n_012_012_3

/-- Update `(b, a, d)` reads component `c` of its start at `(b, a, d, c)` of the index array. -/
theorem siIdx_eq (b : Fin 2048) (a : Fin 64) (d : Fin 6) (c : Fin 3) : sd.siIdx (ix3 b a d) c = ix4 b a d c := by
  funext e
  match e with
  | ⟨0, _⟩ => rfl
  | ⟨1, _⟩ => rfl
  | ⟨2, _⟩ => rfl
  | ⟨3, _⟩ => rfl

/-- Every operand axis is an inserted one: the window adds nothing. -/
theorem window_eq (j : S2048x64x6.Idx) (a : Fin 3) : sd.window j a = 0 := by
  match a with
  | ⟨0, _⟩ => rfl
  | ⟨1, _⟩ => rfl
  | ⟨2, _⟩ => rfl

theorem cat_side (b : Fin 2048) (a : Fin 64) (d : Fin 6) (c : Fin 3) (e : Fin 4)
    (he : e.cast (rfl : S2048x64x6x1.rank = S2048x64x6x3.rank) ≠ 3) :
    ((ix4 b a d (0 : Fin 1) : S2048x64x6x1.Idx) e).val
      = ((ix4 b a d c : S2048x64x6x3.Idx) (e.cast (rfl : S2048x64x6x1.rank = S2048x64x6x3.rank))).val := by
  match e with
  | ⟨0, _⟩ => rfl
  | ⟨1, _⟩ => rfl
  | ⟨2, _⟩ => rfl
  | ⟨3, _⟩ => exact absurd rfl he

/-- The index array at `(b, a, d, c)` holds coordinate `c` of `(b, a, d)`. -/
theorem v49_0 (b : Fin 2048) (a : Fin 64) (d : Fin 6) : val_main_v49 (F := F) (ix4 b a d (0 : Fin 3)) = BitVec.ofNat 32 b.val := by
  unfold val_main_v49
  rw [concatenate_apply_piece (t := S2048x64x6x3) 3
    [⟨S2048x64x6x1, (val_main_v46 (F := F))⟩, ⟨S2048x64x6x1, (val_main_v47 (F := F))⟩, ⟨S2048x64x6x1, (val_main_v48 (F := F))⟩]
    concatenates_S2048x64x6x1_S2048x64x6x1_S2048x64x6x1_S2048x64x6x3_d3 (ix4 b a d (0 : Fin 3)) 0 (by simp)
    S2048x64x6x1 (val_main_v46 (F := F)) rfl rfl 0 rfl (ix4 b a d (0 : Fin 1)) (cat_side b a d 0) rfl,
    val_main_v46_apply, v35_apply]

theorem v49_1 (b : Fin 2048) (a : Fin 64) (d : Fin 6) : val_main_v49 (F := F) (ix4 b a d (1 : Fin 3)) = BitVec.ofNat 32 a.val := by
  unfold val_main_v49
  rw [concatenate_apply_piece (t := S2048x64x6x3) 3
    [⟨S2048x64x6x1, (val_main_v46 (F := F))⟩, ⟨S2048x64x6x1, (val_main_v47 (F := F))⟩, ⟨S2048x64x6x1, (val_main_v48 (F := F))⟩]
    concatenates_S2048x64x6x1_S2048x64x6x1_S2048x64x6x1_S2048x64x6x3_d3 (ix4 b a d (1 : Fin 3)) 1 (by simp)
    S2048x64x6x1 (val_main_v47 (F := F)) rfl rfl 1 rfl (ix4 b a d (0 : Fin 1)) (cat_side b a d 1) rfl,
    val_main_v47_apply, v40_apply]

theorem v49_2 (b : Fin 2048) (a : Fin 64) (d : Fin 6) : val_main_v49 (F := F) (ix4 b a d (2 : Fin 3)) = BitVec.ofNat 32 d.val := by
  unfold val_main_v49
  rw [concatenate_apply_piece (t := S2048x64x6x3) 3
    [⟨S2048x64x6x1, (val_main_v46 (F := F))⟩, ⟨S2048x64x6x1, (val_main_v47 (F := F))⟩, ⟨S2048x64x6x1, (val_main_v48 (F := F))⟩]
    concatenates_S2048x64x6x1_S2048x64x6x1_S2048x64x6x1_S2048x64x6x3_d3 (ix4 b a d (2 : Fin 3)) 2 (by simp)
    S2048x64x6x1 (val_main_v48 (F := F)) rfl rfl 2 rfl (ix4 b a d (0 : Fin 1)) (cat_side b a d 2) rfl,
    val_main_v48_apply, v45_apply]

/-- So update `(b, a, d)` starts at `(b, a, d)`. -/
theorem start_eq (b : Fin 2048) (a : Fin 64) (d : Fin 6) (e : Fin 3) :
    sd.start (ix3 b a d) (val_main_v49 (F := F)) e = (((ix3 b a d : S2048x64x6.Idx) e).val : Int) := by
  have hb := b.isLt
  have ha := a.isLt
  have hd := d.isLt
  have hmem : ∀ e : Fin 3, e ∈ sd.scatterDimsToOperandDims := by decide
  unfold ScatterDims.start
  rw [dif_pos (hmem e)]
  match e with
  | ⟨0, _⟩ =>
    show (val_main_v49 (F := F) (sd.siIdx (ix3 b a d) (0 : Fin 3))).toInt = (b.val : Int)
    rw [siIdx_eq, v49_0, toInt_ofNat_small _ (by omega)]
  | ⟨1, _⟩ =>
    show (val_main_v49 (F := F) (sd.siIdx (ix3 b a d) (1 : Fin 3))).toInt = (a.val : Int)
    rw [siIdx_eq, v49_1, toInt_ofNat_small _ (by omega)]
  | ⟨2, _⟩ =>
    show (val_main_v49 (F := F) (sd.siIdx (ix3 b a d) (2 : Fin 3))).toInt = (d.val : Int)
    rw [siIdx_eq, v49_2, toInt_ofNat_small _ (by omega)]

/-- Every update lands at its own index. -/
theorem resultIdx_self (j : S2048x64x6.Idx) : sd.resultIdx? j (val_main_v49 (F := F)) = some j := by
  obtain ⟨b, a, d, rfl⟩ : ∃ b a d, j = ix3 b a d := ⟨_, _, _, eq_ix3 j⟩
  have H : ∀ e, 0 ≤ sd.start (ix3 b a d) (val_main_v49 (F := F)) e + sd.window (ix3 b a d) e ∧
      sd.start (ix3 b a d) (val_main_v49 (F := F)) e + sd.window (ix3 b a d) e < S2048x64x6.size e := by
    intro e
    rw [start_eq, window_eq]
    have : ((ix3 b a d : S2048x64x6.Idx) e).val < S2048x64x6.size e := ((ix3 b a d : S2048x64x6.Idx) e).isLt
    constructor <;> omega
  unfold ScatterDims.resultIdx?
  rw [dif_pos H]
  congr 1
  funext e
  apply Fin.ext
  show (sd.start (ix3 b a d) (val_main_v49 (F := F)) e + sd.window (ix3 b a d) e).toNat = ((ix3 b a d : S2048x64x6.Idx) e).val
  rw [start_eq, window_eq]
  simp

/-- The scatter-add into zeros is the update array. -/
theorem v50_apply (x0 : (⟨S2048x64x6, .f32⟩ : BufTy).Contents (Elt F)) (x1 : (⟨S2048x16x8, .i32⟩ : BufTy).Contents (Elt F))
    (j : S2048x64x6.Idx) : val_main_v50 (F := F) x0 x1 j = val_main_v23 (F := F) x0 x1 j := by
  unfold val_main_v50
  rw [scatter_self _ _ _ _ _ resultIdx_self j, val_main_v24_apply, val_main_c_3_apply]
  simp [IntOp.addi]

/-! ## Reductions over bits -/

theorem ori_eq_one_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- An OR-fold of bits from the bit 0 is 1 exactly when some bit is. -/
theorem fold_ori_eq_one_iff {ι : Type} (S : Finset ι) (g : ι → BitVec 1) :
    S.fold IntOp.ori 0#1 g = 1#1 ↔ ∃ k ∈ S, g k = 1#1 := by
  induction S using Finset.cons_induction with
  | empty => simp
  | cons a S ha ih =>
    rw [Finset.fold_cons, ori_eq_one_iff, ih]
    simp [Finset.mem_cons]

theorem cmpi_eq_one_iff {w : Nat} (x y : BitVec w) : IntOp.cmpi .eq x y = 1#1 ↔ x = y := by
  show BitVec.ofBool (x == y) = 1#1 ↔ x = y
  by_cases h : x = y
  · subst h; simp
  · have hb : (x == y) = false := by simpa using h
    rw [hb]
    exact ⟨fun h1 => absurd h1 (by decide), fun h1 => absurd h1 h⟩

theorem maxsi_table :
    IntOp.maxsi 0#32 2147483648#32 = 0#32 ∧ IntOp.maxsi 1#32 2147483648#32 = 1#32 ∧ IntOp.maxsi 0#32 0#32 = 0#32 ∧
    IntOp.maxsi 0#32 1#32 = 1#32 ∧ IntOp.maxsi 1#32 0#32 = 1#32 ∧ IntOp.maxsi 1#32 1#32 = 1#32 := by decide

/-- A signed-maximum fold of words that are each 0 or 1, from the least word: the least word over no words,
    0 when all are 0, 1 when one is 1. -/
theorem fold_maxsi_bits {ι : Type} (S : Finset ι) (g : ι → BitVec 32) (hg : ∀ k ∈ S, g k = 0#32 ∨ g k = 1#32) :
    (S = ∅ ∧ S.fold IntOp.maxsi 2147483648#32 g = 2147483648#32) ∨
    (S.Nonempty ∧ (∀ k ∈ S, g k = 0#32) ∧ S.fold IntOp.maxsi 2147483648#32 g = 0#32) ∨
    ((∃ k ∈ S, g k = 1#32) ∧ S.fold IntOp.maxsi 2147483648#32 g = 1#32) := by
  induction S using Finset.cons_induction with
  | empty => exact Or.inl ⟨rfl, Finset.fold_empty⟩
  | cons a S ha ih =>
    have hS := ih (fun k hk => hg k (Finset.mem_cons.2 (Or.inr hk)))
    have ha' := hg a (Finset.mem_cons_self a S)
    obtain ⟨t1, t2, t3, t4, t5, t6⟩ := maxsi_table
    rw [Finset.fold_cons]
    refine Or.inr ?_
    rcases hS with ⟨hS, hf⟩ | ⟨hne, h0, hf⟩ | ⟨⟨k, hk, hk1⟩, hf⟩ <;> rcases ha' with h | h <;> rw [hf, h]
    · exact Or.inl ⟨Finset.cons_nonempty ha, fun k hk => by
        rcases Finset.mem_cons.1 hk with rfl | hk
        · exact h
        · rw [hS] at hk; exact absurd hk (Finset.notMem_empty _), t1⟩
    · exact Or.inr ⟨⟨a, Finset.mem_cons_self a S, h⟩, t2⟩
    · exact Or.inl ⟨Finset.cons_nonempty ha, fun k hk => by
        rcases Finset.mem_cons.1 hk with rfl | hk
        · exact h
        · exact h0 k hk, t3⟩
    · exact Or.inr ⟨⟨a, Finset.mem_cons_self a S, h⟩, t5⟩
    · exact Or.inr ⟨⟨k, Finset.mem_cons.2 (Or.inr hk), hk1⟩, t4⟩
    · exact Or.inr ⟨⟨a, Finset.mem_cons_self a S, h⟩, t6⟩

/-- Over a nonempty index type: 1 when one word is 1. -/
theorem fold_maxsi_bits_one {n : Nat} (g : Fin (n + 1) → BitVec 32) (hg : ∀ k, g k = 0#32 ∨ g k = 1#32) (h : ∃ k, g k = 1#32) :
    (Finset.univ : Finset (Fin (n + 1))).fold IntOp.maxsi 2147483648#32 g = 1#32 := by
  rcases fold_maxsi_bits Finset.univ g (fun k _ => hg k) with ⟨he, -⟩ | ⟨-, h0, -⟩ | ⟨-, hf⟩
  · exact absurd he (Finset.univ_nonempty.ne_empty)
  · obtain ⟨k, hk⟩ := h
    rw [h0 k (Finset.mem_univ k)] at hk
    exact absurd hk (by decide)
  · exact hf

/-- Over a nonempty index type: 0 when no word is 1. -/
theorem fold_maxsi_bits_zero {n : Nat} (g : Fin (n + 1) → BitVec 32) (hg : ∀ k, g k = 0#32 ∨ g k = 1#32) (h : ¬ ∃ k, g k = 1#32) :
    (Finset.univ : Finset (Fin (n + 1))).fold IntOp.maxsi 2147483648#32 g = 0#32 := by
  rcases fold_maxsi_bits Finset.univ g (fun k _ => hg k) with ⟨he, -⟩ | ⟨-, -, hf⟩ | ⟨⟨k, -, hk⟩, -⟩
  · exact absurd he (Finset.univ_nonempty.ne_empty)
  · exact hf
  · exact absurd ⟨k, hk⟩ h

/-! ## The two membership tests, read as "some member is" -/

theorem lift4 (h : S2048x64x16x8.Reduces [3] S2048x64x16) (b : Fin 2048) (a : Fin 64) (r : Fin 16) (k : Fin 8) :
    h.lift (ix3 b a r) k = ix4 b a r k := by
  funext c
  match c with
  | ⟨0, _⟩ => rfl
  | ⟨1, _⟩ => rfl
  | ⟨2, _⟩ => rfl
  | ⟨3, _⟩ => rfl

theorem lift5 (h : S2048x64x6x16x8.Reduces [4] S2048x64x6x16) (b : Fin 2048) (a : Fin 64) (d : Fin 6) (r : Fin 16) (k : Fin 8) :
    h.lift (ix4 b a d r) k = ix5 b a d r k := by
  funext c
  match c with
  | ⟨0, _⟩ => rfl
  | ⟨1, _⟩ => rfl
  | ⟨2, _⟩ => rfl
  | ⟨3, _⟩ => rfl
  | ⟨4, _⟩ => rfl

theorem lift4' (h : S2048x64x6x16.Reduces [3] S2048x64x6) (b : Fin 2048) (a : Fin 64) (d : Fin 6) (k : Fin 16) :
    h.lift (ix3 b a d) k = ix4 b a d k := by
  funext c
  match c with
  | ⟨0, _⟩ => rfl
  | ⟨1, _⟩ => rfl
  | ⟨2, _⟩ => rfl
  | ⟨3, _⟩ => rfl

theorem v6_apply' (x1 : (⟨S2048x16x8, .i32⟩ : BufTy).Contents (Elt F)) (b : Fin 2048) (a : Fin 64) (r : Fin 16) (k : Fin 8) :
    val_main_v6 (F := F) x1 (ix4 b a r k) = IntOp.cmpi .eq (x1 (ix3 b r k)) (BitVec.ofNat 32 a.val) := by
  have e : idx_main_v2 (idx_main_v4 (ix4 b a r k : S2048x64x16x8.Idx)) = ix3 b r k := by
    funext c
    match c with
    | ⟨0, _⟩ => rfl
    | ⟨1, _⟩ => rfl
    | ⟨2, _⟩ => rfl
  rw [val_main_v6_apply, val_main_v4_apply, val_main_v2_apply, val_main_v5_apply, val_main_v3_apply, val_main_v1_apply, e]

/-- Atom number `a` is in ring `r`. -/
theorem v7_eq_one_iff (x1 : (⟨S2048x16x8, .i32⟩ : BufTy).Contents (Elt F)) (b : Fin 2048) (a : Fin 64) (r : Fin 16) :
    val_main_v7 (F := F) x1 (ix3 b a r) = 1#1 ↔ Spec.inRing x1 b r (BitVec.ofNat 32 a.val) := by
  have hR : S2048x64x16x8.Reduces [3] S2048x64x16 := by decide
  unfold val_main_v7
  rw [Host.reduce_eq_fold_single IntOp.ori _ _ reducesTo_S2048x64x16x8_S2048x64x16_d3 hR h_S_, val_main_c_apply,
    fold_ori_eq_one_iff]
  unfold Spec.inRing
  have key : ∀ k : Fin 8, (val_main_v6 (F := F) x1 ∘ hR.lift (ix3 b a r)) k = 1#1 ↔ x1 (ix3 b r k) = BitVec.ofNat 32 a.val := by
    intro k
    show val_main_v6 (F := F) x1 (hR.lift (ix3 b a r) k) = 1#1 ↔ _
    rw [lift4 hR b a r k, v6_apply', cmpi_eq_one_iff]
  constructor
  · rintro ⟨k, -, hk⟩
    exact ⟨k, (key k).1 hk⟩
  · rintro ⟨k, hk⟩
    exact ⟨k, Finset.mem_univ _, (key k).2 hk⟩

theorem v13_apply' (x0 : (⟨S2048x64x6, .f32⟩ : BufTy).Contents (Elt F)) (x1 : (⟨S2048x16x8, .i32⟩ : BufTy).Contents (Elt F))
    (b : Fin 2048) (a : Fin 64) (d : Fin 6) (r : Fin 16) (k : Fin 8) :
    val_main_v13 (F := F) x0 x1 (ix5 b a d r k) = IntOp.cmpi .eq (x1 (ix3 b r k)) ((fptosi 32 x0 : IVec _ 32) (ix3 b a d)) := by
  have e : idx_main_v9 (idx_main_v11 (ix5 b a d r k : S2048x64x6x16x8.Idx)) = ix3 b r k := by
    funext c
    match c with
    | ⟨0, _⟩ => rfl
    | ⟨1, _⟩ => rfl
    | ⟨2, _⟩ => rfl
  have e' : idx_main_v10 (idx_main_v12 (ix5 b a d r k : S2048x64x6x16x8.Idx)) = ix3 b a d := by
    funext c
    match c with
    | ⟨0, _⟩ => rfl
    | ⟨1, _⟩ => rfl
    | ⟨2, _⟩ => rfl
  rw [val_main_v13_apply, val_main_v11_apply, val_main_v9_apply, val_main_v12_apply, val_main_v10_apply, e, e']
  rfl

/-- The neighbour in slot `(a, d)` is in ring `r`. -/
theorem v14_eq_one_iff (x0 : (⟨S2048x64x6, .f32⟩ : BufTy).Contents (Elt F)) (x1 : (⟨S2048x16x8, .i32⟩ : BufTy).Contents (Elt F))
    (b : Fin 2048) (a : Fin 64) (d : Fin 6) (r : Fin 16) :
    val_main_v14 (F := F) x0 x1 (ix4 b a d r) = 1#1 ↔ Spec.inRing x1 b r ((fptosi 32 x0 : IVec _ 32) (ix3 b a d)) := by
  have hR : S2048x64x6x16x8.Reduces [4] S2048x64x6x16 := by decide
  unfold val_main_v14
  rw [Host.reduce_eq_fold_single IntOp.ori _ _ reducesTo_S2048x64x6x16x8_S2048x64x6x16_d4 hR h_S_, val_main_c_0_apply,
    fold_ori_eq_one_iff]
  unfold Spec.inRing
  have key : ∀ k : Fin 8, (val_main_v13 (F := F) x0 x1 ∘ hR.lift (ix4 b a d r)) k = 1#1
      ↔ x1 (ix3 b r k) = (fptosi 32 x0 : IVec _ 32) (ix3 b a d) := by
    intro k
    show val_main_v13 (F := F) x0 x1 (hR.lift (ix4 b a d r) k) = 1#1 ↔ _
    rw [lift5 hR b a d r k, v13_apply', cmpi_eq_one_iff]
  constructor
  · rintro ⟨k, -, hk⟩
    exact ⟨k, (key k).1 hk⟩
  · rintro ⟨k, hk⟩
    exact ⟨k, Finset.mem_univ _, (key k).2 hk⟩

/-! ## Both tests at once, and the maximum over the rings -/

theorem muli_bits (p q : BitVec 1) :
    IntOp.muli (p.setWidth 32) (q.setWidth 32) = if p = 1#1 ∧ q = 1#1 then 1#32 else 0#32 := by
  rcases BitVec.eq_zero_or_eq_one p with rfl | rfl <;> rcases BitVec.eq_zero_or_eq_one q with rfl | rfl <;> decide

theorem zero_ne_one32 : (0#32 : BitVec 32) ≠ 1#32 := by decide

theorem cmpi_ne_of_ne {w : Nat} (x y : BitVec w) (h : x ≠ y) : IntOp.cmpi .ne x y = 1#1 := by
  show BitVec.ofBool (x != y) = 1#1
  have hb : (x != y) = true := by simpa using h
  rw [hb]
  rfl

open Classical in
/-- Ring `r` holds both the neighbour in slot `(a, d)` and atom `a`: the product of the two tests. -/
theorem v21_apply' (x0 : (⟨S2048x64x6, .f32⟩ : BufTy).Contents (Elt F)) (x1 : (⟨S2048x16x8, .i32⟩ : BufTy).Contents (Elt F))
    (b : Fin 2048) (a : Fin 64) (d : Fin 6) (r : Fin 16) :
    val_main_v21 (F := F) x0 x1 (ix4 b a d r)
      = if Spec.inRing x1 b r ((fptosi 32 x0 : IVec _ 32) (ix3 b a d)) ∧ Spec.inRing x1 b r (BitVec.ofNat 32 a.val)
        then 1#32 else 0#32 := by
  have e : idx_main_v19 (idx_main_v20 (ix4 b a d r : S2048x64x6x16.Idx)) = ix3 b a r := by
    funext c
    match c with
    | ⟨0, _⟩ => rfl
    | ⟨1, _⟩ => rfl
    | ⟨2, _⟩ => rfl
  rw [val_main_v21_apply, val_main_v15_apply, val_main_v20_apply, val_main_v19_apply, val_main_v8_apply, e, muli_bits]
  by_cases h : Spec.inRing x1 b r ((fptosi 32 x0 : IVec _ 32) (ix3 b a d)) ∧ Spec.inRing x1 b r (BitVec.ofNat 32 a.val)
  · rw [if_pos h, if_pos ⟨(v14_eq_one_iff x0 x1 b a d r).2 h.1, (v7_eq_one_iff x1 b a r).2 h.2⟩]
  · rw [if_neg h, if_neg (fun h' => h ⟨(v14_eq_one_iff x0 x1 b a d r).1 h'.1, (v7_eq_one_iff x1 b a r).1 h'.2⟩)]

open Classical in
/-- The maximum over the rings: 1 at a ring bond, 0 elsewhere. -/
theorem v22_apply' (x0 : (⟨S2048x64x6, .f32⟩ : BufTy).Contents (Elt F)) (x1 : (⟨S2048x16x8, .i32⟩ : BufTy).Contents (Elt F))
    (b : Fin 2048) (a : Fin 64) (d : Fin 6) :
    val_main_v22 (F := F) x0 x1 (ix3 b a d) = if Spec.ringBond (fptosi 32 x0) x1 b a d then 1#32 else 0#32 := by
  have hR : S2048x64x6x16.Reduces [3] S2048x64x6 := by decide
  have key : ∀ k : Fin 16, (val_main_v21 (F := F) x0 x1 ∘ hR.lift (ix3 b a d)) k
      = if Spec.inRing x1 b k ((fptosi 32 x0 : IVec _ 32) (ix3 b a d)) ∧ Spec.inRing x1 b k (BitVec.ofNat 32 a.val)
        then 1#32 else 0#32 := by
    intro k
    show val_main_v21 (F := F) x0 x1 (hR.lift (ix3 b a d) k) = _
    rw [lift4' hR b a d k, v21_apply']
  have hg : ∀ k : Fin 16, (val_main_v21 (F := F) x0 x1 ∘ hR.lift (ix3 b a d)) k = 0#32 ∨
      (val_main_v21 (F := F) x0 x1 ∘ hR.lift (ix3 b a d)) k = 1#32 := by
    intro k
    rw [key k]
    split
    · exact Or.inr rfl
    · exact Or.inl rfl
  have hone : ∀ k : Fin 16, (val_main_v21 (F := F) x0 x1 ∘ hR.lift (ix3 b a d)) k = 1#32 ↔
      (Spec.inRing x1 b k ((fptosi 32 x0 : IVec _ 32) (ix3 b a d)) ∧ Spec.inRing x1 b k (BitVec.ofNat 32 a.val)) := by
    intro k
    rw [key k]
    split
    · next h => exact ⟨fun _ => h, fun _ => rfl⟩
    · next h => exact ⟨fun h1 => absurd h1 zero_ne_one32, fun h1 => absurd h1 h⟩
  unfold val_main_v22
  rw [Host.reduce_eq_fold_single IntOp.maxsi _ _ reducesTo_S2048x64x6x16_S2048x64x6_d3 hR h_S_, val_main_c_2_apply]
  by_cases hb : Spec.ringBond (fptosi 32 x0) x1 b a d
  · rw [if_pos hb]
    obtain ⟨r, hr⟩ := hb
    exact fold_maxsi_bits_one (n := 15) _ hg ⟨r, (hone r).2 hr⟩
  · rw [if_neg hb]
    exact fold_maxsi_bits_zero (n := 15) _ hg (fun ⟨r, hr⟩ => hb ⟨r, (hone r).1 hr⟩)

/-- A neighbour number in `[0, 63]` is not the null marker `-1`: the validity factor is 1. -/
theorem v18_apply' (x0 : (⟨S2048x64x6, .f32⟩ : BufTy).Contents (Elt F))
    (hE : ∀ i, ((fptosi 32 x0 : IVec _ 32) i).toNat < 64) (j : S2048x64x6.Idx) : val_main_v18 (F := F) x0 j = 1#32 := by
  have hne : (fptosi 32 x0 : IVec _ 32) j ≠ 4294967295#32 := by
    intro e
    have h := hE j
    rw [e] at h
    exact absurd h (by decide)
  rw [val_main_v18_apply, val_main_v17_apply, val_main_v16_apply, val_main_c_1_apply]
  show (IntOp.cmpi .ne ((fptosi 32 x0 : IVec _ 32) j) 4294967295#32).setWidth 32 = 1#32
  rw [cmpi_ne_of_ne _ _ hne]
  rfl

open Classical in
theorem v23_apply' (x0 : (⟨S2048x64x6, .f32⟩ : BufTy).Contents (Elt F)) (x1 : (⟨S2048x16x8, .i32⟩ : BufTy).Contents (Elt F))
    (hE : ∀ i, ((fptosi 32 x0 : IVec _ 32) i).toNat < 64) (b : Fin 2048) (a : Fin 64) (d : Fin 6) :
    val_main_v23 (F := F) x0 x1 (ix3 b a d) = if Spec.ringBond (fptosi 32 x0) x1 b a d then 1#32 else 0#32 := by
  rw [val_main_v23_apply, v22_apply', v18_apply' x0 hE]
  simp [IntOp.muli]

/-! ## The reshape and the conversion to float -/

theorem idx51 (b : Fin 2048) (a : Fin 64) (d : Fin 6) (z : Fin 1) :
    idx_main_v51 (ix4 b a d z : S2048x64x6x1.Idx) = ix3 b a d := by
  have hb := b.isLt
  have ha := a.isLt
  have hd := d.isLt
  have hz := z.isLt
  funext c
  match c with
  | ⟨0, _⟩ =>
    apply Fin.ext
    show (((b.val * 64 + a.val) * 6 + d.val) * 1 + z.val) / 384 = b.val
    omega
  | ⟨1, _⟩ =>
    apply Fin.ext
    show (((b.val * 64 + a.val) * 6 + d.val) * 1 + z.val) / 6 % 64 = a.val
    omega
  | ⟨2, _⟩ =>
    apply Fin.ext
    show (((b.val * 64 + a.val) * 6 + d.val) * 1 + z.val) % 6 = d.val
    omega

/-- The word 1 converts to the real 1, which the word of 1.0 denotes. -/
theorem sitofp_one : FloatOps.sitofp (F := Ideal) .f32 (1#32 : BitVec 32) = (Spec.one : Ideal .f32) := by
  show (((1#32 : BitVec 32).toInt : ℝ) : EReal) = Ideal.ofBits .f32 0x3F800000#32
  have h1 : (1#32 : BitVec 32).toInt = 1 := by decide
  rw [h1]
  simp [Ideal.ofBits, Ideal.ieee]
  rw [← EReal.coe_mul]
  norm_num

/-- The word 0 converts to the real 0, which the word of 0.0 denotes. -/
theorem sitofp_zero : FloatOps.sitofp (F := Ideal) .f32 (0#32 : BitVec 32) = (Spec.zero : Ideal .f32) := by
  show (((0#32 : BitVec 32).toInt : ℝ) : EReal) = Ideal.ofBits .f32 0x00000000#32
  rw [Ideal.ofBits_zero_f32]
  simp

/-! ## The reference's result is the specification -/

open Classical in
/-- At every index the reference's result is the specification's: 1 at a ring bond, 0 elsewhere. -/
theorem ref_value (x0 : (⟨Cert.ReferenceIdeal.S2048x64x6, .f32⟩ : BufTy).Contents (Elt Ideal))
    (x1 : (⟨Cert.ReferenceIdeal.S2048x16x8, .i32⟩ : BufTy).Contents (Elt Ideal))
    (hE : ∀ i, ((fptosi (F := Ideal) (φ := .f32) 32 x0 : IVec _ 32) i).toNat < 64) (hR : ∀ i, (x1 i).toNat < 64) :
    Cert.ReferenceIdeal.Read.val_main_v52 (F := Ideal) x0 x1 = Cert.Proof.Spec.bonds (F := Ideal) (fptosi (F := Ideal) (φ := .f32) 32 x0) x1 := by
  funext i
  obtain ⟨b, a, d, z, rfl⟩ : ∃ b a d z, i = ix4 b a d z := ⟨_, _, _, _, eq_ix4 i⟩
  rw [val_main_v52_apply, val_main_v51_apply, idx51, v50_apply, v23_apply' x0 x1 hE]
  show _ = if Spec.ringBond (fptosi (F := Ideal) (φ := .f32) 32 x0) x1 b a d then Spec.one else Spec.zero
  by_cases hb : Spec.ringBond (fptosi (F := Ideal) (φ := .f32) 32 x0) x1 b a d
  · rw [if_pos hb, if_pos hb]
    exact sitofp_one
  · rw [if_neg hb, if_neg hb]
    exact sitofp_zero

end Cert.Proof.RefValue

end
-- ==== Proof.PreDecode.lean ====
/-
  The input-domain predicate, read back elementwise. The predicate is the conjunction of three "for all
  elements" claims: every neighbour entry is finite, every ring entry `r` satisfies `0 ≤ r ≤ 63` (signed),
  and every neighbour entry converted to a 32-bit integer `e` satisfies `0 ≤ e ≤ 63` (signed). A 32-bit
  word that is signed-nonnegative and signed-at-most 63 has unsigned value below 64. Hence, when the
  predicate is the constant 1, every ring entry and every converted neighbour entry is below 64 unsigned.
  The finiteness conjunct is not used.
-/
import proofs.«207480_g64682207477991_cont_9to1c4b_704_25_alg».proof.Pre_input_domain
import proofs.«207480_g64682207477991_cont_9to1c4b_704_25_alg».proof.Proof.Gen.Pre_input_domain
import Idealize.ShloMosaic.Lib.ReduceAll
import Idealize.ShloMosaic.Lib.StableHlo.Predicate
import Idealize.ShloMosaic.Lib.ValueIdx

noncomputable section

namespace Cert.Proof.PreDecode

open Idealize.ShloMosaic Idealize.ShloMosaic.ValueIdx
open Cert.Pre_input_domain

/-- The scalar shape has a single index. -/
instance subsingleton_S_ : Subsingleton S_.Idx := ⟨fun a b => funext fun d => d.elim0⟩

/-- A word in `[0, 63]` signed is below 64 unsigned. -/
theorem toNat_lt_64 (w : BitVec 32) (h0 : IntOp.cmpi .sge w (0#32) = 1#1) (h1 : IntOp.cmpi .sle w (63#32) = 1#1) :
    w.toNat < 64 := by
  rw [IntOp.cmpi_sge] at h0
  rw [IntOp.cmpi_sle] at h1
  have e0 : (0#32 : BitVec 32).toInt = 0 := by decide
  have e63 : (63#32 : BitVec 32).toInt = 63 := by decide
  rw [e0] at h0
  rw [e63] at h1
  have h32 := w.isLt
  rw [BitVec.toInt_eq_toNat_cond] at h0 h1
  split at h0 <;> omega

/-- Under the input-domain predicate, ring entries and converted neighbour entries are below 64. -/
theorem ranges {F : FTy → Type} [FloatOps F] (E : FVec F Cert.Pre_input_domain.S2048x64x6 .f32)
    (R : IVec Cert.Pre_input_domain.S2048x16x8 32)
    (h : Cert.Pre_input_domain.fn (F := F) E R = fun _ => 1#1) :
    (∀ i, (R i).toNat < 64) ∧ (∀ i, ((fptosi 32 E : IVec Cert.Pre_input_domain.S2048x64x6 32) i).toNat < 64) := by
  have h0 := congrFun h ix0
  dsimp only [Cert.Pre_input_domain.fn, Cert.Pre_input_domain.fn_part1] at h0
  obtain ⟨hA, hE⟩ := IntOp.andi_eq_one.1 h0
  obtain ⟨_, hR⟩ := IntOp.andi_eq_one.1 hA
  constructor
  · intro i
    have hi := Host.reduce_andi_all _ _ _ _ _ hR i
    obtain ⟨hge, hle⟩ := IntOp.andi_eq_one.1 hi
    exact toNat_lt_64 (R i) hge hle
  · intro i
    have hi := Host.reduce_andi_all _ _ _ _ _ hE i
    obtain ⟨hge, hle⟩ := IntOp.andi_eq_one.1 hi
    exact toNat_lt_64 _ hge hle

end Cert.Proof.PreDecode

end
-- ==== Proof.Reshape.lean ====
/-
  The three-axis statement of the result and its flattened-row statement agree under row-major reshaping.
  Neighbour slot `(a, d)` of a molecule sits at position `6 a + d` of its row of 384, ring member `(r, s)`
  at position `8 r + s` of its row of 128, and the result entry `(b, a, d, 0)` is read from position
  `6 a + d` of row `b`. Since `(6 a + d) / 6 = a`, "position `p` is a ring bond" over rows says exactly
  "slot `(a, d)` is a ring bond" over three axes, so the two result arrays coincide entry by entry.
-/
import proofs.«207480_g64682207477991_cont_9to1c4b_704_25_alg».proof.Proof.Spec
import Idealize.ShloMosaic.Lib.Pipeline.Value
import Idealize.ShloMosaic.Lib.ValueIdx

noncomputable section

namespace Cert.Proof.Reshape

open Idealize.ShloMosaic Idealize.ShloMosaic.ValueIdx
open Cert.Proof

/-- Neighbour slot `d` of atom `a` in a flattened row of 384. -/
abbrev slot (a : Fin 64) (d : Fin 6) : Fin 384 := ⟨6 * a.val + d.val, by omega⟩

/-- The flattened neighbour array at `(b, 6 a + d)` is the three-axis one at `(b, a, d)`. -/
theorem edges_at {α : Type} (E : Spec.SE3.Idx → α) (h1 : Spec.SE3.ShapeCasts Spec.SE2) (b : Fin 2048) (a : Fin 64) (d : Fin 6) :
    shapeCast Spec.SE2 E h1 (ix2 b (slot a d)) = E (ix3 b a d) := by
  refine shapeCast_apply E h1 _ _ ?_
  rw [Shape.rowMajor_val_three, Shape.rowMajor_val_two]
  show (b.val * 64 + a.val) * 6 + d.val = b.val * 384 + (6 * a.val + d.val)
  omega

/-- The flattened ring array at `(b, 8 r + s)` is the three-axis one at `(b, r, s)`. -/
theorem rings_at {α : Type} (R : Spec.SR3.Idx → α) (h2 : Spec.SR3.ShapeCasts Spec.SR2) (b : Fin 2048) (r : Fin 16) (s : Fin 8) :
    shapeCast Spec.SR2 R h2 (ix2 b (Spec.memb r s)) = R (ix3 b r s) := by
  refine shapeCast_apply R h2 _ _ ?_
  rw [Shape.rowMajor_val_three, Shape.rowMajor_val_two]
  show (b.val * 16 + r.val) * 8 + s.val = b.val * 128 + (8 * r.val + s.val)
  omega

/-- A four-axis result read at `(b, a, d, z)` comes from position `6 a + d` of row `b`. -/
theorem out_at {α : Type} (Y : Spec.SE2.Idx → α) (h3 : Spec.SE2.ShapeCasts Spec.SO4) (b : Fin 2048) (a : Fin 64) (d : Fin 6) (z : Fin 1) :
    shapeCast Spec.SO4 Y h3 (ix4 b a d z) = Y (ix2 b (slot a d)) := by
  refine shapeCast_apply Y h3 _ _ ?_
  rw [Shape.rowMajor_val_two, Shape.rowMajor_val_four]
  have hz : z.val = 0 := by omega
  show b.val * 384 + (6 * a.val + d.val) = ((b.val * 64 + a.val) * 6 + d.val) * 1 + z.val
  omega

/-- Over rows, position `6 a + d` is a ring bond exactly when slot `(a, d)` is one over three axes. -/
theorem ringBond2_iff (E : IVec Spec.SE3 32) (R : IVec Spec.SR3 32)
    (h1 : Spec.SE3.ShapeCasts Spec.SE2) (h2 : Spec.SR3.ShapeCasts Spec.SR2) (b : Fin 2048) (a : Fin 64) (d : Fin 6) :
    Spec.ringBond2 (shapeCast Spec.SE2 E h1) (shapeCast Spec.SR2 R h2) b (slot a d) ↔ Spec.ringBond E R b a d := by
  have hq : (6 * a.val + d.val) / 6 = a.val := by omega
  unfold Spec.ringBond2 Spec.ringBond Spec.inRing
  simp only [edges_at, rings_at, hq]

open Classical in
/-- The flattened specification, reshaped to four axes, is the three-axis specification. -/
theorem bonds_reshape {F : FTy → Type} [FloatOps F] (E : IVec Spec.SE3 32) (R : IVec Spec.SR3 32)
    (h1 : Spec.SE3.ShapeCasts Spec.SE2) (h2 : Spec.SR3.ShapeCasts Spec.SR2) (h3 : Spec.SE2.ShapeCasts Spec.SO4) :
    shapeCast Spec.SO4 (Spec.bonds2 (F := F) (shapeCast Spec.SE2 E h1) (shapeCast Spec.SR2 R h2)) h3 = Spec.bonds (F := F) E R := by
  funext i
  obtain ⟨b, a, d, z, rfl⟩ : ∃ (b : Fin 2048) (a : Fin 64) (d : Fin 6) (z : Fin 1), i = ix4 b a d z :=
    ⟨i 0, i 1, i 2, i 3, eq_ix4 i⟩
  rw [out_at]
  exact if_congr (ringBond2_iff E R h1 h2 b a d) rfl rfl

end Cert.Proof.Reshape

end
-- ==== Proof.ReshapeRange.lean ====
/-
  A row-major reshape only moves entries: the entry of the reshaped array at an index is an entry of the original
  array (the one at the same row-major position). So anything true of every entry before is true of every entry
  after; in particular a common bound on the entries read as natural numbers.
-/
import Idealize.ShloMosaic.PureOps

noncomputable section

namespace Cert.Proof.ReshapeRange

open Idealize.ShloMosaic

/-- A property of every entry survives a reshape. -/
theorem shapeCast_forall {s t : Shape} {α : Type} (x : s.Idx → α) (h : s.ShapeCasts t) (Pr : α → Prop)
    (hx : ∀ j, Pr (x j)) : ∀ i, Pr (shapeCast t x h i) :=
  fun i => hx (Shape.reshapeEquiv h i)

/-- A bound on every entry survives a reshape. -/
theorem shapeCast_lt {s t : Shape} (x : IVec s 32) (h : s.ShapeCasts t) (n : Nat) (hx : ∀ j, (x j).toNat < n) :
    ∀ i, ((shapeCast t x h : IVec t 32) i).toNat < n :=
  shapeCast_forall x h (fun w => w.toNat < n) hx

end Cert.Proof.ReshapeRange

end
-- ==== Proof.KI.Setup.lean ====
/-
  The idealized kernel's program as the SparseCore launch theorem sees it, and the interface between a tile's task
  and the launch. The thirty-two tiles (2 SparseCores x 16 vector subcores) each own a block of 64 consecutive
  molecules: tile `t = 16 c + i` reads rows `[64 t, 64 t + 64)` of the flattened neighbour array and of the flattened
  ring array and writes the same rows of the result. A SparseCore's share of the call is, by definition, the sixteen
  tile shares side by side, so that handing them to the tiles is the identity.
-/
import proofs.«207480_g64682207477991_cont_9to1c4b_704_25_alg».proof.Defs
import proofs.«207480_g64682207477991_cont_9to1c4b_704_25_alg».proof.Proof.Gen.KernelIdeal
import proofs.«207480_g64682207477991_cont_9to1c4b_704_25_alg».proof.Proof.Gen.KernelIdeal.Skeleton
import proofs.«207480_g64682207477991_cont_9to1c4b_704_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened neighbour array, the flattened ring array and the result, as locations of device `d`. -/
abbrev eLoc (d : Dev nD) : Loc nD τ sig := (SparseCore.T d).loc main_v1
abbrev rLoc (d : Dev nD) : Loc nD τ sig := (SparseCore.T d).loc main_v2
abbrev oLoc (d : Dev nD) : Loc nD τ sig := (SparseCore.T d).loc main_v3

abbrev eV : Memref sig .scVector .hbm S2048x384 .i32 := Memref.whole main_v1_scv
abbrev rV : Memref sig .scVector .hbm S2048x128 .i32 := Memref.whole main_v2_scv
abbrev oV : Memref sig .scVector .hbm S2048x384 .f32 := Memref.whole main_v3_scv
/-- A tile's scratch: the fetched neighbour rows, the fetched ring rows, the result rows, the atom of each position,
    the ring bitmap, and the two nibble-count tables. -/
abbrev sE : Memref sig .scVector .vmem S64x384 .i32 := Memref.whole cc0_scratch0
abbrev sR : Memref sig .scVector .vmem S64x128 .i32 := Memref.whole cc0_scratch1
abbrev sO : Memref sig .scVector .vmem S64x384 .f32 := Memref.whole cc0_scratch2
abbrev sA : Memref sig .scVector .vmem S384 .i32 := Memref.whole cc0_scratch3
abbrev sB : Memref sig .scVector .vmem S64 .i32 := Memref.whole cc0_scratch4
abbrev sTa : Memref sig .scVector .vmem S64 .i32 := Memref.whole cc0_scratch5
abbrev sTb : Memref sig .scVector .vmem S64 .i32 := Memref.whole cc0_scratch6

theorem hdivE : 32 ∣ S2048x384.size 0 := ⟨64, rfl⟩
theorem hdivR : 32 ∣ S2048x128.size 0 := ⟨64, rfl⟩
/-- Tile `t`'s block of 64 rows, in each of the three arrays. -/
abbrev blkE (t : Fin 32) : Rect S2048x384 := Rect.part (s := S2048x384) (a₀ := 0) hdivE t
abbrev blkR (t : Fin 32) : Rect S2048x128 := Rect.part (s := S2048x128) (a₀ := 0) hdivR t
abbrev eSet (t : Fin 32) : Finset S2048x384.Idx := ((eV : Memref sig .scVector .hbm S2048x384 .i32).view.slice (blkE t)).set
abbrev rSet (t : Fin 32) : Finset S2048x128.Idx := ((rV : Memref sig .scVector .hbm S2048x128 .i32).view.slice (blkR t)).set
abbrev oSet (t : Fin 32) : Finset S2048x384.Idx := ((oV : Memref sig .scVector .hbm S2048x384 .f32).view.slice (blkE t)).set

/-- The tile of SparseCore `c`, vector subcore `i`. -/
def tileOf (c : Fin 2) (i : Fin 16) : Fin 32 := ⟨16 * c.val + i.val, by omega⟩

variable [FloatOps F]

/-! ## What the call hands a tile and takes back

The contents `E1`, `R2` of the two flattened arrays when the call starts are parameters here (the launch supplies
what @main's operations before the call leave); every word of both names an atom (`< 64`). -/

section Shares

variable (E1 : Dev nD → IVec S2048x384 32) (R2 : Dev nD → IVec S2048x128 32)

/-- Before: the tile's rows of the two inputs at their contents, its rows of the result at whatever they hold. -/
def tilePre (d : Dev nD) (t : Fin 32) : sProp 𝕄 :=
  iprop((eLoc d ↦[eSet t]{fullShare} (E1 d)) ∗ (rLoc d ↦[rSet t]{fullShare} (R2 d)) ∗ ∃ f : Buf (Elt F) (oLoc d), (oLoc d ↦[oSet t]{fullShare} f))
/-- After: the inputs' rows as they were, the result's rows at the specification. -/
def tilePost (d : Dev nD) (t : Fin 32) : sProp 𝕄 :=
  iprop((eLoc d ↦[eSet t]{fullShare} (E1 d)) ∗ (rLoc d ↦[rSet t]{fullShare} (R2 d))
    ∗ (oLoc d ↦[oSet t]{fullShare} (Cert.Proof.Spec.bonds2 (F := F) (E1 d) (R2 d))))

instance tilePre_storable (d : Dev nD) (t : Fin 32) : BI.Storable (upEmb : UEmb _ 𝕄) (tilePre (F := F) E1 R2 d t) := by
  unfold tilePre; infer_instance
instance tilePost_storable (d : Dev nD) (t : Fin 32) : BI.Storable (upEmb : UEmb _ 𝕄) (tilePost (F := F) E1 R2 d t) := by
  unfold tilePost; infer_instance

/-- The one call: a SparseCore takes its sixteen tiles' shares and brings them back; a tile takes its own. -/
def P : (K (F := F)).Pay (nD := nD) (Val := Elt F) (Name := ℕ) (U := UU) where
  st := fun q d c => match q with
    | 0 => bigSep (Finset.univ : Finset (Fin 16)) fun i => tilePre (F := F) E1 R2 d (tileOf (Fin.cast nCore_zero c) i)
  dn := fun q d c => match q with
    | 0 => bigSep (Finset.univ : Finset (Fin 16)) fun i => tilePost (F := F) E1 R2 d (tileOf (Fin.cast nCore_zero c) i)
  go := fun q d c i => match q with
    | 0 => tilePre (F := F) E1 R2 d (tileOf (Fin.cast nCore_zero c) (Fin.cast nSub_zero i))
  td := fun q d c i => match q with
    | 0 => tilePost (F := F) E1 R2 d (tileOf (Fin.cast nCore_zero c) (Fin.cast nSub_zero i))
  x := fun _ _ => iprop(emp)

instance P_storable : (P (F := F) E1 R2).IsStorable where
  st q d c := match q with | 0 => by unfold P; infer_instance
  dn q d c := match q with | 0 => by unfold P; infer_instance
  go q d c i := match q with | 0 => by unfold P; infer_instance
  td q d c i := match q with | 0 => by unfold P; infer_instance

end Shares

/-! ## A tile's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile at grid coordinates `L`. -/
abbrev tL (L : grid0.Coords) : Fin 32 := tileOf (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.KI.Inv.lean ====
/-
  The invariant of a tile's loop over its 64 molecules. The three scratch buffers the loop only reads hold fixed
  contents: the tile's neighbour rows `eF`, its ring rows `rF`, and the atom of each row position `aF`. After `k`
  trips the first `k` rows of the result scratch hold the specification of those rows; the bitmap and the two count
  tables hold whatever the last trip left (every trip rebuilds them from zero).
-/
import proofs.«207480_g64682207477991_cont_9to1c4b_704_25_alg».proof.Proof.KI.Setup

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inv

variable (d : Dev nD) (L : grid0.Coords)

/-- The tile's thread. -/
abbrev thr : Thread nD τ := V d (cV L) (jV L)

/-- After `k` trips. -/
def inv (eF : IVec S64x384 32) (rF : IVec S64x128 32) (aF : IVec S384 32) (k : Nat) (_ : PUnit) : sProp 𝕄 :=
  iprop(((sE : Memref sig .scVector .vmem S64x384 .i32).view.loc (thr d L) ↦{fullShare} eF)
    ∗ ((sR : Memref sig .scVector .vmem S64x128 .i32).view.loc (thr d L) ↦{fullShare} rF)
    ∗ ((sA : Memref sig .scVector .vmem S384 .i32).view.loc (thr d L) ↦{fullShare} aF)
    ∗ (∃ fo : Buf (Elt F) ((thr d L).loc cc0_scratch2),
        ⌜∀ b : Fin 64, b.val < k → ∀ p : Fin 384, fo (ix2 b p) = Cert.Proof.Spec.bonds2 (F := F) eF rF (ix2 b p)⌝
        ∗ ((sO : Memref sig .scVector .vmem S64x384 .f32).view.loc (thr d L) ↦{fullShare} fo))
    ∗ (∃ f : Buf (Elt F) ((thr d L).loc cc0_scratch4), ((sB : Memref sig .scVector .vmem S64 .i32).view.loc (thr d L) ↦{fullShare} f))
    ∗ (∃ f : Buf (Elt F) ((thr d L).loc cc0_scratch5), ((sTa : Memref sig .scVector .vmem S64 .i32).view.loc (thr d L) ↦{fullShare} f))
    ∗ (∃ f : Buf (Elt F) ((thr d L).loc cc0_scratch6), ((sTb : Memref sig .scVector .vmem S64 .i32).view.loc (thr d L) ↦{fullShare} f)))

end Inv

end Cert.Proof.KI

end
-- ==== Proof.Bitmap.lean ====
/-
  Ring-membership bitmaps, as arithmetic on 32-bit words.

  A word holds eight 4-bit fields. Scatter-adding `16 ^ r` once per member of ring `r` that equals atom `a`
  leaves in field `r` of the atom's word the number of such members (at most 8, so no carry leaves a field).
  Folding each field onto its lowest bit turns the counts into one membership bit per ring, and two atoms share
  a ring exactly when their membership words have a common set bit.
-/
import Idealize.ShloMosaic.PureOps
import Idealize.ShloMosaic.Lib.ValueIdx
import Mathlib.Algebra.BigOperators.Fin
import Mathlib.Data.BitVec
import Mathlib.Tactic.IntervalCases
import Mathlib.Tactic.FinCases
import proofs.«207480_g64682207477991_cont_9to1c4b_704_25_alg».proof.Proof.Spec

namespace Cert.Proof.Bitmap

open Idealize.ShloMosaic Idealize.ShloMosaic.ValueIdx

/-! ## The scatter-add, read at one element -/

section ScatterAdd
variable {F : FTy → Type} [FloatOps F]

/-- One lane of the scatter-add: lane `k` adds `v k` onto the element its index names. -/
private def step (idx v : IVec ⟨1, ![16]⟩ 32) (g : IVec ⟨1, ![64]⟩ 32) (k : Fin 16) : IVec ⟨1, ![64]⟩ 32 :=
  fun j => if (j 0).val = (idx (ix1 k)).toNat then g j + v (ix1 k) else g j

/-- Folding the lanes of a list onto `g` adds, at element `j`, the values of the lanes that name `j`:
    word addition is associative, so the sum can be taken first. -/
private theorem foldl_step_apply (idx v : IVec ⟨1, ![16]⟩ 32) (j : Fin 64) (l : List (Fin 16)) (g : IVec ⟨1, ![64]⟩ 32) :
    (l.foldl (step idx v) g) (ix1 j)
      = g (ix1 j) + (l.map fun k => if (idx (ix1 k)).toNat = j.val then v (ix1 k) else 0).sum := by
  induction l generalizing g with
  | nil => simp
  | cons k l ih =>
    rw [List.foldl_cons, ih, List.map_cons, List.sum_cons, ← add_assoc]
    congr 1
    unfold step
    by_cases hk : (idx (ix1 k)).toNat = j.val
    · simp [hk]
    · have : ¬ j.val = (idx (ix1 k)).toNat := fun e => hk e.symm
      simp [hk, this]

/-- A scatter-add of sixteen lanes into sixty-four words, every lane set: element `j` afterwards is element `j`
    before plus the sum of the values of the lanes whose index is `j`. -/
theorem storeIdx_add_apply (f : IVec ⟨1, ![64]⟩ 32) (idx : IVec ⟨1, ![16]⟩ 32) (v : IVec ⟨1, ![16]⟩ 32)
    (h : ∀ a x, ((![idx] : Fin 1 → IVec ⟨1, ![16]⟩ 32) a x).toNat < (⟨1, ![64]⟩ : Shape).size a) (j : Fin 64) :
    storeIdx (F := F) (e := .i32) f ![idx] v (fun _ => 1) true h (ix1 j)
      = f (ix1 j) + ∑ k : Fin 16, if (idx (ix1 k)).toNat = j.val then v (ix1 k) else 0 := by
  rw [Fin.sum_univ_def, ← foldl_step_apply]
  unfold storeIdx
  refine congrFun (congrArg (fun s : IVec ⟨1, ![64]⟩ 32 → Fin 16 → IVec ⟨1, ![64]⟩ 32 =>
    List.foldl s f (List.finRange 16)) ?_) (ix1 j)
  refine funext fun (g : IVec ⟨1, ![64]⟩ 32) => funext fun (k : Fin 16) =>
    funext fun (j' : (⟨1, ![64]⟩ : Shape).Idx) => ?_
  have hx : (Shape.ofLane (d := ![16]) k : (⟨1, ![16]⟩ : Shape).Idx) = ix1 (n := 16) k := by
    funext a; match a with | ⟨0, _⟩ => rfl
  show (if (1 : BitVec 1) = 1 then (fun j'' : (⟨1, ![64]⟩ : Shape).Idx =>
      if ∀ a, (j'' a).val = (idxAt ![idx] h (Shape.ofLane k) a).val
        then g (idxAt ![idx] h (Shape.ofLane k)) + v (Shape.ofLane k) else g j'') else g) j' = _
  rw [if_pos rfl, hx]
  unfold step
  by_cases hc : (j' 0).val = (idx (ix1 k)).toNat
  · have hi : idxAt ![idx] h (ix1 k) = j' := by
      funext a; match a with | ⟨0, _⟩ => exact Fin.ext hc.symm
    rw [if_pos hc, hi, if_pos (fun _ => rfl)]
  · rw [if_neg hc, if_neg]
    intro hall; exact hc (hall 0)

end ScatterAdd

/-! ## Folding the 4-bit fields -/

/-- Each 4-bit field of `w` folded onto its lowest bit: `((w | w >> 1) | ((w | w >> 1) >> 2)) & 0x11111111`. -/
def fold (w : BitVec 32) : BitVec 32 :=
  IntOp.andi (IntOp.ori (IntOp.ori w (IntOp.shrui .vector w 1#32))
    (IntOp.shrui .vector (IntOp.ori w (IntOp.shrui .vector w 1#32)) 2#32)) 286331153#32

theorem fold_eq (w : BitVec 32) :
    fold w = ((w ||| w >>> 1) ||| ((w ||| w >>> 1) >>> 2)) &&& 286331153#32 := rfl

/-- `0x11111111` has exactly the bits `0, 4, …, 28`. -/
theorem mask_getLsbD (i : ℕ) : (286331153#32 : BitVec 32).getLsbD i = decide (i < 32 ∧ i % 4 = 0) := by
  by_cases hi : i < 32
  · interval_cases i <;> rfl
  · rw [BitVec.getLsbD_of_ge _ _ (by omega)]; simp [hi]

/-- Bit `i` of the fold: at the bottom of a field, the disjunction of the field's four bits; elsewhere clear. -/
theorem fold_getLsbD (w : BitVec 32) (i : ℕ) :
    (fold w).getLsbD i = (decide (i < 32 ∧ i % 4 = 0) &&
      (w.getLsbD i || w.getLsbD (i + 1) || w.getLsbD (i + 2) || w.getLsbD (i + 3))) := by
  rw [fold_eq]
  simp only [BitVec.getLsbD_and, BitVec.getLsbD_or, BitVec.getLsbD_ushiftRight, mask_getLsbD]
  rw [show 1 + i = i + 1 by omega, show 2 + i = i + 2 by omega, show 1 + (i + 2) = i + 3 by omega]
  generalize w.getLsbD i = a, w.getLsbD (i + 1) = b, w.getLsbD (i + 2) = c, w.getLsbD (i + 3) = d,
    decide (i < 32 ∧ i % 4 = 0) = m
  cases a <;> cases b <;> cases c <;> cases d <;> cases m <;> rfl

/-- Field `n` of the sum of eight counts `c m ≤ 8` placed at `16 ^ m` is `c n`: no carry leaves a field. -/
theorem packed_div (c : Fin 8 → ℕ) (hc : ∀ n, c n ≤ 8) (n : Fin 8) :
    (∑ m : Fin 8, c m * 16 ^ m.val) / 16 ^ n.val % 16 = c n := by
  have h0 := hc 0; have h1 := hc 1; have h2 := hc 2; have h3 := hc 3
  have h4 := hc 4; have h5 := hc 5; have h6 := hc 6; have h7 := hc 7
  simp only [Fin.sum_univ_eight]
  fin_cases n <;> simp <;> omega

theorem packed_testBit (c : Fin 8 → ℕ) (hc : ∀ n, c n ≤ 8) (n : Fin 8) (i : ℕ) (hi : i < 4) :
    (∑ m : Fin 8, c m * 16 ^ m.val).testBit (4 * n.val + i) = (c n).testBit i := by
  rw [← packed_div c hc n]
  have e : (16 : ℕ) ^ n.val = 2 ^ (4 * n.val) := by rw [pow_mul]; norm_num
  rw [e, show (16 : ℕ) = 2 ^ 4 by norm_num, Nat.testBit_mod_two_pow, Nat.testBit_div_two_pow]
  simp [hi, Nat.add_comm]

theorem nibble_ne_zero (x : ℕ) (hx : x ≤ 8) :
    (x.testBit 0 || x.testBit 1 || x.testBit 2 || x.testBit 3) = decide (x ≠ 0) := by
  interval_cases x <;> rfl

/-- The word whose field `m` holds the count `c m`. -/
def pack (c : Fin 8 → ℕ) : BitVec 32 := BitVec.ofNat 32 (∑ m : Fin 8, c m * 16 ^ m.val)

/-- The four bits of field `n` of a packed word are not all clear exactly when its count is not zero. -/
theorem pack_field (c : Fin 8 → ℕ) (hc : ∀ n, c n ≤ 8) (n : Fin 8) :
    ((pack c).getLsbD (4 * n.val) || (pack c).getLsbD (4 * n.val + 1) || (pack c).getLsbD (4 * n.val + 2)
      || (pack c).getLsbD (4 * n.val + 3)) = decide (c n ≠ 0) := by
  have hn := n.isLt
  have t0 := packed_testBit c hc n 0 (by omega)
  have t1 := packed_testBit c hc n 1 (by omega)
  have t2 := packed_testBit c hc n 2 (by omega)
  have t3 := packed_testBit c hc n 3 (by omega)
  rw [Nat.add_zero] at t0
  unfold pack
  simp only [BitVec.getLsbD_ofNat, t0, t1, t2, t3]
  rw [← nibble_ne_zero (c n) (hc n)]
  simp [show 4 * n.val < 32 by omega, show 4 * n.val + 1 < 32 by omega, show 4 * n.val + 2 < 32 by omega,
    show 4 * n.val + 3 < 32 by omega]

/-- Bit `i` of the folded packed word is set exactly when `i = 4 n` for a field `n` whose count is not zero;
    every other bit is clear. -/
theorem fold_pack_getLsbD (c : Fin 8 → ℕ) (hc : ∀ n, c n ≤ 8) (i : ℕ) :
    (fold (pack c)).getLsbD i = true ↔ ∃ n : Fin 8, i = 4 * n.val ∧ c n ≠ 0 := by
  rw [fold_getLsbD]
  constructor
  · intro h
    rw [Bool.and_eq_true, decide_eq_true_eq] at h
    obtain ⟨⟨hi, h4⟩, hb⟩ := h
    have hi' : i = 4 * (⟨i / 4, by omega⟩ : Fin 8).val := by simp only; omega
    refine ⟨⟨i / 4, by omega⟩, hi', ?_⟩
    rw [hi', pack_field c hc, decide_eq_true_eq] at hb
    exact hb
  · rintro ⟨n, rfl, hn⟩
    have := n.isLt
    rw [pack_field c hc, Bool.and_eq_true, decide_eq_true_eq, decide_eq_true_eq]
    exact ⟨⟨by omega, by omega⟩, hn⟩

/-! ## The count words and the membership word of an atom -/

/-- The value lane `k` of the `j`-th scatter-add of a table carries: `16 ^ (2 j)` on the low eight lanes (ring `2 j` of
    the table's eight), `16 ^ (2 j + 1)` on the high eight (ring `2 j + 1`). -/
def laneVal (j : Fin 4) (k : Fin 16) : BitVec 32 :=
  if k.val < 8 then BitVec.ofNat 32 (16 ^ (2 * j.val)) else BitVec.ofNat 32 (16 ^ (2 * j.val + 1))

/-- What the scatter-add of lanes `[16 c, 16 c + 16)` of the row, with the values `laneVal j`, adds at atom `a`. -/
def scat (Rrow : Fin 128 → BitVec 32) (c : Fin 8) (j : Fin 4) (a : Fin 64) : BitVec 32 :=
  ∑ k : Fin 16, if (Rrow ⟨16 * c.val + k.val, by omega⟩).toNat = a.val then laneVal j k else 0

/-- The count word of atom `a` over rings 0 to 7: zero, then four scatter-adds. -/
def ta (Rrow : Fin 128 → BitVec 32) (a : Fin 64) : BitVec 32 :=
  0 + scat Rrow 0 0 a + scat Rrow 1 1 a + scat Rrow 2 2 a + scat Rrow 3 3 a

/-- The count word of atom `a` over rings 8 to 15. -/
def tb (Rrow : Fin 128 → BitVec 32) (a : Fin 64) : BitVec 32 :=
  0 + scat Rrow 4 0 a + scat Rrow 5 1 a + scat Rrow 6 2 a + scat Rrow 7 3 a

/-- The membership word of two count words: bit `4 n` for ring `n`, bit `4 n + 1` for ring `8 + n`. -/
def rbOf (wa wb : BitVec 32) : BitVec 32 := IntOp.ori (fold wa) (IntOp.shli .vector (fold wb) 1#32)

/-- The membership word of atom `a`. -/
def rb (Rrow : Fin 128 → BitVec 32) (a : Fin 64) : BitVec 32 := rbOf (ta Rrow a) (tb Rrow a)

end Cert.Proof.Bitmap
-- ==== Proof.BitmapRing.lean ====
/-
  Which atoms share a ring, read off the membership words.

  The count word of an atom is the packed word of its eight per-ring counts (each scatter-add serves two rings,
  one per half of its lanes), so its fold has bit `4 n` set exactly when ring `n` holds the atom. The membership
  word joins the folds of the two count words, the second moved up one bit; each of the sixteen rings owns one
  bit of it, and two atoms share a ring exactly when their membership words have a common set bit.
-/
import Mathlib.Algebra.BigOperators.Fin
import Mathlib.Data.BitVec
import proofs.«207480_g64682207477991_cont_9to1c4b_704_25_alg».proof.Proof.Spec
import proofs.«207480_g64682207477991_cont_9to1c4b_704_25_alg».proof.Proof.Bitmap

namespace Cert.Proof.Bitmap

open Idealize.ShloMosaic Idealize.ShloMosaic.ValueIdx

/-! ## The count words are packed counts -/

open Cert.Proof.Spec (memb)

/-- How many of the eight members of ring `r` are atom `a`. -/
def cnt (Rrow : Fin 128 → BitVec 32) (r : Fin 16) (a : Fin 64) : ℕ :=
  ∑ s : Fin 8, if (Rrow (memb r s)).toNat = a.val then 1 else 0

theorem cnt_le (Rrow : Fin 128 → BitVec 32) (r : Fin 16) (a : Fin 64) : cnt Rrow r a ≤ 8 := by
  unfold cnt
  calc (∑ s : Fin 8, if (Rrow (memb r s)).toNat = a.val then 1 else 0)
      ≤ ∑ _s : Fin 8, 1 := Finset.sum_le_sum fun s _ => by split <;> omega
    _ = 8 := by simp

theorem cnt_ne_zero (Rrow : Fin 128 → BitVec 32) (r : Fin 16) (a : Fin 64) :
    cnt Rrow r a ≠ 0 ↔ ∃ s : Fin 8, (Rrow (memb r s)).toNat = a.val := by
  unfold cnt
  rw [Ne, Finset.sum_eq_zero_iff]
  constructor
  · intro h
    by_contra hne
    exact h fun s _ => by
      rw [if_neg]; exact fun hs => hne ⟨s, hs⟩
  · rintro ⟨s, hs⟩ h
    have := h s (Finset.mem_univ s)
    rw [if_pos hs] at this
    exact absurd this (by decide)

/-- A sum of copies of one word, over the indices a predicate selects, is the word of the count times it. -/
theorem sum_ite_ofNat (P : Fin 8 → Prop) [DecidablePred P] (x : ℕ) :
    (∑ s : Fin 8, if P s then BitVec.ofNat 32 x else 0)
      = BitVec.ofNat 32 ((∑ s : Fin 8, if P s then 1 else 0) * x) := by
  rw [Finset.sum_mul]
  simp only [← BitVec.natCast_eq_ofNat]
  rw [Nat.cast_sum]
  refine Finset.sum_congr rfl fun s _ => ?_
  by_cases h : P s <;> simp [h]

/-- One scatter-add serves two rings: its low eight lanes count ring `2 c`, its high eight ring `2 c + 1`. -/
theorem scat_eq (Rrow : Fin 128 → BitVec 32) (c : Fin 8) (j : Fin 4) (a : Fin 64) :
    scat Rrow c j a = BitVec.ofNat 32 (cnt Rrow ⟨2 * c.val, by omega⟩ a * 16 ^ (2 * j.val)
      + cnt Rrow ⟨2 * c.val + 1, by omega⟩ a * 16 ^ (2 * j.val + 1)) := by
  unfold scat
  have hsplit := Fin.sum_univ_add (a := 8) (b := 8)
    (fun k : Fin 16 => if (Rrow ⟨16 * c.val + k.val, by omega⟩).toNat = a.val then laneVal j k else 0)
  refine hsplit.trans ?_
  rw [BitVec.ofNat_add]
  refine congrArg₂ (· + ·) ?_ ?_
  · unfold cnt
    rw [← sum_ite_ofNat]
    refine Finset.sum_congr rfl fun s _ => ?_
    have hidx : (⟨16 * c.val + (Fin.castAdd 8 s).val, by omega⟩ : Fin 128) = memb ⟨2 * c.val, by omega⟩ s := by
      apply Fin.ext; simp only [Fin.coe_castAdd]; omega
    have hv : laneVal j (Fin.castAdd 8 s) = BitVec.ofNat 32 (16 ^ (2 * j.val)) := by
      unfold laneVal; rw [if_pos (by simp only [Fin.coe_castAdd]; omega)]
    simp only [hidx, hv]
  · unfold cnt
    rw [← sum_ite_ofNat]
    refine Finset.sum_congr rfl fun s _ => ?_
    have hidx : (⟨16 * c.val + (Fin.natAdd 8 s).val, by omega⟩ : Fin 128) = memb ⟨2 * c.val + 1, by omega⟩ s := by
      apply Fin.ext; simp only [Fin.coe_natAdd]; omega
    have hv : laneVal j (Fin.natAdd 8 s) = BitVec.ofNat 32 (16 ^ (2 * j.val + 1)) := by
      unfold laneVal; rw [if_neg (by simp only [Fin.coe_natAdd]; omega)]
    simp only [hidx, hv]

/-- The count word over rings 0 to 7 is the packed word of their counts. -/
theorem ta_eq (Rrow : Fin 128 → BitVec 32) (a : Fin 64) :
    ta Rrow a = pack fun n => cnt Rrow ⟨n.val, by omega⟩ a := by
  unfold ta pack
  rw [scat_eq, scat_eq, scat_eq, scat_eq, zero_add, ← BitVec.ofNat_add, ← BitVec.ofNat_add, ← BitVec.ofNat_add]
  congr 1
  simp [Fin.sum_univ_eight]
  omega

/-- The count word over rings 8 to 15 is the packed word of their counts. -/
theorem tb_eq (Rrow : Fin 128 → BitVec 32) (a : Fin 64) :
    tb Rrow a = pack fun n => cnt Rrow ⟨8 + n.val, by omega⟩ a := by
  unfold tb pack
  rw [scat_eq, scat_eq, scat_eq, scat_eq, zero_add, ← BitVec.ofNat_add, ← BitVec.ofNat_add, ← BitVec.ofNat_add]
  congr 1
  simp [Fin.sum_univ_eight]
  omega

/-! ## The membership word, bit by bit -/

theorem rbOf_eq (wa wb : BitVec 32) : rbOf wa wb = fold wa ||| (fold wb <<< 1) := rfl

theorem rbOf_getLsbD (wa wb : BitVec 32) (i : ℕ) :
    (rbOf wa wb).getLsbD i
      = ((fold wa).getLsbD i || (decide (i < 32) && !decide (i < 1) && (fold wb).getLsbD (i - 1))) := by
  rw [rbOf_eq, BitVec.getLsbD_or, BitVec.getLsbD_shiftLeft]

/-- The bit of the membership word that ring `r` owns. -/
def bitOf (r : Fin 16) : ℕ := if r.val < 8 then 4 * r.val else 4 * (r.val - 8) + 1

theorem bitOf_inj {r r' : Fin 16} (h : bitOf r = bitOf r') : r = r' := by
  unfold bitOf at h
  apply Fin.ext
  split_ifs at h <;> omega

/-- Bit `i` of an atom's membership word is set exactly when `i` is the bit of a ring that holds the atom. -/
theorem rb_getLsbD (Rrow : Fin 128 → BitVec 32) (a : Fin 64) (i : ℕ) :
    (rb Rrow a).getLsbD i = true ↔ ∃ r : Fin 16, i = bitOf r ∧ cnt Rrow r a ≠ 0 := by
  unfold rb
  rw [rbOf_getLsbD, ta_eq, tb_eq, Bool.or_eq_true, Bool.and_eq_true, Bool.and_eq_true,
    fold_pack_getLsbD _ (fun n => cnt_le _ _ _), fold_pack_getLsbD _ (fun n => cnt_le _ _ _)]
  constructor
  · rintro (⟨n, hi, hn⟩ | ⟨⟨_, h1⟩, n, hi, hn⟩)
    · have := n.isLt
      exact ⟨⟨n.val, by omega⟩, by unfold bitOf; rw [if_pos (by simpa using this)]; exact hi, hn⟩
    · have := n.isLt
      have h1' : ¬ i < 1 := by simpa using h1
      refine ⟨⟨8 + n.val, by omega⟩, ?_, hn⟩
      unfold bitOf; rw [if_neg (by simp only; omega)]; simp only; omega
  · rintro ⟨r, hi, hr⟩
    by_cases h8 : r.val < 8
    · left
      refine ⟨⟨r.val, h8⟩, ?_, hr⟩
      unfold bitOf at hi; rw [if_pos h8] at hi; exact hi
    · right
      have := r.isLt
      unfold bitOf at hi; rw [if_neg h8] at hi
      refine ⟨⟨by simp only [decide_eq_true_eq]; omega, by simp; omega⟩, ⟨r.val - 8, by omega⟩, by simp only; omega, ?_⟩
      have e : (⟨8 + (⟨r.val - 8, by omega⟩ : Fin 8).val, by simp only; omega⟩ : Fin 16) = r := by
        apply Fin.ext; simp only; omega
      simp only [e]; exact hr

theorem ne_zero_iff_getLsbD (x : BitVec 32) : x ≠ 0 ↔ ∃ i, x.getLsbD i = true := by
  constructor
  · intro h
    by_contra hne
    apply h
    apply BitVec.eq_of_getLsbD_eq
    intro i hi
    have : x.getLsbD i ≠ true := fun e => hne ⟨i, e⟩
    simpa using this
  · rintro ⟨i, hi⟩ h0
    rw [h0] at hi
    simp at hi

/-- Two atoms' membership words have a common set bit exactly when some ring holds both atoms. -/
theorem rb_and_ne_zero (Rrow : Fin 128 → BitVec 32) (a a' : Fin 64) :
    (rb Rrow a &&& rb Rrow a') ≠ 0 ↔
      ∃ r : Fin 16, (∃ s : Fin 8, (Rrow (memb r s)).toNat = a.val) ∧ (∃ s : Fin 8, (Rrow (memb r s)).toNat = a'.val) := by
  rw [ne_zero_iff_getLsbD]
  constructor
  · rintro ⟨i, hi⟩
    rw [BitVec.getLsbD_and, Bool.and_eq_true, rb_getLsbD, rb_getLsbD] at hi
    obtain ⟨⟨r, hr, hc⟩, ⟨r', hr', hc'⟩⟩ := hi
    have : r = r' := bitOf_inj (hr.symm.trans hr')
    subst this
    exact ⟨r, (cnt_ne_zero _ _ _).1 hc, (cnt_ne_zero _ _ _).1 hc'⟩
  · rintro ⟨r, h1, h2⟩
    refine ⟨bitOf r, ?_⟩
    rw [BitVec.getLsbD_and, Bool.and_eq_true, rb_getLsbD, rb_getLsbD]
    exact ⟨⟨r, rfl, (cnt_ne_zero _ _ _).2 h1⟩, ⟨r, rfl, (cnt_ne_zero _ _ _).2 h2⟩⟩

end Cert.Proof.Bitmap
-- ==== Proof.KI.Lane.lean ====
/-
  The values the count words are built from and read by, lane by lane.

  A count word holds eight 4-bit fields, one per ring. The lanes of a register that scatter-adds ring members onto
  atoms carry `16 ^ r`: the first eight lanes belong to the even ring `2 j` of a pair, the last eight to the odd ring
  `2 j + 1`, so lane `x` carries `16 ^ (2 j)` when `x < 8` and `16 ^ (2 j + 1)` otherwise. Reading the counts back,
  each field is folded onto its lowest bit (`w | w >> 1`, then `| >> 2`, then the mask `0x11111111`), and the fold of the
  second word is shifted up by one bit and joined to the fold of the first: one membership bit per ring, sixteen rings.
-/
import proofs.«207480_g64682207477991_cont_9to1c4b_704_25_alg».proof.Proof.KI.Setup
import proofs.«207480_g64682207477991_cont_9to1c4b_704_25_alg».proof.Proof.BitmapRing

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-! ## The scattered values: lane `x` of pair `j` carries `16 ^ (2 j)` in the first half, `16 ^ (2 j + 1)` in the second -/

theorem pay2_lane (v7 : IVec S16 1) (hv7 : ∀ x : Fin 16, v7 (ix1 x) = if x.val < 8 then 1#1 else 0#1) (x : Fin 16) :
    k0_pay2 v7 (ix1 x) = Bitmap.laneVal 0 x := by
  show Scalar.select (v7 (ix1 x)) 1#32 16#32 = Bitmap.laneVal 0 x
  unfold Bitmap.laneVal
  rw [hv7 x]
  split
  · rw [select_one]; rfl
  · rw [select_zero]; rfl

theorem pay3_lane (v7 : IVec S16 1) (hv7 : ∀ x : Fin 16, v7 (ix1 x) = if x.val < 8 then 1#1 else 0#1) (x : Fin 16) :
    k0_pay3 v7 (ix1 x) = Bitmap.laneVal 1 x := by
  show Scalar.select (v7 (ix1 x)) 256#32 4096#32 = Bitmap.laneVal 1 x
  unfold Bitmap.laneVal
  rw [hv7 x]
  split
  · rw [select_one]; rfl
  · rw [select_zero]; rfl

theorem pay4_lane (v7 : IVec S16 1) (hv7 : ∀ x : Fin 16, v7 (ix1 x) = if x.val < 8 then 1#1 else 0#1) (x : Fin 16) :
    k0_pay4 v7 (ix1 x) = Bitmap.laneVal 2 x := by
  show Scalar.select (v7 (ix1 x)) 65536#32 1048576#32 = Bitmap.laneVal 2 x
  unfold Bitmap.laneVal
  rw [hv7 x]
  split
  · rw [select_one]; rfl
  · rw [select_zero]; rfl

theorem pay5_lane (v7 : IVec S16 1) (hv7 : ∀ x : Fin 16, v7 (ix1 x) = if x.val < 8 then 1#1 else 0#1) (x : Fin 16) :
    k0_pay5 v7 (ix1 x) = Bitmap.laneVal 3 x := by
  show Scalar.select (v7 (ix1 x)) 16777216#32 268435456#32 = Bitmap.laneVal 3 x
  unfold Bitmap.laneVal
  rw [hv7 x]
  split
  · rw [select_one]; rfl
  · rw [select_zero]; rfl

theorem pay6_lane (v7 : IVec S16 1) (hv7 : ∀ x : Fin 16, v7 (ix1 x) = if x.val < 8 then 1#1 else 0#1) (x : Fin 16) :
    k0_pay6 v7 (ix1 x) = Bitmap.laneVal 0 x := by
  show Scalar.select (v7 (ix1 x)) 1#32 16#32 = Bitmap.laneVal 0 x
  unfold Bitmap.laneVal
  rw [hv7 x]
  split
  · rw [select_one]; rfl
  · rw [select_zero]; rfl

theorem pay7_lane (v7 : IVec S16 1) (hv7 : ∀ x : Fin 16, v7 (ix1 x) = if x.val < 8 then 1#1 else 0#1) (x : Fin 16) :
    k0_pay7 v7 (ix1 x) = Bitmap.laneVal 1 x := by
  show Scalar.select (v7 (ix1 x)) 256#32 4096#32 = Bitmap.laneVal 1 x
  unfold Bitmap.laneVal
  rw [hv7 x]
  split
  · rw [select_one]; rfl
  · rw [select_zero]; rfl

theorem pay8_lane (v7 : IVec S16 1) (hv7 : ∀ x : Fin 16, v7 (ix1 x) = if x.val < 8 then 1#1 else 0#1) (x : Fin 16) :
    k0_pay8 v7 (ix1 x) = Bitmap.laneVal 2 x := by
  show Scalar.select (v7 (ix1 x)) 65536#32 1048576#32 = Bitmap.laneVal 2 x
  unfold Bitmap.laneVal
  rw [hv7 x]
  split
  · rw [select_one]; rfl
  · rw [select_zero]; rfl

theorem pay9_lane (v7 : IVec S16 1) (hv7 : ∀ x : Fin 16, v7 (ix1 x) = if x.val < 8 then 1#1 else 0#1) (x : Fin 16) :
    k0_pay9 v7 (ix1 x) = Bitmap.laneVal 3 x := by
  show Scalar.select (v7 (ix1 x)) 16777216#32 268435456#32 = Bitmap.laneVal 3 x
  unfold Bitmap.laneVal
  rw [hv7 x]
  split
  · rw [select_one]; rfl
  · rw [select_zero]; rfl

/-! ## The mask, and the fold of the two count words into one membership word -/

theorem v9_eq (v9 : IVec S16 32) (hv9 : ∀ x, v9 x = 0x11111111#32) : v9 = broadcast S16 286331153#32 :=
  funext fun x => by rw [hv9 x]; rfl

theorem fold11 (va vb : Vec F S16 .i32) (i : S16.Idx) :
    k0_pay11 (F := F) (broadcast S16 286331153#32) va vb (k0_pay10 (F := F) va) i = Bitmap.rbOf (va i) (vb i) := rfl

theorem fold12 (va vb : Vec F S16 .i32) (i : S16.Idx) :
    k0_pay12 (F := F) (broadcast S16 286331153#32) va vb i = Bitmap.rbOf (va i) (vb i) := rfl

theorem fold14 (va vb : Vec F S16 .i32) (i : S16.Idx) :
    k0_pay14 (F := F) (broadcast S16 286331153#32) vb (k0_pay13 (F := F) va) 2#32 i = Bitmap.rbOf (va i) (vb i) := rfl

theorem fold15 (va vb : Vec F S16 .i32) (i : S16.Idx) :
    k0_pay15 (F := F) (broadcast S16 286331153#32) va vb i = Bitmap.rbOf (va i) (vb i) := rfl

end Cert.Proof.KI

end
-- ==== Proof.KI.Sel.lean ====
/-
  The test at the end of a trip, lane by lane: two membership words share a ring exactly when their bitwise and is
  not zero; the lane is then one, else zero. Every one of the 24 stretches of a row computes this same function of the
  neighbour's word and the atom's word.
-/
import proofs.«207480_g64682207477991_cont_9to1c4b_704_25_alg».proof.Proof.KI.Setup
import proofs.«207480_g64682207477991_cont_9to1c4b_704_25_alg».proof.Proof.BitmapRing

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-- One where the two words share a set bit, zero elsewhere. -/
def sel (a b : IVec S16 32) : FVec F S16 .f32 := fun x => if (a x &&& b x) ≠ 0 then Spec.one else Spec.zero

/-- The test at one lane: the and of the two words compared with zero, choosing between one and zero. -/
theorem sel_lane (a b : IVec S16 32) (x : S16.Idx) :
    Scalar.select (IntOp.cmpi .ne (IntOp.andi (a x) (b x)) 0#32) (Spec.one : F .f32) Spec.zero = sel (F := F) a b x := by
  unfold sel Scalar.select
  exact if_congr IntOp.cmpi_ne rfl rfl

/-! ## Each stretch's computation is this test -/

theorem pay18_eq (a b : Vec F S16 .i32) : k0_pay18 (F := F) a b = sel (F := F) a b := funext fun x => sel_lane a b x
theorem pay19_eq (a b : Vec F S16 .i32) : k0_pay19 (F := F) a b = sel (F := F) a b := funext fun x => sel_lane a b x
theorem pay22_eq (a b : Vec F S16 .i32) : k0_pay22 (F := F) a b = sel (F := F) a b := funext fun x => sel_lane a b x
theorem pay23_eq (a b : Vec F S16 .i32) : k0_pay23 (F := F) a b = sel (F := F) a b := funext fun x => sel_lane a b x
theorem pay27_eq (a b : Vec F S16 .i32) : k0_pay27 (F := F) a b = sel (F := F) a b := funext fun x => sel_lane a b x
theorem pay28_eq (a b : Vec F S16 .i32) : k0_pay28 (F := F) a b = sel (F := F) a b := funext fun x => sel_lane a b x
theorem pay29_eq (a b : Vec F S16 .i32) : k0_pay29 (F := F) a b = sel (F := F) a b := funext fun x => sel_lane a b x
theorem pay30_eq (a b : Vec F S16 .i32) : k0_pay30 (F := F) a b = sel (F := F) a b := funext fun x => sel_lane a b x
theorem pay31_eq (a b : Vec F S16 .i32) : k0_pay31 (F := F) a b = sel (F := F) a b := funext fun x => sel_lane a b x
theorem pay32_eq (a b : Vec F S16 .i32) : k0_pay32 (F := F) a b = sel (F := F) a b := funext fun x => sel_lane a b x
theorem pay34_eq (a b : Vec F S16 .i32) : k0_pay34 (F := F) a b = sel (F := F) a b := funext fun x => sel_lane a b x
theorem pay35_eq (a b : Vec F S16 .i32) : k0_pay35 (F := F) a b = sel (F := F) a b := funext fun x => sel_lane a b x
theorem pay36_eq (a b : Vec F S16 .i32) : k0_pay36 (F := F) a b = sel (F := F) a b := funext fun x => sel_lane a b x
theorem pay37_eq (a b : Vec F S16 .i32) : k0_pay37 (F := F) a b = sel (F := F) a b := funext fun x => sel_lane a b x
theorem pay38_eq (a b : Vec F S16 .i32) : k0_pay38 (F := F) a b = sel (F := F) a b := funext fun x => sel_lane a b x
theorem pay39_eq (a b : Vec F S16 .i32) : k0_pay39 (F := F) a b = sel (F := F) a b := funext fun x => sel_lane a b x
theorem pay40_eq (a b : Vec F S16 .i32) : k0_pay40 (F := F) a b = sel (F := F) a b := funext fun x => sel_lane a b x
theorem pay41_eq (a b : Vec F S16 .i32) : k0_pay41 (F := F) a b = sel (F := F) a b := funext fun x => sel_lane a b x
theorem pay42_eq (a b : Vec F S16 .i32) : k0_pay42 (F := F) a b = sel (F := F) a b := funext fun x => sel_lane a b x
theorem pay46_eq (a b : Vec F S16 .i32) : k0_pay46 (F := F) a b = sel (F := F) a b := funext fun x => sel_lane a b x

/-! ## The four stretches whose test and choice were cut in two -/

theorem pay17_eq (a b : Vec F S16 .i32) : k0_pay17 (F := F) (k0_pay16 (F := F) a b) = sel (F := F) a b := funext fun x => sel_lane a b x
theorem pay21_eq (a b : Vec F S16 .i32) : k0_pay21 (F := F) (k0_pay20 (F := F) a b) = sel (F := F) a b := funext fun x => sel_lane a b x
theorem pay26_eq (a b : Vec F S16 .i32) :
    k0_pay26 (F := F) (k0_pay24 (F := F) a b) (Scalar.ofBits .f32 0x00000000#32) (k0_pay25 (F := F)) = sel (F := F) a b :=
  funext fun x => sel_lane a b x
theorem pay45_eq (a b : Vec F S16 .i32) : k0_pay45 (F := F) (k0_pay43 (F := F) a b) (k0_pay44) = sel (F := F) a b := funext fun x => sel_lane a b x

end Cert.Proof.KI

end
-- ==== Proof.KI.Bond.lean ====
/-
  The value of one lane at the end of a trip. The two gathers read the molecule's membership words at the
  neighbour's number and at the atom's own number; the words share a set bit exactly when some ring holds both
  atoms, which is the ring-bond test of the specification at that position of the row.
-/
import proofs.«207480_g64682207477991_cont_9to1c4b_704_25_alg».proof.Proof.KI.Sel

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

/-- A gather of sixty-four words by one index vector reads, at lane `x`, the word the lane's index names. -/
theorem loadIdx_apply (B : Vec F S64 .i32) (iv : IVec S16 32)
    (h : ∀ a y, ((![iv] : Fin 1 → IVec S16 32) a y).toNat < S64.size a) (x : S16.Idx) (hlt : (iv x).toNat < 64) :
    loadIdx (F := F) B ![iv] h x = B (ix1 ⟨(iv x).toNat, hlt⟩) := by
  unfold loadIdx
  congr 1
  funext a
  match a with
  | ⟨0, _⟩ => rfl

open Classical in
/-- The lane of position `p`: one exactly when some ring of molecule `b` holds both the atom `p / 6` and the
    neighbour in its slot. -/
theorem sel_bond (eF : IVec S64x384 32) (rF : IVec S64x128 32) (aF : IVec S384 32)
    (hE : ∀ i, (eF i).toNat < 64) (hA : ∀ p : Fin 384, aF (ix1 p) = BitVec.ofNat 32 (p.val / 6))
    (b : Fin 64) (B : Vec F S64 .i32) (hB : ∀ a : Fin 64, B (ix1 a) = Bitmap.rb (fun q => rF (ix2 b q)) a)
    (p : Fin 384) (nv av : IVec S16 32) (x : S16.Idx) (hn : nv x = eF (ix2 b p)) (ha : av x = aF (ix1 p))
    (h1 : ∀ a y, ((![nv] : Fin 1 → IVec S16 32) a y).toNat < S64.size a)
    (h2 : ∀ a y, ((![av] : Fin 1 → IVec S16 32) a y).toNat < S64.size a) :
    sel (F := F) (loadIdx (F := F) B ![nv] h1) (loadIdx (F := F) B ![av] h2) x
      = Spec.bonds2 (F := F) eF rF (ix2 b p) := by
  have hp : p.val / 6 < 64 := by have := p.isLt; omega
  have hnlt : (nv x).toNat < 64 := by rw [hn]; exact hE _
  have hav : (av x).toNat = p.val / 6 := by
    rw [ha, hA, BitVec.toNat_ofNat]; exact Nat.mod_eq_of_lt (by omega)
  have halt : (av x).toNat < 64 := by rw [hav]; exact hp
  unfold sel Spec.bonds2
  rw [loadIdx_apply B nv h1 x hnlt, loadIdx_apply B av h2 x halt, hB, hB]
  refine if_congr ?_ rfl rfl
  rw [Bitmap.rb_and_ne_zero]
  unfold Spec.ringBond2
  refine exists_congr fun r => and_congr (exists_congr fun s => ?_) (exists_congr fun s => ?_)
  · show (rF (ix2 b (Spec.memb r s))).toNat = (nv x).toNat ↔ rF (ix2 b (Spec.memb r s)) = eF (ix2 b p)
    rw [hn]
    exact ⟨BitVec.eq_of_toNat_eq, fun h => by rw [h]⟩
  · show (rF (ix2 b (Spec.memb r s))).toNat = (av x).toNat ↔ rF (ix2 b (Spec.memb r s)) = BitVec.ofNat 32 (p.val / 6)
    rw [ha, hA]
    exact ⟨BitVec.eq_of_toNat_eq, fun h => by rw [h]⟩

end Cert.Proof.KI

end
-- ==== Proof.KI.Table.lean ====
/-
  A count table after its four scatter-adds, read at one atom. Starting from the zeroed table, each scatter-add
  adds at atom `a` the values of its lanes whose ring member is `a`; the four sums, in the order they were added,
  are the count word of the atom.
-/
import proofs.«207480_g64682207477991_cont_9to1c4b_704_25_alg».proof.Proof.KI.Setup
import proofs.«207480_g64682207477991_cont_9to1c4b_704_25_alg».proof.Proof.BitmapRing

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

/-- One scatter-add whose lanes hold the ring members `[16 c, 16 c + 16)` of the row and the values of pair `j`
    adds `scat Rrow c j a` at atom `a`. -/
theorem storeIdx_scat (Rrow : Fin 128 → BitVec 32) (f : Vec F S64 .i32) (iv pv : IVec S16 32) (c : Fin 8) (j : Fin 4)
    (hi : ∀ x : Fin 16, iv (ix1 x) = Rrow ⟨16 * c.val + x.val, by omega⟩)
    (hp : ∀ x : Fin 16, pv (ix1 x) = Bitmap.laneVal j x)
    (h : ∀ a y, ((![iv] : Fin 1 → IVec S16 32) a y).toNat < S64.size a) (a : Fin 64) :
    storeIdx (F := F) (e := .i32) f ![iv] pv (fun _ => 1#1) true h (ix1 a) = f (ix1 a) + Bitmap.scat Rrow c j a := by
  refine (Bitmap.storeIdx_add_apply (F := F) f iv pv h a).trans ?_
  unfold Bitmap.scat
  refine congrArg (f (ix1 a) + ·) (Finset.sum_congr rfl fun x _ => ?_)
  rw [hi x, hp x]

theorem table_apply (Rrow : Fin 128 → BitVec 32) (Z : Vec F S64 .i32) (hZ : ∀ i, Z i = 0#32)
    (i0 i1 i2 i3 p0 p1 p2 p3 : IVec S16 32) (c0 c1 c2 c3 : Fin 8)
    (hi0 : ∀ x : Fin 16, i0 (ix1 x) = Rrow ⟨16 * c0.val + x.val, by omega⟩) (hi1 : ∀ x : Fin 16, i1 (ix1 x) = Rrow ⟨16 * c1.val + x.val, by omega⟩)
    (hi2 : ∀ x : Fin 16, i2 (ix1 x) = Rrow ⟨16 * c2.val + x.val, by omega⟩) (hi3 : ∀ x : Fin 16, i3 (ix1 x) = Rrow ⟨16 * c3.val + x.val, by omega⟩)
    (hp0 : ∀ x : Fin 16, p0 (ix1 x) = Bitmap.laneVal 0 x) (hp1 : ∀ x : Fin 16, p1 (ix1 x) = Bitmap.laneVal 1 x)
    (hp2 : ∀ x : Fin 16, p2 (ix1 x) = Bitmap.laneVal 2 x) (hp3 : ∀ x : Fin 16, p3 (ix1 x) = Bitmap.laneVal 3 x)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) (a : Fin 64) :
    storeIdx (F := F) (e := .i32) (storeIdx (F := F) (e := .i32) (storeIdx (F := F) (e := .i32) (storeIdx (F := F) (e := .i32) Z ![i0] p0 (fun _ => 1#1) true h0) ![i1] p1 (fun _ => 1#1) true h1) ![i2] p2 (fun _ => 1#1) true h2) ![i3] p3 (fun _ => 1#1) true h3 (ix1 a)
      = 0 + Bitmap.scat Rrow c0 0 a + Bitmap.scat Rrow c1 1 a + Bitmap.scat Rrow c2 2 a + Bitmap.scat Rrow c3 3 a := by
  rw [storeIdx_scat Rrow _ i3 p3 c3 3 hi3 hp3 h3 a, storeIdx_scat Rrow _ i2 p2 c2 2 hi2 hp2 h2 a,
    storeIdx_scat Rrow _ i1 p1 c1 1 hi1 hp1 h1 a, storeIdx_scat Rrow Z i0 p0 c0 0 hi0 hp0 h0 a, hZ]
  rfl

/-- The table of rings 0 to 7. -/
theorem table_ta (Rrow : Fin 128 → BitVec 32) (Z : Vec F S64 .i32) (hZ : ∀ i, Z i = 0#32)
    (i0 i1 i2 i3 p0 p1 p2 p3 : IVec S16 32)
    (hi0 : ∀ x : Fin 16, i0 (ix1 x) = Rrow ⟨16 * (0 : Fin 8).val + x.val, by omega⟩) (hi1 : ∀ x : Fin 16, i1 (ix1 x) = Rrow ⟨16 * (1 : Fin 8).val + x.val, by omega⟩)
    (hi2 : ∀ x : Fin 16, i2 (ix1 x) = Rrow ⟨16 * (2 : Fin 8).val + x.val, by omega⟩) (hi3 : ∀ x : Fin 16, i3 (ix1 x) = Rrow ⟨16 * (3 : Fin 8).val + x.val, by omega⟩)
    (hp0 : ∀ x : Fin 16, p0 (ix1 x) = Bitmap.laneVal 0 x) (hp1 : ∀ x : Fin 16, p1 (ix1 x) = Bitmap.laneVal 1 x)
    (hp2 : ∀ x : Fin 16, p2 (ix1 x) = Bitmap.laneVal 2 x) (hp3 : ∀ x : Fin 16, p3 (ix1 x) = Bitmap.laneVal 3 x)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) (a : Fin 64) :
    storeIdx (F := F) (e := .i32) (storeIdx (F := F) (e := .i32) (storeIdx (F := F) (e := .i32) (storeIdx (F := F) (e := .i32) Z ![i0] p0 (fun _ => 1#1) true h0) ![i1] p1 (fun _ => 1#1) true h1) ![i2] p2 (fun _ => 1#1) true h2) ![i3] p3 (fun _ => 1#1) true h3 (ix1 a)
      = Bitmap.ta Rrow a :=
  table_apply Rrow Z hZ i0 i1 i2 i3 p0 p1 p2 p3 0 1 2 3 hi0 hi1 hi2 hi3 hp0 hp1 hp2 hp3 h0 h1 h2 h3 a

/-- The table of rings 8 to 15. -/
theorem table_tb (Rrow : Fin 128 → BitVec 32) (Z : Vec F S64 .i32) (hZ : ∀ i, Z i = 0#32)
    (i0 i1 i2 i3 p0 p1 p2 p3 : IVec S16 32)
    (hi0 : ∀ x : Fin 16, i0 (ix1 x) = Rrow ⟨16 * (4 : Fin 8).val + x.val, by omega⟩) (hi1 : ∀ x : Fin 16, i1 (ix1 x) = Rrow ⟨16 * (5 : Fin 8).val + x.val, by omega⟩)
    (hi2 : ∀ x : Fin 16, i2 (ix1 x) = Rrow ⟨16 * (6 : Fin 8).val + x.val, by omega⟩) (hi3 : ∀ x : Fin 16, i3 (ix1 x) = Rrow ⟨16 * (7 : Fin 8).val + x.val, by omega⟩)
    (hp0 : ∀ x : Fin 16, p0 (ix1 x) = Bitmap.laneVal 0 x) (hp1 : ∀ x : Fin 16, p1 (ix1 x) = Bitmap.laneVal 1 x)
    (hp2 : ∀ x : Fin 16, p2 (ix1 x) = Bitmap.laneVal 2 x) (hp3 : ∀ x : Fin 16, p3 (ix1 x) = Bitmap.laneVal 3 x)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) (a : Fin 64) :
    storeIdx (F := F) (e := .i32) (storeIdx (F := F) (e := .i32) (storeIdx (F := F) (e := .i32) (storeIdx (F := F) (e := .i32) Z ![i0] p0 (fun _ => 1#1) true h0) ![i1] p1 (fun _ => 1#1) true h1) ![i2] p2 (fun _ => 1#1) true h2) ![i3] p3 (fun _ => 1#1) true h3 (ix1 a)
      = Bitmap.tb Rrow a :=
  table_apply Rrow Z hZ i0 i1 i2 i3 p0 p1 p2 p3 4 5 6 7 hi0 hi1 hi2 hi3 hp0 hp1 hp2 hp3 h0 h1 h2 h3 a

end Cert.Proof.KI

end
-- ==== Proof.KI.Trip.lean ====
/-
  One trip of a tile's loop: molecule `k` of the tile's block. The trip clears the two count tables, adds each
  ring's members into their nibble, folds the counts to one membership bit per ring, and then, for each of the 384
  neighbour positions, tests whether the neighbour's and the atom's membership words share a bit.

  The two count tables after their scatter-adds are the count words of the atoms; the folded bitmap is the membership
  word of each atom; a position of the result row is one exactly when the membership words of the neighbour and of the
  atom meet, which is the ring-bond condition. The 24 stores of sixteen positions each lie in row `k` and cover it,
  so the rows below `k` keep what they held.
-/
import proofs.«207480_g64682207477991_cont_9to1c4b_704_25_alg».proof.Proof.KI.Inv
import proofs.«207480_g64682207477991_cont_9to1c4b_704_25_alg».proof.Proof.KI.Lane
import proofs.«207480_g64682207477991_cont_9to1c4b_704_25_alg».proof.Proof.KI.Bond
import proofs.«207480_g64682207477991_cont_9to1c4b_704_25_alg».proof.Proof.KI.Table

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-! ## Lanes of the loaded vectors -/

section Lanes

variable (rF : IVec S64x128 32) (eF : IVec S64x384 32) (aF : IVec S384 32)

/-- Sixteen consecutive words of a neighbour row, as the trip loads them. -/
abbrev nbrV (off : Fin 2 → Nat) (inb : ∀ a, off a + S1x16.size a ≤ S64x384.size a) : Vec F S16 .i32 :=
  shapeCast S16 (View.readAt (Elt F) (sE : Memref sig .scVector .vmem S64x384 .i32).view (Rect.unit (s := S64x384) off S1x16.size inb).toLoadRect eF) shapeCasts_S1x16_S16

/-- Sixteen consecutive words of a ring row. -/
abbrev ringV (off : Fin 2 → Nat) (inb : ∀ a, off a + S1x16.size a ≤ S64x128.size a) : Vec F S16 .i32 :=
  shapeCast S16 (View.readAt (Elt F) (sR : Memref sig .scVector .vmem S64x128 .i32).view (Rect.unit (s := S64x128) off S1x16.size inb).toLoadRect rF) shapeCasts_S1x16_S16

/-- Sixteen consecutive words of the position table. -/
abbrev atomV (off : Fin 1 → Nat) (inb : ∀ a, off a + S16.size a ≤ S384.size a) : Vec F S16 .i32 :=
  View.readAt (Elt F) (sA : Memref sig .scVector .vmem S384 .i32).view (Rect.unit (s := S384) off S16.size inb).toLoadRect aF

theorem nbr_lane (off : Fin 2 → Nat) (inb : ∀ a, off a + S1x16.size a ≤ S64x384.size a) (r c : Nat) (h : off = ![r, c])
    (hr : r < 64) (hc : c + 16 ≤ 384) (j : S16.Idx) :
    nbrV (F := F) eF off inb j = eF (ix2 ⟨r, hr⟩ ⟨c + (j 0).val, by have := (j 0).isLt; simp [S16] at this; omega⟩) := by
  subst h
  unfold nbrV shapeCast
  rw [Shape.reshapeEquiv_cons_one]
  show eF _ = eF _
  congr 1
  funext a
  fin_cases a
  · rfl
  · apply Fin.ext; show c + _ = c + _; congr 1; show 1 * (j 0).val = (j 0).val; exact Nat.one_mul _

theorem ring_lane (off : Fin 2 → Nat) (inb : ∀ a, off a + S1x16.size a ≤ S64x128.size a) (r c : Nat) (h : off = ![r, c])
    (hr : r < 64) (hc : c + 16 ≤ 128) (j : S16.Idx) :
    ringV (F := F) rF off inb j = rF (ix2 ⟨r, hr⟩ ⟨c + (j 0).val, by have := (j 0).isLt; simp [S16] at this; omega⟩) := by
  subst h
  unfold ringV shapeCast
  rw [Shape.reshapeEquiv_cons_one]
  show rF _ = rF _
  congr 1
  funext a
  fin_cases a
  · rfl
  · apply Fin.ext; show c + _ = c + _; congr 1; show 1 * (j 0).val = (j 0).val; exact Nat.one_mul _

theorem atom_lane (off : Fin 1 → Nat) (inb : ∀ a, off a + S16.size a ≤ S384.size a) (c : Nat) (h : off = ![c]) (hc : c + 16 ≤ 384) (j : S16.Idx) :
    atomV (F := F) aF off inb j = aF (ix1 ⟨c + (j 0).val, by have := (j 0).isLt; simp [S16] at this; omega⟩) := by
  subst h
  show aF _ = aF _
  congr 1
  funext a
  fin_cases a
  apply Fin.ext; show c + _ = c + _; congr 1; show 1 * (j 0).val = (j 0).val; exact Nat.one_mul _

theorem cast_lane (w : FVec F S16 .f32) (x : S1x16.Idx) :
    shapeCast S1x16 w shapeCasts_S16_S1x16 x = w (ix1 (x 1)) := by
  unfold shapeCast
  congr 1
  have hx : x = Shape.reshapeEquiv (s := S1x16) (s' := S16) shapeCasts_S1x16_S16 (ix1 (x 1)) := by
    rw [Shape.reshapeEquiv_cons_one]; funext a; fin_cases a
    · exact Fin.ext (by have := (x 0).isLt; simp [S1x16] at this; exact this.trans rfl)
    · rfl
  conv_lhs => rw [hx]
  rw [Shape.reshapeEquiv_reshapeEquiv, Shape.reshapeEquiv_self]

end Lanes

/-! ## Reading back listed writes -/

section Reads

variable {κ : Kind} {sp : Space} {s : Shape} {e : EltTy} {Val : EltTy → Type} [∀ e, Nonempty (Val e)]

/-- After a write of the whole shape, any load reads that payload. -/
theorem readCov_whole_head (v : View sig κ sp s e) (w : (Rect.whole s).shape.Idx → Val e) (L : List (View.Piece Val s e))
    (B : LoadRect s) (j : B.shape.Idx) :
    v.readCov (⟨Rect.whole s, w⟩ :: L) B j = w (B.idx j) := by
  unfold View.readCov
  rw [View.readAt_apply]
  have := View.read_writes_cons_emb v v.junk (Rect.whole s) w L (B.idx j)
  rwa [Rect.emb_whole_apply] at this

theorem idx_whole (j : (LoadRect.whole s).shape.Idx) : (LoadRect.whole s).idx j = j := by
  funext a
  apply Fin.ext
  show 0 + 1 * (j a).val = (j a).val
  omega

end Reads

section Zero

theorem mem_unit1 (c : Nat) (inb : ∀ a, (![c] : Fin 1 → Nat) a + (![16] : Fin 1 → Nat) a ≤ S64.size a) (j : S64.Idx)
    (h1 : c ≤ (j 0).val) (h2 : (j 0).val < c + 16) : j ∈ (Rect.unit (s := S64) ![c] ![16] inb).set :=
  Rect.mem_set_unit.mpr fun a => by fin_cases a; exact ⟨by simpa using h1, by simpa using h2⟩

/-- The four stores of zeros cover a table: every word reads zero afterwards. -/
theorem readCov_zero {κ : Kind} {sp : Space} (v : View sig κ sp S64 .i32) (v8 : IVec S16 32) (hv8 : ∀ x, v8 x = 0#32) (j : (LoadRect.whole S64).shape.Idx) :
    v.readCov (Val := Elt F) [⟨Rect.unit ![48] ![16] inb_S64_S16_48, v8⟩, ⟨Rect.unit ![32] ![16] inb_S64_S16_32, v8⟩,
      ⟨Rect.unit ![16] ![16] inb_S64_S16_16, v8⟩, ⟨Rect.unit ![0] ![16] inb_S64_S16_0, v8⟩] (LoadRect.whole S64) j = 0#32 := by
  unfold View.readCov
  rw [View.readAt_apply, idx_whole]
  refine View.read_writes_apply_of_pieces (Val := Elt F) v v.junk (fun _ => (0#32 : BitVec 32)) _ ?_ j ?_
  · intro p hp x
    simp only [List.mem_cons, List.not_mem_nil, or_false] at hp
    rcases hp with rfl | rfl | rfl | rfl <;> exact hv8 x
  · have hlt : (j 0).val < 64 := (j 0).isLt
    by_cases h1 : (j 0).val < 16
    · exact ⟨⟨Rect.unit ![0] ![16] inb_S64_S16_0, v8⟩, by simp, mem_unit1 0 inb_S64_S16_0 j (Nat.zero_le _) (by omega)⟩
    by_cases h2 : (j 0).val < 32
    · exact ⟨⟨Rect.unit ![16] ![16] inb_S64_S16_16, v8⟩, by simp, mem_unit1 16 inb_S64_S16_16 j (by omega) (by omega)⟩
    by_cases h3 : (j 0).val < 48
    · exact ⟨⟨Rect.unit ![32] ![16] inb_S64_S16_32, v8⟩, by simp, mem_unit1 32 inb_S64_S16_32 j (by omega) (by omega)⟩
    · exact ⟨⟨Rect.unit ![48] ![16] inb_S64_S16_48, v8⟩, by simp, mem_unit1 48 inb_S64_S16_48 j (by omega) (by omega)⟩

end Zero

/-! ## The count tables and the ring bitmap -/

section Bitmap

variable (rF : IVec S64x128 32)

theorem chkR (hR : ∀ i, (rF i).toNat < 64) (off : Fin 2 → Nat) (inb : ∀ a, off a + S1x16.size a ≤ S64x128.size a) :
    ∀ a x, ((![ringV (F := F) rF off inb] : Fin 1 → IVec S16 32) a x).toNat < S64.size a := by
  intro a x
  obtain rfl : a = 0 := Subsingleton.elim _ _
  exact hR _

/-- The four stores of zeros. -/
def zeroL (v8 : IVec S16 32) : List (View.Piece (Elt F) S64 .i32) :=
  [⟨Rect.unit ![48] ![16] inb_S64_S16_48, v8⟩, ⟨Rect.unit ![32] ![16] inb_S64_S16_32, v8⟩,
    ⟨Rect.unit ![16] ![16] inb_S64_S16_16, v8⟩, ⟨Rect.unit ![0] ![16] inb_S64_S16_0, v8⟩]

/-- One scatter-add onto a table: the whole table read, and written back with the lanes added. -/
def stepL (m : Memref sig .scVector .vmem S64 .i32) (Lp : List (View.Piece (Elt F) S64 .i32)) (iv pv : IVec S16 32)
    (h : ∀ a y, ((![iv] : Fin 1 → IVec S16 32) a y).toNat < S64.size a) : List (View.Piece (Elt F) S64 .i32) :=
  ⟨Rect.whole S64, storeIdx (F := F) (e := .i32) (m.view.readCov Lp (LoadRect.whole S64)) ![iv] pv (fun _ => 1#1) true h⟩ :: Lp

theorem readCov_stepL (m : Memref sig .scVector .vmem S64 .i32) (Lp : List (View.Piece (Elt F) S64 .i32)) (iv pv : IVec S16 32)
    (h : ∀ a y, ((![iv] : Fin 1 → IVec S16 32) a y).toNat < S64.size a) (B : LoadRect S64) (j : B.shape.Idx) :
    m.view.readCov (stepL (F := F) m Lp iv pv h) B j
      = storeIdx (F := F) (e := .i32) (m.view.readCov Lp (LoadRect.whole S64)) ![iv] pv (fun _ => 1#1) true h (B.idx j) :=
  readCov_whole_head m.view _ Lp B j

theorem readCov_stepL_whole (m : Memref sig .scVector .vmem S64 .i32) (Lp : List (View.Piece (Elt F) S64 .i32)) (iv pv : IVec S16 32)
    (h : ∀ a y, ((![iv] : Fin 1 → IVec S16 32) a y).toNat < S64.size a) :
    m.view.readCov (stepL (F := F) m Lp iv pv h) (LoadRect.whole S64)
      = storeIdx (F := F) (e := .i32) (m.view.readCov Lp (LoadRect.whole S64)) ![iv] pv (fun _ => 1#1) true h := by
  funext j
  rw [readCov_stepL, idx_whole]

/-- A table after zeroing and four scatter-adds, read anywhere. -/
def tabL (m : Memref sig .scVector .vmem S64 .i32) (v8 i0 i1 i2 i3 p0 p1 p2 p3 : IVec S16 32)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) :
    List (View.Piece (Elt F) S64 .i32) :=
  stepL m (stepL m (stepL m (stepL m (zeroL v8) i0 p0 h0) i1 p1 h1) i2 p2 h2) i3 p3 h3

theorem tabL_read (m : Memref sig .scVector .vmem S64 .i32) (v8 i0 i1 i2 i3 p0 p1 p2 p3 : IVec S16 32) (h0 h1 h2 h3)
    (B : LoadRect S64) (j : B.shape.Idx) :
    m.view.readCov (tabL (F := F) m v8 i0 i1 i2 i3 p0 p1 p2 p3 h0 h1 h2 h3) B j
      = storeIdx (F := F) (e := .i32) (storeIdx (F := F) (e := .i32) (storeIdx (F := F) (e := .i32) (storeIdx (F := F) (e := .i32)
          (m.view.readCov (zeroL (F := F) v8) (LoadRect.whole S64)) ![i0] p0 (fun _ => 1#1) true h0) ![i1] p1 (fun _ => 1#1) true h1) ![i2] p2 (fun _ => 1#1) true h2) ![i3] p3 (fun _ => 1#1) true h3 (B.idx j) := by
  unfold tabL
  rw [readCov_stepL, readCov_stepL_whole, readCov_stepL_whole, readCov_stepL_whole]

end Bitmap

section Bitmap2

/-- The four folded stores into the bitmap, over the two tables' listed writes. -/
abbrev rd16 (m : Memref sig .scVector .vmem S64 .i32) (Lp : List (View.Piece (Elt F) S64 .i32)) (c : Nat)
    (inb : ∀ a, (![c] : Fin 1 → Nat) a + (![16] : Fin 1 → Nat) a ≤ S64.size a) : Vec F S16 .i32 :=
  m.view.readCov Lp (Rect.unit (s := S64) ![c] ![16] inb).toLoadRect

def bitL (LA LB : List (View.Piece (Elt F) S64 .i32)) (v9 : IVec S16 32) : List (View.Piece (Elt F) S64 .i32) :=
  [⟨Rect.unit (s := S64) ![48] ![16] inb_S64_S16_48, k0_pay15 (F := F) v9 (rd16 (F := F) sTa LA 48 inb_S64_S16_48) (rd16 (F := F) sTb LB 48 inb_S64_S16_48)⟩,
    ⟨Rect.unit (s := S64) ![32] ![16] inb_S64_S16_32, k0_pay14 (F := F) v9 (rd16 (F := F) sTb LB 32 inb_S64_S16_32) (k0_pay13 (F := F) (rd16 (F := F) sTa LA 32 inb_S64_S16_32)) 2#32⟩,
    ⟨Rect.unit (s := S64) ![16] ![16] inb_S64_S16_16, k0_pay12 (F := F) v9 (rd16 (F := F) sTa LA 16 inb_S64_S16_16) (rd16 (F := F) sTb LB 16 inb_S64_S16_16)⟩,
    ⟨Rect.unit (s := S64) ![0] ![16] inb_S64_S16_0, k0_pay11 (F := F) v9 (rd16 (F := F) sTa LA 0 inb_S64_S16_0) (rd16 (F := F) sTb LB 0 inb_S64_S16_0) (k0_pay10 (F := F) (rd16 (F := F) sTa LA 0 inb_S64_S16_0))⟩]

theorem idx_ix1 (i : S64.Idx) : i = ix1 (i 0) := by
  funext a; fin_cases a; rfl

/-- Every word of the bitmap is the membership word of its atom. -/
theorem bitL_read (Rrow : Fin 128 → BitVec 32) (LA LB : List (View.Piece (Elt F) S64 .i32)) (v9 : IVec S16 32) (hv9 : ∀ x, v9 x = 0x11111111#32)
    (hTA : ∀ (B : LoadRect S64) (j : B.shape.Idx) (a : Fin 64), B.idx j = ix1 a → (sTa : Memref sig .scVector .vmem S64 .i32).view.readCov LA B j = Bitmap.ta Rrow a)
    (hTB : ∀ (B : LoadRect S64) (j : B.shape.Idx) (a : Fin 64), B.idx j = ix1 a → (sTb : Memref sig .scVector .vmem S64 .i32).view.readCov LB B j = Bitmap.tb Rrow a)
    (a : Fin 64) :
    (sB : Memref sig .scVector .vmem S64 .i32).view.readCov (bitL (F := F) LA LB v9) (LoadRect.whole S64) (ix1 a) = Bitmap.rb Rrow a := by
  obtain rfl := v9_eq v9 hv9
  unfold View.readCov
  rw [View.readAt_apply, idx_whole]
  refine View.read_writes_apply_of_pieces (Val := Elt F) (s := S64) (e := .i32) _ _ (fun y => Bitmap.rb Rrow (y 0)) _ ?_ (ix1 a) ?_
  · intro p hp x
    simp only [bitL, List.mem_cons, List.not_mem_nil, or_false] at hp
    rcases hp with rfl | rfl | rfl | rfl
    · show k0_pay15 _ _ _ x = _
      rw [fold15]
      exact congrArg₂ Bitmap.rbOf (hTA _ x _ (idx_ix1 _)) (hTB _ x _ (idx_ix1 _))
    · show k0_pay14 _ _ _ _ x = _
      rw [fold14]
      exact congrArg₂ Bitmap.rbOf (hTA _ x _ (idx_ix1 _)) (hTB _ x _ (idx_ix1 _))
    · show k0_pay12 _ _ _ x = _
      rw [fold12]
      exact congrArg₂ Bitmap.rbOf (hTA _ x _ (idx_ix1 _)) (hTB _ x _ (idx_ix1 _))
    · show k0_pay11 _ _ _ _ x = _
      rw [fold11]
      exact congrArg₂ Bitmap.rbOf (hTA _ x _ (idx_ix1 _)) (hTB _ x _ (idx_ix1 _))
  · have hlt : a.val < 64 := a.isLt
    unfold bitL
    by_cases h1 : a.val < 16
    · exact ⟨_, List.mem_cons_of_mem _ (List.mem_cons_of_mem _ (List.mem_cons_of_mem _ List.mem_cons_self)), mem_unit1 0 inb_S64_S16_0 (ix1 a) (Nat.zero_le _) (by show a.val < _; omega)⟩
    by_cases h2 : a.val < 32
    · exact ⟨_, List.mem_cons_of_mem _ (List.mem_cons_of_mem _ List.mem_cons_self), mem_unit1 16 inb_S64_S16_16 (ix1 a) (by show _ ≤ a.val; omega) (by show a.val < _; omega)⟩
    by_cases h3 : a.val < 48
    · exact ⟨_, List.mem_cons_of_mem _ List.mem_cons_self, mem_unit1 32 inb_S64_S16_32 (ix1 a) (by show _ ≤ a.val; omega) (by show a.val < _; omega)⟩
    · exact ⟨_, List.mem_cons_self, mem_unit1 48 inb_S64_S16_48 (ix1 a) (by show _ ≤ a.val; omega) (by show a.val < _; omega)⟩

end Bitmap2

section Bitmap3

theorem hk (k : Fin k0_t1_loop.trips) : k.val < 64 := lt_of_lt_of_le k.isLt k0_t1_abs.2.1

variable (rF : IVec S64x128 32) (hR : ∀ i, (rF i).toNat < 64) (v7 : IVec S16 1) (v8 v9 : IVec S16 32)
  (hv7 : ∀ x : Fin 16, v7 (ix1 x) = if x.val < 8 then 1#1 else 0#1) (hv8 : ∀ x, v8 x = 0#32) (hv9 : ∀ x, v9 x = 0x11111111#32)
  (k : Fin k0_t1_loop.trips)

/-- The ring bitmap of molecule `k` as the trip leaves it: the whole bitmap read after the four folded stores. -/
def bitmapK : Vec F S64 .i32 :=
  (sB : Memref sig .scVector .vmem S64 .i32).view.readCov (bitL (F := F) (tabL (F := F) sTa v8 (ringV (F := F) rF (k0_off3 k) (k0_off3_inb k)) (ringV (F := F) rF (k0_off4 k) (k0_off4_inb k)) (ringV (F := F) rF (k0_off5 k) (k0_off5_inb k)) (ringV (F := F) rF (k0_off6 k) (k0_off6_inb k)) (k0_pay2 v7) (k0_pay3 v7) (k0_pay4 v7) (k0_pay5 v7) (chkR (F := F) rF hR (k0_off3 k) (k0_off3_inb k)) (chkR (F := F) rF hR (k0_off4 k) (k0_off4_inb k)) (chkR (F := F) rF hR (k0_off5 k) (k0_off5_inb k)) (chkR (F := F) rF hR (k0_off6 k) (k0_off6_inb k))) (tabL (F := F) sTb v8 (ringV (F := F) rF (k0_off7 k) (k0_off7_inb k)) (ringV (F := F) rF (k0_off8 k) (k0_off8_inb k)) (ringV (F := F) rF (k0_off9 k) (k0_off9_inb k)) (ringV (F := F) rF (k0_off10 k) (k0_off10_inb k)) (k0_pay6 v7) (k0_pay7 v7) (k0_pay8 v7) (k0_pay9 v7) (chkR (F := F) rF hR (k0_off7 k) (k0_off7_inb k)) (chkR (F := F) rF hR (k0_off8 k) (k0_off8_inb k)) (chkR (F := F) rF hR (k0_off9 k) (k0_off9_inb k)) (chkR (F := F) rF hR (k0_off10 k) (k0_off10_inb k))) v9) (LoadRect.whole S64)

include hv7 hv8 hv9 in
theorem bitmapK_apply (a : Fin 64) :
    bitmapK (F := F) rF hR v7 v8 v9 k (ix1 a) = Bitmap.rb (fun q => rF (ix2 ⟨k.val, hk k⟩ q)) a := by
  unfold bitmapK
  refine bitL_read (F := F) (fun q => rF (ix2 ⟨k.val, hk k⟩ q)) _ _ v9 hv9 ?_ ?_ a
  · intro B j a' hj
    rw [tabL_read, hj]
    exact table_ta (F := F) (fun q => rF (ix2 ⟨k.val, hk k⟩ q)) _ (fun i => readCov_zero (F := F) _ v8 hv8 i) _ _ _ _ _ _ _ _
      (fun x => ring_lane (F := F) rF _ _ k.val 0 (k0_off3_eq k) (hk k) (by omega) (ix1 x)) (fun x => ring_lane (F := F) rF _ _ k.val 16 (k0_off4_eq k) (hk k) (by omega) (ix1 x)) (fun x => ring_lane (F := F) rF _ _ k.val 32 (k0_off5_eq k) (hk k) (by omega) (ix1 x)) (fun x => ring_lane (F := F) rF _ _ k.val 48 (k0_off6_eq k) (hk k) (by omega) (ix1 x))
      (pay2_lane v7 hv7) (pay3_lane v7 hv7) (pay4_lane v7 hv7) (pay5_lane v7 hv7) _ _ _ _ a'
  · intro B j a' hj
    rw [tabL_read, hj]
    exact table_tb (F := F) (fun q => rF (ix2 ⟨k.val, hk k⟩ q)) _ (fun i => readCov_zero (F := F) _ v8 hv8 i) _ _ _ _ _ _ _ _
      (fun x => ring_lane (F := F) rF _ _ k.val 64 (k0_off7_eq k) (hk k) (by omega) (ix1 x)) (fun x => ring_lane (F := F) rF _ _ k.val 80 (k0_off8_eq k) (hk k) (by omega) (ix1 x)) (fun x => ring_lane (F := F) rF _ _ k.val 96 (k0_off9_eq k) (hk k) (by omega) (ix1 x)) (fun x => ring_lane (F := F) rF _ _ k.val 112 (k0_off10_eq k) (hk k) (by omega) (ix1 x))
      (pay6_lane v7 hv7) (pay7_lane v7 hv7) (pay8_lane v7 hv7) (pay9_lane v7 hv7) _ _ _ _ a'

end Bitmap3

/-! ## The result row -/

section Final

variable (d : Dev nD) (L : grid0.Coords)
variable (eF : IVec S64x384 32) (rF : IVec S64x128 32) (aF : IVec S384 32)

theorem chkE (hE : ∀ i, (eF i).toNat < 64) (off : Fin 2 → Nat) (inb : ∀ a, off a + S1x16.size a ≤ S64x384.size a) :
    ∀ a x, ((![nbrV (F := F) eF off inb] : Fin 1 → IVec S16 32) a x).toNat < S64.size a := by
  intro a x
  obtain rfl : a = 0 := Subsingleton.elim _ _
  exact hE _

theorem chkA (hA' : ∀ i, (aF i).toNat < 64) (off : Fin 1 → Nat) (inb : ∀ a, off a + S16.size a ≤ S384.size a) :
    ∀ a x, ((![atomV (F := F) aF off inb] : Fin 1 → IVec S16 32) a x).toNat < S64.size a := by
  intro a x
  obtain rfl : a = 0 := Subsingleton.elim _ _
  exact hA' _

theorem aF_lt (hA : ∀ p : Fin 384, aF (ix1 p) = BitVec.ofNat 32 (p.val / 6)) (i : S384.Idx) : (aF i).toNat < 64 := by
  have hlt : (i 0).val < 384 := (i 0).isLt
  have hi : i = ix1 ⟨(i 0).val, hlt⟩ := by funext a; fin_cases a; rfl
  have e : aF i = BitVec.ofNat 32 ((i 0).val / 6) := (congrArg aF hi).trans (hA ⟨(i 0).val, hlt⟩)
  rw [e, BitVec.toNat_ofNat]
  exact lt_of_le_of_lt (Nat.mod_le _ _) (by show (i 0).val / 6 < 64; omega)

/-- One of the 24 stores of a trip: sixteen positions of the result row, from the bitmap read at the neighbours' and at
    the atoms' words. -/
def outP (B : Vec F S64 .i32) (offO offE : Fin 2 → Nat) (offA : Fin 1 → Nat)
    (inbO : ∀ a, offO a + S1x16.size a ≤ S64x384.size a) (inbE : ∀ a, offE a + S1x16.size a ≤ S64x384.size a)
    (inbA : ∀ a, offA a + S16.size a ≤ S384.size a)
    (h1 : ∀ a y, ((![nbrV (F := F) eF offE inbE] : Fin 1 → IVec S16 32) a y).toNat < S64.size a)
    (h2 : ∀ a y, ((![atomV (F := F) aF offA inbA] : Fin 1 → IVec S16 32) a y).toNat < S64.size a)
    (pay : Vec F S16 .i32 → Vec F S16 .i32 → FVec F S16 .f32) : View.Piece (Elt F) S64x384 .f32 :=
  ⟨Rect.unit (s := S64x384) offO S1x16.size inbO,
    shapeCast S1x16 (pay (loadIdx (F := F) B ![nbrV (F := F) eF offE inbE] h1) (loadIdx (F := F) B ![atomV (F := F) aF offA inbA] h2)) shapeCasts_S16_S1x16⟩

theorem outP_ok (hE : ∀ i, (eF i).toNat < 64) (hA : ∀ p : Fin 384, aF (ix1 p) = BitVec.ofNat 32 (p.val / 6)) (kk : Fin 64)
    (B : Vec F S64 .i32) (hB : ∀ a : Fin 64, B (ix1 a) = Bitmap.rb (fun q => rF (ix2 kk q)) a)
    (c : Nat) (hc : c + 16 ≤ 384) (offO offE : Fin 2 → Nat) (offA : Fin 1 → Nat)
    (hO : offO = ![kk.val, c]) (hEo : offE = ![kk.val, c]) (hAo : offA = ![c])
    (inbO : ∀ a, offO a + S1x16.size a ≤ S64x384.size a) (inbE : ∀ a, offE a + S1x16.size a ≤ S64x384.size a)
    (inbA : ∀ a, offA a + S16.size a ≤ S384.size a)
    (h1 : ∀ a y, ((![nbrV (F := F) eF offE inbE] : Fin 1 → IVec S16 32) a y).toNat < S64.size a)
    (h2 : ∀ a y, ((![atomV (F := F) aF offA inbA] : Fin 1 → IVec S16 32) a y).toNat < S64.size a)
    (pay : Vec F S16 .i32 → Vec F S16 .i32 → FVec F S16 .f32) (hpay : ∀ a b, pay a b = sel (F := F) a b) :
    (∀ x, (outP (F := F) eF aF B offO offE offA inbO inbE inbA h1 h2 pay).2 x
        = Spec.bonds2 (F := F) eF rF (ix2 kk (((outP (F := F) eF aF B offO offE offA inbO inbE inbA h1 h2 pay).1.emb x) 1)))
      ∧ (∀ y ∈ (outP (F := F) eF aF B offO offE offA inbO inbE inbA h1 h2 pay).1.set, (y 0).val = kk.val)
      ∧ (∀ p : Fin 384, c ≤ p.val → p.val < c + 16 → ix2 kk p ∈ (outP (F := F) eF aF B offO offE offA inbO inbE inbA h1 h2 pay).1.set) := by
  subst hO hEo hAo
  refine ⟨fun x => ?_, fun y hy => ?_, fun p hp1 hp2 => ?_⟩
  · show shapeCast S1x16 (pay _ _) shapeCasts_S16_S1x16 x = _
    refine (cast_lane (F := F) _ x).trans ?_
    rw [hpay]
    have hn := nbr_lane (F := F) eF ![kk.val, c] inbE kk.val c rfl kk.isLt hc (ix1 (x 1))
    have ha := atom_lane (F := F) aF ![c] inbA c rfl hc (ix1 (x 1))
    refine (sel_bond (F := F) eF rF aF hE hA kk B hB ⟨c + (x 1).val, by have h16 : (x 1).val < 16 := (x 1).isLt; omega⟩ _ _ (ix1 (x 1)) hn ha h1 h2).trans ?_
    refine congrArg (fun q => Spec.bonds2 (F := F) eF rF (ix2 kk q)) (Fin.ext ?_)
    show c + (x 1).val = c + 1 * (x 1).val
    omega
  · have hy' : y ∈ (Rect.unit (s := S64x384) ![kk.val, c] S1x16.size inbO).set := hy
    have h := (Rect.mem_set_unit.mp hy') 0
    have h' : kk.val ≤ (y 0).val ∧ (y 0).val < kk.val + 1 := h
    omega
  · show ix2 kk p ∈ (Rect.unit (s := S64x384) ![kk.val, c] S1x16.size inbO).set
    refine Rect.mem_set_unit.mpr fun a => ?_
    fin_cases a
    · exact ⟨le_refl _, Nat.lt_succ_self _⟩
    · exact ⟨hp1, hp2⟩

/-- Stores that all lie in row `kk`, cover it, and carry `G` there leave `G` in that row and the other rows as they were. -/
theorem rows_write (kk : Fin 64) (fo : (sO : Memref sig .scVector .vmem S64x384 .f32).view.ty.Contents (Elt F))
    (Lp : List (View.Piece (Elt F) S64x384 .f32)) (G : Fin 384 → F .f32)
    (hval : ∀ q ∈ Lp, ∀ x, q.2 x = G ((q.1.emb x) 1))
    (hrow : ∀ q ∈ Lp, ∀ y ∈ q.1.set, (y 0).val = kk.val)
    (hcov : ∀ p : Fin 384, ∃ q ∈ Lp, ix2 kk p ∈ q.1.set) (b : Fin 64) (p : Fin 384) :
    (sO : Memref sig .scVector .vmem S64x384 .f32).view.writes (Elt F) fo Lp (ix2 b p) = if b.val = kk.val then G p else fo (ix2 b p) := by
  by_cases hbk : b.val = kk.val
  · rw [if_pos hbk]
    obtain rfl : b = kk := Fin.ext hbk
    exact View.read_writes_apply_of_pieces (Val := Elt F) (s := S64x384) (e := .f32) _ fo (fun y => G (y 1)) Lp hval (ix2 b p) (hcov p)
  · rw [if_neg hbk]
    exact View.read_writes_apply_of_forall_not_mem (Val := Elt F) (s := S64x384) (e := .f32) (sO : Memref sig .scVector .vmem S64x384 .f32).view fo (ix2 b p) Lp
      (fun q hq hm => hbk (hrow q hq _ hm))

theorem final_value (hE : ∀ i, (eF i).toNat < 64) (hA : ∀ p : Fin 384, aF (ix1 p) = BitVec.ofNat 32 (p.val / 6))
    (k : Fin k0_t1_loop.trips) (fo : Buf (Elt F) ((thr d L).loc cc0_scratch2))
    (hfo : ∀ b : Fin 64, b.val < k.val → ∀ p : Fin 384, fo (ix2 b p) = Spec.bonds2 (F := F) eF rF (ix2 b p))
    (B : Vec F S64 .i32) (hB : ∀ a : Fin 64, B (ix1 a) = Bitmap.rb (fun q => rF (ix2 ⟨k.val, hk k⟩ q)) a) :
    ∀ b : Fin 64, b.val < k.val + 1 → ∀ p : Fin 384,
      (sO : Memref sig .scVector .vmem S64x384 .f32).view.writes (Elt F) fo
        [(outP (F := F) eF aF B (k0_off58 k) (k0_off34 k) ![368] (k0_off58_inb k) (k0_off34_inb k) inb_S384_S16_368 (chkE (F := F) eF hE _ _) (chkA (F := F) aF (aF_lt aF hA) _ _) (k0_pay46 (F := F))),
        (outP (F := F) eF aF B (k0_off57 k) (k0_off33 k) ![352] (k0_off57_inb k) (k0_off33_inb k) inb_S384_S16_352 (chkE (F := F) eF hE _ _) (chkA (F := F) aF (aF_lt aF hA) _ _) (fun a b => k0_pay45 (F := F) (k0_pay43 (F := F) a b) (k0_pay44))),
        (outP (F := F) eF aF B (k0_off56 k) (k0_off32 k) ![336] (k0_off56_inb k) (k0_off32_inb k) inb_S384_S16_336 (chkE (F := F) eF hE _ _) (chkA (F := F) aF (aF_lt aF hA) _ _) (k0_pay42 (F := F))),
        (outP (F := F) eF aF B (k0_off55 k) (k0_off31 k) ![320] (k0_off55_inb k) (k0_off31_inb k) inb_S384_S16_320 (chkE (F := F) eF hE _ _) (chkA (F := F) aF (aF_lt aF hA) _ _) (k0_pay41 (F := F))),
        (outP (F := F) eF aF B (k0_off54 k) (k0_off30 k) ![304] (k0_off54_inb k) (k0_off30_inb k) inb_S384_S16_304 (chkE (F := F) eF hE _ _) (chkA (F := F) aF (aF_lt aF hA) _ _) (k0_pay40 (F := F))),
        (outP (F := F) eF aF B (k0_off53 k) (k0_off29 k) ![288] (k0_off53_inb k) (k0_off29_inb k) inb_S384_S16_288 (chkE (F := F) eF hE _ _) (chkA (F := F) aF (aF_lt aF hA) _ _) (k0_pay39 (F := F))),
        (outP (F := F) eF aF B (k0_off52 k) (k0_off28 k) ![272] (k0_off52_inb k) (k0_off28_inb k) inb_S384_S16_272 (chkE (F := F) eF hE _ _) (chkA (F := F) aF (aF_lt aF hA) _ _) (k0_pay38 (F := F))),
        (outP (F := F) eF aF B (k0_off51 k) (k0_off27 k) ![256] (k0_off51_inb k) (k0_off27_inb k) inb_S384_S16_256 (chkE (F := F) eF hE _ _) (chkA (F := F) aF (aF_lt aF hA) _ _) (k0_pay37 (F := F))),
        (outP (F := F) eF aF B (k0_off50 k) (k0_off26 k) ![240] (k0_off50_inb k) (k0_off26_inb k) inb_S384_S16_240 (chkE (F := F) eF hE _ _) (chkA (F := F) aF (aF_lt aF hA) _ _) (k0_pay36 (F := F))),
        (outP (F := F) eF aF B (k0_off49 k) (k0_off25 k) ![224] (k0_off49_inb k) (k0_off25_inb k) inb_S384_S16_224 (chkE (F := F) eF hE _ _) (chkA (F := F) aF (aF_lt aF hA) _ _) (k0_pay35 (F := F))),
        (outP (F := F) eF aF B (k0_off48 k) (k0_off24 k) ![208] (k0_off48_inb k) (k0_off24_inb k) inb_S384_S16_208 (chkE (F := F) eF hE _ _) (chkA (F := F) aF (aF_lt aF hA) _ _) (k0_pay34 (F := F))),
        (outP (F := F) eF aF B (k0_off47 k) (k0_off23 k) ![192] (k0_off47_inb k) (k0_off23_inb k) inb_S384_S16_192 (chkE (F := F) eF hE _ _) (chkA (F := F) aF (aF_lt aF hA) _ _) (k0_pay32 (F := F))),
        (outP (F := F) eF aF B (k0_off46 k) (k0_off22 k) ![176] (k0_off46_inb k) (k0_off22_inb k) inb_S384_S16_176 (chkE (F := F) eF hE _ _) (chkA (F := F) aF (aF_lt aF hA) _ _) (k0_pay31 (F := F))),
        (outP (F := F) eF aF B (k0_off45 k) (k0_off21 k) ![160] (k0_off45_inb k) (k0_off21_inb k) inb_S384_S16_160 (chkE (F := F) eF hE _ _) (chkA (F := F) aF (aF_lt aF hA) _ _) (k0_pay30 (F := F))),
        (outP (F := F) eF aF B (k0_off44 k) (k0_off20 k) ![144] (k0_off44_inb k) (k0_off20_inb k) inb_S384_S16_144 (chkE (F := F) eF hE _ _) (chkA (F := F) aF (aF_lt aF hA) _ _) (k0_pay29 (F := F))),
        (outP (F := F) eF aF B (k0_off43 k) (k0_off19 k) ![128] (k0_off43_inb k) (k0_off19_inb k) inb_S384_S16_128 (chkE (F := F) eF hE _ _) (chkA (F := F) aF (aF_lt aF hA) _ _) (k0_pay28 (F := F))),
        (outP (F := F) eF aF B (k0_off42 k) (k0_off18 k) ![112] (k0_off42_inb k) (k0_off18_inb k) inb_S384_S16_112 (chkE (F := F) eF hE _ _) (chkA (F := F) aF (aF_lt aF hA) _ _) (k0_pay27 (F := F))),
        (outP (F := F) eF aF B (k0_off41 k) (k0_off17 k) ![96] (k0_off41_inb k) (k0_off17_inb k) inb_S384_S16_96 (chkE (F := F) eF hE _ _) (chkA (F := F) aF (aF_lt aF hA) _ _) (fun a b => k0_pay26 (F := F) (k0_pay24 (F := F) a b) (Scalar.ofBits .f32 0x00000000#32) (k0_pay25 (F := F)))),
        (outP (F := F) eF aF B (k0_off40 k) (k0_off16 k) ![80] (k0_off40_inb k) (k0_off16_inb k) inb_S384_S16_80 (chkE (F := F) eF hE _ _) (chkA (F := F) aF (aF_lt aF hA) _ _) (k0_pay23 (F := F))),
        (outP (F := F) eF aF B (k0_off39 k) (k0_off15 k) ![64] (k0_off39_inb k) (k0_off15_inb k) inb_S384_S16_64 (chkE (F := F) eF hE _ _) (chkA (F := F) aF (aF_lt aF hA) _ _) (k0_pay22 (F := F))),
        (outP (F := F) eF aF B (k0_off38 k) (k0_off14 k) ![48] (k0_off38_inb k) (k0_off14_inb k) inb_S384_S16_48 (chkE (F := F) eF hE _ _) (chkA (F := F) aF (aF_lt aF hA) _ _) (fun a b => k0_pay21 (F := F) (k0_pay20 (F := F) a b))),
        (outP (F := F) eF aF B (k0_off37 k) (k0_off13 k) ![32] (k0_off37_inb k) (k0_off13_inb k) inb_S384_S16_32 (chkE (F := F) eF hE _ _) (chkA (F := F) aF (aF_lt aF hA) _ _) (k0_pay19 (F := F))),
        (outP (F := F) eF aF B (k0_off36 k) (k0_off12 k) ![16] (k0_off36_inb k) (k0_off12_inb k) inb_S384_S16_16 (chkE (F := F) eF hE _ _) (chkA (F := F) aF (aF_lt aF hA) _ _) (k0_pay18 (F := F))),
        (outP (F := F) eF aF B (k0_off35 k) (k0_off11 k) ![0] (k0_off35_inb k) (k0_off11_inb k) inb_S384_S16_0 (chkE (F := F) eF hE _ _) (chkA (F := F) aF (aF_lt aF hA) _ _) (fun a b => k0_pay17 (F := F) (k0_pay16 (F := F) a b)))] (ix2 b p)
        = Spec.bonds2 (F := F) eF rF (ix2 b p) := by
  intro b hb p
  have hP0 := outP_ok (F := F) eF rF aF hE hA ⟨k.val, hk k⟩ B hB 0 (by omega) _ _ _ (k0_off35_eq k) (k0_off11_eq k) rfl (k0_off35_inb k) (k0_off11_inb k) inb_S384_S16_0 (chkE (F := F) eF hE _ _) (chkA (F := F) aF (aF_lt aF hA) _ _) (fun a b => k0_pay17 (F := F) (k0_pay16 (F := F) a b)) pay17_eq
  have hP1 := outP_ok (F := F) eF rF aF hE hA ⟨k.val, hk k⟩ B hB 16 (by omega) _ _ _ (k0_off36_eq k) (k0_off12_eq k) rfl (k0_off36_inb k) (k0_off12_inb k) inb_S384_S16_16 (chkE (F := F) eF hE _ _) (chkA (F := F) aF (aF_lt aF hA) _ _) (k0_pay18 (F := F)) pay18_eq
  have hP2 := outP_ok (F := F) eF rF aF hE hA ⟨k.val, hk k⟩ B hB 32 (by omega) _ _ _ (k0_off37_eq k) (k0_off13_eq k) rfl (k0_off37_inb k) (k0_off13_inb k) inb_S384_S16_32 (chkE (F := F) eF hE _ _) (chkA (F := F) aF (aF_lt aF hA) _ _) (k0_pay19 (F := F)) pay19_eq
  have hP3 := outP_ok (F := F) eF rF aF hE hA ⟨k.val, hk k⟩ B hB 48 (by omega) _ _ _ (k0_off38_eq k) (k0_off14_eq k) rfl (k0_off38_inb k) (k0_off14_inb k) inb_S384_S16_48 (chkE (F := F) eF hE _ _) (chkA (F := F) aF (aF_lt aF hA) _ _) (fun a b => k0_pay21 (F := F) (k0_pay20 (F := F) a b)) pay21_eq
  have hP4 := outP_ok (F := F) eF rF aF hE hA ⟨k.val, hk k⟩ B hB 64 (by omega) _ _ _ (k0_off39_eq k) (k0_off15_eq k) rfl (k0_off39_inb k) (k0_off15_inb k) inb_S384_S16_64 (chkE (F := F) eF hE _ _) (chkA (F := F) aF (aF_lt aF hA) _ _) (k0_pay22 (F := F)) pay22_eq
  have hP5 := outP_ok (F := F) eF rF aF hE hA ⟨k.val, hk k⟩ B hB 80 (by omega) _ _ _ (k0_off40_eq k) (k0_off16_eq k) rfl (k0_off40_inb k) (k0_off16_inb k) inb_S384_S16_80 (chkE (F := F) eF hE _ _) (chkA (F := F) aF (aF_lt aF hA) _ _) (k0_pay23 (F := F)) pay23_eq
  have hP6 := outP_ok (F := F) eF rF aF hE hA ⟨k.val, hk k⟩ B hB 96 (by omega) _ _ _ (k0_off41_eq k) (k0_off17_eq k) rfl (k0_off41_inb k) (k0_off17_inb k) inb_S384_S16_96 (chkE (F := F) eF hE _ _) (chkA (F := F) aF (aF_lt aF hA) _ _) (fun a b => k0_pay26 (F := F) (k0_pay24 (F := F) a b) (Scalar.ofBits .f32 0x00000000#32) (k0_pay25 (F := F))) pay26_eq
  have hP7 := outP_ok (F := F) eF rF aF hE hA ⟨k.val, hk k⟩ B hB 112 (by omega) _ _ _ (k0_off42_eq k) (k0_off18_eq k) rfl (k0_off42_inb k) (k0_off18_inb k) inb_S384_S16_112 (chkE (F := F) eF hE _ _) (chkA (F := F) aF (aF_lt aF hA) _ _) (k0_pay27 (F := F)) pay27_eq
  have hP8 := outP_ok (F := F) eF rF aF hE hA ⟨k.val, hk k⟩ B hB 128 (by omega) _ _ _ (k0_off43_eq k) (k0_off19_eq k) rfl (k0_off43_inb k) (k0_off19_inb k) inb_S384_S16_128 (chkE (F := F) eF hE _ _) (chkA (F := F) aF (aF_lt aF hA) _ _) (k0_pay28 (F := F)) pay28_eq
  have hP9 := outP_ok (F := F) eF rF aF hE hA ⟨k.val, hk k⟩ B hB 144 (by omega) _ _ _ (k0_off44_eq k) (k0_off20_eq k) rfl (k0_off44_inb k) (k0_off20_inb k) inb_S384_S16_144 (chkE (F := F) eF hE _ _) (chkA (F := F) aF (aF_lt aF hA) _ _) (k0_pay29 (F := F)) pay29_eq
  have hP10 := outP_ok (F := F) eF rF aF hE hA ⟨k.val, hk k⟩ B hB 160 (by omega) _ _ _ (k0_off45_eq k) (k0_off21_eq k) rfl (k0_off45_inb k) (k0_off21_inb k) inb_S384_S16_160 (chkE (F := F) eF hE _ _) (chkA (F := F) aF (aF_lt aF hA) _ _) (k0_pay30 (F := F)) pay30_eq
  have hP11 := outP_ok (F := F) eF rF aF hE hA ⟨k.val, hk k⟩ B hB 176 (by omega) _ _ _ (k0_off46_eq k) (k0_off22_eq k) rfl (k0_off46_inb k) (k0_off22_inb k) inb_S384_S16_176 (chkE (F := F) eF hE _ _) (chkA (F := F) aF (aF_lt aF hA) _ _) (k0_pay31 (F := F)) pay31_eq
  have hP12 := outP_ok (F := F) eF rF aF hE hA ⟨k.val, hk k⟩ B hB 192 (by omega) _ _ _ (k0_off47_eq k) (k0_off23_eq k) rfl (k0_off47_inb k) (k0_off23_inb k) inb_S384_S16_192 (chkE (F := F) eF hE _ _) (chkA (F := F) aF (aF_lt aF hA) _ _) (k0_pay32 (F := F)) pay32_eq
  have hP13 := outP_ok (F := F) eF rF aF hE hA ⟨k.val, hk k⟩ B hB 208 (by omega) _ _ _ (k0_off48_eq k) (k0_off24_eq k) rfl (k0_off48_inb k) (k0_off24_inb k) inb_S384_S16_208 (chkE (F := F) eF hE _ _) (chkA (F := F) aF (aF_lt aF hA) _ _) (k0_pay34 (F := F)) pay34_eq
  have hP14 := outP_ok (F := F) eF rF aF hE hA ⟨k.val, hk k⟩ B hB 224 (by omega) _ _ _ (k0_off49_eq k) (k0_off25_eq k) rfl (k0_off49_inb k) (k0_off25_inb k) inb_S384_S16_224 (chkE (F := F) eF hE _ _) (chkA (F := F) aF (aF_lt aF hA) _ _) (k0_pay35 (F := F)) pay35_eq
  have hP15 := outP_ok (F := F) eF rF aF hE hA ⟨k.val, hk k⟩ B hB 240 (by omega) _ _ _ (k0_off50_eq k) (k0_off26_eq k) rfl (k0_off50_inb k) (k0_off26_inb k) inb_S384_S16_240 (chkE (F := F) eF hE _ _) (chkA (F := F) aF (aF_lt aF hA) _ _) (k0_pay36 (F := F)) pay36_eq
  have hP16 := outP_ok (F := F) eF rF aF hE hA ⟨k.val, hk k⟩ B hB 256 (by omega) _ _ _ (k0_off51_eq k) (k0_off27_eq k) rfl (k0_off51_inb k) (k0_off27_inb k) inb_S384_S16_256 (chkE (F := F) eF hE _ _) (chkA (F := F) aF (aF_lt aF hA) _ _) (k0_pay37 (F := F)) pay37_eq
  have hP17 := outP_ok (F := F) eF rF aF hE hA ⟨k.val, hk k⟩ B hB 272 (by omega) _ _ _ (k0_off52_eq k) (k0_off28_eq k) rfl (k0_off52_inb k) (k0_off28_inb k) inb_S384_S16_272 (chkE (F := F) eF hE _ _) (chkA (F := F) aF (aF_lt aF hA) _ _) (k0_pay38 (F := F)) pay38_eq
  have hP18 := outP_ok (F := F) eF rF aF hE hA ⟨k.val, hk k⟩ B hB 288 (by omega) _ _ _ (k0_off53_eq k) (k0_off29_eq k) rfl (k0_off53_inb k) (k0_off29_inb k) inb_S384_S16_288 (chkE (F := F) eF hE _ _) (chkA (F := F) aF (aF_lt aF hA) _ _) (k0_pay39 (F := F)) pay39_eq
  have hP19 := outP_ok (F := F) eF rF aF hE hA ⟨k.val, hk k⟩ B hB 304 (by omega) _ _ _ (k0_off54_eq k) (k0_off30_eq k) rfl (k0_off54_inb k) (k0_off30_inb k) inb_S384_S16_304 (chkE (F := F) eF hE _ _) (chkA (F := F) aF (aF_lt aF hA) _ _) (k0_pay40 (F := F)) pay40_eq
  have hP20 := outP_ok (F := F) eF rF aF hE hA ⟨k.val, hk k⟩ B hB 320 (by omega) _ _ _ (k0_off55_eq k) (k0_off31_eq k) rfl (k0_off55_inb k) (k0_off31_inb k) inb_S384_S16_320 (chkE (F := F) eF hE _ _) (chkA (F := F) aF (aF_lt aF hA) _ _) (k0_pay41 (F := F)) pay41_eq
  have hP21 := outP_ok (F := F) eF rF aF hE hA ⟨k.val, hk k⟩ B hB 336 (by omega) _ _ _ (k0_off56_eq k) (k0_off32_eq k) rfl (k0_off56_inb k) (k0_off32_inb k) inb_S384_S16_336 (chkE (F := F) eF hE _ _) (chkA (F := F) aF (aF_lt aF hA) _ _) (k0_pay42 (F := F)) pay42_eq
  have hP22 := outP_ok (F := F) eF rF aF hE hA ⟨k.val, hk k⟩ B hB 352 (by omega) _ _ _ (k0_off57_eq k) (k0_off33_eq k) rfl (k0_off57_inb k) (k0_off33_inb k) inb_S384_S16_352 (chkE (F := F) eF hE _ _) (chkA (F := F) aF (aF_lt aF hA) _ _) (fun a b => k0_pay45 (F := F) (k0_pay43 (F := F) a b) (k0_pay44)) pay45_eq
  have hP23 := outP_ok (F := F) eF rF aF hE hA ⟨k.val, hk k⟩ B hB 368 (by omega) _ _ _ (k0_off58_eq k) (k0_off34_eq k) rfl (k0_off58_inb k) (k0_off34_inb k) inb_S384_S16_368 (chkE (F := F) eF hE _ _) (chkA (F := F) aF (aF_lt aF hA) _ _) (k0_pay46 (F := F)) pay46_eq
  have key := rows_write (F := F) ⟨k.val, hk k⟩ fo _ (fun p => Spec.bonds2 (F := F) eF rF (ix2 ⟨k.val, hk k⟩ p))
    (List.forall_mem_cons.mpr ⟨hP23.1, (List.forall_mem_cons.mpr ⟨hP22.1, (List.forall_mem_cons.mpr ⟨hP21.1, (List.forall_mem_cons.mpr ⟨hP20.1, (List.forall_mem_cons.mpr ⟨hP19.1, (List.forall_mem_cons.mpr ⟨hP18.1, (List.forall_mem_cons.mpr ⟨hP17.1, (List.forall_mem_cons.mpr ⟨hP16.1, (List.forall_mem_cons.mpr ⟨hP15.1, (List.forall_mem_cons.mpr ⟨hP14.1, (List.forall_mem_cons.mpr ⟨hP13.1, (List.forall_mem_cons.mpr ⟨hP12.1, (List.forall_mem_cons.mpr ⟨hP11.1, (List.forall_mem_cons.mpr ⟨hP10.1, (List.forall_mem_cons.mpr ⟨hP9.1, (List.forall_mem_cons.mpr ⟨hP8.1, (List.forall_mem_cons.mpr ⟨hP7.1, (List.forall_mem_cons.mpr ⟨hP6.1, (List.forall_mem_cons.mpr ⟨hP5.1, (List.forall_mem_cons.mpr ⟨hP4.1, (List.forall_mem_cons.mpr ⟨hP3.1, (List.forall_mem_cons.mpr ⟨hP2.1, (List.forall_mem_cons.mpr ⟨hP1.1, (List.forall_mem_cons.mpr ⟨hP0.1, (fun _ h => absurd h List.not_mem_nil)⟩)⟩)⟩)⟩)⟩)⟩)⟩)⟩)⟩)⟩)⟩)⟩)⟩)⟩)⟩)⟩)⟩)⟩)⟩)⟩)⟩)⟩)⟩)⟩)
    (List.forall_mem_cons.mpr ⟨hP23.2.1, (List.forall_mem_cons.mpr ⟨hP22.2.1, (List.forall_mem_cons.mpr ⟨hP21.2.1, (List.forall_mem_cons.mpr ⟨hP20.2.1, (List.forall_mem_cons.mpr ⟨hP19.2.1, (List.forall_mem_cons.mpr ⟨hP18.2.1, (List.forall_mem_cons.mpr ⟨hP17.2.1, (List.forall_mem_cons.mpr ⟨hP16.2.1, (List.forall_mem_cons.mpr ⟨hP15.2.1, (List.forall_mem_cons.mpr ⟨hP14.2.1, (List.forall_mem_cons.mpr ⟨hP13.2.1, (List.forall_mem_cons.mpr ⟨hP12.2.1, (List.forall_mem_cons.mpr ⟨hP11.2.1, (List.forall_mem_cons.mpr ⟨hP10.2.1, (List.forall_mem_cons.mpr ⟨hP9.2.1, (List.forall_mem_cons.mpr ⟨hP8.2.1, (List.forall_mem_cons.mpr ⟨hP7.2.1, (List.forall_mem_cons.mpr ⟨hP6.2.1, (List.forall_mem_cons.mpr ⟨hP5.2.1, (List.forall_mem_cons.mpr ⟨hP4.2.1, (List.forall_mem_cons.mpr ⟨hP3.2.1, (List.forall_mem_cons.mpr ⟨hP2.2.1, (List.forall_mem_cons.mpr ⟨hP1.2.1, (List.forall_mem_cons.mpr ⟨hP0.2.1, (fun _ h => absurd h List.not_mem_nil)⟩)⟩)⟩)⟩)⟩)⟩)⟩)⟩)⟩)⟩)⟩)⟩)⟩)⟩)⟩)⟩)⟩)⟩)⟩)⟩)⟩)⟩)⟩)⟩)
    (by
      intro p'
      have h384 : p'.val < 384 := p'.isLt
      by_cases c0 : p'.val < 16
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))), hP0.2.2 p' (by omega) (by omega)⟩
      by_cases c1 : p'.val < 32
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))), hP1.2.2 p' (by omega) (by omega)⟩
      by_cases c2 : p'.val < 48
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))), hP2.2.2 p' (by omega) (by omega)⟩
      by_cases c3 : p'.val < 64
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))), hP3.2.2 p' (by omega) (by omega)⟩
      by_cases c4 : p'.val < 80
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), hP4.2.2 p' (by omega) (by omega)⟩
      by_cases c5 : p'.val < 96
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), hP5.2.2 p' (by omega) (by omega)⟩
      by_cases c6 : p'.val < 112
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), hP6.2.2 p' (by omega) (by omega)⟩
      by_cases c7 : p'.val < 128
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), hP7.2.2 p' (by omega) (by omega)⟩
      by_cases c8 : p'.val < 144
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), hP8.2.2 p' (by omega) (by omega)⟩
      by_cases c9 : p'.val < 160
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), hP9.2.2 p' (by omega) (by omega)⟩
      by_cases c10 : p'.val < 176
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), hP10.2.2 p' (by omega) (by omega)⟩
      by_cases c11 : p'.val < 192
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), hP11.2.2 p' (by omega) (by omega)⟩
      by_cases c12 : p'.val < 208
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), hP12.2.2 p' (by omega) (by omega)⟩
      by_cases c13 : p'.val < 224
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), hP13.2.2 p' (by omega) (by omega)⟩
      by_cases c14 : p'.val < 240
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), hP14.2.2 p' (by omega) (by omega)⟩
      by_cases c15 : p'.val < 256
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), hP15.2.2 p' (by omega) (by omega)⟩
      by_cases c16 : p'.val < 272
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hP16.2.2 p' (by omega) (by omega)⟩
      by_cases c17 : p'.val < 288
      · exact ⟨_, (List.mem_cons_of_mem _ (List.mem_cons_of_mem _ (List.mem_cons_of_mem _ (List.mem_cons_of_mem _ (List.mem_cons_of_mem _ (List.mem_cons_of_mem _ List.mem_cons_self)))))), hP17.2.2 p' (by omega) (by omega)⟩
      by_cases c18 : p'.val < 304
      · exact ⟨_, (List.mem_cons_of_mem _ (List.mem_cons_of_mem _ (List.mem_cons_of_mem _ (List.mem_cons_of_mem _ (List.mem_cons_of_mem _ List.mem_cons_self))))), hP18.2.2 p' (by omega) (by omega)⟩
      by_cases c19 : p'.val < 320
      · exact ⟨_, (List.mem_cons_of_mem _ (List.mem_cons_of_mem _ (List.mem_cons_of_mem _ (List.mem_cons_of_mem _ List.mem_cons_self)))), hP19.2.2 p' (by omega) (by omega)⟩
      by_cases c20 : p'.val < 336
      · exact ⟨_, (List.mem_cons_of_mem _ (List.mem_cons_of_mem _ (List.mem_cons_of_mem _ List.mem_cons_self))), hP20.2.2 p' (by omega) (by omega)⟩
      by_cases c21 : p'.val < 352
      · exact ⟨_, (List.mem_cons_of_mem _ (List.mem_cons_of_mem _ List.mem_cons_self)), hP21.2.2 p' (by omega) (by omega)⟩
      by_cases c22 : p'.val < 368
      · exact ⟨_, (List.mem_cons_of_mem _ List.mem_cons_self), hP22.2.2 p' (by omega) (by omega)⟩
      · exact ⟨_, List.mem_cons_self, hP23.2.2 p' (by omega) (by omega)⟩)
    b p
  rw [key]
  by_cases hbk : b.val = k.val
  · obtain rfl : b = ⟨k.val, hk k⟩ := Fin.ext hbk
    rw [if_pos rfl]
  · rw [if_neg hbk]
    exact hfo b (by omega) p

end Final

/-! ## The trip -/

section Trip

variable (d : Dev nD) (L : grid0.Coords)

theorem trip (eF : IVec S64x384 32) (rF : IVec S64x128 32) (aF : IVec S384 32)
    (hE : ∀ i, (eF i).toNat < 64) (hR : ∀ i, (rF i).toNat < 64) (hA : ∀ p : Fin 384, aF (ix1 p) = BitVec.ofNat 32 (p.val / 6))
    (v7 : IVec S16 1) (v8 v9 : IVec S16 32)
    (hv7 : ∀ x : Fin 16, v7 (ix1 x) = if x.val < 8 then 1#1 else 0#1) (hv8 : ∀ x, v8 x = 0#32) (hv9 : ∀ x, v9 x = 0x11111111#32)
    (k : Fin k0_t1_loop.trips) :
    inv (F := F) d L eF rF aF k.val ⟨⟩
      ⊢ wp frame (wpE (defs₀ (F := F)) 𝒱₀ (thr d L) none) Set.univ
          (k0_t1_body L eV (Memref.isWhole_whole _) rV (Memref.isWhole_whole _) oV (Memref.isWhole_whole _) sE (Memref.isWhole_whole _) sR (Memref.isWhole_whole _) sO (Memref.isWhole_whole _) sA (Memref.isWhole_whole _) sB (Memref.isWhole_whole _) sTa (Memref.isWhole_whole _) sTb (Memref.isWhole_whole _) cc0_scratch7 cc0_scoped0 cc0_scoped1 v7 v8 v9 k ⟨⟩)
          fun _ => inv (F := F) d L eF rF aF (k.val + 1) ⟨⟩ := by
  have hA' : ∀ i, (aF i).toNat < 64 := aF_lt aF hA
  -- the trip as one sequence of loads, stores and checks; an indexed load is a load of the whole bitmap, an indexed
  -- store a load and a store of the whole table
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp (config := {maxSteps := 100000000}) only [Prog.lift, Prog.bind_op, Prog.bind_ret, Prog.pure_eq_ret,
    SparseCore.vectorStoreIdx_bind (thr d L), SparseCore.vectorLoadIdx_bind (thr d L)]
  unfold inv
  iintro ⟨HE, HR, HA, ⟨%fo, %hfo, HO⟩, ⟨%fb, HB⟩, ⟨%fta, HTa⟩, ⟨%ftb, HTb⟩⟩
  -- every word the trip uses as an index is an atom number: it was read from one of the three fixed buffers
  sl_exec (disch := (intro a x; obtain rfl : a = 0 := Subsingleton.elim _ _; first | exact hR _ | exact hE _ | exact hA' _))
  sl_step
  isplitl [HE]; · iexact HE
  isplitl [HR]; · iexact HR
  isplitl [HA]; · iexact HA
  isplitl [HO]
  · iexists _; isplitr
    · ipureintro
      exact final_value (F := F) d L eF rF aF hE hA k fo hfo _ (bitmapK_apply (F := F) rF hR v7 v8 v9 hv7 hv8 hv9 k)
    · iexact HO
  isplitl [HB]; · iexists _; iexact HB
  isplitl [HTa]; · iexists _; iexact HTa
  iexists _; iexact HTb

end Trip

end Cert.Proof.KI

end
-- ==== Proof.KI.Rows.lean ====
/-
  The specification of a row only reads that row: if a block's rows are rows `ρ b` of a larger array, the block's
  specification at row `b` is the larger array's at row `ρ b`.
-/
import proofs.«207480_g64682207477991_cont_9to1c4b_704_25_alg».proof.Proof.Spec

noncomputable section

namespace Cert.Proof.KI

open Idealize.ShloMosaic Idealize.ShloMosaic.ValueIdx

variable {F : FTy → Type} [FloatOps F]

theorem ringBond2_rows {n m : Nat} (E : IVec ⟨2, ![n, 384]⟩ 32) (R : IVec ⟨2, ![n, 128]⟩ 32) (eF : IVec ⟨2, ![m, 384]⟩ 32) (rF : IVec ⟨2, ![m, 128]⟩ 32)
    (ρ : Fin m → Fin n) (he : ∀ b p, eF (ix2 b p) = E (ix2 (ρ b) p)) (hr : ∀ b q, rF (ix2 b q) = R (ix2 (ρ b) q)) (b : Fin m) (p : Fin 384) :
    Cert.Proof.Spec.ringBond2 eF rF b p ↔ Cert.Proof.Spec.ringBond2 E R (ρ b) p := by
  unfold Cert.Proof.Spec.ringBond2
  simp only [he, hr]

open Classical in
theorem bonds2_rows {n m : Nat} (E : IVec ⟨2, ![n, 384]⟩ 32) (R : IVec ⟨2, ![n, 128]⟩ 32) (eF : IVec ⟨2, ![m, 384]⟩ 32) (rF : IVec ⟨2, ![m, 128]⟩ 32)
    (ρ : Fin m → Fin n) (he : ∀ b p, eF (ix2 b p) = E (ix2 (ρ b) p)) (hr : ∀ b q, rF (ix2 b q) = R (ix2 (ρ b) q)) (b : Fin m) (p : Fin 384) :
    Cert.Proof.Spec.bonds2 (F := F) eF rF (ix2 b p) = Cert.Proof.Spec.bonds2 (F := F) E R (ix2 (ρ b) p) := by
  show (if Cert.Proof.Spec.ringBond2 eF rF b p then _ else _) = (if Cert.Proof.Spec.ringBond2 E R (ρ b) p then _ else _)
  exact if_congr (ringBond2_rows E R eF rF ρ he hr b p) rfl rfl

end Cert.Proof.KI

end
-- ==== Proof.KI.Tile.lean ====
/-
  A tile's whole task. The tile fetches its 64 neighbour rows (started first, awaited after the position table is
  written) and its 64 ring rows into scratch, writes the atom of each of the 384 row positions, runs the loop over its
  molecules, and copies the 64 result rows out. From its rows of the two inputs at their contents it leaves its rows of
  the result at the specification, the inputs' rows untouched, and gives back everything it was lent.
-/
import proofs.«207480_g64682207477991_cont_9to1c4b_704_25_alg».proof.Proof.KI.Trip
import proofs.«207480_g64682207477991_cont_9to1c4b_704_25_alg».proof.Proof.KI.Rows

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (E1 : Dev nD → IVec S2048x384 32) (R2 : Dev nD → IVec S2048x128 32) (d : Dev nD) (L : grid0.Coords)

/-! ## The tile's blocks as the program slices them -/

abbrev blkK1 (L : grid0.Coords) : Rect S2048x384 := Rect.unit (s := S2048x384) (k0_off1 L) S64x384.size (k0_off1_inb L)
abbrev blkK2 (L : grid0.Coords) : Rect S2048x128 := Rect.unit (s := S2048x128) (k0_off2 L) S64x128.size (k0_off2_inb L)
abbrev eBlk (L : grid0.Coords) : Memref sig .scVector .hbm S64x384 .i32 := (eV : Memref sig .scVector .hbm S2048x384 .i32).slice (blkK1 L) (fun _ => rfl)
abbrev rBlk (L : grid0.Coords) : Memref sig .scVector .hbm S64x128 .i32 := (rV : Memref sig .scVector .hbm S2048x128 .i32).slice (blkK2 L) (fun _ => rfl)
abbrev oBlk (L : grid0.Coords) : Memref sig .scVector .hbm S64x384 .f32 := (oV : Memref sig .scVector .hbm S2048x384 .f32).slice (blkK1 L) (fun _ => rfl)

omit [FloatOps F] in
theorem blkK1_eq : blkK1 L = blkE (tL L) := by
  unfold blkK1 blkE Rect.part Rect.block
  congr 1 <;> funext a
  · rw [k0_off1_eq]
    match a with
    | 0 => show 1024 * (L 0).val + 64 * (L 1).val = (16 * (L 0).val + (L 1).val) * 64; omega
    | 1 => simp [Shape.partIx, Shape.partSize]
  · match a with
    | 0 => simp [Shape.partSize]
    | 1 => simp [Shape.partSize]
omit [FloatOps F] in
theorem blkK2_eq : blkK2 L = blkR (tL L) := by
  unfold blkK2 blkR Rect.part Rect.block
  congr 1 <;> funext a
  · rw [k0_off2_eq]
    match a with
    | 0 => show 1024 * (L 0).val + 64 * (L 1).val = (16 * (L 0).val + (L 1).val) * 64; omega
    | 1 => simp [Shape.partIx, Shape.partSize]
  · match a with
    | 0 => simp [Shape.partSize]
    | 1 => simp [Shape.partSize]

omit [FloatOps F] in
theorem set_eBlk : (eBlk L).view.set = eSet (tL L) := by
  show ((eV : Memref sig .scVector .hbm S2048x384 .i32).view.slice (blkK1 L)).set = ((eV : Memref sig .scVector .hbm S2048x384 .i32).view.slice (blkE (tL L))).set
  rw [blkK1_eq]
omit [FloatOps F] in
theorem set_rBlk : (rBlk L).view.set = rSet (tL L) := by
  show ((rV : Memref sig .scVector .hbm S2048x128 .i32).view.slice (blkK2 L)).set = ((rV : Memref sig .scVector .hbm S2048x128 .i32).view.slice (blkR (tL L))).set
  rw [blkK2_eq]
omit [FloatOps F] in
theorem set_oBlk : (oBlk L).view.set = oSet (tL L) := by
  show ((oV : Memref sig .scVector .hbm S2048x384 .f32).view.slice (blkK1 L)).set = ((oV : Memref sig .scVector .hbm S2048x384 .f32).view.slice (blkE (tL L))).set
  rw [blkK1_eq]

omit [FloatOps F] in
theorem pts_eBlk (f : Buf (Elt F) (eLoc d)) :
    ((eBlk L).view.loc (thr d L) ↦[(eBlk L).view.set]{fullShare} f : sProp 𝕄) = eLoc d ↦[eSet (tL L)]{fullShare} f := by
  rw [set_eBlk]
omit [FloatOps F] in
theorem pts_rBlk (f : Buf (Elt F) (rLoc d)) :
    ((rBlk L).view.loc (thr d L) ↦[(rBlk L).view.set]{fullShare} f : sProp 𝕄) = rLoc d ↦[rSet (tL L)]{fullShare} f := by
  rw [set_rBlk]
omit [FloatOps F] in
theorem pts_oBlk (f : Buf (Elt F) (oLoc d)) :
    ((oBlk L).view.loc (thr d L) ↦[(oBlk L).view.set]{fullShare} f : sProp 𝕄) = oLoc d ↦[oSet (tL L)]{fullShare} f := by
  rw [set_oBlk]

/-! ## What the two fetches land: the block's rows of the whole arrays -/

/-- Row b of the tile's block is row 64 t + b of the array. -/
def rowOf (L : grid0.Coords) (b : Fin 64) : Fin 2048 := ⟨64 * (tL L).val + b.val, by have := (tL L).isLt; omega⟩

def eFet (L : grid0.Coords) : IVec S64x384 32 := fun i => E1 d ((eBlk L).view.emb i)
def rFet (L : grid0.Coords) : IVec S64x128 32 := fun i => R2 d ((rBlk L).view.emb i)

omit [FloatOps F] in
theorem emb_eBlk (b : Fin 64) (p : Fin 384) : (eBlk L).view.emb (ix2 b p) = ix2 (rowOf L b) p := by
  funext a; apply Fin.ext
  match a with
  | ⟨0, _⟩ =>
    show (k0_off1 L) 0 + 1 * b.val = 64 * (16 * (L 0).val + (L 1).val) + b.val
    rw [k0_off1_eq]; show 1024 * (L 0).val + 64 * (L 1).val + 1 * b.val = _; omega
  | ⟨1, _⟩ =>
    show (k0_off1 L) 1 + 1 * p.val = p.val
    rw [k0_off1_eq]; show 0 + 1 * p.val = _; omega
omit [FloatOps F] in
theorem emb_rBlk (b : Fin 64) (q : Fin 128) : (rBlk L).view.emb (ix2 b q) = ix2 (rowOf L b) q := by
  funext a; apply Fin.ext
  match a with
  | ⟨0, _⟩ =>
    show (k0_off2 L) 0 + 1 * b.val = 64 * (16 * (L 0).val + (L 1).val) + b.val
    rw [k0_off2_eq]; show 1024 * (L 0).val + 64 * (L 1).val + 1 * b.val = _; omega
  | ⟨1, _⟩ =>
    show (k0_off2 L) 1 + 1 * q.val = q.val
    rw [k0_off2_eq]; show 0 + 1 * q.val = _; omega
omit [FloatOps F] in
theorem emb_oBlk (b : Fin 64) (p : Fin 384) : (oBlk L).view.emb (ix2 b p) = ix2 (rowOf L b) p := by
  funext a; apply Fin.ext
  match a with
  | ⟨0, _⟩ =>
    show (k0_off1 L) 0 + 1 * b.val = 64 * (16 * (L 0).val + (L 1).val) + b.val
    rw [k0_off1_eq]; show 1024 * (L 0).val + 64 * (L 1).val + 1 * b.val = _; omega
  | ⟨1, _⟩ =>
    show (k0_off1 L) 1 + 1 * p.val = p.val
    rw [k0_off1_eq]; show 0 + 1 * p.val = _; omega

omit [FloatOps F] in
theorem eFet_lt (hE : ∀ i, (E1 d i).toNat < 64) (i : S64x384.Idx) : (eFet E1 d L i).toNat < 64 := hE _
omit [FloatOps F] in
theorem rFet_lt (hR : ∀ i, (R2 d i).toNat < 64) (i : S64x128.Idx) : (rFet R2 d L i).toNat < 64 := hR _
omit [FloatOps F] in
theorem eFet_row (b : Fin 64) (p : Fin 384) : eFet E1 d L (ix2 b p) = E1 d (ix2 (rowOf L b) p) := by
  unfold eFet; rw [emb_eBlk]
omit [FloatOps F] in
theorem rFet_row (b : Fin 64) (q : Fin 128) : rFet R2 d L (ix2 b q) = R2 d (ix2 (rowOf L b) q) := by
  unfold rFet; rw [emb_rBlk]

/-! ## The position table -/

/-- The atom of a row position. -/
def tabG : IVec S384 32 := fun i => BitVec.ofNat 32 ((i 0).val / 6)

omit [FloatOps F] in
theorem piece_ok (c : Nat) (inb : ∀ a, (![c] : Fin 1 → Nat) a + S16.size a ≤ S384.size a) (w : S16.Idx → BitVec 32)
    (h : ∀ x : Fin 16, w (ix1 x) = BitVec.ofNat 32 ((c + 1 * x.val) / 6)) :
    ∀ x : (Rect.unit (s := S384) ![c] S16.size inb).shape.Idx, w x = tabG ((Rect.unit (s := S384) ![c] S16.size inb).emb x) := by
  intro x
  show w x = BitVec.ofNat 32 ((c + 1 * ((x : S16.Idx) 0).val) / 6)
  have hx : (x : S16.Idx) = ix1 ((x : S16.Idx) 0) := eq_ix1 (n := 16) x
  exact (congrArg w hx).trans (h _)

/-! ## The copy-out: the block's result rows are the whole array's -/

/-- Written over the tile's rows of the result, a block that holds the specification of the fetched rows
    agrees there with the specification of the whole arrays. -/
theorem out_congr (fo : Buf (Elt F) (oLoc d)) (w : S64x384.Idx → Elt F .f32)
    (hw : ∀ (b : Fin 64) (p : Fin 384), w (ix2 b p) = Cert.Proof.Spec.bonds2 (F := F) (eFet E1 d L) (rFet R2 d L) (ix2 b p)) :
    ∀ i ∈ (oBlk L).view.set, (oBlk L).view.writes (Elt F) fo [⟨Rect.whole S64x384, w⟩] i = Cert.Proof.Spec.bonds2 (F := F) (E1 d) (R2 d) i := by
  intro i hi
  obtain ⟨x, -, rfl⟩ := Finset.mem_map.mp hi
  have hr := View.read_writes_cons_emb (oBlk L).view fo (Rect.whole S64x384) w [] x
  rw [Rect.emb_whole_apply] at hr
  have h0 : (oBlk L).view.writes (Elt F) fo [⟨Rect.whole S64x384, w⟩] ((oBlk L).view.emb x) = w x :=
    ((cast_eq _ _).symm.trans (View.read_apply _ _).symm).trans hr
  have h1 : w x = w (ix2 (n0 := 64) (n1 := 384) (x 0) (x 1)) := congrArg w (eq_ix2 (n0 := 64) (n1 := 384) x)
  have h2 := hw (x 0) (x 1)
  have h3 := bonds2_rows (F := F) (E1 d) (R2 d) (eFet E1 d L) (rFet R2 d L) (rowOf L) (eFet_row E1 d L) (rFet_row R2 d L) (x 0) (x 1)
  have h4 : (oBlk L).view.emb x = ix2 (rowOf L (x 0)) (x 1) :=
    (congrArg (oBlk L).view.emb (eq_ix2 (n0 := 64) (n1 := 384) x)).trans (emb_oBlk L (x 0) (x 1))
  rw [h4] at h0 ⊢; exact h0.trans (h1.trans (h2.trans h3))

omit [FloatOps F] in
/-- The seven scratch buffers are among the subcore's own: they are them, at some contents, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

omit [FloatOps F] in
theorem ownSems0_V :
    (ownSems0 (thr d L) : sProp 𝕄)
      = iprop(semVal ((thr d L, SemLoc.dma cc0_scratch7.sem) : GSem nD τ sig) 0 ∗ semVal ((thr d L, SemLoc.dma cc0_scoped0.sem) : GSem nD τ sig) 0 ∗ semVal ((thr d L, SemLoc.dma cc0_scoped1.sem) : GSem nD τ sig) 0
          ∗ bigSep ((((ownCells (thr d L)).erase ((thr d L, SemLoc.dma cc0_scratch7.sem) : GSem nD τ sig)).erase ((thr d L, SemLoc.dma cc0_scoped0.sem) : GSem nD τ sig)).erase ((thr d L, SemLoc.dma cc0_scoped1.sem) : GSem nD τ sig))
              fun g => semVal g 0) := by
  unfold SparseCore.Cfg.ownSems0
  rw [SparseCore.bigSep_erase' ((mem_ownCells (g := ((thr d L, SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨by simp; decide, (mem_ownCells (g := ((thr d L, SemLoc.dma cc0_scoped0.sem) : GSem nD τ sig))).mpr ⟨rfl, by show (SemLoc.dma cc0_scoped0.sem : SemLoc sig).isScoped .scVector = true; decide⟩⟩),
    SparseCore.bigSep_erase' (Finset.mem_erase.mpr ⟨by simp; decide, Finset.mem_erase.mpr ⟨by simp; decide, (mem_ownCells (g := ((thr d L, SemLoc.dma cc0_scoped1.sem) : GSem nD τ sig))).mpr ⟨rfl, by show (SemLoc.dma cc0_scoped1.sem : SemLoc sig).isScoped .scVector = true; decide⟩⟩⟩)]

omit [FloatOps F] in
theorem pts_sE (f : Buf (Elt F) ((thr d L).loc cc0_scratch0)) :
    ((sE : Memref sig .scVector .vmem S64x384 .i32).view.loc (thr d L) ↦{fullShare} f : sProp 𝕄) = (thr d L).loc cc0_scratch0 ↦{fullShare} f := rfl

omit [FloatOps F] in
theorem pts_sR (f : Buf (Elt F) ((thr d L).loc cc0_scratch1)) :
    ((sR : Memref sig .scVector .vmem S64x128 .i32).view.loc (thr d L) ↦{fullShare} f : sProp 𝕄) = (thr d L).loc cc0_scratch1 ↦{fullShare} f := rfl

omit [FloatOps F] in
theorem pts_sO (f : Buf (Elt F) ((thr d L).loc cc0_scratch2)) :
    ((sO : Memref sig .scVector .vmem S64x384 .f32).view.loc (thr d L) ↦{fullShare} f : sProp 𝕄) = (thr d L).loc cc0_scratch2 ↦{fullShare} f := rfl

omit [FloatOps F] in
theorem pts_sA (f : Buf (Elt F) ((thr d L).loc cc0_scratch3)) :
    ((sA : Memref sig .scVector .vmem S384 .i32).view.loc (thr d L) ↦{fullShare} f : sProp 𝕄) = (thr d L).loc cc0_scratch3 ↦{fullShare} f := rfl

omit [FloatOps F] in
theorem pts_sB (f : Buf (Elt F) ((thr d L).loc cc0_scratch4)) :
    ((sB : Memref sig .scVector .vmem S64 .i32).view.loc (thr d L) ↦{fullShare} f : sProp 𝕄) = (thr d L).loc cc0_scratch4 ↦{fullShare} f := rfl

omit [FloatOps F] in
theorem pts_sTa (f : Buf (Elt F) ((thr d L).loc cc0_scratch5)) :
    ((sTa : Memref sig .scVector .vmem S64 .i32).view.loc (thr d L) ↦{fullShare} f : sProp 𝕄) = (thr d L).loc cc0_scratch5 ↦{fullShare} f := rfl

omit [FloatOps F] in
theorem pts_sTb (f : Buf (Elt F) ((thr d L).loc cc0_scratch6)) :
    ((sTb : Memref sig .scVector .vmem S64 .i32).view.loc (thr d L) ↦{fullShare} f : sProp 𝕄) = (thr d L).loc cc0_scratch6 ↦{fullShare} f := rfl

/-! ## The task -/

theorem tile_body (hF : (K (F := F)).Facts) (hE : ∀ i, (E1 d i).toNat < 64) (hR : ∀ i, (R2 d i).toNat < 64)
    (O : CellTallies nD τ sig (HIx 1)) (W : Waits sig (HIx 1)) (hO : ∀ g, O g none = 0) :
    iprop(levAts (K (F := F)).L (K (F := F)).lev ∗ emp ∗ tilePre (F := F) E1 R2 d (tL L)
        ∗ scopedBufs (thr d L) ∗ scopedSems0 (thr d L) ∗ owes (thr d L) O W)
      ⊢ wp frame (wpE (defs₀ (F := F)) 𝒱₀ (thr d L) none) Set.univ
          (cc0__find_ring_bonds_body L eV (Memref.isWhole_whole _) rV (Memref.isWhole_whole _) oV (Memref.isWhole_whole _) sE (Memref.isWhole_whole _) sR (Memref.isWhole_whole _) sO (Memref.isWhole_whole _) sA (Memref.isWhole_whole _) sB (Memref.isWhole_whole _) sTa (Memref.isWhole_whole _) sTb (Memref.isWhole_whole _) cc0_scratch7 cc0_scoped0 cc0_scoped1)
          fun _ => iprop(tilePost (F := F) E1 R2 d (tL L) ∗ scopedBufs (thr d L) ∗ scopedSems0 (thr d L)
            ∗ ∃ W', ⌜∀ p ∈ W', p ∈ W ∨ p.2 = none⌝ ∗ owes (thr d L) O W') := by
  simp only [cc0__find_ring_bonds_body_eq_skeleton]; unfold cc0__find_ring_bonds_body_skel
  rw [(K (F := F)).scopedBufs_V hF d (cV L) (jV L), SparseCore.Cfg.scopedSems0_V (Val := Elt F) d (cV L) (jV L), ownSems0_V, ownBufs_V]
  unfold tilePre
  iintro ⟨#Hlv, -, ⟨He, Hr, %fo, Ho⟩, ⟨⟨%f0, H0⟩, ⟨%f1, H1⟩, ⟨%f2, H2⟩, ⟨%f3, H3⟩, ⟨%f4, H4⟩, ⟨%f5, H5⟩, ⟨%f6, H6⟩, Hbufs⟩, ⟨Hsem7, Hsem0, Hsem1, Hsems⟩, HO⟩
  -- the tile's three row blocks, spelt on the sliced arrays' own elements; its scratch, on the scratch arrays
  ihave Hmw := ((K (F := F)).mayWaits_none (thr := thr d L) hO) $$ Hlv
  ihave He' := (Entails.of_eq (pts_eBlk (F := F) d L _).symm) $$ He
  ihave Hr' := (Entails.of_eq (pts_rBlk (F := F) d L _).symm) $$ Hr
  ihave Ho' := (Entails.of_eq (pts_oBlk (F := F) d L _).symm) $$ Ho
  ihave H0' := (Entails.of_eq (pts_sE (F := F) d L _).symm) $$ H0
  ihave H1' := (Entails.of_eq (pts_sR (F := F) d L _).symm) $$ H1
  ihave H2' := (Entails.of_eq (pts_sO (F := F) d L _).symm) $$ H2
  ihave H3' := (Entails.of_eq (pts_sA (F := F) d L _).symm) $$ H3
  ihave H4' := (Entails.of_eq (pts_sB (F := F) d L _).symm) $$ H4
  ihave H5' := (Entails.of_eq (pts_sTa (F := F) d L _).symm) $$ H5
  ihave H6' := (Entails.of_eq (pts_sTb (F := F) d L _).symm) $$ H6
  sl_exec
  -- the three carried vectors, lane by lane
  have hv7 : ∀ x : Fin 16, (cmpi CmpIPredicate.slt tile_body.sl.v5 tile_body.sl.v6) (ix1 x) = if x.val < 8 then 1#1 else 0#1 := by decide +kernel
  have hv8 : ∀ x, tile_body.sl.v8 x = 0#32 := fun _ => rfl
  have hv9 : ∀ x, tile_body.sl.v9 x = 0x11111111#32 := fun _ => rfl
  -- each of the 24 stored vectors holds, on lane x of the group at c, the quotient (c + x) / 6
  have h0 : ∀ x : Fin 16, tile_body.sl.v35 (ix1 x) = BitVec.ofNat 32 ((0 + 1 * x.val) / 6) := by decide +kernel
  have h16 : ∀ x : Fin 16, tile_body.sl.v62 (ix1 x) = BitVec.ofNat 32 ((16 + 1 * x.val) / 6) := by decide +kernel
  have h32 : ∀ x : Fin 16, tile_body.sl.v89 (ix1 x) = BitVec.ofNat 32 ((32 + 1 * x.val) / 6) := by decide +kernel
  have h48 : ∀ x : Fin 16, tile_body.sl.v116 (ix1 x) = BitVec.ofNat 32 ((48 + 1 * x.val) / 6) := by decide +kernel
  have h64 : ∀ x : Fin 16, tile_body.sl.v143 (ix1 x) = BitVec.ofNat 32 ((64 + 1 * x.val) / 6) := by decide +kernel
  have h80 : ∀ x : Fin 16, tile_body.sl.v170 (ix1 x) = BitVec.ofNat 32 ((80 + 1 * x.val) / 6) := by decide +kernel
  have h96 : ∀ x : Fin 16, tile_body.sl.v197 (ix1 x) = BitVec.ofNat 32 ((96 + 1 * x.val) / 6) := by decide +kernel
  have h112 : ∀ x : Fin 16, tile_body.sl.v224 (ix1 x) = BitVec.ofNat 32 ((112 + 1 * x.val) / 6) := by decide +kernel
  have h128 : ∀ x : Fin 16, tile_body.sl.v251 (ix1 x) = BitVec.ofNat 32 ((128 + 1 * x.val) / 6) := by decide +kernel
  have h144 : ∀ x : Fin 16, tile_body.sl.v278 (ix1 x) = BitVec.ofNat 32 ((144 + 1 * x.val) / 6) := by decide +kernel
  have h160 : ∀ x : Fin 16, tile_body.sl.v305 (ix1 x) = BitVec.ofNat 32 ((160 + 1 * x.val) / 6) := by decide +kernel
  have h176 : ∀ x : Fin 16, tile_body.sl.v332 (ix1 x) = BitVec.ofNat 32 ((176 + 1 * x.val) / 6) := by decide +kernel
  have h192 : ∀ x : Fin 16, tile_body.sl.v359 (ix1 x) = BitVec.ofNat 32 ((192 + 1 * x.val) / 6) := by decide +kernel
  have h208 : ∀ x : Fin 16, tile_body.sl.v386 (ix1 x) = BitVec.ofNat 32 ((208 + 1 * x.val) / 6) := by decide +kernel
  have h224 : ∀ x : Fin 16, tile_body.sl.v413 (ix1 x) = BitVec.ofNat 32 ((224 + 1 * x.val) / 6) := by decide +kernel
  have h240 : ∀ x : Fin 16, tile_body.sl.v440 (ix1 x) = BitVec.ofNat 32 ((240 + 1 * x.val) / 6) := by decide +kernel
  have h256 : ∀ x : Fin 16, tile_body.sl.v467 (ix1 x) = BitVec.ofNat 32 ((256 + 1 * x.val) / 6) := by decide +kernel
  have h272 : ∀ x : Fin 16, tile_body.sl.v494 (ix1 x) = BitVec.ofNat 32 ((272 + 1 * x.val) / 6) := by decide +kernel
  have h288 : ∀ x : Fin 16, tile_body.sl.v521 (ix1 x) = BitVec.ofNat 32 ((288 + 1 * x.val) / 6) := by decide +kernel
  have h304 : ∀ x : Fin 16, tile_body.sl.v548 (ix1 x) = BitVec.ofNat 32 ((304 + 1 * x.val) / 6) := by decide +kernel
  have h320 : ∀ x : Fin 16, tile_body.sl.v575 (ix1 x) = BitVec.ofNat 32 ((320 + 1 * x.val) / 6) := by decide +kernel
  have h336 : ∀ x : Fin 16, tile_body.sl.v602 (ix1 x) = BitVec.ofNat 32 ((336 + 1 * x.val) / 6) := by decide +kernel
  have h352 : ∀ x : Fin 16, tile_body.sl.v629 (ix1 x) = BitVec.ofNat 32 ((352 + 1 * x.val) / 6) := by decide +kernel
  have h368 : ∀ x : Fin 16, (k0_pay1 (addi tile_body.sl.v5 tile_body.sl.v631) (6#32) tile_body.sl.v634 (subi tile_body.sl.v637 tile_body.sl.v640) 1#32 0#32) (ix1 x) = BitVec.ofNat 32 ((368 + 1 * x.val) / 6) := by decide +kernel
  -- every piece agrees with position / 6; the pieces tile the 384 positions; so the table is position / 6 throughout
  have hG : ∀ p ∈ (tile_body.sl.H3'_24 (F := F)), ∀ x : p.1.shape.Idx, p.2 x = tabG (p.1.emb x) := by
    unfold tile_body.sl.H3'_24
    exact List.forall_mem_cons.mpr ⟨piece_ok 368 inb_S384_S16_368 _ h368, List.forall_mem_cons.mpr ⟨piece_ok 352 inb_S384_S16_352 _ h352, List.forall_mem_cons.mpr ⟨piece_ok 336 inb_S384_S16_336 _ h336, List.forall_mem_cons.mpr ⟨piece_ok 320 inb_S384_S16_320 _ h320, List.forall_mem_cons.mpr ⟨piece_ok 304 inb_S384_S16_304 _ h304, List.forall_mem_cons.mpr ⟨piece_ok 288 inb_S384_S16_288 _ h288, List.forall_mem_cons.mpr ⟨piece_ok 272 inb_S384_S16_272 _ h272, List.forall_mem_cons.mpr ⟨piece_ok 256 inb_S384_S16_256 _ h256, List.forall_mem_cons.mpr ⟨piece_ok 240 inb_S384_S16_240 _ h240, List.forall_mem_cons.mpr ⟨piece_ok 224 inb_S384_S16_224 _ h224, List.forall_mem_cons.mpr ⟨piece_ok 208 inb_S384_S16_208 _ h208, List.forall_mem_cons.mpr ⟨piece_ok 192 inb_S384_S16_192 _ h192, List.forall_mem_cons.mpr ⟨piece_ok 176 inb_S384_S16_176 _ h176, List.forall_mem_cons.mpr ⟨piece_ok 160 inb_S384_S16_160 _ h160, List.forall_mem_cons.mpr ⟨piece_ok 144 inb_S384_S16_144 _ h144, List.forall_mem_cons.mpr ⟨piece_ok 128 inb_S384_S16_128 _ h128, List.forall_mem_cons.mpr ⟨piece_ok 112 inb_S384_S16_112 _ h112, List.forall_mem_cons.mpr ⟨piece_ok 96 inb_S384_S16_96 _ h96, List.forall_mem_cons.mpr ⟨piece_ok 80 inb_S384_S16_80 _ h80, List.forall_mem_cons.mpr ⟨piece_ok 64 inb_S384_S16_64 _ h64, List.forall_mem_cons.mpr ⟨piece_ok 48 inb_S384_S16_48 _ h48, List.forall_mem_cons.mpr ⟨piece_ok 32 inb_S384_S16_32 _ h32, List.forall_mem_cons.mpr ⟨piece_ok 16 inb_S384_S16_16 _ h16, List.forall_mem_cons.mpr ⟨piece_ok 0 inb_S384_S16_0 _ h0, fun _ h => absurd h List.not_mem_nil⟩⟩⟩⟩⟩⟩⟩⟩⟩⟩⟩⟩⟩⟩⟩⟩⟩⟩⟩⟩⟩⟩⟩⟩
  have hcov : ∀ y : S384.Idx, ∃ p ∈ (tile_body.sl.H3'_24 (F := F)), y ∈ p.1.set := View.cover_of_tiled _ S16.size rfl
  have hA : ∀ p : Fin 384, ((sA : Memref sig .scVector .vmem S384 .i32).view.writes (Elt F) (sA : Memref sig .scVector .vmem S384 .i32).view.junk tile_body.sl.H3'_24 : IVec S384 32) (ix1 p) = BitVec.ofNat 32 (p.val / 6) := fun p =>
    by have h := View.read_writes_apply_of_pieces (sA : Memref sig .scVector .vmem S384 .i32).view (sA : Memref sig .scVector .vmem S384 .i32).view.junk tabG (tile_body.sl.H3'_24 (F := F)) hG (ix1 p) (hcov _); exact h
  -- the two fetches landed the block's rows of the whole arrays
  have he0 : View.write (Elt F) (sE : Memref sig .scVector .vmem S64x384 .i32).view f0 (tile_body.sl.dma0 E1 d L) Finset.univ = eFet E1 d L :=
    (View.write_whole_univ _ _ _).trans (funext fun i => (View.read_apply _ _).trans (cast_eq _ _))
  have he1 : View.write (Elt F) (sR : Memref sig .scVector .vmem S64x128 .i32).view f1 (tile_body.sl.dma0_1 R2 d L) Finset.univ = rFet R2 d L :=
    (View.write_whole_univ _ _ _).trans (funext fun i => (View.read_apply _ _).trans (cast_eq _ _))
  ihave H0'' := (Entails.of_eq (congrArg (fun g => ((sE : Memref sig .scVector .vmem S64x384 .i32).view.loc (thr d L) ↦{fullShare} g : sProp 𝕄)) he0)) $$ H0'
  ihave H1'' := (Entails.of_eq (congrArg (fun g => ((sR : Memref sig .scVector .vmem S64x128 .i32).view.loc (thr d L) ↦{fullShare} g : sProp 𝕄)) he1)) $$ H1'
  -- the loop over the tile's 64 molecules, at the invariant
  sl_for (inv (F := F) d L (eFet E1 d L) (rFet R2 d L) ((sA : Memref sig .scVector .vmem S384 .i32).view.writes (Elt F) (sA : Memref sig .scVector .vmem S384 .i32).view.junk tile_body.sl.H3'_24)) $$ [H0'' H1'' H3' H2' H4' H5' H6']
  case region =>
    intro k acc
    exact trip d L _ _ _ (eFet_lt E1 d L hE) (rFet_lt R2 d L hR) hA _ _ _ hv7 hv8 hv9 k
  · unfold inv
    isplitl [H0'']; · iexact H0''
    isplitl [H1'']; · iexact H1''
    isplitl [H3']; · iexact H3'
    isplitl [H2']
    · iexists f2; isplitr
      · ipureintro; intro b hb; exact absurd hb (Nat.not_lt_zero _)
      · iexact H2'
    isplitl [H4']; · iexists _; iexact H4'
    isplitl [H5']; · iexists _; iexact H5'
    iexists _; iexact H6'
  iintro %acc HI
  unfold inv
  icases HI with ⟨H0, H1, H3, ⟨%fo', %hfo, H2⟩, ⟨%g4, H4⟩, ⟨%g5, H5⟩, ⟨%g6, H6⟩⟩
  sl_exec
  -- after 64 trips every row of the result scratch is the specification of the fetched rows; copied out over the tile's
  -- rows it agrees there with the specification of the whole arrays
  have htr : Scf.trips k0_t1_loop.lb k0_t1_loop.ub k0_t1_loop.st = 64 := by decide +kernel
  have hout := out_congr (F := F) E1 R2 d L fo (tile_body.sl.dma0_2 d L fo') (fun b p => hfo b (Nat.lt_of_lt_of_eq b.isLt htr.symm) p)
  sl_step
  unfold tilePost
  isplitl [He' Hr' Ho']
  · isplitl [He']; · iapply (Entails.of_eq (pts_eBlk (F := F) d L _)); iexact He'
    isplitl [Hr']; · iapply (Entails.of_eq (pts_rBlk (F := F) d L _)); iexact Hr'
    iapply (Entails.of_eq ((pointsTo_congr hout).trans (pts_oBlk (F := F) d L _))); iexact Ho'
  isplitl [H0 H1 H2 H3 H4 H5 H6 Hbufs]
  · isplitl [H0]; · iexists _; iapply (Entails.of_eq (pts_sE (F := F) d L _)); iexact H0
    isplitl [H1]; · iexists _; iapply (Entails.of_eq (pts_sR (F := F) d L _)); iexact H1
    isplitl [H2]; · iexists _; iapply (Entails.of_eq (pts_sO (F := F) d L _)); iexact H2
    isplitl [H3]; · iexists _; iapply (Entails.of_eq (pts_sA (F := F) d L _)); iexact H3
    isplitl [H4]; · iexists _; iapply (Entails.of_eq (pts_sB (F := F) d L _)); iexact H4
    isplitl [H5]; · iexists _; iapply (Entails.of_eq (pts_sTa (F := F) d L _)); iexact H5
    isplitl [H6]; · iexists _; iapply (Entails.of_eq (pts_sTb (F := F) d L _)); iexact H6
    iexact Hbufs
  isplitl [Hsem7 Hsem0 Hsem1 Hsems]
  · isplitl [Hsem7]; · iexact Hsem7
    isplitl [Hsem0]; · iexact Hsem0
    isplitl [Hsem1]; · iexact Hsem1
    iexact Hsems
  iexists (insert (SemLoc.dma cc0_scoped1.sem, (default : HIx 1)) (insert (SemLoc.dma cc0_scratch7.sem, (default : HIx 1)) (insert (SemLoc.dma cc0_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

end Cert.Proof.KI

end
-- ==== Proof.KI.Blocks.lean ====
/-
  The three whole arrays in device memory, cut into the thirty-two tiles' blocks of 64 rows. The blocks of one array
  are pairwise disjoint and together cover it, so owning the whole array is owning the thirty-two blocks side by
  side. The tiles are numbered `t = 16 c + i` by SparseCore `c` and vector subcore `i`; this numbering is a bijection
  between pairs `(c, i)` and tiles, so a product over the tiles is the product over `c` of the products over `i`.
-/
import proofs.«207480_g64682207477991_cont_9to1c4b_704_25_alg».proof.Proof.KI.Setup

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's rows are its block -/

omit [FloatOps F] in
theorem eSet_eq (t : Fin 32) : eSet t = (blkE t).set := by
  show ((View.whole (main_v1_scv : Ref sig .scVector)).slice (blkE t)).set = _
  rw [View.set_slice]; exact Finset.map_refl
omit [FloatOps F] in
theorem rSet_eq (t : Fin 32) : rSet t = (blkR t).set := by
  show ((View.whole (main_v2_scv : Ref sig .scVector)).slice (blkR t)).set = _
  rw [View.set_slice]; exact Finset.map_refl
omit [FloatOps F] in
theorem oSet_eq (t : Fin 32) : oSet t = (blkE t).set := by
  show ((View.whole (main_v3_scv : Ref sig .scVector)).slice (blkE t)).set = _
  rw [View.set_slice]; exact Finset.map_refl

/-! ## The blocks are disjoint and cover the array -/

omit [FloatOps F] in
theorem eSet_disjoint : ∀ i ∈ (Finset.univ : Finset (Fin 32)), ∀ j ∈ (Finset.univ : Finset (Fin 32)), i ≠ j → Disjoint (eSet i) (eSet j) :=
  fun i _ j _ h => by rw [eSet_eq, eSet_eq]; exact Rect.part_disjoint hdivE h
omit [FloatOps F] in
theorem rSet_disjoint : ∀ i ∈ (Finset.univ : Finset (Fin 32)), ∀ j ∈ (Finset.univ : Finset (Fin 32)), i ≠ j → Disjoint (rSet i) (rSet j) :=
  fun i _ j _ h => by rw [rSet_eq, rSet_eq]; exact Rect.part_disjoint hdivR h
omit [FloatOps F] in
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivE h

omit [FloatOps F] in
theorem eSet_cover : (Finset.univ : Finset (Fin 32)).biUnion eSet = Finset.univ :=
  (Finset.biUnion_congr rfl fun i _ => eSet_eq i).trans (Rect.biUnion_part hdivE)
omit [FloatOps F] in
theorem rSet_cover : (Finset.univ : Finset (Fin 32)).biUnion rSet = Finset.univ :=
  (Finset.biUnion_congr rfl fun i _ => rSet_eq i).trans (Rect.biUnion_part hdivR)
omit [FloatOps F] in
theorem oSet_cover : (Finset.univ : Finset (Fin 32)).biUnion oSet = Finset.univ :=
  (Finset.biUnion_congr rfl fun i _ => oSet_eq i).trans (Rect.biUnion_part hdivE)

/-! ## Owning an array is owning its thirty-two blocks -/

omit [FloatOps F] in
theorem ePts_blocks (d : Dev nD) (f : Buf (Elt F) (eLoc d)) :
    (eLoc d ↦{fullShare} f : sProp 𝕄) = bigSep (Finset.univ : Finset (Fin 32)) fun t => eLoc d ↦[eSet t]{fullShare} f := by
  rw [← pointsTo_biUnion Finset.univ (ℓ := eLoc d) eSet eSet_disjoint, eSet_cover]; try rfl
omit [FloatOps F] in
theorem rPts_blocks (d : Dev nD) (f : Buf (Elt F) (rLoc d)) :
    (rLoc d ↦{fullShare} f : sProp 𝕄) = bigSep (Finset.univ : Finset (Fin 32)) fun t => rLoc d ↦[rSet t]{fullShare} f := by
  rw [← pointsTo_biUnion Finset.univ (ℓ := rLoc d) rSet rSet_disjoint, rSet_cover]; try rfl
omit [FloatOps F] in
theorem oPts_blocks (d : Dev nD) (f : Buf (Elt F) (oLoc d)) :
    (oLoc d ↦{fullShare} f : sProp 𝕄) = bigSep (Finset.univ : Finset (Fin 32)) fun t => oLoc d ↦[oSet t]{fullShare} f := by
  rw [← pointsTo_biUnion Finset.univ (ℓ := oLoc d) oSet oSet_disjoint, oSet_cover]; try rfl

/-! ## Thirty-two tiles are two SparseCores of sixteen -/

/-- The numbering `(c, i) ↦ 16 c + i` of the tiles. -/
def tileEquiv : Fin 2 × Fin 16 ≃ Fin 32 where
  toFun p := tileOf p.1 p.2
  invFun t := (⟨t.val / 16, by omega⟩, ⟨t.val % 16, by omega⟩)
  left_inv p := by
    obtain ⟨c, i⟩ := p
    refine Prod.ext (Fin.ext ?_) (Fin.ext ?_)
    · show (16 * c.val + i.val) / 16 = c.val
      omega
    · show (16 * c.val + i.val) % 16 = i.val
      omega
  right_inv t := by
    refine Fin.ext ?_
    show 16 * (t.val / 16) + t.val % 16 = t.val
    omega

omit [FloatOps F] in
theorem bigSep_tiles (Φ : Fin 32 → sProp 𝕄) :
    bigSep (Finset.univ : Finset (Fin 32)) Φ
      = bigSep (Finset.univ : Finset (Fin 2)) fun c => bigSep (Finset.univ : Finset (Fin 16)) fun i => Φ (tileOf c i) := by
  rw [bigSep_univ_equiv tileEquiv Φ, bigSep_univ_prod]
  rfl

end Cert.Proof.KI

end
-- ==== Proof.KI.Launch.lean ====
/-
  The whole program, from a tile's task to the run of all thirty-five threads of a device. @main converts the
  neighbour array to integers and flattens it and the ring array to rows; the call hands each of the two SparseCores
  the sixteen blocks of 64 rows of its tiles, every tile turns its block of the two inputs into its block of the
  result, and the blocks come back; @main then reshapes the result. Every block of the result is stated at the one
  whole-array specification, so the thirty-two blocks join to the whole result at that specification. The two
  arguments are never written.
-/
import proofs.«207480_g64682207477991_cont_9to1c4b_704_25_alg».proof.Proof.KI.Tile
import proofs.«207480_g64682207477991_cont_9to1c4b_704_25_alg».proof.Proof.KI.Blocks

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The tiles' obligation -/

section Obligations

variable (E1 : Dev nD → IVec S2048x384 32) (R2 : Dev nD → IVec S2048x128 32)

theorem defs₀_vector (c : Fin τ.nSC) (s : Fin τ.nSub) :
    defs₀ (F := F) (.scVector c s) 0 ()
      = SparseCore.onTile hcore0 hsub0 (fun c s => cc0__find_ring_bonds_body (coordsV c s)
          eV (Memref.isWhole_whole _) rV (Memref.isWhole_whole _) oV (Memref.isWhole_whole _)
          sE (Memref.isWhole_whole _) sR (Memref.isWhole_whole _) sO (Memref.isWhole_whole _) sA (Memref.isWhole_whole _)
          sB (Memref.isWhole_whole _) sTa (Memref.isWhole_whole _) sTb (Memref.isWhole_whole _) cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the grid runs the tile's task on its own block. -/
theorem tileObl (hF : (K (F := F)).Facts) (hE : ∀ d i, (E1 d i).toNat < 64) (hR : ∀ d i, (R2 d i).toNat < 64) :
    (K (F := F)).TileObl (D (F := F)) 𝒱 (P E1 R2) v₀ 0 := by
  intro d c i O W hO _ _
  simp only [show (P (F := F) E1 R2).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body E1 R2 d (coordsV ⟨_, hc.1⟩ ⟨_, hc.2⟩) hF (hE d) (hR d) O W hO).trans (wp_mono frame _ _ fun _ => obl_post)

/-! ## A SparseCore's share is its sixteen tiles' shares -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P E1 R2) 0 := by
  intro d c
  show (bigSep (Finset.univ : Finset (Fin 16)) fun i => tilePre (F := F) E1 R2 d (tileOf (Fin.cast nCore_zero c) i)) ⊢ |={Set.univ}=> iprop(
      (bigSep Finset.univ fun i : Fin ((K (F := F)).nSub 0) => tilePre (F := F) E1 R2 d (tileOf (Fin.cast nCore_zero c) (Fin.cast nSub_zero i)))
      ∗ ((bigSep Finset.univ fun i : Fin ((K (F := F)).nSub 0) => tilePost (F := F) E1 R2 d (tileOf (Fin.cast nCore_zero c) (Fin.cast nSub_zero i)))
          -∗ bigSep (Finset.univ : Finset (Fin 16)) fun i => tilePost (F := F) E1 R2 d (tileOf (Fin.cast nCore_zero c) i)))
  rw [bigSep_tasks (F := F) (fun i => tilePre (F := F) E1 R2 d (tileOf (Fin.cast nCore_zero c) i)),
    bigSep_tasks (F := F) (fun i => tilePost (F := F) E1 R2 d (tileOf (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F) E1 R2).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Obligations

/-! ## @main on the TensorCore -/

section Main

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v4Loc (d : Dev nD) : Loc nD τ sig := (SparseCore.T d).loc main_v4

/-- The flattened neighbour array as the call receives it: the first argument converted to integers, then each
    molecule's 64 x 6 slots laid out as one row of 384. -/
def E1of (d : Dev nD) : IVec S2048x384 32 :=
  shapeCast S2048x384 (fptosi 32 (m (a0Loc d)) : IVec S2048x64x6 32) shapeCasts_S2048x64x6_S2048x384
/-- The flattened ring array as the call receives it: each molecule's 16 x 8 members laid out as one row of 128. -/
def R2of (d : Dev nD) : IVec S2048x128 32 :=
  shapeCast S2048x128 (m (a1Loc d) : IVec S2048x16x8 32) shapeCasts_S2048x16x8_S2048x128

/-- The result @main returns: the specification over rows, reshaped to four axes. -/
def outOf (d : Dev nD) : FVec F S2048x64x6x1 .f32 :=
  shapeCast S2048x64x6x1 (Cert.Proof.Spec.bonds2 (F := F) (E1of m d) (R2of m d)) shapeCasts_S2048x384_S2048x64x6x1

/-- What @main leaves the claim: the two arguments at their launch contents, the result at the specification. -/
abbrev FIN (d : Dev nD) : sProp 𝕄 :=
  iprop((a0Loc d ↦{fullShare} m (a0Loc d)) ∗ (a1Loc d ↦{fullShare} m (a1Loc d)) ∗ (v4Loc d ↦{fullShare} outOf m d))

/-! ### The seven arrays and the four host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S7 : Finset (DevRef τ sig) := {a0', a1', v0', v1', v2', v3', v4'}

abbrev opConv : HloOp τ sig (Elt F) :=
  StableHlo.unary main_arg0 main_v0 (fptosi 32 : (⟨S2048x64x6, .f32⟩ : BufTy).Contents (Elt F) → (⟨S2048x64x6, .i32⟩ : BufTy).Contents (Elt F))
abbrev opFlatE : HloOp τ sig (Elt F) := StableHlo.reshape main_v0 main_v1 rfl shapeCasts_S2048x64x6_S2048x384
abbrev opFlatR : HloOp τ sig (Elt F) := StableHlo.reshape main_arg1 main_v2 rfl shapeCasts_S2048x16x8_S2048x128
abbrev opOut : HloOp τ sig (Elt F) := StableHlo.reshape main_v3 main_v4 rfl shapeCasts_S2048x384_S2048x64x6x1

omit [FloatOps F] in
theorem held_S7 (d : Dev nD) (W : Valuation τ sig (Elt F)) :
    (held (T d) S7 W : sProp 𝕄) = iprop((a0Loc d ↦{fullShare} W a0') ∗ (a1Loc d ↦{fullShare} W a1') ∗ (v0Loc d ↦{fullShare} W v0')
      ∗ (eLoc d ↦{fullShare} W v1') ∗ (rLoc d ↦{fullShare} W v2') ∗ (oLoc d ↦{fullShare} W v3') ∗ (v4Loc d ↦{fullShare} W v4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (eLoc d ↦{fullShare} W main_v1) ∗ (rLoc d ↦{fullShare} W main_v2) ∗ (oLoc d ↦{fullShare} W main_v3) ∗ (v4Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuation after the three operations before the call. -/
def V0 (d : Dev nD) : Valuation τ sig (Elt F) := fun b => m (d, b)
def V3 (d : Dev nD) : Valuation τ sig (Elt F) := (opFlatR (F := F)).result ((opFlatE (F := F)).result ((opConv (F := F)).result (V0 m d)))

theorem unscoped_held (d : Dev nD) : (unscopedBufs d (fun b => m ((SparseCore.T d).loc b)) : sProp 𝕄) = held (T d) S7 (V0 m d) := by
  rw [unscopedBufs_eq, held_S7]; rfl

theorem V3_a0 (d : Dev nD) : V3 m d a0' = m (a0Loc d) := by
  unfold V3
  rw [StableHlo.reshape_result_ne _ _ _ _ _ _ _ (show main_arg0 ≠ main_v2 by decide),
    StableHlo.reshape_result_ne _ _ _ _ _ _ _ (show main_arg0 ≠ main_v1 by decide),
    StableHlo.unary_result_ne _ _ _ _ _ _ (show main_arg0 ≠ main_v0 by decide)]
  rfl
theorem V3_a1 (d : Dev nD) : V3 m d a1' = m (a1Loc d) := by
  unfold V3
  rw [StableHlo.reshape_result_ne _ _ _ _ _ _ _ (show main_arg1 ≠ main_v2 by decide),
    StableHlo.reshape_result_ne _ _ _ _ _ _ _ (show main_arg1 ≠ main_v1 by decide),
    StableHlo.unary_result_ne _ _ _ _ _ _ (show main_arg1 ≠ main_v0 by decide)]
  rfl
theorem V3_v3 (d : Dev nD) : V3 m d v3' = m (oLoc d) := by
  unfold V3
  rw [StableHlo.reshape_result_ne _ _ _ _ _ _ _ (show main_v3 ≠ main_v2 by decide),
    StableHlo.reshape_result_ne _ _ _ _ _ _ _ (show main_v3 ≠ main_v1 by decide),
    StableHlo.unary_result_ne _ _ _ _ _ _ (show main_v3 ≠ main_v0 by decide)]
  rfl
theorem V3_v4 (d : Dev nD) : V3 m d v4' = m (v4Loc d) := by
  unfold V3
  rw [StableHlo.reshape_result_ne _ _ _ _ _ _ _ (show main_v4 ≠ main_v2 by decide),
    StableHlo.reshape_result_ne _ _ _ _ _ _ _ (show main_v4 ≠ main_v1 by decide),
    StableHlo.unary_result_ne _ _ _ _ _ _ (show main_v4 ≠ main_v0 by decide)]
  rfl
theorem V3_v1 (d : Dev nD) : V3 m d v1' = E1of m d := by
  unfold V3
  rw [StableHlo.reshape_result_ne _ _ _ _ _ _ _ (show main_v1 ≠ main_v2 by decide), StableHlo.reshape_result, StableHlo.unary_result]
  rfl
theorem V3_v2 (d : Dev nD) : V3 m d v2' = R2of m d := by
  unfold V3
  rw [StableHlo.reshape_result,
    StableHlo.reshape_result_ne _ _ _ _ _ _ _ (show main_arg1 ≠ main_v1 by decide),
    StableHlo.unary_result_ne _ _ _ _ _ _ (show main_arg1 ≠ main_v0 by decide)]
  rfl

theorem hConv : (opConv (F := F)).bufs ⊆ S7 := show ({a0', v0'} : Finset (DevRef τ sig)) ⊆ S7 by decide
theorem hFlatE : (opFlatE (F := F)).bufs ⊆ S7 := show ({v0', v1'} : Finset (DevRef τ sig)) ⊆ S7 by decide
theorem hFlatR : (opFlatR (F := F)).bufs ⊆ S7 := show ({a1', v2'} : Finset (DevRef τ sig)) ⊆ S7 by decide

/-- The result array before the last reshape, for that operation's valuation. -/
abbrev S2 : Finset (DevRef τ sig) := {v3', v4'}
def V4 (d : Dev nD) : Valuation τ sig (Elt F) :=
  Function.update (V0 m d) v3' (Cert.Proof.Spec.bonds2 (F := F) (E1of m d) (R2of m d) : Buf (Elt F) (oLoc d))

theorem V4_v3 (d : Dev nD) : V4 m d v3' = Cert.Proof.Spec.bonds2 (F := F) (E1of m d) (R2of m d) := Function.update_self _ _ _
theorem V4_v4 (d : Dev nD) : V4 m d v4' = m (v4Loc d) := Function.update_of_ne (show v4' ≠ v3' by decide) _ _

theorem hOut : (opOut (F := F)).bufs ⊆ S2 := show ({v3', v4'} : Finset (DevRef τ sig)) ⊆ S2 by decide

omit [FloatOps F] in
theorem held_S2 (d : Dev nD) (W : Valuation τ sig (Elt F)) :
    (held (T d) S2 W : sProp 𝕄) = iprop((oLoc d ↦{fullShare} W v3') ∗ (v4Loc d ↦{fullShare} W v4')) := by
  unfold held S2
  rw [SparseCore.bigSep_insert' (by decide), bigSep_singleton]

theorem held_V3 (d : Dev nD) :
    (held (T d) S7 (V3 m d) : sProp 𝕄) = iprop((a0Loc d ↦{fullShare} m (a0Loc d)) ∗ (a1Loc d ↦{fullShare} m (a1Loc d)) ∗ (v0Loc d ↦{fullShare} V3 m d v0')
      ∗ (eLoc d ↦{fullShare} E1of m d) ∗ (rLoc d ↦{fullShare} R2of m d) ∗ (oLoc d ↦{fullShare} m (oLoc d)) ∗ (v4Loc d ↦{fullShare} m (v4Loc d))) := by
  rw [held_S7, V3_a0, V3_a1, V3_v1, V3_v2, V3_v3, V3_v4]

theorem held_out (d : Dev nD) :
    (held (T d) S2 ((opOut (F := F)).result (V4 m d)) : sProp 𝕄)
      = iprop((oLoc d ↦{fullShare} Cert.Proof.Spec.bonds2 (F := F) (E1of m d) (R2of m d)) ∗ (v4Loc d ↦{fullShare} outOf m d)) := by
  rw [held_S2, StableHlo.reshape_result, StableHlo.reshape_result_ne _ _ _ _ _ _ _ (show main_v3 ≠ main_v4 by decide), V4_v3]
  rfl

/-! ### The call's shares and the whole arrays -/

section Whole

variable (E1 : Dev nD → IVec S2048x384 32) (R2 : Dev nD → IVec S2048x128 32)

theorem st0_tiles (d : Dev nD) :
    (bigSep Finset.univ fun c : Fin ((K (F := F)).nCore 0) => (P (F := F) E1 R2).st 0 d c : sProp 𝕄)
      = bigSep (Finset.univ : Finset (Fin 32)) fun t => tilePre (F := F) E1 R2 d t := by
  rw [bigSep_tiles]; rfl
theorem dn0_tiles (d : Dev nD) :
    (bigSep Finset.univ fun c : Fin ((K (F := F)).nCore 0) => (P (F := F) E1 R2).dn 0 d c : sProp 𝕄)
      = bigSep (Finset.univ : Finset (Fin 32)) fun t => tilePost (F := F) E1 R2 d t := by
  rw [bigSep_tiles]; rfl

/-- The two SparseCores' shares before the call, from the three arrays whole. -/
theorem st0_intro (d : Dev nD) (f : Buf (Elt F) (oLoc d)) :
    iprop((eLoc d ↦{fullShare} E1 d) ∗ (rLoc d ↦{fullShare} R2 d) ∗ (oLoc d ↦{fullShare} f))
      ⊢ (bigSep Finset.univ fun c : Fin ((K (F := F)).nCore 0) => (P (F := F) E1 R2).st 0 d c : sProp 𝕄) := by
  rw [st0_tiles]
  unfold tilePre
  rw [bigSep_sep', bigSep_sep', ← ePts_blocks, ← rPts_blocks, oPts_blocks]
  have h : ∀ t : Fin 32, (oLoc d ↦[oSet t]{fullShare} f : sProp 𝕄) ⊢ iprop(∃ f, oLoc d ↦[oSet t]{fullShare} f) := fun t => by
    iintro H; iexists f; iexact H
  exact sep_mono_right (sep_mono_right (bigSep_mono fun t _ => h t))

/-- The two SparseCores' shares after the call are the three arrays whole, the result at the specification. -/
theorem dn0_eq (d : Dev nD) :
    (bigSep Finset.univ fun c : Fin ((K (F := F)).nCore 0) => (P (F := F) E1 R2).dn 0 d c : sProp 𝕄)
      = iprop((eLoc d ↦{fullShare} E1 d) ∗ (rLoc d ↦{fullShare} R2 d) ∗ (oLoc d ↦{fullShare} Cert.Proof.Spec.bonds2 (F := F) (E1 d) (R2 d))) := by
  rw [dn0_tiles]
  unfold tilePost
  rw [bigSep_sep', bigSep_sep', ← ePts_blocks, ← rPts_blocks, ← oPts_blocks]

end Whole

/-- @main on device `d`'s TensorCore: the conversion and the two flattenings, the call over the thirty-two blocks, the last
    reshape; the two arguments and the reshaped result kept. -/
theorem hmain (κ : GSem nD τ sig → ℕ) (d : Dev nD) :
    iprop((K (F := F)).ctx EH (P (E1of m) (R2of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the conversion to integers and the two flattenings, over the seven arrays
  iapply (wp_hlo_within 𝒱 (SparseCore.T d) none Set.univ (op := opConv) (S := S7) hConv (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opFlatE) (S := S7) hFlatE (V := (opConv (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opFlatR) (S := S7) hFlatR
    (V := (opFlatE (F := F)).result ((opConv (F := F)).result (V0 m d)))) $$ [Hb Hheld]
  · isplitl [Hb]; · iexact Hb
    iexact Hheld
  iintro ⟨Hb, Hheld⟩
  rw [wp_ret]; imodintro
  have e3 : (held (SparseCore.T d) S7 ((opFlatR (F := F)).result ((opFlatE (F := F)).result ((opConv (F := F)).result (V0 m d)))) : sProp 𝕄) = _ :=
    held_V3 m d
  ihave Hh := (Entails.of_eq e3) $$ Hheld
  icases Hh with ⟨H0, H1, -, He, Hr, Ho, H4⟩
  -- the call: the three flattened arrays, cut into the tiles' blocks, to the two SparseCores and back
  iapply ((K (F := F)).wp_run (D (F := F)) 𝒱 (EH := EH) (P := P (E1of m) (R2of m)) κ d 0) $$ [Hst He Hr Ho Hb H0 H1 H4]
  isplitr; · iexact Hctx
  isplitl [Hst]; · iexact Hst
  isplitl [He Hr Ho]
  · iapply (st0_intro (E1of m) (R2of m) d (m (oLoc d)))
    isplitl [He]; · iexact He
    isplitl [Hr]; · iexact Hr
    iexact Ho
  iintro ⟨Hst, Hdn⟩
  ihave Hdn' := (Entails.of_eq (dn0_eq (E1of m) (R2of m) d)) $$ Hdn
  icases Hdn' with ⟨-, -, Ho⟩
  -- the last reshape, over the result and its four-axis copy
  iapply (wp_hlo_within 𝒱 (SparseCore.T d) none Set.univ (op := opOut) (S := S2) hOut (V := V4 m d)) $$ [Hb Ho H4]
  · isplitl [Hb]; · iexact Hb
    rw [held_S2, V4_v3, V4_v4]
    isplitl [Ho]; · iexact Ho
    iexact H4
  iintro ⟨Hb, Hheld⟩
  ihave Hh := (Entails.of_eq (held_out m d)) $$ Hheld
  icases Hh with ⟨-, H4⟩
  rw [wp_ret]; imodintro; imodintro
  isplitl [Hst]; · iexact Hst
  isplitl [H0]; · iexact H0
  isplitl [H1]; · iexact H1
  iexact H4

def fq (d : Dev nD) (s' : Phys nD τ sig (Elt F)) : Prop :=
  s'.mem.mem (v4Loc d) = outOf m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v4Loc d) (I := Finset.univ) (q := fullShare) (f := outOf m d)) $$ [HSI H4]
  · isplitl [HSI] <;> iassumption
  icases H with %h4
  ipureintro
  exact ⟨funext fun i => h4 i (Finset.mem_univ i), funext fun i => h0 i (Finset.mem_univ i), funext fun i => h1 i (Finset.mem_univ i)⟩

/-! ## The program's run -/

theorem run_main [∀ e, Nonempty (Elt F e)] (m : (ℓ : Loc nD τ sig) → Buf (Elt F) ℓ) (ρ : Dev nD → PrngReg)
    (hE : ∀ d i, (E1of m d i).toNat < 64) (hR : ∀ d i, (R2of m d i).toNat < 64) :
    θ_run (Cert.KernelIdeal.defs (F := F)) (Cert.KernelIdeal.threads (F := F)) ⟨m, fun _ => 0, ρ⟩ (fun r => ∀ c : Dev nD,
      r.2.mem ((c.tc : Thread nD τ).loc main_v4) = shapeCast S2048x64x6x1 (Cert.Proof.Spec.bonds2 (F := F) (E1of m c) (R2of m c)) shapeCasts_S2048x384_S2048x64x6x1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (E1of m) (R2of m)) facts v₀
    (fun q hq => match q with | 0 => nomatch hq)
    (fun q _ => match q with | 0 => tileObl (E1of m) (R2of m) facts hE hR)
    (fun q _ => match q with | 0 => SparseCore.Cfg.VecSplit.of_plain (vecSplit (E1of m) (R2of m)))
    m ρ main (fun _ => iprop(emp)) (FIN m) (u₀ (F := F)) (sep_elim_left.trans (hu₀ (E1of m) (R2of m))) (hmain m ρ) (fq m) (hfin m) _ (fun _ h => h)

end Main

end Cert.Proof.KI

end
-- ==== Proof.KB.Setup.lean ====
/-
  The idealized kernel's program as the SparseCore launch theorem sees it, and the interface between a tile's task
  and the launch. The thirty-two tiles (2 SparseCores x 16 vector subcores) each own a block of 64 consecutive
  molecules: tile `t = 16 c + i` reads rows `[64 t, 64 t + 64)` of the flattened neighbour array and of the flattened
  ring array and writes the same rows of the result. A SparseCore's share of the call is, by definition, the sixteen
  tile shares side by side, so that handing them to the tiles is the identity.
-/
import proofs.«207480_g64682207477991_cont_9to1c4b_704_25_alg».proof.Defs
import proofs.«207480_g64682207477991_cont_9to1c4b_704_25_alg».proof.Proof.Gen.Kernel
import proofs.«207480_g64682207477991_cont_9to1c4b_704_25_alg».proof.Proof.Gen.Kernel.Skeleton
import proofs.«207480_g64682207477991_cont_9to1c4b_704_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened neighbour array, the flattened ring array and the result, as locations of device `d`. -/
abbrev eLoc (d : Dev nD) : Loc nD τ sig := (SparseCore.T d).loc main_v1
abbrev rLoc (d : Dev nD) : Loc nD τ sig := (SparseCore.T d).loc main_v2
abbrev oLoc (d : Dev nD) : Loc nD τ sig := (SparseCore.T d).loc main_v3

abbrev eV : Memref sig .scVector .hbm S2048x384 .i32 := Memref.whole main_v1_scv
abbrev rV : Memref sig .scVector .hbm S2048x128 .i32 := Memref.whole main_v2_scv
abbrev oV : Memref sig .scVector .hbm S2048x384 .f32 := Memref.whole main_v3_scv
/-- A tile's scratch: the fetched neighbour rows, the fetched ring rows, the result rows, the atom of each position,
    the ring bitmap, and the two nibble-count tables. -/
abbrev sE : Memref sig .scVector .vmem S64x384 .i32 := Memref.whole cc0_scratch0
abbrev sR : Memref sig .scVector .vmem S64x128 .i32 := Memref.whole cc0_scratch1
abbrev sO : Memref sig .scVector .vmem S64x384 .f32 := Memref.whole cc0_scratch2
abbrev sA : Memref sig .scVector .vmem S384 .i32 := Memref.whole cc0_scratch3
abbrev sB : Memref sig .scVector .vmem S64 .i32 := Memref.whole cc0_scratch4
abbrev sTa : Memref sig .scVector .vmem S64 .i32 := Memref.whole cc0_scratch5
abbrev sTb : Memref sig .scVector .vmem S64 .i32 := Memref.whole cc0_scratch6

theorem hdivE : 32 ∣ S2048x384.size 0 := ⟨64, rfl⟩
theorem hdivR : 32 ∣ S2048x128.size 0 := ⟨64, rfl⟩
/-- Tile `t`'s block of 64 rows, in each of the three arrays. -/
abbrev blkE (t : Fin 32) : Rect S2048x384 := Rect.part (s := S2048x384) (a₀ := 0) hdivE t
abbrev blkR (t : Fin 32) : Rect S2048x128 := Rect.part (s := S2048x128) (a₀ := 0) hdivR t
abbrev eSet (t : Fin 32) : Finset S2048x384.Idx := ((eV : Memref sig .scVector .hbm S2048x384 .i32).view.slice (blkE t)).set
abbrev rSet (t : Fin 32) : Finset S2048x128.Idx := ((rV : Memref sig .scVector .hbm S2048x128 .i32).view.slice (blkR t)).set
abbrev oSet (t : Fin 32) : Finset S2048x384.Idx := ((oV : Memref sig .scVector .hbm S2048x384 .f32).view.slice (blkE t)).set

/-- The tile of SparseCore `c`, vector subcore `i`. -/
def tileOf (c : Fin 2) (i : Fin 16) : Fin 32 := ⟨16 * c.val + i.val, by omega⟩

variable [FloatOps F]

/-! ## What the call hands a tile and takes back

The contents `E1`, `R2` of the two flattened arrays when the call starts are parameters here (the launch supplies
what @main's operations before the call leave); every word of both names an atom (`< 64`). -/

section Shares

variable (E1 : Dev nD → IVec S2048x384 32) (R2 : Dev nD → IVec S2048x128 32)

/-- Before: the tile's rows of the two inputs at their contents, its rows of the result at whatever they hold. -/
def tilePre (d : Dev nD) (t : Fin 32) : sProp 𝕄 :=
  iprop((eLoc d ↦[eSet t]{fullShare} (E1 d)) ∗ (rLoc d ↦[rSet t]{fullShare} (R2 d)) ∗ ∃ f : Buf (Elt F) (oLoc d), (oLoc d ↦[oSet t]{fullShare} f))
/-- After: the inputs' rows as they were, the result's rows at the specification. -/
def tilePost (d : Dev nD) (t : Fin 32) : sProp 𝕄 :=
  iprop((eLoc d ↦[eSet t]{fullShare} (E1 d)) ∗ (rLoc d ↦[rSet t]{fullShare} (R2 d))
    ∗ (oLoc d ↦[oSet t]{fullShare} (Cert.Proof.Spec.bonds2 (F := F) (E1 d) (R2 d))))

instance tilePre_storable (d : Dev nD) (t : Fin 32) : BI.Storable (upEmb : UEmb _ 𝕄) (tilePre (F := F) E1 R2 d t) := by
  unfold tilePre; infer_instance
instance tilePost_storable (d : Dev nD) (t : Fin 32) : BI.Storable (upEmb : UEmb _ 𝕄) (tilePost (F := F) E1 R2 d t) := by
  unfold tilePost; infer_instance

/-- The one call: a SparseCore takes its sixteen tiles' shares and brings them back; a tile takes its own. -/
def P : (K (F := F)).Pay (nD := nD) (Val := Elt F) (Name := ℕ) (U := UU) where
  st := fun q d c => match q with
    | 0 => bigSep (Finset.univ : Finset (Fin 16)) fun i => tilePre (F := F) E1 R2 d (tileOf (Fin.cast nCore_zero c) i)
  dn := fun q d c => match q with
    | 0 => bigSep (Finset.univ : Finset (Fin 16)) fun i => tilePost (F := F) E1 R2 d (tileOf (Fin.cast nCore_zero c) i)
  go := fun q d c i => match q with
    | 0 => tilePre (F := F) E1 R2 d (tileOf (Fin.cast nCore_zero c) (Fin.cast nSub_zero i))
  td := fun q d c i => match q with
    | 0 => tilePost (F := F) E1 R2 d (tileOf (Fin.cast nCore_zero c) (Fin.cast nSub_zero i))
  x := fun _ _ => iprop(emp)

instance P_storable : (P (F := F) E1 R2).IsStorable where
  st q d c := match q with | 0 => by unfold P; infer_instance
  dn q d c := match q with | 0 => by unfold P; infer_instance
  go q d c i := match q with | 0 => by unfold P; infer_instance
  td q d c i := match q with | 0 => by unfold P; infer_instance

end Shares

/-! ## A tile's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile at grid coordinates `L`. -/
abbrev tL (L : grid0.Coords) : Fin 32 := tileOf (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.KB.Inv.lean ====
/-
  The invariant of a tile's loop over its 64 molecules. The three scratch buffers the loop only reads hold fixed
  contents: the tile's neighbour rows `eF`, its ring rows `rF`, and the atom of each row position `aF`. After `k`
  trips the first `k` rows of the result scratch hold the specification of those rows; the bitmap and the two count
  tables hold whatever the last trip left (every trip rebuilds them from zero).
-/
import proofs.«207480_g64682207477991_cont_9to1c4b_704_25_alg».proof.Proof.KB.Setup

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inv

variable (d : Dev nD) (L : grid0.Coords)

/-- The tile's thread. -/
abbrev thr : Thread nD τ := V d (cV L) (jV L)

/-- After `k` trips. -/
def inv (eF : IVec S64x384 32) (rF : IVec S64x128 32) (aF : IVec S384 32) (k : Nat) (_ : PUnit) : sProp 𝕄 :=
  iprop(((sE : Memref sig .scVector .vmem S64x384 .i32).view.loc (thr d L) ↦{fullShare} eF)
    ∗ ((sR : Memref sig .scVector .vmem S64x128 .i32).view.loc (thr d L) ↦{fullShare} rF)
    ∗ ((sA : Memref sig .scVector .vmem S384 .i32).view.loc (thr d L) ↦{fullShare} aF)
    ∗ (∃ fo : Buf (Elt F) ((thr d L).loc cc0_scratch2),
        ⌜∀ b : Fin 64, b.val < k → ∀ p : Fin 384, fo (ix2 b p) = Cert.Proof.Spec.bonds2 (F := F) eF rF (ix2 b p)⌝
        ∗ ((sO : Memref sig .scVector .vmem S64x384 .f32).view.loc (thr d L) ↦{fullShare} fo))
    ∗ (∃ f : Buf (Elt F) ((thr d L).loc cc0_scratch4), ((sB : Memref sig .scVector .vmem S64 .i32).view.loc (thr d L) ↦{fullShare} f))
    ∗ (∃ f : Buf (Elt F) ((thr d L).loc cc0_scratch5), ((sTa : Memref sig .scVector .vmem S64 .i32).view.loc (thr d L) ↦{fullShare} f))
    ∗ (∃ f : Buf (Elt F) ((thr d L).loc cc0_scratch6), ((sTb : Memref sig .scVector .vmem S64 .i32).view.loc (thr d L) ↦{fullShare} f)))

end Inv

end Cert.Proof.KB

end
-- ==== Proof.KB.Lane.lean ====
/-
  The values the count words are built from and read by, lane by lane.

  A count word holds eight 4-bit fields, one per ring. The lanes of a register that scatter-adds ring members onto
  atoms carry `16 ^ r`: the first eight lanes belong to the even ring `2 j` of a pair, the last eight to the odd ring
  `2 j + 1`, so lane `x` carries `16 ^ (2 j)` when `x < 8` and `16 ^ (2 j + 1)` otherwise. Reading the counts back,
  each field is folded onto its lowest bit (`w | w >> 1`, then `| >> 2`, then the mask `0x11111111`), and the fold of the
  second word is shifted up by one bit and joined to the fold of the first: one membership bit per ring, sixteen rings.
-/
import proofs.«207480_g64682207477991_cont_9to1c4b_704_25_alg».proof.Proof.KB.Setup
import proofs.«207480_g64682207477991_cont_9to1c4b_704_25_alg».proof.Proof.BitmapRing

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-! ## The scattered values: lane `x` of pair `j` carries `16 ^ (2 j)` in the first half, `16 ^ (2 j + 1)` in the second -/

theorem pay2_lane (v7 : IVec S16 1) (hv7 : ∀ x : Fin 16, v7 (ix1 x) = if x.val < 8 then 1#1 else 0#1) (x : Fin 16) :
    k0_pay2 v7 (ix1 x) = Bitmap.laneVal 0 x := by
  show Scalar.select (v7 (ix1 x)) 1#32 16#32 = Bitmap.laneVal 0 x
  unfold Bitmap.laneVal
  rw [hv7 x]
  split
  · rw [select_one]; rfl
  · rw [select_zero]; rfl

theorem pay3_lane (v7 : IVec S16 1) (hv7 : ∀ x : Fin 16, v7 (ix1 x) = if x.val < 8 then 1#1 else 0#1) (x : Fin 16) :
    k0_pay3 v7 (ix1 x) = Bitmap.laneVal 1 x := by
  show Scalar.select (v7 (ix1 x)) 256#32 4096#32 = Bitmap.laneVal 1 x
  unfold Bitmap.laneVal
  rw [hv7 x]
  split
  · rw [select_one]; rfl
  · rw [select_zero]; rfl

theorem pay4_lane (v7 : IVec S16 1) (hv7 : ∀ x : Fin 16, v7 (ix1 x) = if x.val < 8 then 1#1 else 0#1) (x : Fin 16) :
    k0_pay4 v7 (ix1 x) = Bitmap.laneVal 2 x := by
  show Scalar.select (v7 (ix1 x)) 65536#32 1048576#32 = Bitmap.laneVal 2 x
  unfold Bitmap.laneVal
  rw [hv7 x]
  split
  · rw [select_one]; rfl
  · rw [select_zero]; rfl

theorem pay5_lane (v7 : IVec S16 1) (hv7 : ∀ x : Fin 16, v7 (ix1 x) = if x.val < 8 then 1#1 else 0#1) (x : Fin 16) :
    k0_pay5 v7 (ix1 x) = Bitmap.laneVal 3 x := by
  show Scalar.select (v7 (ix1 x)) 16777216#32 268435456#32 = Bitmap.laneVal 3 x
  unfold Bitmap.laneVal
  rw [hv7 x]
  split
  · rw [select_one]; rfl
  · rw [select_zero]; rfl

theorem pay6_lane (v7 : IVec S16 1) (hv7 : ∀ x : Fin 16, v7 (ix1 x) = if x.val < 8 then 1#1 else 0#1) (x : Fin 16) :
    k0_pay6 v7 (ix1 x) = Bitmap.laneVal 0 x := by
  show Scalar.select (v7 (ix1 x)) 1#32 16#32 = Bitmap.laneVal 0 x
  unfold Bitmap.laneVal
  rw [hv7 x]
  split
  · rw [select_one]; rfl
  · rw [select_zero]; rfl

theorem pay7_lane (v7 : IVec S16 1) (hv7 : ∀ x : Fin 16, v7 (ix1 x) = if x.val < 8 then 1#1 else 0#1) (x : Fin 16) :
    k0_pay7 v7 (ix1 x) = Bitmap.laneVal 1 x := by
  show Scalar.select (v7 (ix1 x)) 256#32 4096#32 = Bitmap.laneVal 1 x
  unfold Bitmap.laneVal
  rw [hv7 x]
  split
  · rw [select_one]; rfl
  · rw [select_zero]; rfl

theorem pay8_lane (v7 : IVec S16 1) (hv7 : ∀ x : Fin 16, v7 (ix1 x) = if x.val < 8 then 1#1 else 0#1) (x : Fin 16) :
    k0_pay8 v7 (ix1 x) = Bitmap.laneVal 2 x := by
  show Scalar.select (v7 (ix1 x)) 65536#32 1048576#32 = Bitmap.laneVal 2 x
  unfold Bitmap.laneVal
  rw [hv7 x]
  split
  · rw [select_one]; rfl
  · rw [select_zero]; rfl

theorem pay9_lane (v7 : IVec S16 1) (hv7 : ∀ x : Fin 16, v7 (ix1 x) = if x.val < 8 then 1#1 else 0#1) (x : Fin 16) :
    k0_pay9 v7 (ix1 x) = Bitmap.laneVal 3 x := by
  show Scalar.select (v7 (ix1 x)) 16777216#32 268435456#32 = Bitmap.laneVal 3 x
  unfold Bitmap.laneVal
  rw [hv7 x]
  split
  · rw [select_one]; rfl
  · rw [select_zero]; rfl

/-! ## The mask, and the fold of the two count words into one membership word -/

theorem v9_eq (v9 : IVec S16 32) (hv9 : ∀ x, v9 x = 0x11111111#32) : v9 = broadcast S16 286331153#32 :=
  funext fun x => by rw [hv9 x]; rfl

theorem fold11 (va vb : Vec F S16 .i32) (i : S16.Idx) :
    k0_pay11 (F := F) (broadcast S16 286331153#32) va vb (k0_pay10 (F := F) va) i = Bitmap.rbOf (va i) (vb i) := rfl

theorem fold12 (va vb : Vec F S16 .i32) (i : S16.Idx) :
    k0_pay12 (F := F) (broadcast S16 286331153#32) va vb i = Bitmap.rbOf (va i) (vb i) := rfl

theorem fold14 (va vb : Vec F S16 .i32) (i : S16.Idx) :
    k0_pay14 (F := F) (broadcast S16 286331153#32) vb (k0_pay13 (F := F) va) 2#32 i = Bitmap.rbOf (va i) (vb i) := rfl

theorem fold15 (va vb : Vec F S16 .i32) (i : S16.Idx) :
    k0_pay15 (F := F) (broadcast S16 286331153#32) va vb i = Bitmap.rbOf (va i) (vb i) := rfl

end Cert.Proof.KB

end
-- ==== Proof.KB.Sel.lean ====
/-
  The test at the end of a trip, lane by lane: two membership words share a ring exactly when their bitwise and is
  not zero; the lane is then one, else zero. Every one of the 24 stretches of a row computes this same function of the
  neighbour's word and the atom's word.
-/
import proofs.«207480_g64682207477991_cont_9to1c4b_704_25_alg».proof.Proof.KB.Setup
import proofs.«207480_g64682207477991_cont_9to1c4b_704_25_alg».proof.Proof.BitmapRing

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-- One where the two words share a set bit, zero elsewhere. -/
def sel (a b : IVec S16 32) : FVec F S16 .f32 := fun x => if (a x &&& b x) ≠ 0 then Spec.one else Spec.zero

/-- The test at one lane: the and of the two words compared with zero, choosing between one and zero. -/
theorem sel_lane (a b : IVec S16 32) (x : S16.Idx) :
    Scalar.select (IntOp.cmpi .ne (IntOp.andi (a x) (b x)) 0#32) (Spec.one : F .f32) Spec.zero = sel (F := F) a b x := by
  unfold sel Scalar.select
  exact if_congr IntOp.cmpi_ne rfl rfl

/-! ## Each stretch's computation is this test -/

theorem pay18_eq (a b : Vec F S16 .i32) : k0_pay18 (F := F) a b = sel (F := F) a b := funext fun x => sel_lane a b x
theorem pay19_eq (a b : Vec F S16 .i32) : k0_pay19 (F := F) a b = sel (F := F) a b := funext fun x => sel_lane a b x
theorem pay22_eq (a b : Vec F S16 .i32) : k0_pay22 (F := F) a b = sel (F := F) a b := funext fun x => sel_lane a b x
theorem pay23_eq (a b : Vec F S16 .i32) : k0_pay23 (F := F) a b = sel (F := F) a b := funext fun x => sel_lane a b x
theorem pay27_eq (a b : Vec F S16 .i32) : k0_pay27 (F := F) a b = sel (F := F) a b := funext fun x => sel_lane a b x
theorem pay28_eq (a b : Vec F S16 .i32) : k0_pay28 (F := F) a b = sel (F := F) a b := funext fun x => sel_lane a b x
theorem pay29_eq (a b : Vec F S16 .i32) : k0_pay29 (F := F) a b = sel (F := F) a b := funext fun x => sel_lane a b x
theorem pay30_eq (a b : Vec F S16 .i32) : k0_pay30 (F := F) a b = sel (F := F) a b := funext fun x => sel_lane a b x
theorem pay31_eq (a b : Vec F S16 .i32) : k0_pay31 (F := F) a b = sel (F := F) a b := funext fun x => sel_lane a b x
theorem pay32_eq (a b : Vec F S16 .i32) : k0_pay32 (F := F) a b = sel (F := F) a b := funext fun x => sel_lane a b x
theorem pay34_eq (a b : Vec F S16 .i32) : k0_pay34 (F := F) a b = sel (F := F) a b := funext fun x => sel_lane a b x
theorem pay35_eq (a b : Vec F S16 .i32) : k0_pay35 (F := F) a b = sel (F := F) a b := funext fun x => sel_lane a b x
theorem pay36_eq (a b : Vec F S16 .i32) : k0_pay36 (F := F) a b = sel (F := F) a b := funext fun x => sel_lane a b x
theorem pay37_eq (a b : Vec F S16 .i32) : k0_pay37 (F := F) a b = sel (F := F) a b := funext fun x => sel_lane a b x
theorem pay38_eq (a b : Vec F S16 .i32) : k0_pay38 (F := F) a b = sel (F := F) a b := funext fun x => sel_lane a b x
theorem pay39_eq (a b : Vec F S16 .i32) : k0_pay39 (F := F) a b = sel (F := F) a b := funext fun x => sel_lane a b x
theorem pay40_eq (a b : Vec F S16 .i32) : k0_pay40 (F := F) a b = sel (F := F) a b := funext fun x => sel_lane a b x
theorem pay41_eq (a b : Vec F S16 .i32) : k0_pay41 (F := F) a b = sel (F := F) a b := funext fun x => sel_lane a b x
theorem pay42_eq (a b : Vec F S16 .i32) : k0_pay42 (F := F) a b = sel (F := F) a b := funext fun x => sel_lane a b x
theorem pay46_eq (a b : Vec F S16 .i32) : k0_pay46 (F := F) a b = sel (F := F) a b := funext fun x => sel_lane a b x

/-! ## The four stretches whose test and choice were cut in two -/

theorem pay17_eq (a b : Vec F S16 .i32) : k0_pay17 (F := F) (k0_pay16 (F := F) a b) = sel (F := F) a b := funext fun x => sel_lane a b x
theorem pay21_eq (a b : Vec F S16 .i32) : k0_pay21 (F := F) (k0_pay20 (F := F) a b) = sel (F := F) a b := funext fun x => sel_lane a b x
theorem pay26_eq (a b : Vec F S16 .i32) :
    k0_pay26 (F := F) (k0_pay24 (F := F) a b) (Scalar.ofBits .f32 0x00000000#32) (k0_pay25 (F := F)) = sel (F := F) a b :=
  funext fun x => sel_lane a b x
theorem pay45_eq (a b : Vec F S16 .i32) : k0_pay45 (F := F) (k0_pay43 (F := F) a b) (k0_pay44) = sel (F := F) a b := funext fun x => sel_lane a b x

end Cert.Proof.KB

end
-- ==== Proof.KB.Bond.lean ====
/-
  The value of one lane at the end of a trip. The two gathers read the molecule's membership words at the
  neighbour's number and at the atom's own number; the words share a set bit exactly when some ring holds both
  atoms, which is the ring-bond test of the specification at that position of the row.
-/
import proofs.«207480_g64682207477991_cont_9to1c4b_704_25_alg».proof.Proof.KB.Sel

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

/-- A gather of sixty-four words by one index vector reads, at lane `x`, the word the lane's index names. -/
theorem loadIdx_apply (B : Vec F S64 .i32) (iv : IVec S16 32)
    (h : ∀ a y, ((![iv] : Fin 1 → IVec S16 32) a y).toNat < S64.size a) (x : S16.Idx) (hlt : (iv x).toNat < 64) :
    loadIdx (F := F) B ![iv] h x = B (ix1 ⟨(iv x).toNat, hlt⟩) := by
  unfold loadIdx
  congr 1
  funext a
  match a with
  | ⟨0, _⟩ => rfl

open Classical in
/-- The lane of position `p`: one exactly when some ring of molecule `b` holds both the atom `p / 6` and the
    neighbour in its slot. -/
theorem sel_bond (eF : IVec S64x384 32) (rF : IVec S64x128 32) (aF : IVec S384 32)
    (hE : ∀ i, (eF i).toNat < 64) (hA : ∀ p : Fin 384, aF (ix1 p) = BitVec.ofNat 32 (p.val / 6))
    (b : Fin 64) (B : Vec F S64 .i32) (hB : ∀ a : Fin 64, B (ix1 a) = Bitmap.rb (fun q => rF (ix2 b q)) a)
    (p : Fin 384) (nv av : IVec S16 32) (x : S16.Idx) (hn : nv x = eF (ix2 b p)) (ha : av x = aF (ix1 p))
    (h1 : ∀ a y, ((![nv] : Fin 1 → IVec S16 32) a y).toNat < S64.size a)
    (h2 : ∀ a y, ((![av] : Fin 1 → IVec S16 32) a y).toNat < S64.size a) :
    sel (F := F) (loadIdx (F := F) B ![nv] h1) (loadIdx (F := F) B ![av] h2) x
      = Spec.bonds2 (F := F) eF rF (ix2 b p) := by
  have hp : p.val / 6 < 64 := by have := p.isLt; omega
  have hnlt : (nv x).toNat < 64 := by rw [hn]; exact hE _
  have hav : (av x).toNat = p.val / 6 := by
    rw [ha, hA, BitVec.toNat_ofNat]; exact Nat.mod_eq_of_lt (by omega)
  have halt : (av x).toNat < 64 := by rw [hav]; exact hp
  unfold sel Spec.bonds2
  rw [loadIdx_apply B nv h1 x hnlt, loadIdx_apply B av h2 x halt, hB, hB]
  refine if_congr ?_ rfl rfl
  rw [Bitmap.rb_and_ne_zero]
  unfold Spec.ringBond2
  refine exists_congr fun r => and_congr (exists_congr fun s => ?_) (exists_congr fun s => ?_)
  · show (rF (ix2 b (Spec.memb r s))).toNat = (nv x).toNat ↔ rF (ix2 b (Spec.memb r s)) = eF (ix2 b p)
    rw [hn]
    exact ⟨BitVec.eq_of_toNat_eq, fun h => by rw [h]⟩
  · show (rF (ix2 b (Spec.memb r s))).toNat = (av x).toNat ↔ rF (ix2 b (Spec.memb r s)) = BitVec.ofNat 32 (p.val / 6)
    rw [ha, hA]
    exact ⟨BitVec.eq_of_toNat_eq, fun h => by rw [h]⟩

end Cert.Proof.KB

end
-- ==== Proof.KB.Table.lean ====
/-
  A count table after its four scatter-adds, read at one atom. Starting from the zeroed table, each scatter-add
  adds at atom `a` the values of its lanes whose ring member is `a`; the four sums, in the order they were added,
  are the count word of the atom.
-/
import proofs.«207480_g64682207477991_cont_9to1c4b_704_25_alg».proof.Proof.KB.Setup
import proofs.«207480_g64682207477991_cont_9to1c4b_704_25_alg».proof.Proof.BitmapRing

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

/-- One scatter-add whose lanes hold the ring members `[16 c, 16 c + 16)` of the row and the values of pair `j`
    adds `scat Rrow c j a` at atom `a`. -/
theorem storeIdx_scat (Rrow : Fin 128 → BitVec 32) (f : Vec F S64 .i32) (iv pv : IVec S16 32) (c : Fin 8) (j : Fin 4)
    (hi : ∀ x : Fin 16, iv (ix1 x) = Rrow ⟨16 * c.val + x.val, by omega⟩)
    (hp : ∀ x : Fin 16, pv (ix1 x) = Bitmap.laneVal j x)
    (h : ∀ a y, ((![iv] : Fin 1 → IVec S16 32) a y).toNat < S64.size a) (a : Fin 64) :
    storeIdx (F := F) (e := .i32) f ![iv] pv (fun _ => 1#1) true h (ix1 a) = f (ix1 a) + Bitmap.scat Rrow c j a := by
  refine (Bitmap.storeIdx_add_apply (F := F) f iv pv h a).trans ?_
  unfold Bitmap.scat
  refine congrArg (f (ix1 a) + ·) (Finset.sum_congr rfl fun x _ => ?_)
  rw [hi x, hp x]

theorem table_apply (Rrow : Fin 128 → BitVec 32) (Z : Vec F S64 .i32) (hZ : ∀ i, Z i = 0#32)
    (i0 i1 i2 i3 p0 p1 p2 p3 : IVec S16 32) (c0 c1 c2 c3 : Fin 8)
    (hi0 : ∀ x : Fin 16, i0 (ix1 x) = Rrow ⟨16 * c0.val + x.val, by omega⟩) (hi1 : ∀ x : Fin 16, i1 (ix1 x) = Rrow ⟨16 * c1.val + x.val, by omega⟩)
    (hi2 : ∀ x : Fin 16, i2 (ix1 x) = Rrow ⟨16 * c2.val + x.val, by omega⟩) (hi3 : ∀ x : Fin 16, i3 (ix1 x) = Rrow ⟨16 * c3.val + x.val, by omega⟩)
    (hp0 : ∀ x : Fin 16, p0 (ix1 x) = Bitmap.laneVal 0 x) (hp1 : ∀ x : Fin 16, p1 (ix1 x) = Bitmap.laneVal 1 x)
    (hp2 : ∀ x : Fin 16, p2 (ix1 x) = Bitmap.laneVal 2 x) (hp3 : ∀ x : Fin 16, p3 (ix1 x) = Bitmap.laneVal 3 x)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) (a : Fin 64) :
    storeIdx (F := F) (e := .i32) (storeIdx (F := F) (e := .i32) (storeIdx (F := F) (e := .i32) (storeIdx (F := F) (e := .i32) Z ![i0] p0 (fun _ => 1#1) true h0) ![i1] p1 (fun _ => 1#1) true h1) ![i2] p2 (fun _ => 1#1) true h2) ![i3] p3 (fun _ => 1#1) true h3 (ix1 a)
      = 0 + Bitmap.scat Rrow c0 0 a + Bitmap.scat Rrow c1 1 a + Bitmap.scat Rrow c2 2 a + Bitmap.scat Rrow c3 3 a := by
  rw [storeIdx_scat Rrow _ i3 p3 c3 3 hi3 hp3 h3 a, storeIdx_scat Rrow _ i2 p2 c2 2 hi2 hp2 h2 a,
    storeIdx_scat Rrow _ i1 p1 c1 1 hi1 hp1 h1 a, storeIdx_scat Rrow Z i0 p0 c0 0 hi0 hp0 h0 a, hZ]
  rfl

/-- The table of rings 0 to 7. -/
theorem table_ta (Rrow : Fin 128 → BitVec 32) (Z : Vec F S64 .i32) (hZ : ∀ i, Z i = 0#32)
    (i0 i1 i2 i3 p0 p1 p2 p3 : IVec S16 32)
    (hi0 : ∀ x : Fin 16, i0 (ix1 x) = Rrow ⟨16 * (0 : Fin 8).val + x.val, by omega⟩) (hi1 : ∀ x : Fin 16, i1 (ix1 x) = Rrow ⟨16 * (1 : Fin 8).val + x.val, by omega⟩)
    (hi2 : ∀ x : Fin 16, i2 (ix1 x) = Rrow ⟨16 * (2 : Fin 8).val + x.val, by omega⟩) (hi3 : ∀ x : Fin 16, i3 (ix1 x) = Rrow ⟨16 * (3 : Fin 8).val + x.val, by omega⟩)
    (hp0 : ∀ x : Fin 16, p0 (ix1 x) = Bitmap.laneVal 0 x) (hp1 : ∀ x : Fin 16, p1 (ix1 x) = Bitmap.laneVal 1 x)
    (hp2 : ∀ x : Fin 16, p2 (ix1 x) = Bitmap.laneVal 2 x) (hp3 : ∀ x : Fin 16, p3 (ix1 x) = Bitmap.laneVal 3 x)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) (a : Fin 64) :
    storeIdx (F := F) (e := .i32) (storeIdx (F := F) (e := .i32) (storeIdx (F := F) (e := .i32) (storeIdx (F := F) (e := .i32) Z ![i0] p0 (fun _ => 1#1) true h0) ![i1] p1 (fun _ => 1#1) true h1) ![i2] p2 (fun _ => 1#1) true h2) ![i3] p3 (fun _ => 1#1) true h3 (ix1 a)
      = Bitmap.ta Rrow a :=
  table_apply Rrow Z hZ i0 i1 i2 i3 p0 p1 p2 p3 0 1 2 3 hi0 hi1 hi2 hi3 hp0 hp1 hp2 hp3 h0 h1 h2 h3 a

/-- The table of rings 8 to 15. -/
theorem table_tb (Rrow : Fin 128 → BitVec 32) (Z : Vec F S64 .i32) (hZ : ∀ i, Z i = 0#32)
    (i0 i1 i2 i3 p0 p1 p2 p3 : IVec S16 32)
    (hi0 : ∀ x : Fin 16, i0 (ix1 x) = Rrow ⟨16 * (4 : Fin 8).val + x.val, by omega⟩) (hi1 : ∀ x : Fin 16, i1 (ix1 x) = Rrow ⟨16 * (5 : Fin 8).val + x.val, by omega⟩)
    (hi2 : ∀ x : Fin 16, i2 (ix1 x) = Rrow ⟨16 * (6 : Fin 8).val + x.val, by omega⟩) (hi3 : ∀ x : Fin 16, i3 (ix1 x) = Rrow ⟨16 * (7 : Fin 8).val + x.val, by omega⟩)
    (hp0 : ∀ x : Fin 16, p0 (ix1 x) = Bitmap.laneVal 0 x) (hp1 : ∀ x : Fin 16, p1 (ix1 x) = Bitmap.laneVal 1 x)
    (hp2 : ∀ x : Fin 16, p2 (ix1 x) = Bitmap.laneVal 2 x) (hp3 : ∀ x : Fin 16, p3 (ix1 x) = Bitmap.laneVal 3 x)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) (a : Fin 64) :
    storeIdx (F := F) (e := .i32) (storeIdx (F := F) (e := .i32) (storeIdx (F := F) (e := .i32) (storeIdx (F := F) (e := .i32) Z ![i0] p0 (fun _ => 1#1) true h0) ![i1] p1 (fun _ => 1#1) true h1) ![i2] p2 (fun _ => 1#1) true h2) ![i3] p3 (fun _ => 1#1) true h3 (ix1 a)
      = Bitmap.tb Rrow a :=
  table_apply Rrow Z hZ i0 i1 i2 i3 p0 p1 p2 p3 4 5 6 7 hi0 hi1 hi2 hi3 hp0 hp1 hp2 hp3 h0 h1 h2 h3 a

end Cert.Proof.KB

end
-- ==== Proof.KB.Trip.lean ====
/-
  One trip of a tile's loop: molecule `k` of the tile's block. The trip clears the two count tables, adds each
  ring's members into their nibble, folds the counts to one membership bit per ring, and then, for each of the 384
  neighbour positions, tests whether the neighbour's and the atom's membership words share a bit.

  The two count tables after their scatter-adds are the count words of the atoms; the folded bitmap is the membership
  word of each atom; a position of the result row is one exactly when the membership words of the neighbour and of the
  atom meet, which is the ring-bond condition. The 24 stores of sixteen positions each lie in row `k` and cover it,
  so the rows below `k` keep what they held.
-/
import proofs.«207480_g64682207477991_cont_9to1c4b_704_25_alg».proof.Proof.KB.Inv
import proofs.«207480_g64682207477991_cont_9to1c4b_704_25_alg».proof.Proof.KB.Lane
import proofs.«207480_g64682207477991_cont_9to1c4b_704_25_alg».proof.Proof.KB.Bond
import proofs.«207480_g64682207477991_cont_9to1c4b_704_25_alg».proof.Proof.KB.Table

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-! ## Lanes of the loaded vectors -/

section Lanes

variable (rF : IVec S64x128 32) (eF : IVec S64x384 32) (aF : IVec S384 32)

/-- Sixteen consecutive words of a neighbour row, as the trip loads them. -/
abbrev nbrV (off : Fin 2 → Nat) (inb : ∀ a, off a + S1x16.size a ≤ S64x384.size a) : Vec F S16 .i32 :=
  shapeCast S16 (View.readAt (Elt F) (sE : Memref sig .scVector .vmem S64x384 .i32).view (Rect.unit (s := S64x384) off S1x16.size inb).toLoadRect eF) shapeCasts_S1x16_S16

/-- Sixteen consecutive words of a ring row. -/
abbrev ringV (off : Fin 2 → Nat) (inb : ∀ a, off a + S1x16.size a ≤ S64x128.size a) : Vec F S16 .i32 :=
  shapeCast S16 (View.readAt (Elt F) (sR : Memref sig .scVector .vmem S64x128 .i32).view (Rect.unit (s := S64x128) off S1x16.size inb).toLoadRect rF) shapeCasts_S1x16_S16

/-- Sixteen consecutive words of the position table. -/
abbrev atomV (off : Fin 1 → Nat) (inb : ∀ a, off a + S16.size a ≤ S384.size a) : Vec F S16 .i32 :=
  View.readAt (Elt F) (sA : Memref sig .scVector .vmem S384 .i32).view (Rect.unit (s := S384) off S16.size inb).toLoadRect aF

theorem nbr_lane (off : Fin 2 → Nat) (inb : ∀ a, off a + S1x16.size a ≤ S64x384.size a) (r c : Nat) (h : off = ![r, c])
    (hr : r < 64) (hc : c + 16 ≤ 384) (j : S16.Idx) :
    nbrV (F := F) eF off inb j = eF (ix2 ⟨r, hr⟩ ⟨c + (j 0).val, by have := (j 0).isLt; simp [S16] at this; omega⟩) := by
  subst h
  unfold nbrV shapeCast
  rw [Shape.reshapeEquiv_cons_one]
  show eF _ = eF _
  congr 1
  funext a
  fin_cases a
  · rfl
  · apply Fin.ext; show c + _ = c + _; congr 1; show 1 * (j 0).val = (j 0).val; exact Nat.one_mul _

theorem ring_lane (off : Fin 2 → Nat) (inb : ∀ a, off a + S1x16.size a ≤ S64x128.size a) (r c : Nat) (h : off = ![r, c])
    (hr : r < 64) (hc : c + 16 ≤ 128) (j : S16.Idx) :
    ringV (F := F) rF off inb j = rF (ix2 ⟨r, hr⟩ ⟨c + (j 0).val, by have := (j 0).isLt; simp [S16] at this; omega⟩) := by
  subst h
  unfold ringV shapeCast
  rw [Shape.reshapeEquiv_cons_one]
  show rF _ = rF _
  congr 1
  funext a
  fin_cases a
  · rfl
  · apply Fin.ext; show c + _ = c + _; congr 1; show 1 * (j 0).val = (j 0).val; exact Nat.one_mul _

theorem atom_lane (off : Fin 1 → Nat) (inb : ∀ a, off a + S16.size a ≤ S384.size a) (c : Nat) (h : off = ![c]) (hc : c + 16 ≤ 384) (j : S16.Idx) :
    atomV (F := F) aF off inb j = aF (ix1 ⟨c + (j 0).val, by have := (j 0).isLt; simp [S16] at this; omega⟩) := by
  subst h
  show aF _ = aF _
  congr 1
  funext a
  fin_cases a
  apply Fin.ext; show c + _ = c + _; congr 1; show 1 * (j 0).val = (j 0).val; exact Nat.one_mul _

theorem cast_lane (w : FVec F S16 .f32) (x : S1x16.Idx) :
    shapeCast S1x16 w shapeCasts_S16_S1x16 x = w (ix1 (x 1)) := by
  unfold shapeCast
  congr 1
  have hx : x = Shape.reshapeEquiv (s := S1x16) (s' := S16) shapeCasts_S1x16_S16 (ix1 (x 1)) := by
    rw [Shape.reshapeEquiv_cons_one]; funext a; fin_cases a
    · exact Fin.ext (by have := (x 0).isLt; simp [S1x16] at this; exact this.trans rfl)
    · rfl
  conv_lhs => rw [hx]
  rw [Shape.reshapeEquiv_reshapeEquiv, Shape.reshapeEquiv_self]

end Lanes

/-! ## Reading back listed writes -/

section Reads

variable {κ : Kind} {sp : Space} {s : Shape} {e : EltTy} {Val : EltTy → Type} [∀ e, Nonempty (Val e)]

/-- After a write of the whole shape, any load reads that payload. -/
theorem readCov_whole_head (v : View sig κ sp s e) (w : (Rect.whole s).shape.Idx → Val e) (L : List (View.Piece Val s e))
    (B : LoadRect s) (j : B.shape.Idx) :
    v.readCov (⟨Rect.whole s, w⟩ :: L) B j = w (B.idx j) := by
  unfold View.readCov
  rw [View.readAt_apply]
  have := View.read_writes_cons_emb v v.junk (Rect.whole s) w L (B.idx j)
  rwa [Rect.emb_whole_apply] at this

theorem idx_whole (j : (LoadRect.whole s).shape.Idx) : (LoadRect.whole s).idx j = j := by
  funext a
  apply Fin.ext
  show 0 + 1 * (j a).val = (j a).val
  omega

end Reads

section Zero

theorem mem_unit1 (c : Nat) (inb : ∀ a, (![c] : Fin 1 → Nat) a + (![16] : Fin 1 → Nat) a ≤ S64.size a) (j : S64.Idx)
    (h1 : c ≤ (j 0).val) (h2 : (j 0).val < c + 16) : j ∈ (Rect.unit (s := S64) ![c] ![16] inb).set :=
  Rect.mem_set_unit.mpr fun a => by fin_cases a; exact ⟨by simpa using h1, by simpa using h2⟩

/-- The four stores of zeros cover a table: every word reads zero afterwards. -/
theorem readCov_zero {κ : Kind} {sp : Space} (v : View sig κ sp S64 .i32) (v8 : IVec S16 32) (hv8 : ∀ x, v8 x = 0#32) (j : (LoadRect.whole S64).shape.Idx) :
    v.readCov (Val := Elt F) [⟨Rect.unit ![48] ![16] inb_S64_S16_48, v8⟩, ⟨Rect.unit ![32] ![16] inb_S64_S16_32, v8⟩,
      ⟨Rect.unit ![16] ![16] inb_S64_S16_16, v8⟩, ⟨Rect.unit ![0] ![16] inb_S64_S16_0, v8⟩] (LoadRect.whole S64) j = 0#32 := by
  unfold View.readCov
  rw [View.readAt_apply, idx_whole]
  refine View.read_writes_apply_of_pieces (Val := Elt F) v v.junk (fun _ => (0#32 : BitVec 32)) _ ?_ j ?_
  · intro p hp x
    simp only [List.mem_cons, List.not_mem_nil, or_false] at hp
    rcases hp with rfl | rfl | rfl | rfl <;> exact hv8 x
  · have hlt : (j 0).val < 64 := (j 0).isLt
    by_cases h1 : (j 0).val < 16
    · exact ⟨⟨Rect.unit ![0] ![16] inb_S64_S16_0, v8⟩, by simp, mem_unit1 0 inb_S64_S16_0 j (Nat.zero_le _) (by omega)⟩
    by_cases h2 : (j 0).val < 32
    · exact ⟨⟨Rect.unit ![16] ![16] inb_S64_S16_16, v8⟩, by simp, mem_unit1 16 inb_S64_S16_16 j (by omega) (by omega)⟩
    by_cases h3 : (j 0).val < 48
    · exact ⟨⟨Rect.unit ![32] ![16] inb_S64_S16_32, v8⟩, by simp, mem_unit1 32 inb_S64_S16_32 j (by omega) (by omega)⟩
    · exact ⟨⟨Rect.unit ![48] ![16] inb_S64_S16_48, v8⟩, by simp, mem_unit1 48 inb_S64_S16_48 j (by omega) (by omega)⟩

end Zero

/-! ## The count tables and the ring bitmap -/

section Bitmap

variable (rF : IVec S64x128 32)

theorem chkR (hR : ∀ i, (rF i).toNat < 64) (off : Fin 2 → Nat) (inb : ∀ a, off a + S1x16.size a ≤ S64x128.size a) :
    ∀ a x, ((![ringV (F := F) rF off inb] : Fin 1 → IVec S16 32) a x).toNat < S64.size a := by
  intro a x
  obtain rfl : a = 0 := Subsingleton.elim _ _
  exact hR _

/-- The four stores of zeros. -/
def zeroL (v8 : IVec S16 32) : List (View.Piece (Elt F) S64 .i32) :=
  [⟨Rect.unit ![48] ![16] inb_S64_S16_48, v8⟩, ⟨Rect.unit ![32] ![16] inb_S64_S16_32, v8⟩,
    ⟨Rect.unit ![16] ![16] inb_S64_S16_16, v8⟩, ⟨Rect.unit ![0] ![16] inb_S64_S16_0, v8⟩]

/-- One scatter-add onto a table: the whole table read, and written back with the lanes added. -/
def stepL (m : Memref sig .scVector .vmem S64 .i32) (Lp : List (View.Piece (Elt F) S64 .i32)) (iv pv : IVec S16 32)
    (h : ∀ a y, ((![iv] : Fin 1 → IVec S16 32) a y).toNat < S64.size a) : List (View.Piece (Elt F) S64 .i32) :=
  ⟨Rect.whole S64, storeIdx (F := F) (e := .i32) (m.view.readCov Lp (LoadRect.whole S64)) ![iv] pv (fun _ => 1#1) true h⟩ :: Lp

theorem readCov_stepL (m : Memref sig .scVector .vmem S64 .i32) (Lp : List (View.Piece (Elt F) S64 .i32)) (iv pv : IVec S16 32)
    (h : ∀ a y, ((![iv] : Fin 1 → IVec S16 32) a y).toNat < S64.size a) (B : LoadRect S64) (j : B.shape.Idx) :
    m.view.readCov (stepL (F := F) m Lp iv pv h) B j
      = storeIdx (F := F) (e := .i32) (m.view.readCov Lp (LoadRect.whole S64)) ![iv] pv (fun _ => 1#1) true h (B.idx j) :=
  readCov_whole_head m.view _ Lp B j

theorem readCov_stepL_whole (m : Memref sig .scVector .vmem S64 .i32) (Lp : List (View.Piece (Elt F) S64 .i32)) (iv pv : IVec S16 32)
    (h : ∀ a y, ((![iv] : Fin 1 → IVec S16 32) a y).toNat < S64.size a) :
    m.view.readCov (stepL (F := F) m Lp iv pv h) (LoadRect.whole S64)
      = storeIdx (F := F) (e := .i32) (m.view.readCov Lp (LoadRect.whole S64)) ![iv] pv (fun _ => 1#1) true h := by
  funext j
  rw [readCov_stepL, idx_whole]

/-- A table after zeroing and four scatter-adds, read anywhere. -/
def tabL (m : Memref sig .scVector .vmem S64 .i32) (v8 i0 i1 i2 i3 p0 p1 p2 p3 : IVec S16 32)
    (h0 : ∀ a y, ((![i0] : Fin 1 → IVec S16 32) a y).toNat < S64.size a) (h1 : ∀ a y, ((![i1] : Fin 1 → IVec S16 32) a y).toNat < S64.size a)
    (h2 : ∀ a y, ((![i2] : Fin 1 → IVec S16 32) a y).toNat < S64.size a) (h3 : ∀ a y, ((![i3] : Fin 1 → IVec S16 32) a y).toNat < S64.size a) :
    List (View.Piece (Elt F) S64 .i32) :=
  stepL m (stepL m (stepL m (stepL m (zeroL v8) i0 p0 h0) i1 p1 h1) i2 p2 h2) i3 p3 h3

theorem tabL_read (m : Memref sig .scVector .vmem S64 .i32) (v8 i0 i1 i2 i3 p0 p1 p2 p3 : IVec S16 32) (h0 h1 h2 h3)
    (B : LoadRect S64) (j : B.shape.Idx) :
    m.view.readCov (tabL (F := F) m v8 i0 i1 i2 i3 p0 p1 p2 p3 h0 h1 h2 h3) B j
      = storeIdx (F := F) (e := .i32) (storeIdx (F := F) (e := .i32) (storeIdx (F := F) (e := .i32) (storeIdx (F := F) (e := .i32)
          (m.view.readCov (zeroL (F := F) v8) (LoadRect.whole S64)) ![i0] p0 (fun _ => 1#1) true h0) ![i1] p1 (fun _ => 1#1) true h1) ![i2] p2 (fun _ => 1#1) true h2) ![i3] p3 (fun _ => 1#1) true h3 (B.idx j) := by
  unfold tabL
  rw [readCov_stepL, readCov_stepL_whole, readCov_stepL_whole, readCov_stepL_whole]

end Bitmap

section Bitmap2

/-- The four folded stores into the bitmap, over the two tables' listed writes. -/
abbrev rd16 (m : Memref sig .scVector .vmem S64 .i32) (Lp : List (View.Piece (Elt F) S64 .i32)) (c : Nat)
    (inb : ∀ a, (![c] : Fin 1 → Nat) a + (![16] : Fin 1 → Nat) a ≤ S64.size a) : Vec F S16 .i32 :=
  m.view.readCov Lp (Rect.unit (s := S64) ![c] ![16] inb).toLoadRect

def bitL (LA LB : List (View.Piece (Elt F) S64 .i32)) (v9 : IVec S16 32) : List (View.Piece (Elt F) S64 .i32) :=
  [⟨Rect.unit (s := S64) ![48] ![16] inb_S64_S16_48, k0_pay15 (F := F) v9 (rd16 (F := F) sTa LA 48 inb_S64_S16_48) (rd16 (F := F) sTb LB 48 inb_S64_S16_48)⟩,
    ⟨Rect.unit (s := S64) ![32] ![16] inb_S64_S16_32, k0_pay14 (F := F) v9 (rd16 (F := F) sTb LB 32 inb_S64_S16_32) (k0_pay13 (F := F) (rd16 (F := F) sTa LA 32 inb_S64_S16_32)) 2#32⟩,
    ⟨Rect.unit (s := S64) ![16] ![16] inb_S64_S16_16, k0_pay12 (F := F) v9 (rd16 (F := F) sTa LA 16 inb_S64_S16_16) (rd16 (F := F) sTb LB 16 inb_S64_S16_16)⟩,
    ⟨Rect.unit (s := S64) ![0] ![16] inb_S64_S16_0, k0_pay11 (F := F) v9 (rd16 (F := F) sTa LA 0 inb_S64_S16_0) (rd16 (F := F) sTb LB 0 inb_S64_S16_0) (k0_pay10 (F := F) (rd16 (F := F) sTa LA 0 inb_S64_S16_0))⟩]

theorem idx_ix1 (i : S64.Idx) : i = ix1 (i 0) := by
  funext a; fin_cases a; rfl

/-- Every word of the bitmap is the membership word of its atom. -/
theorem bitL_read (Rrow : Fin 128 → BitVec 32) (LA LB : List (View.Piece (Elt F) S64 .i32)) (v9 : IVec S16 32) (hv9 : ∀ x, v9 x = 0x11111111#32)
    (hTA : ∀ (B : LoadRect S64) (j : B.shape.Idx) (a : Fin 64), B.idx j = ix1 a → (sTa : Memref sig .scVector .vmem S64 .i32).view.readCov LA B j = Bitmap.ta Rrow a)
    (hTB : ∀ (B : LoadRect S64) (j : B.shape.Idx) (a : Fin 64), B.idx j = ix1 a → (sTb : Memref sig .scVector .vmem S64 .i32).view.readCov LB B j = Bitmap.tb Rrow a)
    (a : Fin 64) :
    (sB : Memref sig .scVector .vmem S64 .i32).view.readCov (bitL (F := F) LA LB v9) (LoadRect.whole S64) (ix1 a) = Bitmap.rb Rrow a := by
  obtain rfl := v9_eq v9 hv9
  unfold View.readCov
  rw [View.readAt_apply, idx_whole]
  refine View.read_writes_apply_of_pieces (Val := Elt F) (s := S64) (e := .i32) _ _ (fun y => Bitmap.rb Rrow (y 0)) _ ?_ (ix1 a) ?_
  · intro p hp x
    simp only [bitL, List.mem_cons, List.not_mem_nil, or_false] at hp
    rcases hp with rfl | rfl | rfl | rfl
    · show k0_pay15 _ _ _ x = _
      rw [fold15]
      exact congrArg₂ Bitmap.rbOf (hTA _ x _ (idx_ix1 _)) (hTB _ x _ (idx_ix1 _))
    · show k0_pay14 _ _ _ _ x = _
      rw [fold14]
      exact congrArg₂ Bitmap.rbOf (hTA _ x _ (idx_ix1 _)) (hTB _ x _ (idx_ix1 _))
    · show k0_pay12 _ _ _ x = _
      rw [fold12]
      exact congrArg₂ Bitmap.rbOf (hTA _ x _ (idx_ix1 _)) (hTB _ x _ (idx_ix1 _))
    · show k0_pay11 _ _ _ _ x = _
      rw [fold11]
      exact congrArg₂ Bitmap.rbOf (hTA _ x _ (idx_ix1 _)) (hTB _ x _ (idx_ix1 _))
  · have hlt : a.val < 64 := a.isLt
    unfold bitL
    by_cases h1 : a.val < 16
    · exact ⟨_, List.mem_cons_of_mem _ (List.mem_cons_of_mem _ (List.mem_cons_of_mem _ List.mem_cons_self)), mem_unit1 0 inb_S64_S16_0 (ix1 a) (Nat.zero_le _) (by show a.val < _; omega)⟩
    by_cases h2 : a.val < 32
    · exact ⟨_, List.mem_cons_of_mem _ (List.mem_cons_of_mem _ List.mem_cons_self), mem_unit1 16 inb_S64_S16_16 (ix1 a) (by show _ ≤ a.val; omega) (by show a.val < _; omega)⟩
    by_cases h3 : a.val < 48
    · exact ⟨_, List.mem_cons_of_mem _ List.mem_cons_self, mem_unit1 32 inb_S64_S16_32 (ix1 a) (by show _ ≤ a.val; omega) (by show a.val < _; omega)⟩
    · exact ⟨_, List.mem_cons_self, mem_unit1 48 inb_S64_S16_48 (ix1 a) (by show _ ≤ a.val; omega) (by show a.val < _; omega)⟩

end Bitmap2

section Bitmap3

theorem hk (k : Fin k0_t1_loop.trips) : k.val < 64 := lt_of_lt_of_le k.isLt k0_t1_abs.2.1

variable (rF : IVec S64x128 32) (hR : ∀ i, (rF i).toNat < 64) (v7 : IVec S16 1) (v8 v9 : IVec S16 32)
  (hv7 : ∀ x : Fin 16, v7 (ix1 x) = if x.val < 8 then 1#1 else 0#1) (hv8 : ∀ x, v8 x = 0#32) (hv9 : ∀ x, v9 x = 0x11111111#32)
  (k : Fin k0_t1_loop.trips)

/-- The ring bitmap of molecule `k` as the trip leaves it: the whole bitmap read after the four folded stores. -/
def bitmapK : Vec F S64 .i32 :=
  (sB : Memref sig .scVector .vmem S64 .i32).view.readCov (bitL (F := F) (tabL (F := F) sTa v8 (ringV (F := F) rF (k0_off3 k) (k0_off3_inb k)) (ringV (F := F) rF (k0_off4 k) (k0_off4_inb k)) (ringV (F := F) rF (k0_off5 k) (k0_off5_inb k)) (ringV (F := F) rF (k0_off6 k) (k0_off6_inb k)) (k0_pay2 v7) (k0_pay3 v7) (k0_pay4 v7) (k0_pay5 v7) (chkR (F := F) rF hR (k0_off3 k) (k0_off3_inb k)) (chkR (F := F) rF hR (k0_off4 k) (k0_off4_inb k)) (chkR (F := F) rF hR (k0_off5 k) (k0_off5_inb k)) (chkR (F := F) rF hR (k0_off6 k) (k0_off6_inb k))) (tabL (F := F) sTb v8 (ringV (F := F) rF (k0_off7 k) (k0_off7_inb k)) (ringV (F := F) rF (k0_off8 k) (k0_off8_inb k)) (ringV (F := F) rF (k0_off9 k) (k0_off9_inb k)) (ringV (F := F) rF (k0_off10 k) (k0_off10_inb k)) (k0_pay6 v7) (k0_pay7 v7) (k0_pay8 v7) (k0_pay9 v7) (chkR (F := F) rF hR (k0_off7 k) (k0_off7_inb k)) (chkR (F := F) rF hR (k0_off8 k) (k0_off8_inb k)) (chkR (F := F) rF hR (k0_off9 k) (k0_off9_inb k)) (chkR (F := F) rF hR (k0_off10 k) (k0_off10_inb k))) v9) (LoadRect.whole S64)

include hv7 hv8 hv9 in
theorem bitmapK_apply (a : Fin 64) :
    bitmapK (F := F) rF hR v7 v8 v9 k (ix1 a) = Bitmap.rb (fun q => rF (ix2 ⟨k.val, hk k⟩ q)) a := by
  unfold bitmapK
  refine bitL_read (F := F) (fun q => rF (ix2 ⟨k.val, hk k⟩ q)) _ _ v9 hv9 ?_ ?_ a
  · intro B j a' hj
    rw [tabL_read, hj]
    exact table_ta (F := F) (fun q => rF (ix2 ⟨k.val, hk k⟩ q)) _ (fun i => readCov_zero (F := F) _ v8 hv8 i) _ _ _ _ _ _ _ _
      (fun x => ring_lane (F := F) rF _ _ k.val 0 (k0_off3_eq k) (hk k) (by omega) (ix1 x)) (fun x => ring_lane (F := F) rF _ _ k.val 16 (k0_off4_eq k) (hk k) (by omega) (ix1 x)) (fun x => ring_lane (F := F) rF _ _ k.val 32 (k0_off5_eq k) (hk k) (by omega) (ix1 x)) (fun x => ring_lane (F := F) rF _ _ k.val 48 (k0_off6_eq k) (hk k) (by omega) (ix1 x))
      (pay2_lane v7 hv7) (pay3_lane v7 hv7) (pay4_lane v7 hv7) (pay5_lane v7 hv7) _ _ _ _ a'
  · intro B j a' hj
    rw [tabL_read, hj]
    exact table_tb (F := F) (fun q => rF (ix2 ⟨k.val, hk k⟩ q)) _ (fun i => readCov_zero (F := F) _ v8 hv8 i) _ _ _ _ _ _ _ _
      (fun x => ring_lane (F := F) rF _ _ k.val 64 (k0_off7_eq k) (hk k) (by omega) (ix1 x)) (fun x => ring_lane (F := F) rF _ _ k.val 80 (k0_off8_eq k) (hk k) (by omega) (ix1 x)) (fun x => ring_lane (F := F) rF _ _ k.val 96 (k0_off9_eq k) (hk k) (by omega) (ix1 x)) (fun x => ring_lane (F := F) rF _ _ k.val 112 (k0_off10_eq k) (hk k) (by omega) (ix1 x))
      (pay6_lane v7 hv7) (pay7_lane v7 hv7) (pay8_lane v7 hv7) (pay9_lane v7 hv7) _ _ _ _ a'

end Bitmap3

/-! ## The result row -/

section Final

variable (d : Dev nD) (L : grid0.Coords)
variable (eF : IVec S64x384 32) (rF : IVec S64x128 32) (aF : IVec S384 32)

theorem chkE (hE : ∀ i, (eF i).toNat < 64) (off : Fin 2 → Nat) (inb : ∀ a, off a + S1x16.size a ≤ S64x384.size a) :
    ∀ a x, ((![nbrV (F := F) eF off inb] : Fin 1 → IVec S16 32) a x).toNat < S64.size a := by
  intro a x
  obtain rfl : a = 0 := Subsingleton.elim _ _
  exact hE _

theorem chkA (hA' : ∀ i, (aF i).toNat < 64) (off : Fin 1 → Nat) (inb : ∀ a, off a + S16.size a ≤ S384.size a) :
    ∀ a x, ((![atomV (F := F) aF off inb] : Fin 1 → IVec S16 32) a x).toNat < S64.size a := by
  intro a x
  obtain rfl : a = 0 := Subsingleton.elim _ _
  exact hA' _

theorem aF_lt (hA : ∀ p : Fin 384, aF (ix1 p) = BitVec.ofNat 32 (p.val / 6)) (i : S384.Idx) : (aF i).toNat < 64 := by
  have hlt : (i 0).val < 384 := (i 0).isLt
  have hi : i = ix1 ⟨(i 0).val, hlt⟩ := by funext a; fin_cases a; rfl
  have e : aF i = BitVec.ofNat 32 ((i 0).val / 6) := (congrArg aF hi).trans (hA ⟨(i 0).val, hlt⟩)
  rw [e, BitVec.toNat_ofNat]
  exact lt_of_le_of_lt (Nat.mod_le _ _) (by show (i 0).val / 6 < 64; omega)

/-- One of the 24 stores of a trip: sixteen positions of the result row, from the bitmap read at the neighbours' and at
    the atoms' words. -/
def outP (B : Vec F S64 .i32) (offO offE : Fin 2 → Nat) (offA : Fin 1 → Nat)
    (inbO : ∀ a, offO a + S1x16.size a ≤ S64x384.size a) (inbE : ∀ a, offE a + S1x16.size a ≤ S64x384.size a)
    (inbA : ∀ a, offA a + S16.size a ≤ S384.size a)
    (h1 : ∀ a y, ((![nbrV (F := F) eF offE inbE] : Fin 1 → IVec S16 32) a y).toNat < S64.size a)
    (h2 : ∀ a y, ((![atomV (F := F) aF offA inbA] : Fin 1 → IVec S16 32) a y).toNat < S64.size a)
    (pay : Vec F S16 .i32 → Vec F S16 .i32 → FVec F S16 .f32) : View.Piece (Elt F) S64x384 .f32 :=
  ⟨Rect.unit (s := S64x384) offO S1x16.size inbO,
    shapeCast S1x16 (pay (loadIdx (F := F) B ![nbrV (F := F) eF offE inbE] h1) (loadIdx (F := F) B ![atomV (F := F) aF offA inbA] h2)) shapeCasts_S16_S1x16⟩

theorem outP_ok (hE : ∀ i, (eF i).toNat < 64) (hA : ∀ p : Fin 384, aF (ix1 p) = BitVec.ofNat 32 (p.val / 6)) (kk : Fin 64)
    (B : Vec F S64 .i32) (hB : ∀ a : Fin 64, B (ix1 a) = Bitmap.rb (fun q => rF (ix2 kk q)) a)
    (c : Nat) (hc : c + 16 ≤ 384) (offO offE : Fin 2 → Nat) (offA : Fin 1 → Nat)
    (hO : offO = ![kk.val, c]) (hEo : offE = ![kk.val, c]) (hAo : offA = ![c])
    (inbO : ∀ a, offO a + S1x16.size a ≤ S64x384.size a) (inbE : ∀ a, offE a + S1x16.size a ≤ S64x384.size a)
    (inbA : ∀ a, offA a + S16.size a ≤ S384.size a)
    (h1 : ∀ a y, ((![nbrV (F := F) eF offE inbE] : Fin 1 → IVec S16 32) a y).toNat < S64.size a)
    (h2 : ∀ a y, ((![atomV (F := F) aF offA inbA] : Fin 1 → IVec S16 32) a y).toNat < S64.size a)
    (pay : Vec F S16 .i32 → Vec F S16 .i32 → FVec F S16 .f32) (hpay : ∀ a b, pay a b = sel (F := F) a b) :
    (∀ x, (outP (F := F) eF aF B offO offE offA inbO inbE inbA h1 h2 pay).2 x
        = Spec.bonds2 (F := F) eF rF (ix2 kk (((outP (F := F) eF aF B offO offE offA inbO inbE inbA h1 h2 pay).1.emb x) 1)))
      ∧ (∀ y ∈ (outP (F := F) eF aF B offO offE offA inbO inbE inbA h1 h2 pay).1.set, (y 0).val = kk.val)
      ∧ (∀ p : Fin 384, c ≤ p.val → p.val < c + 16 → ix2 kk p ∈ (outP (F := F) eF aF B offO offE offA inbO inbE inbA h1 h2 pay).1.set) := by
  subst hO hEo hAo
  refine ⟨fun x => ?_, fun y hy => ?_, fun p hp1 hp2 => ?_⟩
  · show shapeCast S1x16 (pay _ _) shapeCasts_S16_S1x16 x = _
    refine (cast_lane (F := F) _ x).trans ?_
    rw [hpay]
    have hn := nbr_lane (F := F) eF ![kk.val, c] inbE kk.val c rfl kk.isLt hc (ix1 (x 1))
    have ha := atom_lane (F := F) aF ![c] inbA c rfl hc (ix1 (x 1))
    refine (sel_bond (F := F) eF rF aF hE hA kk B hB ⟨c + (x 1).val, by have h16 : (x 1).val < 16 := (x 1).isLt; omega⟩ _ _ (ix1 (x 1)) hn ha h1 h2).trans ?_
    refine congrArg (fun q => Spec.bonds2 (F := F) eF rF (ix2 kk q)) (Fin.ext ?_)
    show c + (x 1).val = c + 1 * (x 1).val
    omega
  · have hy' : y ∈ (Rect.unit (s := S64x384) ![kk.val, c] S1x16.size inbO).set := hy
    have h := (Rect.mem_set_unit.mp hy') 0
    have h' : kk.val ≤ (y 0).val ∧ (y 0).val < kk.val + 1 := h
    omega
  · show ix2 kk p ∈ (Rect.unit (s := S64x384) ![kk.val, c] S1x16.size inbO).set
    refine Rect.mem_set_unit.mpr fun a => ?_
    fin_cases a
    · exact ⟨le_refl _, Nat.lt_succ_self _⟩
    · exact ⟨hp1, hp2⟩

/-- Stores that all lie in row `kk`, cover it, and carry `G` there leave `G` in that row and the other rows as they were. -/
theorem rows_write (kk : Fin 64) (fo : (sO : Memref sig .scVector .vmem S64x384 .f32).view.ty.Contents (Elt F))
    (Lp : List (View.Piece (Elt F) S64x384 .f32)) (G : Fin 384 → F .f32)
    (hval : ∀ q ∈ Lp, ∀ x, q.2 x = G ((q.1.emb x) 1))
    (hrow : ∀ q ∈ Lp, ∀ y ∈ q.1.set, (y 0).val = kk.val)
    (hcov : ∀ p : Fin 384, ∃ q ∈ Lp, ix2 kk p ∈ q.1.set) (b : Fin 64) (p : Fin 384) :
    (sO : Memref sig .scVector .vmem S64x384 .f32).view.writes (Elt F) fo Lp (ix2 b p) = if b.val = kk.val then G p else fo (ix2 b p) := by
  by_cases hbk : b.val = kk.val
  · rw [if_pos hbk]
    obtain rfl : b = kk := Fin.ext hbk
    exact View.read_writes_apply_of_pieces (Val := Elt F) (s := S64x384) (e := .f32) _ fo (fun y => G (y 1)) Lp hval (ix2 b p) (hcov p)
  · rw [if_neg hbk]
    exact View.read_writes_apply_of_forall_not_mem (Val := Elt F) (s := S64x384) (e := .f32) (sO : Memref sig .scVector .vmem S64x384 .f32).view fo (ix2 b p) Lp
      (fun q hq hm => hbk (hrow q hq _ hm))

theorem final_value (hE : ∀ i, (eF i).toNat < 64) (hA : ∀ p : Fin 384, aF (ix1 p) = BitVec.ofNat 32 (p.val / 6))
    (k : Fin k0_t1_loop.trips) (fo : Buf (Elt F) ((thr d L).loc cc0_scratch2))
    (hfo : ∀ b : Fin 64, b.val < k.val → ∀ p : Fin 384, fo (ix2 b p) = Spec.bonds2 (F := F) eF rF (ix2 b p))
    (B : Vec F S64 .i32) (hB : ∀ a : Fin 64, B (ix1 a) = Bitmap.rb (fun q => rF (ix2 ⟨k.val, hk k⟩ q)) a) :
    ∀ b : Fin 64, b.val < k.val + 1 → ∀ p : Fin 384,
      (sO : Memref sig .scVector .vmem S64x384 .f32).view.writes (Elt F) fo
        [(outP (F := F) eF aF B (k0_off58 k) (k0_off34 k) ![368] (k0_off58_inb k) (k0_off34_inb k) inb_S384_S16_368 (chkE (F := F) eF hE _ _) (chkA (F := F) aF (aF_lt aF hA) _ _) (k0_pay46 (F := F))),
        (outP (F := F) eF aF B (k0_off57 k) (k0_off33 k) ![352] (k0_off57_inb k) (k0_off33_inb k) inb_S384_S16_352 (chkE (F := F) eF hE _ _) (chkA (F := F) aF (aF_lt aF hA) _ _) (fun a b => k0_pay45 (F := F) (k0_pay43 (F := F) a b) (k0_pay44))),
        (outP (F := F) eF aF B (k0_off56 k) (k0_off32 k) ![336] (k0_off56_inb k) (k0_off32_inb k) inb_S384_S16_336 (chkE (F := F) eF hE _ _) (chkA (F := F) aF (aF_lt aF hA) _ _) (k0_pay42 (F := F))),
        (outP (F := F) eF aF B (k0_off55 k) (k0_off31 k) ![320] (k0_off55_inb k) (k0_off31_inb k) inb_S384_S16_320 (chkE (F := F) eF hE _ _) (chkA (F := F) aF (aF_lt aF hA) _ _) (k0_pay41 (F := F))),
        (outP (F := F) eF aF B (k0_off54 k) (k0_off30 k) ![304] (k0_off54_inb k) (k0_off30_inb k) inb_S384_S16_304 (chkE (F := F) eF hE _ _) (chkA (F := F) aF (aF_lt aF hA) _ _) (k0_pay40 (F := F))),
        (outP (F := F) eF aF B (k0_off53 k) (k0_off29 k) ![288] (k0_off53_inb k) (k0_off29_inb k) inb_S384_S16_288 (chkE (F := F) eF hE _ _) (chkA (F := F) aF (aF_lt aF hA) _ _) (k0_pay39 (F := F))),
        (outP (F := F) eF aF B (k0_off52 k) (k0_off28 k) ![272] (k0_off52_inb k) (k0_off28_inb k) inb_S384_S16_272 (chkE (F := F) eF hE _ _) (chkA (F := F) aF (aF_lt aF hA) _ _) (k0_pay38 (F := F))),
        (outP (F := F) eF aF B (k0_off51 k) (k0_off27 k) ![256] (k0_off51_inb k) (k0_off27_inb k) inb_S384_S16_256 (chkE (F := F) eF hE _ _) (chkA (F := F) aF (aF_lt aF hA) _ _) (k0_pay37 (F := F))),
        (outP (F := F) eF aF B (k0_off50 k) (k0_off26 k) ![240] (k0_off50_inb k) (k0_off26_inb k) inb_S384_S16_240 (chkE (F := F) eF hE _ _) (chkA (F := F) aF (aF_lt aF hA) _ _) (k0_pay36 (F := F))),
        (outP (F := F) eF aF B (k0_off49 k) (k0_off25 k) ![224] (k0_off49_inb k) (k0_off25_inb k) inb_S384_S16_224 (chkE (F := F) eF hE _ _) (chkA (F := F) aF (aF_lt aF hA) _ _) (k0_pay35 (F := F))),
        (outP (F := F) eF aF B (k0_off48 k) (k0_off24 k) ![208] (k0_off48_inb k) (k0_off24_inb k) inb_S384_S16_208 (chkE (F := F) eF hE _ _) (chkA (F := F) aF (aF_lt aF hA) _ _) (k0_pay34 (F := F))),
        (outP (F := F) eF aF B (k0_off47 k) (k0_off23 k) ![192] (k0_off47_inb k) (k0_off23_inb k) inb_S384_S16_192 (chkE (F := F) eF hE _ _) (chkA (F := F) aF (aF_lt aF hA) _ _) (k0_pay32 (F := F))),
        (outP (F := F) eF aF B (k0_off46 k) (k0_off22 k) ![176] (k0_off46_inb k) (k0_off22_inb k) inb_S384_S16_176 (chkE (F := F) eF hE _ _) (chkA (F := F) aF (aF_lt aF hA) _ _) (k0_pay31 (F := F))),
        (outP (F := F) eF aF B (k0_off45 k) (k0_off21 k) ![160] (k0_off45_inb k) (k0_off21_inb k) inb_S384_S16_160 (chkE (F := F) eF hE _ _) (chkA (F := F) aF (aF_lt aF hA) _ _) (k0_pay30 (F := F))),
        (outP (F := F) eF aF B (k0_off44 k) (k0_off20 k) ![144] (k0_off44_inb k) (k0_off20_inb k) inb_S384_S16_144 (chkE (F := F) eF hE _ _) (chkA (F := F) aF (aF_lt aF hA) _ _) (k0_pay29 (F := F))),
        (outP (F := F) eF aF B (k0_off43 k) (k0_off19 k) ![128] (k0_off43_inb k) (k0_off19_inb k) inb_S384_S16_128 (chkE (F := F) eF hE _ _) (chkA (F := F) aF (aF_lt aF hA) _ _) (k0_pay28 (F := F))),
        (outP (F := F) eF aF B (k0_off42 k) (k0_off18 k) ![112] (k0_off42_inb k) (k0_off18_inb k) inb_S384_S16_112 (chkE (F := F) eF hE _ _) (chkA (F := F) aF (aF_lt aF hA) _ _) (k0_pay27 (F := F))),
        (outP (F := F) eF aF B (k0_off41 k) (k0_off17 k) ![96] (k0_off41_inb k) (k0_off17_inb k) inb_S384_S16_96 (chkE (F := F) eF hE _ _) (chkA (F := F) aF (aF_lt aF hA) _ _) (fun a b => k0_pay26 (F := F) (k0_pay24 (F := F) a b) (Scalar.ofBits .f32 0x00000000#32) (k0_pay25 (F := F)))),
        (outP (F := F) eF aF B (k0_off40 k) (k0_off16 k) ![80] (k0_off40_inb k) (k0_off16_inb k) inb_S384_S16_80 (chkE (F := F) eF hE _ _) (chkA (F := F) aF (aF_lt aF hA) _ _) (k0_pay23 (F := F))),
        (outP (F := F) eF aF B (k0_off39 k) (k0_off15 k) ![64] (k0_off39_inb k) (k0_off15_inb k) inb_S384_S16_64 (chkE (F := F) eF hE _ _) (chkA (F := F) aF (aF_lt aF hA) _ _) (k0_pay22 (F := F))),
        (outP (F := F) eF aF B (k0_off38 k) (k0_off14 k) ![48] (k0_off38_inb k) (k0_off14_inb k) inb_S384_S16_48 (chkE (F := F) eF hE _ _) (chkA (F := F) aF (aF_lt aF hA) _ _) (fun a b => k0_pay21 (F := F) (k0_pay20 (F := F) a b))),
        (outP (F := F) eF aF B (k0_off37 k) (k0_off13 k) ![32] (k0_off37_inb k) (k0_off13_inb k) inb_S384_S16_32 (chkE (F := F) eF hE _ _) (chkA (F := F) aF (aF_lt aF hA) _ _) (k0_pay19 (F := F))),
        (outP (F := F) eF aF B (k0_off36 k) (k0_off12 k) ![16] (k0_off36_inb k) (k0_off12_inb k) inb_S384_S16_16 (chkE (F := F) eF hE _ _) (chkA (F := F) aF (aF_lt aF hA) _ _) (k0_pay18 (F := F))),
        (outP (F := F) eF aF B (k0_off35 k) (k0_off11 k) ![0] (k0_off35_inb k) (k0_off11_inb k) inb_S384_S16_0 (chkE (F := F) eF hE _ _) (chkA (F := F) aF (aF_lt aF hA) _ _) (fun a b => k0_pay17 (F := F) (k0_pay16 (F := F) a b)))] (ix2 b p)
        = Spec.bonds2 (F := F) eF rF (ix2 b p) := by
  intro b hb p
  have hP0 := outP_ok (F := F) eF rF aF hE hA ⟨k.val, hk k⟩ B hB 0 (by omega) _ _ _ (k0_off35_eq k) (k0_off11_eq k) rfl (k0_off35_inb k) (k0_off11_inb k) inb_S384_S16_0 (chkE (F := F) eF hE _ _) (chkA (F := F) aF (aF_lt aF hA) _ _) (fun a b => k0_pay17 (F := F) (k0_pay16 (F := F) a b)) pay17_eq
  have hP1 := outP_ok (F := F) eF rF aF hE hA ⟨k.val, hk k⟩ B hB 16 (by omega) _ _ _ (k0_off36_eq k) (k0_off12_eq k) rfl (k0_off36_inb k) (k0_off12_inb k) inb_S384_S16_16 (chkE (F := F) eF hE _ _) (chkA (F := F) aF (aF_lt aF hA) _ _) (k0_pay18 (F := F)) pay18_eq
  have hP2 := outP_ok (F := F) eF rF aF hE hA ⟨k.val, hk k⟩ B hB 32 (by omega) _ _ _ (k0_off37_eq k) (k0_off13_eq k) rfl (k0_off37_inb k) (k0_off13_inb k) inb_S384_S16_32 (chkE (F := F) eF hE _ _) (chkA (F := F) aF (aF_lt aF hA) _ _) (k0_pay19 (F := F)) pay19_eq
  have hP3 := outP_ok (F := F) eF rF aF hE hA ⟨k.val, hk k⟩ B hB 48 (by omega) _ _ _ (k0_off38_eq k) (k0_off14_eq k) rfl (k0_off38_inb k) (k0_off14_inb k) inb_S384_S16_48 (chkE (F := F) eF hE _ _) (chkA (F := F) aF (aF_lt aF hA) _ _) (fun a b => k0_pay21 (F := F) (k0_pay20 (F := F) a b)) pay21_eq
  have hP4 := outP_ok (F := F) eF rF aF hE hA ⟨k.val, hk k⟩ B hB 64 (by omega) _ _ _ (k0_off39_eq k) (k0_off15_eq k) rfl (k0_off39_inb k) (k0_off15_inb k) inb_S384_S16_64 (chkE (F := F) eF hE _ _) (chkA (F := F) aF (aF_lt aF hA) _ _) (k0_pay22 (F := F)) pay22_eq
  have hP5 := outP_ok (F := F) eF rF aF hE hA ⟨k.val, hk k⟩ B hB 80 (by omega) _ _ _ (k0_off40_eq k) (k0_off16_eq k) rfl (k0_off40_inb k) (k0_off16_inb k) inb_S384_S16_80 (chkE (F := F) eF hE _ _) (chkA (F := F) aF (aF_lt aF hA) _ _) (k0_pay23 (F := F)) pay23_eq
  have hP6 := outP_ok (F := F) eF rF aF hE hA ⟨k.val, hk k⟩ B hB 96 (by omega) _ _ _ (k0_off41_eq k) (k0_off17_eq k) rfl (k0_off41_inb k) (k0_off17_inb k) inb_S384_S16_96 (chkE (F := F) eF hE _ _) (chkA (F := F) aF (aF_lt aF hA) _ _) (fun a b => k0_pay26 (F := F) (k0_pay24 (F := F) a b) (Scalar.ofBits .f32 0x00000000#32) (k0_pay25 (F := F))) pay26_eq
  have hP7 := outP_ok (F := F) eF rF aF hE hA ⟨k.val, hk k⟩ B hB 112 (by omega) _ _ _ (k0_off42_eq k) (k0_off18_eq k) rfl (k0_off42_inb k) (k0_off18_inb k) inb_S384_S16_112 (chkE (F := F) eF hE _ _) (chkA (F := F) aF (aF_lt aF hA) _ _) (k0_pay27 (F := F)) pay27_eq
  have hP8 := outP_ok (F := F) eF rF aF hE hA ⟨k.val, hk k⟩ B hB 128 (by omega) _ _ _ (k0_off43_eq k) (k0_off19_eq k) rfl (k0_off43_inb k) (k0_off19_inb k) inb_S384_S16_128 (chkE (F := F) eF hE _ _) (chkA (F := F) aF (aF_lt aF hA) _ _) (k0_pay28 (F := F)) pay28_eq
  have hP9 := outP_ok (F := F) eF rF aF hE hA ⟨k.val, hk k⟩ B hB 144 (by omega) _ _ _ (k0_off44_eq k) (k0_off20_eq k) rfl (k0_off44_inb k) (k0_off20_inb k) inb_S384_S16_144 (chkE (F := F) eF hE _ _) (chkA (F := F) aF (aF_lt aF hA) _ _) (k0_pay29 (F := F)) pay29_eq
  have hP10 := outP_ok (F := F) eF rF aF hE hA ⟨k.val, hk k⟩ B hB 160 (by omega) _ _ _ (k0_off45_eq k) (k0_off21_eq k) rfl (k0_off45_inb k) (k0_off21_inb k) inb_S384_S16_160 (chkE (F := F) eF hE _ _) (chkA (F := F) aF (aF_lt aF hA) _ _) (k0_pay30 (F := F)) pay30_eq
  have hP11 := outP_ok (F := F) eF rF aF hE hA ⟨k.val, hk k⟩ B hB 176 (by omega) _ _ _ (k0_off46_eq k) (k0_off22_eq k) rfl (k0_off46_inb k) (k0_off22_inb k) inb_S384_S16_176 (chkE (F := F) eF hE _ _) (chkA (F := F) aF (aF_lt aF hA) _ _) (k0_pay31 (F := F)) pay31_eq
  have hP12 := outP_ok (F := F) eF rF aF hE hA ⟨k.val, hk k⟩ B hB 192 (by omega) _ _ _ (k0_off47_eq k) (k0_off23_eq k) rfl (k0_off47_inb k) (k0_off23_inb k) inb_S384_S16_192 (chkE (F := F) eF hE _ _) (chkA (F := F) aF (aF_lt aF hA) _ _) (k0_pay32 (F := F)) pay32_eq
  have hP13 := outP_ok (F := F) eF rF aF hE hA ⟨k.val, hk k⟩ B hB 208 (by omega) _ _ _ (k0_off48_eq k) (k0_off24_eq k) rfl (k0_off48_inb k) (k0_off24_inb k) inb_S384_S16_208 (chkE (F := F) eF hE _ _) (chkA (F := F) aF (aF_lt aF hA) _ _) (k0_pay34 (F := F)) pay34_eq
  have hP14 := outP_ok (F := F) eF rF aF hE hA ⟨k.val, hk k⟩ B hB 224 (by omega) _ _ _ (k0_off49_eq k) (k0_off25_eq k) rfl (k0_off49_inb k) (k0_off25_inb k) inb_S384_S16_224 (chkE (F := F) eF hE _ _) (chkA (F := F) aF (aF_lt aF hA) _ _) (k0_pay35 (F := F)) pay35_eq
  have hP15 := outP_ok (F := F) eF rF aF hE hA ⟨k.val, hk k⟩ B hB 240 (by omega) _ _ _ (k0_off50_eq k) (k0_off26_eq k) rfl (k0_off50_inb k) (k0_off26_inb k) inb_S384_S16_240 (chkE (F := F) eF hE _ _) (chkA (F := F) aF (aF_lt aF hA) _ _) (k0_pay36 (F := F)) pay36_eq
  have hP16 := outP_ok (F := F) eF rF aF hE hA ⟨k.val, hk k⟩ B hB 256 (by omega) _ _ _ (k0_off51_eq k) (k0_off27_eq k) rfl (k0_off51_inb k) (k0_off27_inb k) inb_S384_S16_256 (chkE (F := F) eF hE _ _) (chkA (F := F) aF (aF_lt aF hA) _ _) (k0_pay37 (F := F)) pay37_eq
  have hP17 := outP_ok (F := F) eF rF aF hE hA ⟨k.val, hk k⟩ B hB 272 (by omega) _ _ _ (k0_off52_eq k) (k0_off28_eq k) rfl (k0_off52_inb k) (k0_off28_inb k) inb_S384_S16_272 (chkE (F := F) eF hE _ _) (chkA (F := F) aF (aF_lt aF hA) _ _) (k0_pay38 (F := F)) pay38_eq
  have hP18 := outP_ok (F := F) eF rF aF hE hA ⟨k.val, hk k⟩ B hB 288 (by omega) _ _ _ (k0_off53_eq k) (k0_off29_eq k) rfl (k0_off53_inb k) (k0_off29_inb k) inb_S384_S16_288 (chkE (F := F) eF hE _ _) (chkA (F := F) aF (aF_lt aF hA) _ _) (k0_pay39 (F := F)) pay39_eq
  have hP19 := outP_ok (F := F) eF rF aF hE hA ⟨k.val, hk k⟩ B hB 304 (by omega) _ _ _ (k0_off54_eq k) (k0_off30_eq k) rfl (k0_off54_inb k) (k0_off30_inb k) inb_S384_S16_304 (chkE (F := F) eF hE _ _) (chkA (F := F) aF (aF_lt aF hA) _ _) (k0_pay40 (F := F)) pay40_eq
  have hP20 := outP_ok (F := F) eF rF aF hE hA ⟨k.val, hk k⟩ B hB 320 (by omega) _ _ _ (k0_off55_eq k) (k0_off31_eq k) rfl (k0_off55_inb k) (k0_off31_inb k) inb_S384_S16_320 (chkE (F := F) eF hE _ _) (chkA (F := F) aF (aF_lt aF hA) _ _) (k0_pay41 (F := F)) pay41_eq
  have hP21 := outP_ok (F := F) eF rF aF hE hA ⟨k.val, hk k⟩ B hB 336 (by omega) _ _ _ (k0_off56_eq k) (k0_off32_eq k) rfl (k0_off56_inb k) (k0_off32_inb k) inb_S384_S16_336 (chkE (F := F) eF hE _ _) (chkA (F := F) aF (aF_lt aF hA) _ _) (k0_pay42 (F := F)) pay42_eq
  have hP22 := outP_ok (F := F) eF rF aF hE hA ⟨k.val, hk k⟩ B hB 352 (by omega) _ _ _ (k0_off57_eq k) (k0_off33_eq k) rfl (k0_off57_inb k) (k0_off33_inb k) inb_S384_S16_352 (chkE (F := F) eF hE _ _) (chkA (F := F) aF (aF_lt aF hA) _ _) (fun a b => k0_pay45 (F := F) (k0_pay43 (F := F) a b) (k0_pay44)) pay45_eq
  have hP23 := outP_ok (F := F) eF rF aF hE hA ⟨k.val, hk k⟩ B hB 368 (by omega) _ _ _ (k0_off58_eq k) (k0_off34_eq k) rfl (k0_off58_inb k) (k0_off34_inb k) inb_S384_S16_368 (chkE (F := F) eF hE _ _) (chkA (F := F) aF (aF_lt aF hA) _ _) (k0_pay46 (F := F)) pay46_eq
  have key := rows_write (F := F) ⟨k.val, hk k⟩ fo _ (fun p => Spec.bonds2 (F := F) eF rF (ix2 ⟨k.val, hk k⟩ p))
    (List.forall_mem_cons.mpr ⟨hP23.1, (List.forall_mem_cons.mpr ⟨hP22.1, (List.forall_mem_cons.mpr ⟨hP21.1, (List.forall_mem_cons.mpr ⟨hP20.1, (List.forall_mem_cons.mpr ⟨hP19.1, (List.forall_mem_cons.mpr ⟨hP18.1, (List.forall_mem_cons.mpr ⟨hP17.1, (List.forall_mem_cons.mpr ⟨hP16.1, (List.forall_mem_cons.mpr ⟨hP15.1, (List.forall_mem_cons.mpr ⟨hP14.1, (List.forall_mem_cons.mpr ⟨hP13.1, (List.forall_mem_cons.mpr ⟨hP12.1, (List.forall_mem_cons.mpr ⟨hP11.1, (List.forall_mem_cons.mpr ⟨hP10.1, (List.forall_mem_cons.mpr ⟨hP9.1, (List.forall_mem_cons.mpr ⟨hP8.1, (List.forall_mem_cons.mpr ⟨hP7.1, (List.forall_mem_cons.mpr ⟨hP6.1, (List.forall_mem_cons.mpr ⟨hP5.1, (List.forall_mem_cons.mpr ⟨hP4.1, (List.forall_mem_cons.mpr ⟨hP3.1, (List.forall_mem_cons.mpr ⟨hP2.1, (List.forall_mem_cons.mpr ⟨hP1.1, (List.forall_mem_cons.mpr ⟨hP0.1, (fun _ h => absurd h List.not_mem_nil)⟩)⟩)⟩)⟩)⟩)⟩)⟩)⟩)⟩)⟩)⟩)⟩)⟩)⟩)⟩)⟩)⟩)⟩)⟩)⟩)⟩)⟩)⟩)⟩)
    (List.forall_mem_cons.mpr ⟨hP23.2.1, (List.forall_mem_cons.mpr ⟨hP22.2.1, (List.forall_mem_cons.mpr ⟨hP21.2.1, (List.forall_mem_cons.mpr ⟨hP20.2.1, (List.forall_mem_cons.mpr ⟨hP19.2.1, (List.forall_mem_cons.mpr ⟨hP18.2.1, (List.forall_mem_cons.mpr ⟨hP17.2.1, (List.forall_mem_cons.mpr ⟨hP16.2.1, (List.forall_mem_cons.mpr ⟨hP15.2.1, (List.forall_mem_cons.mpr ⟨hP14.2.1, (List.forall_mem_cons.mpr ⟨hP13.2.1, (List.forall_mem_cons.mpr ⟨hP12.2.1, (List.forall_mem_cons.mpr ⟨hP11.2.1, (List.forall_mem_cons.mpr ⟨hP10.2.1, (List.forall_mem_cons.mpr ⟨hP9.2.1, (List.forall_mem_cons.mpr ⟨hP8.2.1, (List.forall_mem_cons.mpr ⟨hP7.2.1, (List.forall_mem_cons.mpr ⟨hP6.2.1, (List.forall_mem_cons.mpr ⟨hP5.2.1, (List.forall_mem_cons.mpr ⟨hP4.2.1, (List.forall_mem_cons.mpr ⟨hP3.2.1, (List.forall_mem_cons.mpr ⟨hP2.2.1, (List.forall_mem_cons.mpr ⟨hP1.2.1, (List.forall_mem_cons.mpr ⟨hP0.2.1, (fun _ h => absurd h List.not_mem_nil)⟩)⟩)⟩)⟩)⟩)⟩)⟩)⟩)⟩)⟩)⟩)⟩)⟩)⟩)⟩)⟩)⟩)⟩)⟩)⟩)⟩)⟩)⟩)⟩)
    (by
      intro p'
      have h384 : p'.val < 384 := p'.isLt
      by_cases c0 : p'.val < 16
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))), hP0.2.2 p' (by omega) (by omega)⟩
      by_cases c1 : p'.val < 32
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))), hP1.2.2 p' (by omega) (by omega)⟩
      by_cases c2 : p'.val < 48
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))), hP2.2.2 p' (by omega) (by omega)⟩
      by_cases c3 : p'.val < 64
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))), hP3.2.2 p' (by omega) (by omega)⟩
      by_cases c4 : p'.val < 80
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), hP4.2.2 p' (by omega) (by omega)⟩
      by_cases c5 : p'.val < 96
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), hP5.2.2 p' (by omega) (by omega)⟩
      by_cases c6 : p'.val < 112
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), hP6.2.2 p' (by omega) (by omega)⟩
      by_cases c7 : p'.val < 128
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), hP7.2.2 p' (by omega) (by omega)⟩
      by_cases c8 : p'.val < 144
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), hP8.2.2 p' (by omega) (by omega)⟩
      by_cases c9 : p'.val < 160
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), hP9.2.2 p' (by omega) (by omega)⟩
      by_cases c10 : p'.val < 176
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), hP10.2.2 p' (by omega) (by omega)⟩
      by_cases c11 : p'.val < 192
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), hP11.2.2 p' (by omega) (by omega)⟩
      by_cases c12 : p'.val < 208
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), hP12.2.2 p' (by omega) (by omega)⟩
      by_cases c13 : p'.val < 224
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), hP13.2.2 p' (by omega) (by omega)⟩
      by_cases c14 : p'.val < 240
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), hP14.2.2 p' (by omega) (by omega)⟩
      by_cases c15 : p'.val < 256
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), hP15.2.2 p' (by omega) (by omega)⟩
      by_cases c16 : p'.val < 272
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hP16.2.2 p' (by omega) (by omega)⟩
      by_cases c17 : p'.val < 288
      · exact ⟨_, (List.mem_cons_of_mem _ (List.mem_cons_of_mem _ (List.mem_cons_of_mem _ (List.mem_cons_of_mem _ (List.mem_cons_of_mem _ (List.mem_cons_of_mem _ List.mem_cons_self)))))), hP17.2.2 p' (by omega) (by omega)⟩
      by_cases c18 : p'.val < 304
      · exact ⟨_, (List.mem_cons_of_mem _ (List.mem_cons_of_mem _ (List.mem_cons_of_mem _ (List.mem_cons_of_mem _ (List.mem_cons_of_mem _ List.mem_cons_self))))), hP18.2.2 p' (by omega) (by omega)⟩
      by_cases c19 : p'.val < 320
      · exact ⟨_, (List.mem_cons_of_mem _ (List.mem_cons_of_mem _ (List.mem_cons_of_mem _ (List.mem_cons_of_mem _ List.mem_cons_self)))), hP19.2.2 p' (by omega) (by omega)⟩
      by_cases c20 : p'.val < 336
      · exact ⟨_, (List.mem_cons_of_mem _ (List.mem_cons_of_mem _ (List.mem_cons_of_mem _ List.mem_cons_self))), hP20.2.2 p' (by omega) (by omega)⟩
      by_cases c21 : p'.val < 352
      · exact ⟨_, (List.mem_cons_of_mem _ (List.mem_cons_of_mem _ List.mem_cons_self)), hP21.2.2 p' (by omega) (by omega)⟩
      by_cases c22 : p'.val < 368
      · exact ⟨_, (List.mem_cons_of_mem _ List.mem_cons_self), hP22.2.2 p' (by omega) (by omega)⟩
      · exact ⟨_, List.mem_cons_self, hP23.2.2 p' (by omega) (by omega)⟩)
    b p
  rw [key]
  by_cases hbk : b.val = k.val
  · obtain rfl : b = ⟨k.val, hk k⟩ := Fin.ext hbk
    rw [if_pos rfl]
  · rw [if_neg hbk]
    exact hfo b (by omega) p

end Final

/-! ## The trip -/

section Trip

variable (d : Dev nD) (L : grid0.Coords)

theorem trip (eF : IVec S64x384 32) (rF : IVec S64x128 32) (aF : IVec S384 32)
    (hE : ∀ i, (eF i).toNat < 64) (hR : ∀ i, (rF i).toNat < 64) (hA : ∀ p : Fin 384, aF (ix1 p) = BitVec.ofNat 32 (p.val / 6))
    (v7 : IVec S16 1) (v8 v9 : IVec S16 32)
    (hv7 : ∀ x : Fin 16, v7 (ix1 x) = if x.val < 8 then 1#1 else 0#1) (hv8 : ∀ x, v8 x = 0#32) (hv9 : ∀ x, v9 x = 0x11111111#32)
    (k : Fin k0_t1_loop.trips) :
    inv (F := F) d L eF rF aF k.val ⟨⟩
      ⊢ wp frame (wpE (defs₀ (F := F)) 𝒱₀ (thr d L) none) Set.univ
          (k0_t1_body L eV (Memref.isWhole_whole _) rV (Memref.isWhole_whole _) oV (Memref.isWhole_whole _) sE (Memref.isWhole_whole _) sR (Memref.isWhole_whole _) sO (Memref.isWhole_whole _) sA (Memref.isWhole_whole _) sB (Memref.isWhole_whole _) sTa (Memref.isWhole_whole _) sTb (Memref.isWhole_whole _) cc0_scratch7 cc0_scoped0 cc0_scoped1 v7 v8 v9 k ⟨⟩)
          fun _ => inv (F := F) d L eF rF aF (k.val + 1) ⟨⟩ := by
  have hA' : ∀ i, (aF i).toNat < 64 := aF_lt aF hA
  -- the trip as one sequence of loads, stores and checks; an indexed load is a load of the whole bitmap, an indexed
  -- store a load and a store of the whole table
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp (config := {maxSteps := 100000000}) only [Prog.lift, Prog.bind_op, Prog.bind_ret, Prog.pure_eq_ret,
    SparseCore.vectorStoreIdx_bind (thr d L), SparseCore.vectorLoadIdx_bind (thr d L)]
  unfold inv
  iintro ⟨HE, HR, HA, ⟨%fo, %hfo, HO⟩, ⟨%fb, HB⟩, ⟨%fta, HTa⟩, ⟨%ftb, HTb⟩⟩
  -- every word the trip uses as an index is an atom number: it was read from one of the three fixed buffers
  sl_exec (disch := (intro a x; obtain rfl : a = 0 := Subsingleton.elim _ _; first | exact hR _ | exact hE _ | exact hA' _))
  sl_step
  isplitl [HE]; · iexact HE
  isplitl [HR]; · iexact HR
  isplitl [HA]; · iexact HA
  isplitl [HO]
  · iexists _; isplitr
    · ipureintro
      exact final_value (F := F) d L eF rF aF hE hA k fo hfo _ (bitmapK_apply (F := F) rF hR v7 v8 v9 hv7 hv8 hv9 k)
    · iexact HO
  isplitl [HB]; · iexists _; iexact HB
  isplitl [HTa]; · iexists _; iexact HTa
  iexists _; iexact HTb

end Trip

end Cert.Proof.KB

end
-- ==== Proof.KB.Rows.lean ====
/-
  The specification of a row only reads that row: if a block's rows are rows `ρ b` of a larger array, the block's
  specification at row `b` is the larger array's at row `ρ b`.
-/
import proofs.«207480_g64682207477991_cont_9to1c4b_704_25_alg».proof.Proof.Spec

noncomputable section

namespace Cert.Proof.KB

open Idealize.ShloMosaic Idealize.ShloMosaic.ValueIdx

variable {F : FTy → Type} [FloatOps F]

theorem ringBond2_rows {n m : Nat} (E : IVec ⟨2, ![n, 384]⟩ 32) (R : IVec ⟨2, ![n, 128]⟩ 32) (eF : IVec ⟨2, ![m, 384]⟩ 32) (rF : IVec ⟨2, ![m, 128]⟩ 32)
    (ρ : Fin m → Fin n) (he : ∀ b p, eF (ix2 b p) = E (ix2 (ρ b) p)) (hr : ∀ b q, rF (ix2 b q) = R (ix2 (ρ b) q)) (b : Fin m) (p : Fin 384) :
    Cert.Proof.Spec.ringBond2 eF rF b p ↔ Cert.Proof.Spec.ringBond2 E R (ρ b) p := by
  unfold Cert.Proof.Spec.ringBond2
  simp only [he, hr]

open Classical in
theorem bonds2_rows {n m : Nat} (E : IVec ⟨2, ![n, 384]⟩ 32) (R : IVec ⟨2, ![n, 128]⟩ 32) (eF : IVec ⟨2, ![m, 384]⟩ 32) (rF : IVec ⟨2, ![m, 128]⟩ 32)
    (ρ : Fin m → Fin n) (he : ∀ b p, eF (ix2 b p) = E (ix2 (ρ b) p)) (hr : ∀ b q, rF (ix2 b q) = R (ix2 (ρ b) q)) (b : Fin m) (p : Fin 384) :
    Cert.Proof.Spec.bonds2 (F := F) eF rF (ix2 b p) = Cert.Proof.Spec.bonds2 (F := F) E R (ix2 (ρ b) p) := by
  show (if Cert.Proof.Spec.ringBond2 eF rF b p then _ else _) = (if Cert.Proof.Spec.ringBond2 E R (ρ b) p then _ else _)
  exact if_congr (ringBond2_rows E R eF rF ρ he hr b p) rfl rfl

end Cert.Proof.KB

end
-- ==== Proof.KB.Tile.lean ====
/-
  A tile's whole task. The tile fetches its 64 neighbour rows (started first, awaited after the position table is
  written) and its 64 ring rows into scratch, writes the atom of each of the 384 row positions, runs the loop over its
  molecules, and copies the 64 result rows out. From its rows of the two inputs at their contents it leaves its rows of
  the result at the specification, the inputs' rows untouched, and gives back everything it was lent.
-/
import proofs.«207480_g64682207477991_cont_9to1c4b_704_25_alg».proof.Proof.KB.Trip
import proofs.«207480_g64682207477991_cont_9to1c4b_704_25_alg».proof.Proof.KB.Rows

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (E1 : Dev nD → IVec S2048x384 32) (R2 : Dev nD → IVec S2048x128 32) (d : Dev nD) (L : grid0.Coords)

/-! ## The tile's blocks as the program slices them -/

abbrev blkK1 (L : grid0.Coords) : Rect S2048x384 := Rect.unit (s := S2048x384) (k0_off1 L) S64x384.size (k0_off1_inb L)
abbrev blkK2 (L : grid0.Coords) : Rect S2048x128 := Rect.unit (s := S2048x128) (k0_off2 L) S64x128.size (k0_off2_inb L)
abbrev eBlk (L : grid0.Coords) : Memref sig .scVector .hbm S64x384 .i32 := (eV : Memref sig .scVector .hbm S2048x384 .i32).slice (blkK1 L) (fun _ => rfl)
abbrev rBlk (L : grid0.Coords) : Memref sig .scVector .hbm S64x128 .i32 := (rV : Memref sig .scVector .hbm S2048x128 .i32).slice (blkK2 L) (fun _ => rfl)
abbrev oBlk (L : grid0.Coords) : Memref sig .scVector .hbm S64x384 .f32 := (oV : Memref sig .scVector .hbm S2048x384 .f32).slice (blkK1 L) (fun _ => rfl)

omit [FloatOps F] in
theorem blkK1_eq : blkK1 L = blkE (tL L) := by
  unfold blkK1 blkE Rect.part Rect.block
  congr 1 <;> funext a
  · rw [k0_off1_eq]
    match a with
    | 0 => show 1024 * (L 0).val + 64 * (L 1).val = (16 * (L 0).val + (L 1).val) * 64; omega
    | 1 => simp [Shape.partIx, Shape.partSize]
  · match a with
    | 0 => simp [Shape.partSize]
    | 1 => simp [Shape.partSize]
omit [FloatOps F] in
theorem blkK2_eq : blkK2 L = blkR (tL L) := by
  unfold blkK2 blkR Rect.part Rect.block
  congr 1 <;> funext a
  · rw [k0_off2_eq]
    match a with
    | 0 => show 1024 * (L 0).val + 64 * (L 1).val = (16 * (L 0).val + (L 1).val) * 64; omega
    | 1 => simp [Shape.partIx, Shape.partSize]
  · match a with
    | 0 => simp [Shape.partSize]
    | 1 => simp [Shape.partSize]

omit [FloatOps F] in
theorem set_eBlk : (eBlk L).view.set = eSet (tL L) := by
  show ((eV : Memref sig .scVector .hbm S2048x384 .i32).view.slice (blkK1 L)).set = ((eV : Memref sig .scVector .hbm S2048x384 .i32).view.slice (blkE (tL L))).set
  rw [blkK1_eq]
omit [FloatOps F] in
theorem set_rBlk : (rBlk L).view.set = rSet (tL L) := by
  show ((rV : Memref sig .scVector .hbm S2048x128 .i32).view.slice (blkK2 L)).set = ((rV : Memref sig .scVector .hbm S2048x128 .i32).view.slice (blkR (tL L))).set
  rw [blkK2_eq]
omit [FloatOps F] in
theorem set_oBlk : (oBlk L).view.set = oSet (tL L) := by
  show ((oV : Memref sig .scVector .hbm S2048x384 .f32).view.slice (blkK1 L)).set = ((oV : Memref sig .scVector .hbm S2048x384 .f32).view.slice (blkE (tL L))).set
  rw [blkK1_eq]

omit [FloatOps F] in
theorem pts_eBlk (f : Buf (Elt F) (eLoc d)) :
    ((eBlk L).view.loc (thr d L) ↦[(eBlk L).view.set]{fullShare} f : sProp 𝕄) = eLoc d ↦[eSet (tL L)]{fullShare} f := by
  rw [set_eBlk]
omit [FloatOps F] in
theorem pts_rBlk (f : Buf (Elt F) (rLoc d)) :
    ((rBlk L).view.loc (thr d L) ↦[(rBlk L).view.set]{fullShare} f : sProp 𝕄) = rLoc d ↦[rSet (tL L)]{fullShare} f := by
  rw [set_rBlk]
omit [FloatOps F] in
theorem pts_oBlk (f : Buf (Elt F) (oLoc d)) :
    ((oBlk L).view.loc (thr d L) ↦[(oBlk L).view.set]{fullShare} f : sProp 𝕄) = oLoc d ↦[oSet (tL L)]{fullShare} f := by
  rw [set_oBlk]

/-! ## What the two fetches land: the block's rows of the whole arrays -/

/-- Row b of the tile's block is row 64 t + b of the array. -/
def rowOf (L : grid0.Coords) (b : Fin 64) : Fin 2048 := ⟨64 * (tL L).val + b.val, by have := (tL L).isLt; omega⟩

def eFet (L : grid0.Coords) : IVec S64x384 32 := fun i => E1 d ((eBlk L).view.emb i)
def rFet (L : grid0.Coords) : IVec S64x128 32 := fun i => R2 d ((rBlk L).view.emb i)

omit [FloatOps F] in
theorem emb_eBlk (b : Fin 64) (p : Fin 384) : (eBlk L).view.emb (ix2 b p) = ix2 (rowOf L b) p := by
  funext a; apply Fin.ext
  match a with
  | ⟨0, _⟩ =>
    show (k0_off1 L) 0 + 1 * b.val = 64 * (16 * (L 0).val + (L 1).val) + b.val
    rw [k0_off1_eq]; show 1024 * (L 0).val + 64 * (L 1).val + 1 * b.val = _; omega
  | ⟨1, _⟩ =>
    show (k0_off1 L) 1 + 1 * p.val = p.val
    rw [k0_off1_eq]; show 0 + 1 * p.val = _; omega
omit [FloatOps F] in
theorem emb_rBlk (b : Fin 64) (q : Fin 128) : (rBlk L).view.emb (ix2 b q) = ix2 (rowOf L b) q := by
  funext a; apply Fin.ext
  match a with
  | ⟨0, _⟩ =>
    show (k0_off2 L) 0 + 1 * b.val = 64 * (16 * (L 0).val + (L 1).val) + b.val
    rw [k0_off2_eq]; show 1024 * (L 0).val + 64 * (L 1).val + 1 * b.val = _; omega
  | ⟨1, _⟩ =>
    show (k0_off2 L) 1 + 1 * q.val = q.val
    rw [k0_off2_eq]; show 0 + 1 * q.val = _; omega
omit [FloatOps F] in
theorem emb_oBlk (b : Fin 64) (p : Fin 384) : (oBlk L).view.emb (ix2 b p) = ix2 (rowOf L b) p := by
  funext a; apply Fin.ext
  match a with
  | ⟨0, _⟩ =>
    show (k0_off1 L) 0 + 1 * b.val = 64 * (16 * (L 0).val + (L 1).val) + b.val
    rw [k0_off1_eq]; show 1024 * (L 0).val + 64 * (L 1).val + 1 * b.val = _; omega
  | ⟨1, _⟩ =>
    show (k0_off1 L) 1 + 1 * p.val = p.val
    rw [k0_off1_eq]; show 0 + 1 * p.val = _; omega

omit [FloatOps F] in
theorem eFet_lt (hE : ∀ i, (E1 d i).toNat < 64) (i : S64x384.Idx) : (eFet E1 d L i).toNat < 64 := hE _
omit [FloatOps F] in
theorem rFet_lt (hR : ∀ i, (R2 d i).toNat < 64) (i : S64x128.Idx) : (rFet R2 d L i).toNat < 64 := hR _
omit [FloatOps F] in
theorem eFet_row (b : Fin 64) (p : Fin 384) : eFet E1 d L (ix2 b p) = E1 d (ix2 (rowOf L b) p) := by
  unfold eFet; rw [emb_eBlk]
omit [FloatOps F] in
theorem rFet_row (b : Fin 64) (q : Fin 128) : rFet R2 d L (ix2 b q) = R2 d (ix2 (rowOf L b) q) := by
  unfold rFet; rw [emb_rBlk]

/-! ## The position table -/

/-- The atom of a row position. -/
def tabG : IVec S384 32 := fun i => BitVec.ofNat 32 ((i 0).val / 6)

omit [FloatOps F] in
theorem piece_ok (c : Nat) (inb : ∀ a, (![c] : Fin 1 → Nat) a + S16.size a ≤ S384.size a) (w : S16.Idx → BitVec 32)
    (h : ∀ x : Fin 16, w (ix1 x) = BitVec.ofNat 32 ((c + 1 * x.val) / 6)) :
    ∀ x : (Rect.unit (s := S384) ![c] S16.size inb).shape.Idx, w x = tabG ((Rect.unit (s := S384) ![c] S16.size inb).emb x) := by
  intro x
  show w x = BitVec.ofNat 32 ((c + 1 * ((x : S16.Idx) 0).val) / 6)
  have hx : (x : S16.Idx) = ix1 ((x : S16.Idx) 0) := eq_ix1 (n := 16) x
  exact (congrArg w hx).trans (h _)

/-! ## The copy-out: the block's result rows are the whole array's -/

/-- Written over the tile's rows of the result, a block that holds the specification of the fetched rows
    agrees there with the specification of the whole arrays. -/
theorem out_congr (fo : Buf (Elt F) (oLoc d)) (w : S64x384.Idx → Elt F .f32)
    (hw : ∀ (b : Fin 64) (p : Fin 384), w (ix2 b p) = Cert.Proof.Spec.bonds2 (F := F) (eFet E1 d L) (rFet R2 d L) (ix2 b p)) :
    ∀ i ∈ (oBlk L).view.set, (oBlk L).view.writes (Elt F) fo [⟨Rect.whole S64x384, w⟩] i = Cert.Proof.Spec.bonds2 (F := F) (E1 d) (R2 d) i := by
  intro i hi
  obtain ⟨x, -, rfl⟩ := Finset.mem_map.mp hi
  have hr := View.read_writes_cons_emb (oBlk L).view fo (Rect.whole S64x384) w [] x
  rw [Rect.emb_whole_apply] at hr
  have h0 : (oBlk L).view.writes (Elt F) fo [⟨Rect.whole S64x384, w⟩] ((oBlk L).view.emb x) = w x :=
    ((cast_eq _ _).symm.trans (View.read_apply _ _).symm).trans hr
  have h1 : w x = w (ix2 (n0 := 64) (n1 := 384) (x 0) (x 1)) := congrArg w (eq_ix2 (n0 := 64) (n1 := 384) x)
  have h2 := hw (x 0) (x 1)
  have h3 := bonds2_rows (F := F) (E1 d) (R2 d) (eFet E1 d L) (rFet R2 d L) (rowOf L) (eFet_row E1 d L) (rFet_row R2 d L) (x 0) (x 1)
  have h4 : (oBlk L).view.emb x = ix2 (rowOf L (x 0)) (x 1) :=
    (congrArg (oBlk L).view.emb (eq_ix2 (n0 := 64) (n1 := 384) x)).trans (emb_oBlk L (x 0) (x 1))
  rw [h4] at h0 ⊢; exact h0.trans (h1.trans (h2.trans h3))

omit [FloatOps F] in
/-- The seven scratch buffers are among the subcore's own: they are them, at some contents, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

omit [FloatOps F] in
theorem ownSems0_V :
    (ownSems0 (thr d L) : sProp 𝕄)
      = iprop(semVal ((thr d L, SemLoc.dma cc0_scratch7.sem) : GSem nD τ sig) 0 ∗ semVal ((thr d L, SemLoc.dma cc0_scoped0.sem) : GSem nD τ sig) 0 ∗ semVal ((thr d L, SemLoc.dma cc0_scoped1.sem) : GSem nD τ sig) 0
          ∗ bigSep ((((ownCells (thr d L)).erase ((thr d L, SemLoc.dma cc0_scratch7.sem) : GSem nD τ sig)).erase ((thr d L, SemLoc.dma cc0_scoped0.sem) : GSem nD τ sig)).erase ((thr d L, SemLoc.dma cc0_scoped1.sem) : GSem nD τ sig))
              fun g => semVal g 0) := by
  unfold SparseCore.Cfg.ownSems0
  rw [SparseCore.bigSep_erase' ((mem_ownCells (g := ((thr d L, SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨by simp; decide, (mem_ownCells (g := ((thr d L, SemLoc.dma cc0_scoped0.sem) : GSem nD τ sig))).mpr ⟨rfl, by show (SemLoc.dma cc0_scoped0.sem : SemLoc sig).isScoped .scVector = true; decide⟩⟩),
    SparseCore.bigSep_erase' (Finset.mem_erase.mpr ⟨by simp; decide, Finset.mem_erase.mpr ⟨by simp; decide, (mem_ownCells (g := ((thr d L, SemLoc.dma cc0_scoped1.sem) : GSem nD τ sig))).mpr ⟨rfl, by show (SemLoc.dma cc0_scoped1.sem : SemLoc sig).isScoped .scVector = true; decide⟩⟩⟩)]

omit [FloatOps F] in
theorem pts_sE (f : Buf (Elt F) ((thr d L).loc cc0_scratch0)) :
    ((sE : Memref sig .scVector .vmem S64x384 .i32).view.loc (thr d L) ↦{fullShare} f : sProp 𝕄) = (thr d L).loc cc0_scratch0 ↦{fullShare} f := rfl

omit [FloatOps F] in
theorem pts_sR (f : Buf (Elt F) ((thr d L).loc cc0_scratch1)) :
    ((sR : Memref sig .scVector .vmem S64x128 .i32).view.loc (thr d L) ↦{fullShare} f : sProp 𝕄) = (thr d L).loc cc0_scratch1 ↦{fullShare} f := rfl

omit [FloatOps F] in
theorem pts_sO (f : Buf (Elt F) ((thr d L).loc cc0_scratch2)) :
    ((sO : Memref sig .scVector .vmem S64x384 .f32).view.loc (thr d L) ↦{fullShare} f : sProp 𝕄) = (thr d L).loc cc0_scratch2 ↦{fullShare} f := rfl

omit [FloatOps F] in
theorem pts_sA (f : Buf (Elt F) ((thr d L).loc cc0_scratch3)) :
    ((sA : Memref sig .scVector .vmem S384 .i32).view.loc (thr d L) ↦{fullShare} f : sProp 𝕄) = (thr d L).loc cc0_scratch3 ↦{fullShare} f := rfl

omit [FloatOps F] in
theorem pts_sB (f : Buf (Elt F) ((thr d L).loc cc0_scratch4)) :
    ((sB : Memref sig .scVector .vmem S64 .i32).view.loc (thr d L) ↦{fullShare} f : sProp 𝕄) = (thr d L).loc cc0_scratch4 ↦{fullShare} f := rfl

omit [FloatOps F] in
theorem pts_sTa (f : Buf (Elt F) ((thr d L).loc cc0_scratch5)) :
    ((sTa : Memref sig .scVector .vmem S64 .i32).view.loc (thr d L) ↦{fullShare} f : sProp 𝕄) = (thr d L).loc cc0_scratch5 ↦{fullShare} f := rfl

omit [FloatOps F] in
theorem pts_sTb (f : Buf (Elt F) ((thr d L).loc cc0_scratch6)) :
    ((sTb : Memref sig .scVector .vmem S64 .i32).view.loc (thr d L) ↦{fullShare} f : sProp 𝕄) = (thr d L).loc cc0_scratch6 ↦{fullShare} f := rfl

/-! ## The task -/

theorem tile_body (hF : (K (F := F)).Facts) (hE : ∀ i, (E1 d i).toNat < 64) (hR : ∀ i, (R2 d i).toNat < 64)
    (O : CellTallies nD τ sig (HIx 1)) (W : Waits sig (HIx 1)) (hO : ∀ g, O g none = 0) :
    iprop(levAts (K (F := F)).L (K (F := F)).lev ∗ emp ∗ tilePre (F := F) E1 R2 d (tL L)
        ∗ scopedBufs (thr d L) ∗ scopedSems0 (thr d L) ∗ owes (thr d L) O W)
      ⊢ wp frame (wpE (defs₀ (F := F)) 𝒱₀ (thr d L) none) Set.univ
          (cc0__find_ring_bonds_body L eV (Memref.isWhole_whole _) rV (Memref.isWhole_whole _) oV (Memref.isWhole_whole _) sE (Memref.isWhole_whole _) sR (Memref.isWhole_whole _) sO (Memref.isWhole_whole _) sA (Memref.isWhole_whole _) sB (Memref.isWhole_whole _) sTa (Memref.isWhole_whole _) sTb (Memref.isWhole_whole _) cc0_scratch7 cc0_scoped0 cc0_scoped1)
          fun _ => iprop(tilePost (F := F) E1 R2 d (tL L) ∗ scopedBufs (thr d L) ∗ scopedSems0 (thr d L)
            ∗ ∃ W', ⌜∀ p ∈ W', p ∈ W ∨ p.2 = none⌝ ∗ owes (thr d L) O W') := by
  simp only [cc0__find_ring_bonds_body_eq_skeleton]; unfold cc0__find_ring_bonds_body_skel
  rw [(K (F := F)).scopedBufs_V hF d (cV L) (jV L), SparseCore.Cfg.scopedSems0_V (Val := Elt F) d (cV L) (jV L), ownSems0_V, ownBufs_V]
  unfold tilePre
  iintro ⟨#Hlv, -, ⟨He, Hr, %fo, Ho⟩, ⟨⟨%f0, H0⟩, ⟨%f1, H1⟩, ⟨%f2, H2⟩, ⟨%f3, H3⟩, ⟨%f4, H4⟩, ⟨%f5, H5⟩, ⟨%f6, H6⟩, Hbufs⟩, ⟨Hsem7, Hsem0, Hsem1, Hsems⟩, HO⟩
  -- the tile's three row blocks, spelt on the sliced arrays' own elements; its scratch, on the scratch arrays
  ihave Hmw := ((K (F := F)).mayWaits_none (thr := thr d L) hO) $$ Hlv
  ihave He' := (Entails.of_eq (pts_eBlk (F := F) d L _).symm) $$ He
  ihave Hr' := (Entails.of_eq (pts_rBlk (F := F) d L _).symm) $$ Hr
  ihave Ho' := (Entails.of_eq (pts_oBlk (F := F) d L _).symm) $$ Ho
  ihave H0' := (Entails.of_eq (pts_sE (F := F) d L _).symm) $$ H0
  ihave H1' := (Entails.of_eq (pts_sR (F := F) d L _).symm) $$ H1
  ihave H2' := (Entails.of_eq (pts_sO (F := F) d L _).symm) $$ H2
  ihave H3' := (Entails.of_eq (pts_sA (F := F) d L _).symm) $$ H3
  ihave H4' := (Entails.of_eq (pts_sB (F := F) d L _).symm) $$ H4
  ihave H5' := (Entails.of_eq (pts_sTa (F := F) d L _).symm) $$ H5
  ihave H6' := (Entails.of_eq (pts_sTb (F := F) d L _).symm) $$ H6
  sl_exec
  -- the three carried vectors, lane by lane
  have hv7 : ∀ x : Fin 16, (cmpi CmpIPredicate.slt tile_body.sl.v5 tile_body.sl.v6) (ix1 x) = if x.val < 8 then 1#1 else 0#1 := by decide +kernel
  have hv8 : ∀ x, tile_body.sl.v8 x = 0#32 := fun _ => rfl
  have hv9 : ∀ x, tile_body.sl.v9 x = 0x11111111#32 := fun _ => rfl
  -- each of the 24 stored vectors holds, on lane x of the group at c, the quotient (c + x) / 6
  have h0 : ∀ x : Fin 16, tile_body.sl.v35 (ix1 x) = BitVec.ofNat 32 ((0 + 1 * x.val) / 6) := by decide +kernel
  have h16 : ∀ x : Fin 16, tile_body.sl.v62 (ix1 x) = BitVec.ofNat 32 ((16 + 1 * x.val) / 6) := by decide +kernel
  have h32 : ∀ x : Fin 16, tile_body.sl.v89 (ix1 x) = BitVec.ofNat 32 ((32 + 1 * x.val) / 6) := by decide +kernel
  have h48 : ∀ x : Fin 16, tile_body.sl.v116 (ix1 x) = BitVec.ofNat 32 ((48 + 1 * x.val) / 6) := by decide +kernel
  have h64 : ∀ x : Fin 16, tile_body.sl.v143 (ix1 x) = BitVec.ofNat 32 ((64 + 1 * x.val) / 6) := by decide +kernel
  have h80 : ∀ x : Fin 16, tile_body.sl.v170 (ix1 x) = BitVec.ofNat 32 ((80 + 1 * x.val) / 6) := by decide +kernel
  have h96 : ∀ x : Fin 16, tile_body.sl.v197 (ix1 x) = BitVec.ofNat 32 ((96 + 1 * x.val) / 6) := by decide +kernel
  have h112 : ∀ x : Fin 16, tile_body.sl.v224 (ix1 x) = BitVec.ofNat 32 ((112 + 1 * x.val) / 6) := by decide +kernel
  have h128 : ∀ x : Fin 16, tile_body.sl.v251 (ix1 x) = BitVec.ofNat 32 ((128 + 1 * x.val) / 6) := by decide +kernel
  have h144 : ∀ x : Fin 16, tile_body.sl.v278 (ix1 x) = BitVec.ofNat 32 ((144 + 1 * x.val) / 6) := by decide +kernel
  have h160 : ∀ x : Fin 16, tile_body.sl.v305 (ix1 x) = BitVec.ofNat 32 ((160 + 1 * x.val) / 6) := by decide +kernel
  have h176 : ∀ x : Fin 16, tile_body.sl.v332 (ix1 x) = BitVec.ofNat 32 ((176 + 1 * x.val) / 6) := by decide +kernel
  have h192 : ∀ x : Fin 16, tile_body.sl.v359 (ix1 x) = BitVec.ofNat 32 ((192 + 1 * x.val) / 6) := by decide +kernel
  have h208 : ∀ x : Fin 16, tile_body.sl.v386 (ix1 x) = BitVec.ofNat 32 ((208 + 1 * x.val) / 6) := by decide +kernel
  have h224 : ∀ x : Fin 16, tile_body.sl.v413 (ix1 x) = BitVec.ofNat 32 ((224 + 1 * x.val) / 6) := by decide +kernel
  have h240 : ∀ x : Fin 16, tile_body.sl.v440 (ix1 x) = BitVec.ofNat 32 ((240 + 1 * x.val) / 6) := by decide +kernel
  have h256 : ∀ x : Fin 16, tile_body.sl.v467 (ix1 x) = BitVec.ofNat 32 ((256 + 1 * x.val) / 6) := by decide +kernel
  have h272 : ∀ x : Fin 16, tile_body.sl.v494 (ix1 x) = BitVec.ofNat 32 ((272 + 1 * x.val) / 6) := by decide +kernel
  have h288 : ∀ x : Fin 16, tile_body.sl.v521 (ix1 x) = BitVec.ofNat 32 ((288 + 1 * x.val) / 6) := by decide +kernel
  have h304 : ∀ x : Fin 16, tile_body.sl.v548 (ix1 x) = BitVec.ofNat 32 ((304 + 1 * x.val) / 6) := by decide +kernel
  have h320 : ∀ x : Fin 16, tile_body.sl.v575 (ix1 x) = BitVec.ofNat 32 ((320 + 1 * x.val) / 6) := by decide +kernel
  have h336 : ∀ x : Fin 16, tile_body.sl.v602 (ix1 x) = BitVec.ofNat 32 ((336 + 1 * x.val) / 6) := by decide +kernel
  have h352 : ∀ x : Fin 16, tile_body.sl.v629 (ix1 x) = BitVec.ofNat 32 ((352 + 1 * x.val) / 6) := by decide +kernel
  have h368 : ∀ x : Fin 16, (k0_pay1 (addi tile_body.sl.v5 tile_body.sl.v631) (6#32) tile_body.sl.v634 (subi tile_body.sl.v637 tile_body.sl.v640) 1#32 0#32) (ix1 x) = BitVec.ofNat 32 ((368 + 1 * x.val) / 6) := by decide +kernel
  -- every piece agrees with position / 6; the pieces tile the 384 positions; so the table is position / 6 throughout
  have hG : ∀ p ∈ (tile_body.sl.H3'_24 (F := F)), ∀ x : p.1.shape.Idx, p.2 x = tabG (p.1.emb x) := by
    unfold tile_body.sl.H3'_24
    exact List.forall_mem_cons.mpr ⟨piece_ok 368 inb_S384_S16_368 _ h368, List.forall_mem_cons.mpr ⟨piece_ok 352 inb_S384_S16_352 _ h352, List.forall_mem_cons.mpr ⟨piece_ok 336 inb_S384_S16_336 _ h336, List.forall_mem_cons.mpr ⟨piece_ok 320 inb_S384_S16_320 _ h320, List.forall_mem_cons.mpr ⟨piece_ok 304 inb_S384_S16_304 _ h304, List.forall_mem_cons.mpr ⟨piece_ok 288 inb_S384_S16_288 _ h288, List.forall_mem_cons.mpr ⟨piece_ok 272 inb_S384_S16_272 _ h272, List.forall_mem_cons.mpr ⟨piece_ok 256 inb_S384_S16_256 _ h256, List.forall_mem_cons.mpr ⟨piece_ok 240 inb_S384_S16_240 _ h240, List.forall_mem_cons.mpr ⟨piece_ok 224 inb_S384_S16_224 _ h224, List.forall_mem_cons.mpr ⟨piece_ok 208 inb_S384_S16_208 _ h208, List.forall_mem_cons.mpr ⟨piece_ok 192 inb_S384_S16_192 _ h192, List.forall_mem_cons.mpr ⟨piece_ok 176 inb_S384_S16_176 _ h176, List.forall_mem_cons.mpr ⟨piece_ok 160 inb_S384_S16_160 _ h160, List.forall_mem_cons.mpr ⟨piece_ok 144 inb_S384_S16_144 _ h144, List.forall_mem_cons.mpr ⟨piece_ok 128 inb_S384_S16_128 _ h128, List.forall_mem_cons.mpr ⟨piece_ok 112 inb_S384_S16_112 _ h112, List.forall_mem_cons.mpr ⟨piece_ok 96 inb_S384_S16_96 _ h96, List.forall_mem_cons.mpr ⟨piece_ok 80 inb_S384_S16_80 _ h80, List.forall_mem_cons.mpr ⟨piece_ok 64 inb_S384_S16_64 _ h64, List.forall_mem_cons.mpr ⟨piece_ok 48 inb_S384_S16_48 _ h48, List.forall_mem_cons.mpr ⟨piece_ok 32 inb_S384_S16_32 _ h32, List.forall_mem_cons.mpr ⟨piece_ok 16 inb_S384_S16_16 _ h16, List.forall_mem_cons.mpr ⟨piece_ok 0 inb_S384_S16_0 _ h0, fun _ h => absurd h List.not_mem_nil⟩⟩⟩⟩⟩⟩⟩⟩⟩⟩⟩⟩⟩⟩⟩⟩⟩⟩⟩⟩⟩⟩⟩⟩
  have hcov : ∀ y : S384.Idx, ∃ p ∈ (tile_body.sl.H3'_24 (F := F)), y ∈ p.1.set := View.cover_of_tiled _ S16.size rfl
  have hA : ∀ p : Fin 384, ((sA : Memref sig .scVector .vmem S384 .i32).view.writes (Elt F) (sA : Memref sig .scVector .vmem S384 .i32).view.junk tile_body.sl.H3'_24 : IVec S384 32) (ix1 p) = BitVec.ofNat 32 (p.val / 6) := fun p =>
    by have h := View.read_writes_apply_of_pieces (sA : Memref sig .scVector .vmem S384 .i32).view (sA : Memref sig .scVector .vmem S384 .i32).view.junk tabG (tile_body.sl.H3'_24 (F := F)) hG (ix1 p) (hcov _); exact h
  -- the two fetches landed the block's rows of the whole arrays
  have he0 : View.write (Elt F) (sE : Memref sig .scVector .vmem S64x384 .i32).view f0 (tile_body.sl.dma0 E1 d L) Finset.univ = eFet E1 d L :=
    (View.write_whole_univ _ _ _).trans (funext fun i => (View.read_apply _ _).trans (cast_eq _ _))
  have he1 : View.write (Elt F) (sR : Memref sig .scVector .vmem S64x128 .i32).view f1 (tile_body.sl.dma0_1 R2 d L) Finset.univ = rFet R2 d L :=
    (View.write_whole_univ _ _ _).trans (funext fun i => (View.read_apply _ _).trans (cast_eq _ _))
  ihave H0'' := (Entails.of_eq (congrArg (fun g => ((sE : Memref sig .scVector .vmem S64x384 .i32).view.loc (thr d L) ↦{fullShare} g : sProp 𝕄)) he0)) $$ H0'
  ihave H1'' := (Entails.of_eq (congrArg (fun g => ((sR : Memref sig .scVector .vmem S64x128 .i32).view.loc (thr d L) ↦{fullShare} g : sProp 𝕄)) he1)) $$ H1'
  -- the loop over the tile's 64 molecules, at the invariant
  sl_for (inv (F := F) d L (eFet E1 d L) (rFet R2 d L) ((sA : Memref sig .scVector .vmem S384 .i32).view.writes (Elt F) (sA : Memref sig .scVector .vmem S384 .i32).view.junk tile_body.sl.H3'_24)) $$ [H0'' H1'' H3' H2' H4' H5' H6']
  case region =>
    intro k acc
    exact trip d L _ _ _ (eFet_lt E1 d L hE) (rFet_lt R2 d L hR) hA _ _ _ hv7 hv8 hv9 k
  · unfold inv
    isplitl [H0'']; · iexact H0''
    isplitl [H1'']; · iexact H1''
    isplitl [H3']; · iexact H3'
    isplitl [H2']
    · iexists f2; isplitr
      · ipureintro; intro b hb; exact absurd hb (Nat.not_lt_zero _)
      · iexact H2'
    isplitl [H4']; · iexists _; iexact H4'
    isplitl [H5']; · iexists _; iexact H5'
    iexists _; iexact H6'
  iintro %acc HI
  unfold inv
  icases HI with ⟨H0, H1, H3, ⟨%fo', %hfo, H2⟩, ⟨%g4, H4⟩, ⟨%g5, H5⟩, ⟨%g6, H6⟩⟩
  sl_exec
  -- after 64 trips every row of the result scratch is the specification of the fetched rows; copied out over the tile's
  -- rows it agrees there with the specification of the whole arrays
  have htr : Scf.trips k0_t1_loop.lb k0_t1_loop.ub k0_t1_loop.st = 64 := by decide +kernel
  have hout := out_congr (F := F) E1 R2 d L fo (tile_body.sl.dma0_2 d L fo') (fun b p => hfo b (Nat.lt_of_lt_of_eq b.isLt htr.symm) p)
  sl_step
  unfold tilePost
  isplitl [He' Hr' Ho']
  · isplitl [He']; · iapply (Entails.of_eq (pts_eBlk (F := F) d L _)); iexact He'
    isplitl [Hr']; · iapply (Entails.of_eq (pts_rBlk (F := F) d L _)); iexact Hr'
    iapply (Entails.of_eq ((pointsTo_congr hout).trans (pts_oBlk (F := F) d L _))); iexact Ho'
  isplitl [H0 H1 H2 H3 H4 H5 H6 Hbufs]
  · isplitl [H0]; · iexists _; iapply (Entails.of_eq (pts_sE (F := F) d L _)); iexact H0
    isplitl [H1]; · iexists _; iapply (Entails.of_eq (pts_sR (F := F) d L _)); iexact H1
    isplitl [H2]; · iexists _; iapply (Entails.of_eq (pts_sO (F := F) d L _)); iexact H2
    isplitl [H3]; · iexists _; iapply (Entails.of_eq (pts_sA (F := F) d L _)); iexact H3
    isplitl [H4]; · iexists _; iapply (Entails.of_eq (pts_sB (F := F) d L _)); iexact H4
    isplitl [H5]; · iexists _; iapply (Entails.of_eq (pts_sTa (F := F) d L _)); iexact H5
    isplitl [H6]; · iexists _; iapply (Entails.of_eq (pts_sTb (F := F) d L _)); iexact H6
    iexact Hbufs
  isplitl [Hsem7 Hsem0 Hsem1 Hsems]
  · isplitl [Hsem7]; · iexact Hsem7
    isplitl [Hsem0]; · iexact Hsem0
    isplitl [Hsem1]; · iexact Hsem1
    iexact Hsems
  iexists (insert (SemLoc.dma cc0_scoped1.sem, (default : HIx 1)) (insert (SemLoc.dma cc0_scratch7.sem, (default : HIx 1)) (insert (SemLoc.dma cc0_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

end Cert.Proof.KB

end
-- ==== Proof.KB.Blocks.lean ====
/-
  The three whole arrays in device memory, cut into the thirty-two tiles' blocks of 64 rows. The blocks of one array
  are pairwise disjoint and together cover it, so owning the whole array is owning the thirty-two blocks side by
  side. The tiles are numbered `t = 16 c + i` by SparseCore `c` and vector subcore `i`; this numbering is a bijection
  between pairs `(c, i)` and tiles, so a product over the tiles is the product over `c` of the products over `i`.
-/
import proofs.«207480_g64682207477991_cont_9to1c4b_704_25_alg».proof.Proof.KB.Setup

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's rows are its block -/

omit [FloatOps F] in
theorem eSet_eq (t : Fin 32) : eSet t = (blkE t).set := by
  show ((View.whole (main_v1_scv : Ref sig .scVector)).slice (blkE t)).set = _
  rw [View.set_slice]; exact Finset.map_refl
omit [FloatOps F] in
theorem rSet_eq (t : Fin 32) : rSet t = (blkR t).set := by
  show ((View.whole (main_v2_scv : Ref sig .scVector)).slice (blkR t)).set = _
  rw [View.set_slice]; exact Finset.map_refl
omit [FloatOps F] in
theorem oSet_eq (t : Fin 32) : oSet t = (blkE t).set := by
  show ((View.whole (main_v3_scv : Ref sig .scVector)).slice (blkE t)).set = _
  rw [View.set_slice]; exact Finset.map_refl

/-! ## The blocks are disjoint and cover the array -/

omit [FloatOps F] in
theorem eSet_disjoint : ∀ i ∈ (Finset.univ : Finset (Fin 32)), ∀ j ∈ (Finset.univ : Finset (Fin 32)), i ≠ j → Disjoint (eSet i) (eSet j) :=
  fun i _ j _ h => by rw [eSet_eq, eSet_eq]; exact Rect.part_disjoint hdivE h
omit [FloatOps F] in
theorem rSet_disjoint : ∀ i ∈ (Finset.univ : Finset (Fin 32)), ∀ j ∈ (Finset.univ : Finset (Fin 32)), i ≠ j → Disjoint (rSet i) (rSet j) :=
  fun i _ j _ h => by rw [rSet_eq, rSet_eq]; exact Rect.part_disjoint hdivR h
omit [FloatOps F] in
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivE h

omit [FloatOps F] in
theorem eSet_cover : (Finset.univ : Finset (Fin 32)).biUnion eSet = Finset.univ :=
  (Finset.biUnion_congr rfl fun i _ => eSet_eq i).trans (Rect.biUnion_part hdivE)
omit [FloatOps F] in
theorem rSet_cover : (Finset.univ : Finset (Fin 32)).biUnion rSet = Finset.univ :=
  (Finset.biUnion_congr rfl fun i _ => rSet_eq i).trans (Rect.biUnion_part hdivR)
omit [FloatOps F] in
theorem oSet_cover : (Finset.univ : Finset (Fin 32)).biUnion oSet = Finset.univ :=
  (Finset.biUnion_congr rfl fun i _ => oSet_eq i).trans (Rect.biUnion_part hdivE)

/-! ## Owning an array is owning its thirty-two blocks -/

omit [FloatOps F] in
theorem ePts_blocks (d : Dev nD) (f : Buf (Elt F) (eLoc d)) :
    (eLoc d ↦{fullShare} f : sProp 𝕄) = bigSep (Finset.univ : Finset (Fin 32)) fun t => eLoc d ↦[eSet t]{fullShare} f := by
  rw [← pointsTo_biUnion Finset.univ (ℓ := eLoc d) eSet eSet_disjoint, eSet_cover]; try rfl
omit [FloatOps F] in
theorem rPts_blocks (d : Dev nD) (f : Buf (Elt F) (rLoc d)) :
    (rLoc d ↦{fullShare} f : sProp 𝕄) = bigSep (Finset.univ : Finset (Fin 32)) fun t => rLoc d ↦[rSet t]{fullShare} f := by
  rw [← pointsTo_biUnion Finset.univ (ℓ := rLoc d) rSet rSet_disjoint, rSet_cover]; try rfl
omit [FloatOps F] in
theorem oPts_blocks (d : Dev nD) (f : Buf (Elt F) (oLoc d)) :
    (oLoc d ↦{fullShare} f : sProp 𝕄) = bigSep (Finset.univ : Finset (Fin 32)) fun t => oLoc d ↦[oSet t]{fullShare} f := by
  rw [← pointsTo_biUnion Finset.univ (ℓ := oLoc d) oSet oSet_disjoint, oSet_cover]; try rfl

/-! ## Thirty-two tiles are two SparseCores of sixteen -/

/-- The numbering `(c, i) ↦ 16 c + i` of the tiles. -/
def tileEquiv : Fin 2 × Fin 16 ≃ Fin 32 where
  toFun p := tileOf p.1 p.2
  invFun t := (⟨t.val / 16, by omega⟩, ⟨t.val % 16, by omega⟩)
  left_inv p := by
    obtain ⟨c, i⟩ := p
    refine Prod.ext (Fin.ext ?_) (Fin.ext ?_)
    · show (16 * c.val + i.val) / 16 = c.val
      omega
    · show (16 * c.val + i.val) % 16 = i.val
      omega
  right_inv t := by
    refine Fin.ext ?_
    show 16 * (t.val / 16) + t.val % 16 = t.val
    omega

omit [FloatOps F] in
theorem bigSep_tiles (Φ : Fin 32 → sProp 𝕄) :
    bigSep (Finset.univ : Finset (Fin 32)) Φ
      = bigSep (Finset.univ : Finset (Fin 2)) fun c => bigSep (Finset.univ : Finset (Fin 16)) fun i => Φ (tileOf c i) := by
  rw [bigSep_univ_equiv tileEquiv Φ, bigSep_univ_prod]
  rfl

end Cert.Proof.KB

end
-- ==== Proof.KB.Launch.lean ====
/-
  The whole program, from a tile's task to the run of all thirty-five threads of a device. @main converts the
  neighbour array to integers and flattens it and the ring array to rows; the call hands each of the two SparseCores
  the sixteen blocks of 64 rows of its tiles, every tile turns its block of the two inputs into its block of the
  result, and the blocks come back; @main then reshapes the result. Every block of the result is stated at the one
  whole-array specification, so the thirty-two blocks join to the whole result at that specification. The two
  arguments are never written.
-/
import proofs.«207480_g64682207477991_cont_9to1c4b_704_25_alg».proof.Proof.KB.Tile
import proofs.«207480_g64682207477991_cont_9to1c4b_704_25_alg».proof.Proof.KB.Blocks

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The tiles' obligation -/

section Obligations

variable (E1 : Dev nD → IVec S2048x384 32) (R2 : Dev nD → IVec S2048x128 32)

theorem defs₀_vector (c : Fin τ.nSC) (s : Fin τ.nSub) :
    defs₀ (F := F) (.scVector c s) 0 ()
      = SparseCore.onTile hcore0 hsub0 (fun c s => cc0__find_ring_bonds_body (coordsV c s)
          eV (Memref.isWhole_whole _) rV (Memref.isWhole_whole _) oV (Memref.isWhole_whole _)
          sE (Memref.isWhole_whole _) sR (Memref.isWhole_whole _) sO (Memref.isWhole_whole _) sA (Memref.isWhole_whole _)
          sB (Memref.isWhole_whole _) sTa (Memref.isWhole_whole _) sTb (Memref.isWhole_whole _) cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the grid runs the tile's task on its own block. -/
theorem tileObl (hF : (K (F := F)).Facts) (hE : ∀ d i, (E1 d i).toNat < 64) (hR : ∀ d i, (R2 d i).toNat < 64) :
    (K (F := F)).TileObl (D (F := F)) 𝒱 (P E1 R2) v₀ 0 := by
  intro d c i O W hO _ _
  simp only [show (P (F := F) E1 R2).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body E1 R2 d (coordsV ⟨_, hc.1⟩ ⟨_, hc.2⟩) hF (hE d) (hR d) O W hO).trans (wp_mono frame _ _ fun _ => obl_post)

/-! ## A SparseCore's share is its sixteen tiles' shares -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P E1 R2) 0 := by
  intro d c
  show (bigSep (Finset.univ : Finset (Fin 16)) fun i => tilePre (F := F) E1 R2 d (tileOf (Fin.cast nCore_zero c) i)) ⊢ |={Set.univ}=> iprop(
      (bigSep Finset.univ fun i : Fin ((K (F := F)).nSub 0) => tilePre (F := F) E1 R2 d (tileOf (Fin.cast nCore_zero c) (Fin.cast nSub_zero i)))
      ∗ ((bigSep Finset.univ fun i : Fin ((K (F := F)).nSub 0) => tilePost (F := F) E1 R2 d (tileOf (Fin.cast nCore_zero c) (Fin.cast nSub_zero i)))
          -∗ bigSep (Finset.univ : Finset (Fin 16)) fun i => tilePost (F := F) E1 R2 d (tileOf (Fin.cast nCore_zero c) i)))
  rw [bigSep_tasks (F := F) (fun i => tilePre (F := F) E1 R2 d (tileOf (Fin.cast nCore_zero c) i)),
    bigSep_tasks (F := F) (fun i => tilePost (F := F) E1 R2 d (tileOf (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F) E1 R2).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Obligations

/-! ## @main on the TensorCore -/

section Main

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v4Loc (d : Dev nD) : Loc nD τ sig := (SparseCore.T d).loc main_v4

/-- The flattened neighbour array as the call receives it: the first argument converted to integers, then each
    molecule's 64 x 6 slots laid out as one row of 384. -/
def E1of (d : Dev nD) : IVec S2048x384 32 :=
  shapeCast S2048x384 (fptosi 32 (m (a0Loc d)) : IVec S2048x64x6 32) shapeCasts_S2048x64x6_S2048x384
/-- The flattened ring array as the call receives it: each molecule's 16 x 8 members laid out as one row of 128. -/
def R2of (d : Dev nD) : IVec S2048x128 32 :=
  shapeCast S2048x128 (m (a1Loc d) : IVec S2048x16x8 32) shapeCasts_S2048x16x8_S2048x128

/-- The result @main returns: the specification over rows, reshaped to four axes. -/
def outOf (d : Dev nD) : FVec F S2048x64x6x1 .f32 :=
  shapeCast S2048x64x6x1 (Cert.Proof.Spec.bonds2 (F := F) (E1of m d) (R2of m d)) shapeCasts_S2048x384_S2048x64x6x1

/-- What @main leaves the claim: the two arguments at their launch contents, the result at the specification. -/
abbrev FIN (d : Dev nD) : sProp 𝕄 :=
  iprop((a0Loc d ↦{fullShare} m (a0Loc d)) ∗ (a1Loc d ↦{fullShare} m (a1Loc d)) ∗ (v4Loc d ↦{fullShare} outOf m d))

/-! ### The seven arrays and the four host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S7 : Finset (DevRef τ sig) := {a0', a1', v0', v1', v2', v3', v4'}

abbrev opConv : HloOp τ sig (Elt F) :=
  StableHlo.unary main_arg0 main_v0 (fptosi 32 : (⟨S2048x64x6, .f32⟩ : BufTy).Contents (Elt F) → (⟨S2048x64x6, .i32⟩ : BufTy).Contents (Elt F))
abbrev opFlatE : HloOp τ sig (Elt F) := StableHlo.reshape main_v0 main_v1 rfl shapeCasts_S2048x64x6_S2048x384
abbrev opFlatR : HloOp τ sig (Elt F) := StableHlo.reshape main_arg1 main_v2 rfl shapeCasts_S2048x16x8_S2048x128
abbrev opOut : HloOp τ sig (Elt F) := StableHlo.reshape main_v3 main_v4 rfl shapeCasts_S2048x384_S2048x64x6x1

omit [FloatOps F] in
theorem held_S7 (d : Dev nD) (W : Valuation τ sig (Elt F)) :
    (held (T d) S7 W : sProp 𝕄) = iprop((a0Loc d ↦{fullShare} W a0') ∗ (a1Loc d ↦{fullShare} W a1') ∗ (v0Loc d ↦{fullShare} W v0')
      ∗ (eLoc d ↦{fullShare} W v1') ∗ (rLoc d ↦{fullShare} W v2') ∗ (oLoc d ↦{fullShare} W v3') ∗ (v4Loc d ↦{fullShare} W v4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (eLoc d ↦{fullShare} W main_v1) ∗ (rLoc d ↦{fullShare} W main_v2) ∗ (oLoc d ↦{fullShare} W main_v3) ∗ (v4Loc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuation after the three operations before the call. -/
def V0 (d : Dev nD) : Valuation τ sig (Elt F) := fun b => m (d, b)
def V3 (d : Dev nD) : Valuation τ sig (Elt F) := (opFlatR (F := F)).result ((opFlatE (F := F)).result ((opConv (F := F)).result (V0 m d)))

theorem unscoped_held (d : Dev nD) : (unscopedBufs d (fun b => m ((SparseCore.T d).loc b)) : sProp 𝕄) = held (T d) S7 (V0 m d) := by
  rw [unscopedBufs_eq, held_S7]; rfl

theorem V3_a0 (d : Dev nD) : V3 m d a0' = m (a0Loc d) := by
  unfold V3
  rw [StableHlo.reshape_result_ne _ _ _ _ _ _ _ (show main_arg0 ≠ main_v2 by decide),
    StableHlo.reshape_result_ne _ _ _ _ _ _ _ (show main_arg0 ≠ main_v1 by decide),
    StableHlo.unary_result_ne _ _ _ _ _ _ (show main_arg0 ≠ main_v0 by decide)]
  rfl
theorem V3_a1 (d : Dev nD) : V3 m d a1' = m (a1Loc d) := by
  unfold V3
  rw [StableHlo.reshape_result_ne _ _ _ _ _ _ _ (show main_arg1 ≠ main_v2 by decide),
    StableHlo.reshape_result_ne _ _ _ _ _ _ _ (show main_arg1 ≠ main_v1 by decide),
    StableHlo.unary_result_ne _ _ _ _ _ _ (show main_arg1 ≠ main_v0 by decide)]
  rfl
theorem V3_v3 (d : Dev nD) : V3 m d v3' = m (oLoc d) := by
  unfold V3
  rw [StableHlo.reshape_result_ne _ _ _ _ _ _ _ (show main_v3 ≠ main_v2 by decide),
    StableHlo.reshape_result_ne _ _ _ _ _ _ _ (show main_v3 ≠ main_v1 by decide),
    StableHlo.unary_result_ne _ _ _ _ _ _ (show main_v3 ≠ main_v0 by decide)]
  rfl
theorem V3_v4 (d : Dev nD) : V3 m d v4' = m (v4Loc d) := by
  unfold V3
  rw [StableHlo.reshape_result_ne _ _ _ _ _ _ _ (show main_v4 ≠ main_v2 by decide),
    StableHlo.reshape_result_ne _ _ _ _ _ _ _ (show main_v4 ≠ main_v1 by decide),
    StableHlo.unary_result_ne _ _ _ _ _ _ (show main_v4 ≠ main_v0 by decide)]
  rfl
theorem V3_v1 (d : Dev nD) : V3 m d v1' = E1of m d := by
  unfold V3
  rw [StableHlo.reshape_result_ne _ _ _ _ _ _ _ (show main_v1 ≠ main_v2 by decide), StableHlo.reshape_result, StableHlo.unary_result]
  rfl
theorem V3_v2 (d : Dev nD) : V3 m d v2' = R2of m d := by
  unfold V3
  rw [StableHlo.reshape_result,
    StableHlo.reshape_result_ne _ _ _ _ _ _ _ (show main_arg1 ≠ main_v1 by decide),
    StableHlo.unary_result_ne _ _ _ _ _ _ (show main_arg1 ≠ main_v0 by decide)]
  rfl

theorem hConv : (opConv (F := F)).bufs ⊆ S7 := show ({a0', v0'} : Finset (DevRef τ sig)) ⊆ S7 by decide
theorem hFlatE : (opFlatE (F := F)).bufs ⊆ S7 := show ({v0', v1'} : Finset (DevRef τ sig)) ⊆ S7 by decide
theorem hFlatR : (opFlatR (F := F)).bufs ⊆ S7 := show ({a1', v2'} : Finset (DevRef τ sig)) ⊆ S7 by decide

/-- The result array before the last reshape, for that operation's valuation. -/
abbrev S2 : Finset (DevRef τ sig) := {v3', v4'}
def V4 (d : Dev nD) : Valuation τ sig (Elt F) :=
  Function.update (V0 m d) v3' (Cert.Proof.Spec.bonds2 (F := F) (E1of m d) (R2of m d) : Buf (Elt F) (oLoc d))

theorem V4_v3 (d : Dev nD) : V4 m d v3' = Cert.Proof.Spec.bonds2 (F := F) (E1of m d) (R2of m d) := Function.update_self _ _ _
theorem V4_v4 (d : Dev nD) : V4 m d v4' = m (v4Loc d) := Function.update_of_ne (show v4' ≠ v3' by decide) _ _

theorem hOut : (opOut (F := F)).bufs ⊆ S2 := show ({v3', v4'} : Finset (DevRef τ sig)) ⊆ S2 by decide

omit [FloatOps F] in
theorem held_S2 (d : Dev nD) (W : Valuation τ sig (Elt F)) :
    (held (T d) S2 W : sProp 𝕄) = iprop((oLoc d ↦{fullShare} W v3') ∗ (v4Loc d ↦{fullShare} W v4')) := by
  unfold held S2
  rw [SparseCore.bigSep_insert' (by decide), bigSep_singleton]

theorem held_V3 (d : Dev nD) :
    (held (T d) S7 (V3 m d) : sProp 𝕄) = iprop((a0Loc d ↦{fullShare} m (a0Loc d)) ∗ (a1Loc d ↦{fullShare} m (a1Loc d)) ∗ (v0Loc d ↦{fullShare} V3 m d v0')
      ∗ (eLoc d ↦{fullShare} E1of m d) ∗ (rLoc d ↦{fullShare} R2of m d) ∗ (oLoc d ↦{fullShare} m (oLoc d)) ∗ (v4Loc d ↦{fullShare} m (v4Loc d))) := by
  rw [held_S7, V3_a0, V3_a1, V3_v1, V3_v2, V3_v3, V3_v4]

theorem held_out (d : Dev nD) :
    (held (T d) S2 ((opOut (F := F)).result (V4 m d)) : sProp 𝕄)
      = iprop((oLoc d ↦{fullShare} Cert.Proof.Spec.bonds2 (F := F) (E1of m d) (R2of m d)) ∗ (v4Loc d ↦{fullShare} outOf m d)) := by
  rw [held_S2, StableHlo.reshape_result, StableHlo.reshape_result_ne _ _ _ _ _ _ _ (show main_v3 ≠ main_v4 by decide), V4_v3]
  rfl

/-! ### The call's shares and the whole arrays -/

section Whole

variable (E1 : Dev nD → IVec S2048x384 32) (R2 : Dev nD → IVec S2048x128 32)

theorem st0_tiles (d : Dev nD) :
    (bigSep Finset.univ fun c : Fin ((K (F := F)).nCore 0) => (P (F := F) E1 R2).st 0 d c : sProp 𝕄)
      = bigSep (Finset.univ : Finset (Fin 32)) fun t => tilePre (F := F) E1 R2 d t := by
  rw [bigSep_tiles]; rfl
theorem dn0_tiles (d : Dev nD) :
    (bigSep Finset.univ fun c : Fin ((K (F := F)).nCore 0) => (P (F := F) E1 R2).dn 0 d c : sProp 𝕄)
      = bigSep (Finset.univ : Finset (Fin 32)) fun t => tilePost (F := F) E1 R2 d t := by
  rw [bigSep_tiles]; rfl

/-- The two SparseCores' shares before the call, from the three arrays whole. -/
theorem st0_intro (d : Dev nD) (f : Buf (Elt F) (oLoc d)) :
    iprop((eLoc d ↦{fullShare} E1 d) ∗ (rLoc d ↦{fullShare} R2 d) ∗ (oLoc d ↦{fullShare} f))
      ⊢ (bigSep Finset.univ fun c : Fin ((K (F := F)).nCore 0) => (P (F := F) E1 R2).st 0 d c : sProp 𝕄) := by
  rw [st0_tiles]
  unfold tilePre
  rw [bigSep_sep', bigSep_sep', ← ePts_blocks, ← rPts_blocks, oPts_blocks]
  have h : ∀ t : Fin 32, (oLoc d ↦[oSet t]{fullShare} f : sProp 𝕄) ⊢ iprop(∃ f, oLoc d ↦[oSet t]{fullShare} f) := fun t => by
    iintro H; iexists f; iexact H
  exact sep_mono_right (sep_mono_right (bigSep_mono fun t _ => h t))

/-- The two SparseCores' shares after the call are the three arrays whole, the result at the specification. -/
theorem dn0_eq (d : Dev nD) :
    (bigSep Finset.univ fun c : Fin ((K (F := F)).nCore 0) => (P (F := F) E1 R2).dn 0 d c : sProp 𝕄)
      = iprop((eLoc d ↦{fullShare} E1 d) ∗ (rLoc d ↦{fullShare} R2 d) ∗ (oLoc d ↦{fullShare} Cert.Proof.Spec.bonds2 (F := F) (E1 d) (R2 d))) := by
  rw [dn0_tiles]
  unfold tilePost
  rw [bigSep_sep', bigSep_sep', ← ePts_blocks, ← rPts_blocks, ← oPts_blocks]

end Whole

/-- @main on device `d`'s TensorCore: the conversion and the two flattenings, the call over the thirty-two blocks, the last
    reshape; the two arguments and the reshaped result kept. -/
theorem hmain (κ : GSem nD τ sig → ℕ) (d : Dev nD) :
    iprop((K (F := F)).ctx EH (P (E1of m) (R2of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the conversion to integers and the two flattenings, over the seven arrays
  iapply (wp_hlo_within 𝒱 (SparseCore.T d) none Set.univ (op := opConv) (S := S7) hConv (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opFlatE) (S := S7) hFlatE (V := (opConv (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opFlatR) (S := S7) hFlatR
    (V := (opFlatE (F := F)).result ((opConv (F := F)).result (V0 m d)))) $$ [Hb Hheld]
  · isplitl [Hb]; · iexact Hb
    iexact Hheld
  iintro ⟨Hb, Hheld⟩
  rw [wp_ret]; imodintro
  have e3 : (held (SparseCore.T d) S7 ((opFlatR (F := F)).result ((opFlatE (F := F)).result ((opConv (F := F)).result (V0 m d)))) : sProp 𝕄) = _ :=
    held_V3 m d
  ihave Hh := (Entails.of_eq e3) $$ Hheld
  icases Hh with ⟨H0, H1, -, He, Hr, Ho, H4⟩
  -- the call: the three flattened arrays, cut into the tiles' blocks, to the two SparseCores and back
  iapply ((K (F := F)).wp_run (D (F := F)) 𝒱 (EH := EH) (P := P (E1of m) (R2of m)) κ d 0) $$ [Hst He Hr Ho Hb H0 H1 H4]
  isplitr; · iexact Hctx
  isplitl [Hst]; · iexact Hst
  isplitl [He Hr Ho]
  · iapply (st0_intro (E1of m) (R2of m) d (m (oLoc d)))
    isplitl [He]; · iexact He
    isplitl [Hr]; · iexact Hr
    iexact Ho
  iintro ⟨Hst, Hdn⟩
  ihave Hdn' := (Entails.of_eq (dn0_eq (E1of m) (R2of m) d)) $$ Hdn
  icases Hdn' with ⟨-, -, Ho⟩
  -- the last reshape, over the result and its four-axis copy
  iapply (wp_hlo_within 𝒱 (SparseCore.T d) none Set.univ (op := opOut) (S := S2) hOut (V := V4 m d)) $$ [Hb Ho H4]
  · isplitl [Hb]; · iexact Hb
    rw [held_S2, V4_v3, V4_v4]
    isplitl [Ho]; · iexact Ho
    iexact H4
  iintro ⟨Hb, Hheld⟩
  ihave Hh := (Entails.of_eq (held_out m d)) $$ Hheld
  icases Hh with ⟨-, H4⟩
  rw [wp_ret]; imodintro; imodintro
  isplitl [Hst]; · iexact Hst
  isplitl [H0]; · iexact H0
  isplitl [H1]; · iexact H1
  iexact H4

def fq (d : Dev nD) (s' : Phys nD τ sig (Elt F)) : Prop :=
  s'.mem.mem (v4Loc d) = outOf m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v4Loc d) (I := Finset.univ) (q := fullShare) (f := outOf m d)) $$ [HSI H4]
  · isplitl [HSI] <;> iassumption
  icases H with %h4
  ipureintro
  exact ⟨funext fun i => h4 i (Finset.mem_univ i), funext fun i => h0 i (Finset.mem_univ i), funext fun i => h1 i (Finset.mem_univ i)⟩

/-! ## The program's run -/

theorem run_main [∀ e, Nonempty (Elt F e)] (m : (ℓ : Loc nD τ sig) → Buf (Elt F) ℓ) (ρ : Dev nD → PrngReg)
    (hE : ∀ d i, (E1of m d i).toNat < 64) (hR : ∀ d i, (R2of m d i).toNat < 64) :
    θ_run (Cert.Kernel.defs (F := F)) (Cert.Kernel.threads (F := F)) ⟨m, fun _ => 0, ρ⟩ (fun r => ∀ c : Dev nD,
      r.2.mem ((c.tc : Thread nD τ).loc main_v4) = shapeCast S2048x64x6x1 (Cert.Proof.Spec.bonds2 (F := F) (E1of m c) (R2of m c)) shapeCasts_S2048x384_S2048x64x6x1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (E1of m) (R2of m)) facts v₀
    (fun q hq => match q with | 0 => nomatch hq)
    (fun q _ => match q with | 0 => tileObl (E1of m) (R2of m) facts hE hR)
    (fun q _ => match q with | 0 => SparseCore.Cfg.VecSplit.of_plain (vecSplit (E1of m) (R2of m)))
    m ρ main (fun _ => iprop(emp)) (FIN m) (u₀ (F := F)) (sep_elim_left.trans (hu₀ (E1of m) (R2of m))) (hmain m ρ) (fq m) (hfin m) _ (fun _ h => h)

end Main

end Cert.Proof.KB

end
-- ==== Proof.lean ====
/-
  The certificate's claim, assembled. For each molecule the kernel marks the neighbour slots that are ring bonds:
  slot (a, d) is one when some ring holds both atom a and its neighbour. On the SparseCore every tile builds, per
  molecule, a word per atom with one bit per ring (two tables of eight 4-bit member counts, folded to one bit each),
  and tests the neighbour's word against the atom's; the reference spells the same with an or over the members, a
  maximum over the rings and a scatter into zeros. Both are the function Spec.bonds of the converted neighbour array
  and the ring array.

  Frames: under the precondition every ring word and every converted neighbour word names an atom (is below 64), which
  is what the tiles' indexed loads and stores need; the kernel's run then ends with the arguments unchanged (and, at the
  ideal instance, the result at the specification). The reference's frame is its run with the result dropped.
  Preserves: the ideal pass rewrote nothing. Algebraic: the two runs' results are the one function, the kernel's
  through the row-major reshapes of its flattened rows.
-/
import proofs.«207480_g64682207477991_cont_9to1c4b_704_25_alg».proof.Defs
import proofs.«207480_g64682207477991_cont_9to1c4b_704_25_alg».proof.Proof.Gen.Kernel
import proofs.«207480_g64682207477991_cont_9to1c4b_704_25_alg».proof.Proof.Gen.Kernel.Skeleton
import proofs.«207480_g64682207477991_cont_9to1c4b_704_25_alg».proof.Proof.Gen.KernelIdeal
import proofs.«207480_g64682207477991_cont_9to1c4b_704_25_alg».proof.Proof.Gen.KernelIdeal.Skeleton
import proofs.«207480_g64682207477991_cont_9to1c4b_704_25_alg».proof.Proof.Gen.ReferenceIdeal
import proofs.«207480_g64682207477991_cont_9to1c4b_704_25_alg».proof.Proof.Gen.Pre_input_domain
import proofs.«207480_g64682207477991_cont_9to1c4b_704_25_alg».proof.Proof.RefFrame
import proofs.«207480_g64682207477991_cont_9to1c4b_704_25_alg».proof.Proof.RefValue
import proofs.«207480_g64682207477991_cont_9to1c4b_704_25_alg».proof.Proof.PreDecode
import proofs.«207480_g64682207477991_cont_9to1c4b_704_25_alg».proof.Proof.Reshape
import proofs.«207480_g64682207477991_cont_9to1c4b_704_25_alg».proof.Proof.ReshapeRange
import proofs.«207480_g64682207477991_cont_9to1c4b_704_25_alg».proof.Proof.KI.Launch
import proofs.«207480_g64682207477991_cont_9to1c4b_704_25_alg».proof.Proof.KB.Launch
import Idealize.ShloMosaic.Adequacy
import Idealize.ShloMosaic.Init

noncomputable section

namespace Cert.Proof

open Idealize.ShloMosaic Idealize.SL.Sem

/-- Under the precondition, at the ideal instance: every word of the flattened neighbour array and of the flattened
    ring array is below 64 (a reshape only moves entries). -/
theorem ki_hyps (m : (ℓ : Loc Cert.KernelIdeal.nD Cert.KernelIdeal.τ Cert.KernelIdeal.sig) → Buf (Elt Ideal) ℓ) (h : Cert.Pre_KernelIdeal m) :
    (∀ d i, (Cert.Proof.KI.E1of m d i).toNat < 64) ∧ (∀ d i, (Cert.Proof.KI.R2of m d i).toNat < 64) :=
  ⟨fun d => Cert.Proof.ReshapeRange.shapeCast_lt _ _ 64 (Cert.Proof.PreDecode.ranges _ _ (h d)).2,
   fun d => Cert.Proof.ReshapeRange.shapeCast_lt _ _ 64 (Cert.Proof.PreDecode.ranges _ _ (h d)).1⟩

/-- The same at the word-level instance. -/
theorem kb_hyps (m : (ℓ : Loc Cert.Kernel.nD Cert.Kernel.τ Cert.Kernel.sig) → Buf (Elt Bits) ℓ) (h : Cert.Pre_Kernel m) :
    (∀ d i, (Cert.Proof.KB.E1of m d i).toNat < 64) ∧ (∀ d i, (Cert.Proof.KB.R2of m d i).toNat < 64) :=
  ⟨fun d => Cert.Proof.ReshapeRange.shapeCast_lt _ _ 64 (Cert.Proof.PreDecode.ranges _ _ (h d)).2,
   fun d => Cert.Proof.ReshapeRange.shapeCast_lt _ _ 64 (Cert.Proof.PreDecode.ranges _ _ (h d)).1⟩

theorem frame_k : Cert.frame_Kernel := fun m g hpre =>
  (θ_run Cert.Kernel.defs _ _).mono (fun _ h c => (h c).2)
    (Cert.Proof.KB.run_main (F := Bits) m g (kb_hyps m hpre).1 (kb_hyps m hpre).2)

theorem frame_ki : Cert.frame_KernelIdeal := fun m g hpre =>
  (θ_run Cert.KernelIdeal.defs _ _).mono (fun _ h c => (h c).2)
    (Cert.Proof.KI.run_main (F := Ideal) m g (ki_hyps m hpre).1 (ki_hyps m hpre).2)

/-- The kernel's result, read back through its reshapes, and the reference's result are both `Spec.bonds` of the
    converted neighbour array and the ring array. -/
theorem algebraic : Cert.algebraic_KernelIdeal_ReferenceIdeal := by
  intro m g m' g' hpre hagree
  refine ⟨_, Cert.Proof.KI.run_main (F := Ideal) m g (ki_hyps m hpre).1 (ki_hyps m hpre).2, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v52_eq, (hagree c).1, (hagree c).2,
    Cert.Proof.RefValue.ref_value _ _ (Cert.Proof.PreDecode.ranges _ _ (hpre c)).2 (Cert.Proof.PreDecode.ranges _ _ (hpre c)).1]
  exact (Cert.Proof.Reshape.bonds_reshape _ _ _ _ _).symm

theorem claim : Cert.Claim :=
  ⟨Cert.Kernel.Gen.facts, Cert.KernelIdeal.Gen.facts, Cert.ReferenceIdeal.Gen.facts, Cert.Pre_input_domain.Gen.facts,
    frame_k, frame_ki, Cert.Proof.RefFrame.frame_ri, trivial, algebraic⟩

end Cert.Proof

end
